-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x3200000 : Shape := ⟨2, ![2, 3200000]⟩
abbrev S3200000x3 : Shape := ⟨2, ![3200000, 3]⟩
abbrev S11x4 : Shape := ⟨2, ![11, 4]⟩
abbrev S4 : Shape := ⟨1, ![4]⟩
abbrev S4x8 : Shape := ⟨2, ![4, 8]⟩
abbrev S8 : Shape := ⟨1, ![8]⟩
abbrev S19x8 : Shape := ⟨2, ![19, 8]⟩
abbrev S8x8 : Shape := ⟨2, ![8, 8]⟩
abbrev S19x4 : Shape := ⟨2, ![19, 4]⟩
abbrev S4x1 : Shape := ⟨2, ![4, 1]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S3200000x3 : S_.BroadcastsInDim S3200000x3 (![] : Fin 0 → Fin S3200000x3.rank)
  reducesTo_S3200000x3_S_d0_1 : S3200000x3.ReducesTo [0, 1] S_
  bcast_S_S11x4 : S_.BroadcastsInDim S11x4 (![] : Fin 0 → Fin S11x4.rank)
  reducesTo_S11x4_S_d0_1 : S11x4.ReducesTo [0, 1] S_
  bcast_S_S4 : S_.BroadcastsInDim S4 (![] : Fin 0 → Fin S4.rank)
  reducesTo_S4_S_d0 : S4.ReducesTo [0] S_
  bcast_S_S4x8 : S_.BroadcastsInDim S4x8 (![] : Fin 0 → Fin S4x8.rank)
  reducesTo_S4x8_S_d0_1 : S4x8.ReducesTo [0, 1] S_
  bcast_S_S8 : S_.BroadcastsInDim S8 (![] : Fin 0 → Fin S8.rank)
  reducesTo_S8_S_d0 : S8.ReducesTo [0] S_
  bcast_S_S19x8 : S_.BroadcastsInDim S19x8 (![] : Fin 0 → Fin S19x8.rank)
  reducesTo_S19x8_S_d0_1 : S19x8.ReducesTo [0, 1] S_
  bcast_S_S8x8 : S_.BroadcastsInDim S8x8 (![] : Fin 0 → Fin S8x8.rank)
  reducesTo_S8x8_S_d0_1 : S8x8.ReducesTo [0, 1] S_
  bcast_S_S19x4 : S_.BroadcastsInDim S19x4 (![] : Fin 0 → Fin S19x4.rank)
  reducesTo_S19x4_S_d0_1 : S19x4.ReducesTo [0, 1] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_
  bcast_S_S2x3200000 : S_.BroadcastsInDim S2x3200000 (![] : Fin 0 → Fin S2x3200000.rank)
  reducesTo_S2x3200000_S_d0_1 : S2x3200000.ReducesTo [0, 1] S_

variable [Facts]

def fn_part4 {F : FTy → Type} [FloatOps F] (main_arg1 : IVec S2x3200000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x3200000 32 := broadcastInDim S2x3200000 ![] bcast_S_S2x3200000 main_c_26
  let main_v70 : IVec S2x3200000 1 := cmpi .sge main_arg1 main_v69
  let main_c_27 : IVec S_ 1 := constantI S_ 1 1#1
  let main_v71 : IVec S_ 1 := (fun x v => Host.reduce IntOp.andi x v reducesTo_S2x3200000_S_d0_1 h_S_) main_v70 main_c_27
  let main_v72 : IVec S_ 1 := andi main_v68 main_v71
  let main_c_28 : IVec S_ 32 := constantI S_ 32 100000#32
  let main_v73 : IVec S2x3200000 32 := broadcastInDim S2x3200000 ![] bcast_S_S2x3200000 main_c_28
  let main_v74 : IVec S2x3200000 1 := cmpi .slt main_arg1 main_v73
  let main_c_29 : IVec S_ 1 := constantI S_ 1 1#1
  let main_v75 : IVec S_ 1 := (fun x v => Host.reduce IntOp.andi x v reducesTo_S2x3200000_S_d0_1 h_S_) main_v74 main_c_29
  let main_v76 : IVec S_ 1 := andi main_v72 main_v75
  main_v76

def fn_part3 {F : FTy → Type} [FloatOps F] (main_arg1 : IVec S2x3200000 32) (main_arg12 : FVec F S4 .f32) (main_arg13 : FVec F S4x1 .f32) (main_arg14 : FVec F S1 .f32) (main_v48 : IVec S_ 1) (main_v49 : FVec F S19x4 .f32) (main_v50 : FVec F S19x4 .f32) : IVec S_ 1 :=
  let main_v51 : IVec S19x4 1 := cmpf .olt main_v49 main_v50
  let main_c_19 : IVec S_ 1 := constantI S_ 1 1#1
  let main_v52 : IVec S_ 1 := (fun x v => Host.reduce IntOp.andi x v reducesTo_S19x4_S_d0_1 h_S_) main_v51 main_c_19
  let main_v53 : IVec S_ 1 := andi main_v48 main_v52
  let main_v54 : FVec F S4 .f32 := Host.absf main_arg12
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  let main_v59 : FVec F S4x1 .f32 := Host.absf main_arg13
  let main_cst_22 : FVec F S_ .f32 := constant S_ .f32 0x7F800000#32
  let main_v60 : FVec F S4x1 .f32 := broadcastInDim S4x1 ![] bcast_S_S4x1 main_cst_22
  let main_v61 : IVec S4x1 1 := cmpf .olt main_v59 main_v60
  let main_c_23 : IVec S_ 1 := constantI S_ 1 1#1
  let main_v62 : IVec S_ 1 := (fun x v => Host.reduce IntOp.andi x v reducesTo_S4x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg1 main_v63 main_v67

def fn_part2 {F : FTy → Type} [FloatOps F] (main_arg1 : IVec S2x3200000 32) (main_arg8 : FVec F S8 .f32) (main_arg9 : FVec F S8x8 .f32) (main_arg10 : FVec F S8 .f32) (main_arg11 : FVec F S19x4 .f32) (main_arg12 : FVec F S4 .f32) (main_arg13 : FVec F S4x1 .f32) (main_arg14 : FVec F S1 .f32) (main_v33 : IVec S_ 1) : IVec S_ 1 :=
  let main_v34 : FVec F S8 .f32 := Host.absf main_arg8
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8x8 .f32 := Host.absf main_arg9
  let main_cst_14 : FVec F S_ .f32 := constant S_ .f32 0x7F800000#32
  let main_v40 : FVec F S8x8 .f32 := broadcastInDim S8x8 ![] bcast_S_S8x8 main_cst_14
  let main_v41 : IVec S8x8 1 := cmpf .olt main_v39 main_v40
  let main_c_15 : IVec S_ 1 := constantI S_ 1 1#1
  let main_v42 : IVec S_ 1 := (fun x v => Host.reduce IntOp.andi x v reducesTo_S8x8_S_d0_1 h_S_) main_v41 main_c_15
  let main_v43 : IVec S_ 1 := andi main_v38 main_v42
  let main_v44 : FVec F S8 .f32 := Host.absf main_arg10
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  let main_v49 : FVec F S19x4 .f32 := Host.absf main_arg11
  let main_cst_18 : FVec F S_ .f32 := constant S_ .f32 0x7F800000#32
  let main_v50 : FVec F S19x4 .f32 := broadcastInDim S19x4 ![] bcast_S_S19x4 main_cst_18
  fn_part3 (F := F) main_arg1 main_arg12 main_arg13 main_arg14 main_v48 main_v49 main_v50

def fn_part1 {F : FTy → Type} [FloatOps F] (main_arg1 : IVec S2x3200000 32) (main_arg5 : FVec F S4x8 .f32) (main_arg6 : FVec F S8 .f32) (main_arg7 : FVec F S19x8 .f32) (main_arg8 : FVec F S8 .f32) (main_arg9 : FVec F S8x8 .f32) (main_arg10 : FVec F S8 .f32) (main_arg11 : FVec F S19x4 .f32) (main_arg12 : FVec F S4 .f32) (main_arg13 : FVec F S4x1 .f32) (main_arg14 : FVec F S1 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S4x8 .f32 := Host.absf main_arg5
  let main_cst_6 : FVec F S_ .f32 := constant S_ .f32 0x7F800000#32
  let main_v20 : FVec F S4x8 .f32 := broadcastInDim S4x8 ![] bcast_S_S4x8 main_cst_6
  let main_v21 : IVec S4x8 1 := cmpf .olt main_v19 main_v20
  let main_c_7 : IVec S_ 1 := constantI S_ 1 1#1
  let main_v22 : IVec S_ 1 := (fun x v => Host.reduce IntOp.andi x v reducesTo_S4x8_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S19x8 .f32 := Host.absf main_arg7
  let main_cst_10 : FVec F S_ .f32 := constant S_ .f32 0x7F800000#32
  let main_v30 : FVec F S19x8 .f32 := broadcastInDim S19x8 ![] bcast_S_S19x8 main_cst_10
  let main_v31 : IVec S19x8 1 := cmpf .olt main_v29 main_v30
  let main_c_11 : IVec S_ 1 := constantI S_ 1 1#1
  let main_v32 : IVec S_ 1 := (fun x v => Host.reduce IntOp.andi x v reducesTo_S19x8_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S100000x4 .f32) (main_arg1 : IVec S2x3200000 32) (main_arg2 : FVec F S3200000x3 .f32) (main_arg3 : FVec F S11x4 .f32) (main_arg4 : FVec F S4 .f32) (main_arg5 : FVec F S4x8 .f32) (main_arg6 : FVec F S8 .f32) (main_arg7 : FVec F S19x8 .f32) (main_arg8 : FVec F S8 .f32) (main_arg9 : FVec F S8x8 .f32) (main_arg10 : FVec F S8 .f32) (main_arg11 : FVec F S19x4 .f32) (main_arg12 : FVec F S4 .f32) (main_arg13 : FVec F S4x1 .f32) (main_arg14 : FVec F S1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S3200000x3 .f32 := Host.absf main_arg2
  let main_cst_0 : FVec F S_ .f32 := constant S_ .f32 0x7F800000#32
  let main_v5 : FVec F S3200000x3 .f32 := broadcastInDim S3200000x3 ![] bcast_S_S3200000x3 main_cst_0
  let main_v6 : IVec S3200000x3 1 := cmpf .olt main_v4 main_v5
  let main_c_1 : IVec S_ 1 := constantI S_ 1 1#1
  let main_v7 : IVec S_ 1 := (fun x v => Host.reduce IntOp.andi x v reducesTo_S3200000x3_S_d0_1 h_S_) main_v6 main_c_1
  let main_v8 : IVec S_ 1 := andi main_v3 main_v7
  let main_v9 : FVec F S11x4 .f32 := Host.absf main_arg3
  let main_cst_2 : FVec F S_ .f32 := constant S_ .f32 0x7F800000#32
  let main_v10 : FVec F S11x4 .f32 := broadcastInDim S11x4 ![] bcast_S_S11x4 main_cst_2
  let main_v11 : IVec S11x4 1 := cmpf .olt main_v9 main_v10
  let main_c_3 : IVec S_ 1 := constantI S_ 1 1#1
  let main_v12 : IVec S_ 1 := (fun x v => Host.reduce IntOp.andi x v reducesTo_S11x4_S_d0_1 h_S_) main_v11 main_c_3
  let main_v13 : IVec S_ 1 := andi main_v8 main_v12
  let main_v14 : FVec F S4 .f32 := Host.absf main_arg4
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S100000x4 : Shape := ⟨2, ![100000, 4]⟩
abbrev S2x3200000 : Shape := ⟨2, ![2, 3200000]⟩
abbrev S3200000x3 : Shape := ⟨2, ![3200000, 3]⟩
abbrev S11x4 : Shape := ⟨2, ![11, 4]⟩
abbrev S4 : Shape := ⟨1, ![4]⟩
abbrev S4x8 : Shape := ⟨2, ![4, 8]⟩
abbrev S8 : Shape := ⟨1, ![8]⟩
abbrev S19x8 : Shape := ⟨2, ![19, 8]⟩
abbrev S8x8 : Shape := ⟨2, ![8, 8]⟩
abbrev S19x4 : Shape := ⟨2, ![19, 4]⟩
abbrev S4x1 : Shape := ⟨2, ![4, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3x3200000 : Shape := ⟨2, ![3, 3200000]⟩
abbrev S4x100000 : Shape := ⟨2, ![4, 100000]⟩
abbrev S1x1 : Shape := ⟨2, ![1, 1]⟩
abbrev S4x3200000 : Shape := ⟨2, ![4, 3200000]⟩
abbrev S4x4 : Shape := ⟨2, ![4, 4]⟩
abbrev S3x4 : Shape := ⟨2, ![3, 4]⟩
abbrev S4x3 : Shape := ⟨2, ![4, 3]⟩
abbrev S8x4 : Shape := ⟨2, ![8, 4]⟩
abbrev S8x1 : Shape := ⟨2, ![8, 1]⟩
abbrev S8x3200000 : Shape := ⟨2, ![8, 3200000]⟩
abbrev S4x64000 : Shape := ⟨2, ![4, 64000]⟩
abbrev S3x64000 : Shape := ⟨2, ![3, 64000]⟩
abbrev S8x64000 : Shape := ⟨2, ![8, 64000]⟩
abbrev S8x100000 : Shape := ⟨2, ![8, 100000]⟩
abbrev S3x8 : Shape := ⟨2, ![3, 8]⟩
abbrev S8x3 : Shape := ⟨2, ![8, 3]⟩
abbrev S1x4 : Shape := ⟨2, ![1, 4]⟩
abbrev S1x64000 : Shape := ⟨2, ![1, 64000]⟩
abbrev S1x100000 : Shape := ⟨2, ![1, 100000]⟩
abbrev S100000x1 : Shape := ⟨2, ![100000, 1]⟩

abbrev nBuf : Space → Nat
  | .hbm => 232
  | .vmem => 42
  | .smem => 0
  | _ => 0

abbrev hbmTy0_0 (i : Nat) : BufTy := match i % 128 with
  | 0 => ⟨S100000x4, .f32⟩
  | 1 => ⟨S2x3200000, .i32⟩
  | 2 => ⟨S3200000x3, .f32⟩
  | 3 => ⟨S11x4, .f32⟩
  | 4 => ⟨S4, .f32⟩
  | 5 => ⟨S4x8, .f32⟩
  | 6 => ⟨S8, .f32⟩
  | 7 => ⟨S19x8, .f32⟩
  | 8 => ⟨S8, .f32⟩
  | 9 => ⟨S8x8, .f32⟩
  | 10 => ⟨S8, .f32⟩
  | 11 => ⟨S19x4, .f32⟩
  | 12 => ⟨S4, .f32⟩
  | 13 => ⟨S4x1, .f32⟩
  | 14 => ⟨S1, .f32⟩
  | 15 => ⟨S1x3200000, .i32⟩
  | 16 => ⟨S3200000, .i32⟩
  | 17 => ⟨S1x3200000, .i32⟩
  | 18 => ⟨S3200000, .i32⟩
  | 19 => ⟨S3200000x3, .f32⟩
  | 20 => ⟨S_, .f32⟩
  | 21 => ⟨S3200000, .f32⟩
  | 22 => ⟨S3200000x1, .f32⟩
  | 23 => ⟨S_, .f32⟩
  | 24 => ⟨S3200000x1, .f32⟩
  | 25 => ⟨S3200000x1, .f32⟩
  | 26 => ⟨S3200000x3, .f32⟩
  | 27 => ⟨S3200000x3, .f32⟩
  | 28 => ⟨S3x3200000, .f32⟩
  | 29 => ⟨S4x100000, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S1, .i32⟩
  | 39 => ⟨S_, .i32⟩
  | 40 => ⟨S3200000x1, .i32⟩
  | 41 => ⟨S3200000x1, .i1⟩
  | 42 => ⟨S1x1, .i32⟩
  | 43 => ⟨S3200000x1, .i32⟩
  | 44 => ⟨S3200000x1, .i1⟩
  | 45 => ⟨S3200000x1, .i1⟩
  | 46 => ⟨S_, .i1⟩
  | 47 => ⟨S3200000, .i1⟩
  | 48 => ⟨S4x3200000, .f32⟩
  | 49 => ⟨S4x3200000, .i1⟩
  | 50 => ⟨S_, .f32⟩
  | 51 => ⟨S4x3200000, .f32⟩
  | 52 => ⟨S4x3200000, .f32⟩
  | 53 => ⟨S_, .i32⟩
  | 54 => ⟨S3200000, .i32⟩
  | 55 => ⟨S3200000, .i1⟩
  | 56 => ⟨S_, .i32⟩
  | 57 => ⟨S3200000, .i32⟩
  | 58 => ⟨S3200000, .i32⟩
  | 59 => ⟨S3200000, .i32⟩
  | 60 => ⟨S3200000x1, .i32⟩
  | 61 => ⟨S1, .i32⟩
  | 62 => ⟨S_, .i32⟩
  | 63 => ⟨S3200000x1, .i32⟩
  | 64 => ⟨S3200000x1, .i1⟩
  | 65 => ⟨S1x1, .i32⟩
  | 66 => ⟨S3200000x1, .i32⟩
  | 67 => ⟨S3200000x1, .i1⟩
  | 68 => ⟨S3200000x1, .i1⟩
  | 69 => ⟨S_, .i1⟩
  | 70 => ⟨S3200000, .i1⟩
  | 71 => ⟨S4x3200000, .f32⟩
  | 72 => ⟨S4x3200000, .i1⟩
  | 73 => ⟨S_, .f32⟩
  | 74 => ⟨S4x3200000, .f32⟩
  | 75 => ⟨S4x3200000, .f32⟩
  | 76 => ⟨S4x4, .f32⟩
  | 77 => ⟨S4x4, .f32⟩
  | 78 => ⟨S4x4, .f32⟩
  | 79 => ⟨S4x4, .f32⟩
  | 80 => ⟨S3x4, .f32⟩
  | 81 => ⟨S4x3, .f32⟩
  | 82 => ⟨S4x1, .f32⟩
  | 83 => ⟨S8x4, .f32⟩
  | 84 => ⟨S8x1, .f32⟩
  | 85 => ⟨S8x3200000, .f32⟩
  | 86 => ⟨S_, .f32⟩
  | 87 => ⟨S8x100000, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S8x100000, .f32⟩
  | 97 => ⟨S_, .i32⟩
  | 98 => ⟨S3200000, .i32⟩
  | 99 => ⟨S3200000, .i1⟩
  | 100 => ⟨S_, .i32⟩
  | 101 => ⟨S3200000, .i32⟩
  | 102 => ⟨S3200000, .i32⟩
  | 103 => ⟨S3200000, .i32⟩
  | 104 => ⟨S3200000x1, .i32⟩
  | 105 => ⟨S1, .i32⟩
  | 106 => ⟨S_, .i32⟩
  | 107 => ⟨S3200000x1, .i32⟩
  | 108 => ⟨S3200000x1, .i1⟩
  | 109 => ⟨S1x1, .i32⟩
  | 110 => ⟨S3200000x1, .i32⟩
  | 111 => ⟨S3200000x1, .i1⟩
  | 112 => ⟨S3200000x1, .i1⟩
  | 113 => ⟨S_, .i1⟩
  | 114 => ⟨S3200000, .i1⟩
  | 115 => ⟨S8x3200000, .f32⟩
  | 116 => ⟨S8x3200000, .i1⟩
  | 117 => ⟨S_, .f32⟩
  | 118 => ⟨S8x3200000, .f32⟩
  | 119 => ⟨S8x3200000, .f32⟩
  | 120 => ⟨S_, .i32⟩
  | 121 => ⟨S3200000, .i32⟩
  | 122 => ⟨S3200000, .i1⟩
  | 123 => ⟨S_, .i32⟩
  | 124 => ⟨S3200000, .i32⟩
  | 125 => ⟨S3200000, .i32⟩
  | 126 => ⟨S3200000, .i32⟩
  | 127 => ⟨S3200000x1, .i32⟩
  | _ => ⟨S100000x4, .f32⟩

abbrev hbmTy0_1 (i : Nat) : BufTy := match i % 128 with
  | 0 => ⟨S1, .i32⟩
  | 1 => ⟨S_, .i32⟩
  | 2 => ⟨S3200000x1, .i32⟩
  | 3 => ⟨S3200000x1, .i1⟩
  | 4 => ⟨S1x1, .i32⟩
  | 5 => ⟨S3200000x1, .i32⟩
  | 6 => ⟨S3200000x1, .i1⟩
  | 7 => ⟨S3200000x1, .i1⟩
  | 8 => ⟨S_, .i1⟩
  | 9 => ⟨S3200000, .i1⟩
  | 10 => ⟨S8x3200000, .f32⟩
  | 11 => ⟨S8x3200000, .i1⟩
  | 12 => ⟨S_, .f32⟩
  | 13 => ⟨S8x3200000, .f32⟩
  | 14 => ⟨S8x3200000, .f32⟩
  | 15 => ⟨S8x8, .f32⟩
  | 16 => ⟨S8x8, .f32⟩
  | 17 => ⟨S8x8, .f32⟩
  | 18 => ⟨S8x8, .f32⟩
  | 19 => ⟨S3x8, .f32⟩
  | 20 => ⟨S8x3, .f32⟩
  | 21 => ⟨S8x1, .f32⟩
  | 22 => ⟨S8x8, .f32⟩
  | 23 => ⟨S8x1, .f32⟩
  | 24 => ⟨S8x3200000, .f32⟩
  | 25 => ⟨S_, .f32⟩
  | 26 => ⟨S8x100000, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S8x100000, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S1, .i32⟩
  | 45 => ⟨S_, .i32⟩
  | 46 => ⟨S3200000x1, .i32⟩
  | 47 => ⟨S3200000x1, .i1⟩
  | 48 => ⟨S1x1, .i32⟩
  | 49 => ⟨S3200000x1, .i32⟩
  | 50 => ⟨S3200000x1, .i1⟩
  | 51 => ⟨S3200000x1, .i1⟩
  | 52 => ⟨S_, .i1⟩
  | 53 => ⟨S3200000, .i1⟩
  | 54 => ⟨S8x3200000, .f32⟩
  | 55 => ⟨S8x3200000, .i1⟩
  | 56 => ⟨S_, .f32⟩
  | 57 => ⟨S8x3200000, .f32⟩
  | 58 => ⟨S8x3200000, .f32⟩
  | 59 => ⟨S_, .i32⟩
  | 60 => ⟨S3200000, .i32⟩
  | 61 => ⟨S3200000, .i1⟩
  | 62 => ⟨S_, .i32⟩
  | 63 => ⟨S3200000, .i32⟩
  | 64 => ⟨S3200000, .i32⟩
  | 65 => ⟨S3200000, .i32⟩
  | 66 => ⟨S3200000x1, .i32⟩
  | 67 => ⟨S1, .i32⟩
  | 68 => ⟨S_, .i32⟩
  | 69 => ⟨S3200000x1, .i32⟩
  | 70 => ⟨S3200000x1, .i1⟩
  | 71 => ⟨S1x1, .i32⟩
  | 72 => ⟨S3200000x1, .i32⟩
  | 73 => ⟨S3200000x1, .i1⟩
  | 74 => ⟨S3200000x1, .i1⟩
  | 75 => ⟨S_, .i1⟩
  | 76 => ⟨S3200000, .i1⟩
  | 77 => ⟨S8x3200000, .f32⟩
  | 78 => ⟨S8x3200000, .i1⟩
  | 79 => ⟨S_, .f32⟩
  | 80 => ⟨S8x3200000, .f32⟩
  | 81 => ⟨S8x3200000, .f32⟩
  | 82 => ⟨S8x4, .f32⟩
  | 83 => ⟨S4x8, .f32⟩
  | 84 => ⟨S8x4, .f32⟩
  | 85 => ⟨S4x8, .f32⟩
  | 86 => ⟨S3x4, .f32⟩
  | 87 => ⟨S4x3, .f32⟩
  | 88 => ⟨S4x1, .f32⟩
  | 89 => ⟨S1x4, .f32⟩
  | 90 => ⟨S1x1, .f32⟩
  | 91 => ⟨S1x3200000, .f32⟩
  | 92 => ⟨S_, .f32⟩
  | 93 => ⟨S1x100000, .f32⟩
  | 94 => ⟨S_, .i32⟩
  | 95 => ⟨S3200000, .i32⟩
  | 96 => ⟨S3200000, .i1⟩
  | 97 => ⟨S_, .i32⟩
  | 98 => ⟨S3200000, .i32⟩
  | 99 => ⟨S3200000, .i32⟩
  | 100 => ⟨S3200000, .i32⟩
  | 101 => ⟨S3200000x1, .i32⟩
  | 102 => ⟨S1x100000, .f32⟩
  | 103 => ⟨S100000x1, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S4x64000, .f32⟩
  | .local _ .vmem, ⟨1, _⟩ => ⟨S4x64000, .f32⟩
  | .local _ .vmem, ⟨2, _⟩ => ⟨S4x64000, .f32⟩
  | .local _ .vmem, ⟨3, _⟩ => ⟨S4x64000, .f32⟩
  | .local _ .vmem, ⟨4, _⟩ => ⟨S3x64000, .f32⟩
  | .local _ .vmem, ⟨5, _⟩ => ⟨S3x64000, .f32⟩
  | .local _ .vmem, ⟨6, _⟩ => ⟨S4x4, .f32⟩
  | .local _ .vmem, ⟨7, _⟩ => ⟨S4x4, .f32⟩
  | .local _ .vmem, ⟨8, _⟩ => ⟨S4x3, .f32⟩
  | .local _ .vmem, ⟨9, _⟩ => ⟨S4x1, .f32⟩
  | .local _ .vmem, ⟨10, _⟩ => ⟨S8x4, .f32⟩
  | .local _ .vmem, ⟨11, _⟩ => ⟨S8x1, .f32⟩
  | .local _ .vmem, ⟨12, _⟩ => ⟨S8x64000, .f32⟩
  | .local _ .vmem, ⟨13, _⟩ => ⟨S8x64000, .f32⟩
  | .local _ .vmem, ⟨14, _⟩ => ⟨S8x64000, .f32⟩
  | .local _ .vmem, ⟨15, _⟩ => ⟨S8x64000, .f32⟩
  | .local _ .vmem, ⟨16, _⟩ => ⟨S8x64000, .f32⟩
  | .local _ .vmem, ⟨17, _⟩ => ⟨S8x64000, .f32⟩
  | .local _ .vmem, ⟨18, _⟩ => ⟨S3x64000, .f32⟩
  | .local _ .vmem, ⟨19, _⟩ => ⟨S3x64000, .f32⟩
  | .local _ .vmem, ⟨20, _⟩ => ⟨S8x8, .f32⟩
  | .local _ .vmem, ⟨21, _⟩ => ⟨S8x8, .f32⟩
  | .local _ .vmem, ⟨22, _⟩ => ⟨S8x3, .f32⟩
  | .local _ .vmem, ⟨23, _⟩ => ⟨S8x1, .f32⟩
  | .local _ .vmem, ⟨24, _⟩ => ⟨S8x8, .f32⟩
  | .local _ .vmem, ⟨25, _⟩ => ⟨S8x1, .f32⟩
  | .local _ .vmem, ⟨26, _⟩ => ⟨S8x64000, .f32⟩
  | .local _ .vmem, ⟨27, _⟩ => ⟨S8x64000, .f32⟩
  | .local _ .vmem, ⟨28, _⟩ => ⟨S8x64000, .f32⟩
  | .local _ .vmem, ⟨29, _⟩ => ⟨S8x64000, .f32⟩
  | .local _ .vmem, ⟨30, _⟩ => ⟨S8x64000, .f32⟩
  | .local _ .vmem, ⟨31, _⟩ => ⟨S8x64000, .f32⟩
  | .local _ .vmem, ⟨32, _⟩ => ⟨S3x64000, .f32⟩
  | .local _ .vmem, ⟨33, _⟩ => ⟨S3x64000, .f32⟩
  | .local _ .vmem, ⟨34, _⟩ => ⟨S4x8, .f32⟩
  | .local _ .vmem, ⟨35, _⟩ => ⟨S4x8, .f32⟩
  | .local _ .vmem, ⟨36, _⟩ => ⟨S4x3, .f32⟩
  | .local _ .vmem, ⟨37, _⟩ => ⟨S4x1, .f32⟩
  | .local _ .vmem, ⟨38, _⟩ => ⟨S1x4, .f32⟩
  | .local _ .vmem, ⟨39, _⟩ => ⟨S1x1, .f32⟩
  | .local _ .vmem, ⟨40, _⟩ => ⟨S1x64000, .f32⟩
  | .local _ .vmem, ⟨41, _⟩ => ⟨S1x64000, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v13 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_cst_1 : Ref sig .tc := ⟨.hbm, 86, rfl⟩
abbrev main_v25 : Ref sig .tc := ⟨.hbm, 87, rfl⟩
abbrev main_c : Ref sig .tc := ⟨.hbm, 88, rfl⟩
abbrev main_v26 : Ref sig .tc := ⟨.hbm, 89, rfl⟩
abbrev main_v27 : Ref sig .tc := ⟨.hbm, 90, rfl⟩
abbrev main_c_2 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_call2_c : Ref sig .tc := ⟨.hbm, 97, rfl⟩
abbrev main_call2_v0 : Ref sig .tc := ⟨.hbm, 98, rfl⟩
abbrev main_call2_v1 : Ref sig .tc := ⟨.hbm, 99, rfl⟩
abbrev main_call2_c_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_c_1 : Ref sig .tc := ⟨.hbm, 105, rfl⟩
abbrev main_call2_c_2 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_c_3 : Ref sig .tc := ⟨.hbm, 113, rfl⟩
abbrev main_call2_v12 : Ref sig .tc := ⟨.hbm, 114, rfl⟩
abbrev main_call2_v13 : Ref sig .tc := ⟨.hbm, 115, rfl⟩
abbrev main_call2_v14 : Ref sig .tc := ⟨.hbm, 116, rfl⟩
abbrev main_call2_cst : Ref sig .tc := ⟨.hbm, 117, rfl⟩
abbrev main_call2_v15 : Ref sig .tc := ⟨.hbm, 118, rfl⟩
abbrev main_v33 : Ref sig .tc := ⟨.hbm, 119, rfl⟩
abbrev main_call3_c : Ref sig .tc := ⟨.hbm, 120, rfl⟩
abbrev main_call3_v0 : Ref sig .tc := ⟨.hbm, 121, rfl⟩
abbrev main_call3_v1 : Ref sig .tc := ⟨.hbm, 122, rfl⟩
abbrev main_call3_c_0 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_c_1 : Ref sig .tc := ⟨.hbm, 128, rfl⟩
abbrev main_call3_c_2 : Ref sig .tc := ⟨.hbm, 129, rfl⟩
abbrev main_call3_v6 : Ref sig .tc := ⟨.hbm, 130, rfl⟩
abbrev main_call3_v7 : Ref sig .tc := ⟨.hbm, 131, rfl⟩
abbrev main_call3_v8 : Ref sig .tc := ⟨.hbm, 132, rfl⟩
abbrev main_call3_v9 : Ref sig .tc := ⟨.hbm, 133, rfl⟩
abbrev main_call3_v10 : Ref sig .tc := ⟨.hbm, 134, rfl⟩
abbrev main_call3_v11 : Ref sig .tc := ⟨.hbm, 135, rfl⟩
abbrev main_call3_c_3 : Ref sig .tc := ⟨.hbm, 136, rfl⟩
abbrev main_call3_v12 : Ref sig .tc := ⟨.hbm, 137, rfl⟩
abbrev main_call3_v13 : Ref sig .tc := ⟨.hbm, 138, rfl⟩
abbrev main_call3_v14 : Ref sig .tc := ⟨.hbm, 139, rfl⟩
abbrev main_call3_cst : Ref sig .tc := ⟨.hbm, 140, rfl⟩
abbrev main_call3_v15 : Ref sig .tc := ⟨.hbm, 141, rfl⟩
abbrev main_v34 : Ref sig .tc := ⟨.hbm, 142, rfl⟩
abbrev main_v35 : Ref sig .tc := ⟨.hbm, 143, rfl⟩
abbrev main_v36 : Ref sig .tc := ⟨.hbm, 144, rfl⟩
abbrev main_v37 : Ref sig .tc := ⟨.hbm, 145, rfl⟩
abbrev main_v38 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_v42 : Ref sig .tc := ⟨.hbm, 150, rfl⟩
abbrev main_v43 : Ref sig .tc := ⟨.hbm, 151, rfl⟩
abbrev main_v44 : Ref sig .tc := ⟨.hbm, 152, rfl⟩
abbrev main_cst_3 : Ref sig .tc := ⟨.hbm, 153, rfl⟩
abbrev main_v45 : Ref sig .tc := ⟨.hbm, 154, rfl⟩
abbrev main_c_4 : Ref sig .tc := ⟨.hbm, 155, rfl⟩
abbrev main_v46 : Ref sig .tc := ⟨.hbm, 156, rfl⟩
abbrev main_v47 : Ref sig .tc := ⟨.hbm, 157, rfl⟩
abbrev main_c_5 : Ref sig .tc := ⟨.hbm, 158, rfl⟩
abbrev main_v48 : Ref sig .tc := ⟨.hbm, 159, rfl⟩
abbrev main_v49 : Ref sig .tc := ⟨.hbm, 160, rfl⟩
abbrev main_v50 : Ref sig .tc := ⟨.hbm, 161, rfl⟩
abbrev main_v51 : Ref sig .tc := ⟨.hbm, 162, rfl⟩
abbrev main_v52 : Ref sig .tc := ⟨.hbm, 163, rfl⟩
abbrev main_call4_c : Ref sig .tc := ⟨.hbm, 164, rfl⟩
abbrev main_call4_v0 : Ref sig .tc := ⟨.hbm, 165, rfl⟩
abbrev main_call4_v1 : Ref sig .tc := ⟨.hbm, 166, rfl⟩
abbrev main_call4_c_0 : Ref sig .tc := ⟨.hbm, 167, rfl⟩
abbrev main_call4_v2 : Ref sig .tc := ⟨.hbm, 168, rfl⟩
abbrev main_call4_v3 : Ref sig .tc := ⟨.hbm, 169, rfl⟩
abbrev main_call4_v4 : Ref sig .tc := ⟨.hbm, 170, rfl⟩
abbrev main_call4_v5 : Ref sig .tc := ⟨.hbm, 171, rfl⟩
abbrev main_call4_c_1 : Ref sig .tc := ⟨.hbm, 172, rfl⟩
abbrev main_call4_c_2 : Ref sig .tc := ⟨.hbm, 173, rfl⟩
abbrev main_call4_v6 : Ref sig .tc := ⟨.hbm, 174, rfl⟩
abbrev main_call4_v7 : Ref sig .tc := ⟨.hbm, 175, rfl⟩
abbrev main_call4_v8 : Ref sig .tc := ⟨.hbm, 176, rfl⟩
abbrev main_call4_v9 : Ref sig .tc := ⟨.hbm, 177, rfl⟩
abbrev main_call4_v10 : Ref sig .tc := ⟨.hbm, 178, rfl⟩
abbrev main_call4_v11 : Ref sig .tc := ⟨.hbm, 179, rfl⟩
abbrev main_call4_c_3 : Ref sig .tc := ⟨.hbm, 180, rfl⟩
abbrev main_call4_v12 : Ref sig .tc := ⟨.hbm, 181, rfl⟩
abbrev main_call4_v13 : Ref sig .tc := ⟨.hbm, 182, rfl⟩
abbrev main_call4_v14 : Ref sig .tc := ⟨.hbm, 183, rfl⟩
abbrev main_call4_cst : Ref sig .tc := ⟨.hbm, 184, rfl⟩
abbrev main_call4_v15 : Ref sig .tc := ⟨.hbm, 185, rfl⟩
abbrev main_v53 : Ref sig .tc := ⟨.hbm, 186, rfl⟩
abbrev main_call5_c : Ref sig .tc := ⟨.hbm, 187, rfl⟩
abbrev main_call5_v0 : Ref sig .tc := ⟨.hbm, 188, rfl⟩
abbrev main_call5_v1 : Ref sig .tc := ⟨.hbm, 189, rfl⟩
abbrev main_call5_c_0 : Ref sig .tc := ⟨.hbm, 190, rfl⟩
abbrev main_call5_v2 : Ref sig .tc := ⟨.hbm, 191, rfl⟩
abbrev main_call5_v3 : Ref sig .tc := ⟨.hbm, 192, rfl⟩
abbrev main_call5_v4 : Ref sig .tc := ⟨.hbm, 193, rfl⟩
abbrev main_call5_v5 : Ref sig .tc := ⟨.hbm, 194, rfl⟩
abbrev main_call5_c_1 : Ref sig .tc := ⟨.hbm, 195, rfl⟩
abbrev main_call5_c_2 : Ref sig .tc := ⟨.hbm, 196, rfl⟩
abbrev main_call5_v6 : Ref sig .tc := ⟨.hbm, 197, rfl⟩
abbrev main_call5_v7 : Ref sig .tc := ⟨.hbm, 198, rfl⟩
abbrev main_call5_v8 : Ref sig .tc := ⟨.hbm, 199, rfl⟩
abbrev main_call5_v9 : Ref sig .tc := ⟨.hbm, 200, rfl⟩
abbrev main_call5_v10 : Ref sig .tc := ⟨.hbm, 201, rfl⟩
abbrev main_call5_v11 : Ref sig .tc := ⟨.hbm, 202, rfl⟩
abbrev main_call5_c_3 : Ref sig .tc := ⟨.hbm, 203, rfl⟩
abbrev main_call5_v12 : Ref sig .tc := ⟨.hbm, 204, rfl⟩
abbrev main_call5_v13 : Ref sig .tc := ⟨.hbm, 205, rfl⟩
abbrev main_call5_v14 : Ref sig .tc := ⟨.hbm, 206, rfl⟩
abbrev main_call5_cst : Ref sig .tc := ⟨.hbm, 207, rfl⟩
abbrev main_call5_v15 : Ref sig .tc := ⟨.hbm, 208, rfl⟩
abbrev main_v54 : Ref sig .tc := ⟨.hbm, 209, rfl⟩
abbrev main_v55 : Ref sig .tc := ⟨.hbm, 210, rfl⟩
abbrev main_v56 : Ref sig .tc := ⟨.hbm, 211, rfl⟩
abbrev main_v57 : Ref sig .tc := ⟨.hbm, 212, rfl⟩
abbrev main_v58 : Ref sig .tc := ⟨.hbm, 213, rfl⟩
abbrev main_v59 : Ref sig .tc := ⟨.hbm, 214, rfl⟩
abbrev main_v60 : Ref sig .tc := ⟨.hbm, 215, rfl⟩
abbrev main_v61 : Ref sig .tc := ⟨.hbm, 216, rfl⟩
abbrev main_v62 : Ref sig .tc := ⟨.hbm, 217, rfl⟩
abbrev main_v63 : Ref sig .tc := ⟨.hbm, 218, rfl⟩
abbrev main_v64 : Ref sig .tc := ⟨.hbm, 219, rfl⟩
abbrev main_cst_6 : Ref sig .tc := ⟨.hbm, 220, rfl⟩
abbrev main_v65 : Ref sig .tc := ⟨.hbm, 221, rfl⟩
abbrev main_c_7 : Ref sig .tc := ⟨.hbm, 222, rfl⟩
abbrev main_v66 : Ref sig .tc := ⟨.hbm, 223, rfl⟩
abbrev main_v67 : Ref sig .tc := ⟨.hbm, 224, rfl⟩
abbrev main_c_8 : Ref sig .tc := ⟨.hbm, 225, rfl⟩
abbrev main_v68 : Ref sig .tc := ⟨.hbm, 226, rfl⟩
abbrev main_v69 : Ref sig .tc := ⟨.hbm, 227, rfl⟩
abbrev main_v70 : Ref sig .tc := ⟨.hbm, 228, rfl⟩
abbrev main_v71 : Ref sig .tc := ⟨.hbm, 229, rfl⟩
abbrev main_v72 : Ref sig .tc := ⟨.hbm, 230, rfl⟩
abbrev main_v73 : Ref sig .tc := ⟨.hbm, 231, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg9_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem9_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x64000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x64000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x64000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8x64000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x64000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3x64000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S8x64000 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S8x64000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x64000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3x64000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S4x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S4x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x4 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1x64000 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  reducesTo_S3200000x3_S3200000_d1 : S3200000x3.ReducesTo [1] S3200000
  h_S_ : 0 < S_.numel
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S3200000x1_S3200000x3_0_1 : S3200000x1.BroadcastsInDim S3200000x3 (![0, 1] : Fin 2 → Fin S3200000x3.rank)
  transposes_S3200000x3_S3x3200000_1_0 : S3200000x3.Transposes [1, 0] S3x3200000
  transposes_S100000x4_S4x100000_1_0 : S100000x4.Transposes [1, 0] S4x100000
  bcast_S_S3200000 : S_.BroadcastsInDim S3200000 (![] : Fin 0 → Fin S3200000.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  bcast_S3200000_S4x3200000_1 : S3200000.BroadcastsInDim S4x3200000 (![1] : Fin 1 → Fin S4x3200000.rank)
  bcast_S_S4x3200000 : S_.BroadcastsInDim S4x3200000 (![] : Fin 0 → Fin S4x3200000.rank)
  slices_S11x4_S4x4_0_0 : S11x4.Slices ![0, 0] S4x4
  transposes_S4x4_S4x4_1_0 : S4x4.Transposes [1, 0] S4x4
  slices_S11x4_S4x4_4_0 : S11x4.Slices ![4, 0] S4x4
  slices_S11x4_S3x4_8_0 : S11x4.Slices ![8, 0] S3x4
  transposes_S3x4_S4x3_1_0 : S3x4.Transposes [1, 0] S4x3
  shapeCasts_S4_S4x1 : S4.ShapeCasts S4x1
  transposes_S4x8_S8x4_1_0 : S4x8.Transposes [1, 0] S8x4
  shapeCasts_S8_S8x1 : S8.ShapeCasts S8x1
  inb_S4x64000_S4x64000_0_0 : ∀ a, (![0, 0] : Fin 2 → Nat) a + S4x64000.size a ≤ S4x64000.size a
  h_S4x64000 : 0 < S4x64000.numel
  shapeCasts_S4x64000_S4x64000 : S4x64000.ShapeCasts S4x64000
  bitsLt_bf16_f32 : FTy.bits .bf16 < FTy.bits .f32
  inb_S3x64000_S3x64000_0_0 : ∀ a, (![0, 0] : Fin 2 → Nat) a + S3x64000.size a ≤ S3x64000.size a
  h_S3x64000 : 0 < S3x64000.numel
  shapeCasts_S3x64000_S3x64000 : S3x64000.ShapeCasts S3x64000
  inb_S4x4_S4x4_0_0 : ∀ a, (![0, 0] : Fin 2 → Nat) a + S4x4.size a ≤ S4x4.size a
  h_S4x4 : 0 < S4x4.numel
  shapeCasts_S4x4_S4x4 : S4x4.ShapeCasts S4x4
  inb_S4x3_S4x3_0_0 : ∀ a, (![0, 0] : Fin 2 → Nat) a + S4x3.size a ≤ S4x3.size a
  h_S4x3 : 0 < S4x3.numel
  shapeCasts_S4x3_S4x3 : S4x3.ShapeCasts S4x3
  inb_S4x1_S4x1_0_0 : ∀ a, (![0, 0] : Fin 2 → Nat) a + S4x1.size a ≤ S4x1.size a
  h_S4x1 : 0 < S4x1.numel
  shapeCasts_S4x1_S4x1 : S4x1.ShapeCasts S4x1
  broadcasts_S4x1_S4x64000 : S4x1.Broadcasts S4x64000
  inb_S8x4_S8x4_0_0 : ∀ a, (![0, 0] : Fin 2 → Nat) a + S8x4.size a ≤ S8x4.size a
  h_S8x4 : 0 < S8x4.numel
  shapeCasts_S8x4_S8x4 : S8x4.ShapeCasts S8x4
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x64000 : S8x1.Broadcasts S8x64000
  inb_S8x64000_S8x64000_0_0 : ∀ a, (![0, 0] : Fin 2 → Nat) a + S8x64000.size a ≤ S8x64000.size a
  h_S8x64000 : 0 < S8x64000.numel
  bcast_S_S8x100000 : S_.BroadcastsInDim S8x100000 (![] : Fin 0 → Fin S8x100000.rank)
  bcast_S3200000_S8x3200000_1 : S3200000.BroadcastsInDim S8x3200000 (![1] : Fin 1 → Fin S8x3200000.rank)
  bcast_S_S8x3200000 : S_.BroadcastsInDim S8x3200000 (![] : Fin 0 → Fin S8x3200000.rank)
  slices_S19x8_S8x8_0_0 : S19x8.Slices ![0, 0] S8x8
  transposes_S8x8_S8x8_1_0 : S8x8.Transposes [1, 0] S8x8
  slices_S19x8_S8x8_8_0 : S19x8.Slices ![8, 0] S8x8
  slices_S19x8_S3x8_16_0 : S19x8.Slices ![16, 0] S3x8
  transposes_S3x8_S8x3_1_0 : S3x8.Transposes [1, 0] S8x3
  shapeCasts_S8x64000_S8x64000 : S8x64000.ShapeCasts S8x64000
  inb_S8x8_S8x8_0_0 : ∀ a, (![0, 0] : Fin 2 → Nat) a + S8x8.size a ≤ S8x8.size a
  h_S8x8 : 0 < S8x8.numel
  shapeCasts_S8x8_S8x8 : S8x8.ShapeCasts S8x8
  inb_S8x3_S8x3_0_0 : ∀ a, (![0, 0] : Fin 2 → Nat) a + S8x3.size a ≤ S8x3.size a
  h_S8x3 : 0 < S8x3.numel
  shapeCasts_S8x3_S8x3 : S8x3.ShapeCasts S8x3
  slices_S19x4_S8x4_0_0 : S19x4.Slices ![0, 0] S8x4
  transposes_S8x4_S4x8_1_0 : S8x4.Transposes [1, 0] S4x8
  slices_S19x4_S8x4_8_0 : S19x4.Slices ![8, 0] S8x4
  slices_S19x4_S3x4_16_0 : S19x4.Slices ![16, 0] S3x4
  transposes_S4x1_S1x4_1_0 : S4x1.Transposes [1, 0] S1x4
  shapeCasts_S1_S1x1 : S1.ShapeCasts S1x1
  inb_S4x8_S4x8_0_0 : ∀ a, (![0, 0] : Fin 2 → Nat) a + S4x8.size a ≤ S4x8.size a
  h_S4x8 : 0 < S4x8.numel
  shapeCasts_S4x8_S4x8 : S4x8.ShapeCasts S4x8
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x64000 : S1x1.Broadcasts S1x64000
  inb_S1x64000_S1x64000_0_0 : ∀ a, (![0, 0] : Fin 2 → Nat) a + S1x64000.size a ≤ S1x64000.size a
  h_S1x64000 : 0 < S1x64000.numel
  bcast_S_S1x100000 : S_.BroadcastsInDim S1x100000 (![] : Fin 0 → Fin S1x100000.rank)
  transposes_S1x100000_S100000x1_1_0 : S1x100000.Transposes [1, 0] S100000x1
  gather_S4x100000_S3200000x1_S4x3200000_0_1_n_n_1_1_41_wf : GatherDims.WF S4x100000 S3200000x1 S4x3200000 [0] [1] [] [1] [] 1 ![4, 1]
  dot_S4x4_S4x64000_S4x64000_1_0_0_1_n_n_wf : DotDims.WF S4x4 S4x64000 S4x64000 [1] [0] [0] [1] [] []
  dot_S4x3_S3x64000_S4x64000_1_0_0_1_n_n_wf : DotDims.WF S4x3 S3x64000 S4x64000 [1] [0] [0] [1] [] []
  dot_S8x4_S4x64000_S8x64000_1_0_0_1_n_n_wf : DotDims.WF S8x4 S4x64000 S8x64000 [1] [0] [0] [1] [] []
  scatter_S8x100000_S3200000x1_S8x3200000_0_1_1_1_wf : ScatterDims.WF S8x100000 S3200000x1 S8x3200000 [0] [1] [1] 1
  gather_S8x100000_S3200000x1_S8x3200000_0_1_n_n_1_1_81_wf : GatherDims.WF S8x100000 S3200000x1 S8x3200000 [0] [1] [] [1] [] 1 ![8, 1]
  dot_S8x8_S8x64000_S8x64000_1_0_0_1_n_n_wf : DotDims.WF S8x8 S8x64000 S8x64000 [1] [0] [0] [1] [] []
  dot_S8x3_S3x64000_S8x64000_1_0_0_1_n_n_wf : DotDims.WF S8x3 S3x64000 S8x64000 [1] [0] [0] [1] [] []
  dot_S4x8_S8x64000_S4x64000_1_0_0_1_n_n_wf : DotDims.WF S4x8 S8x64000 S4x64000 [1] [0] [0] [1] [] []
  dot_S1x4_S4x64000_S1x64000_1_0_0_1_n_n_wf : DotDims.WF S1x4 S4x64000 S1x64000 [1] [0] [0] [1] [] []
  scatter_S1x100000_S3200000x1_S1x3200000_0_1_1_1_wf : ScatterDims.WF S1x100000 S3200000x1 S1x3200000 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64000.size a ≤ S4x3200000.size a
  hwx0_0 : ∀ i : grid0.Coords, EltTy.bits .f32 = 32 ∨ (Rect.block (s := S4x3200000) S4x64000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64000.size a ≤ S4x3200000.size a
  hwx0_1 : ∀ i : grid0.Coords, EltTy.bits .f32 = 32 ∨ (Rect.block (s := S4x3200000) S4x64000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x64000.size a ≤ S3x3200000.size a
  hwx0_2 : ∀ i : grid0.Coords, EltTy.bits .f32 = 32 ∨ (Rect.block (s := S3x3200000) S3x64000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x4.size a ≤ S4x4.size a
  hwx0_3 : ∀ i : grid0.Coords, EltTy.bits .f32 = 32 ∨ (Rect.block (s := S4x4) S4x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x4.size a ≤ S4x4.size a
  hwx0_4 : ∀ i : grid0.Coords, EltTy.bits .f32 = 32 ∨ (Rect.block (s := S4x4) S4x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x3.size a ≤ S4x3.size a
  hwx0_5 : ∀ i : grid0.Coords, EltTy.bits .f32 = 32 ∨ (Rect.block (s := S4x3) S4x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1.size a ≤ S4x1.size a
  hwx0_6 : ∀ i : grid0.Coords, EltTy.bits .f32 = 32 ∨ (Rect.block (s := S4x1) S4x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x4.size a ≤ S8x4.size a
  hwx0_7 : ∀ i : grid0.Coords, EltTy.bits .f32 = 32 ∨ (Rect.block (s := S8x4) S8x4.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x1.size a ≤ S8x1.size a
  hwx0_8 : ∀ i : grid0.Coords, EltTy.bits .f32 = 32 ∨ (Rect.block (s := S8x1) S8x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x64000.size a ≤ S8x3200000.size a
  hwx0_9 : ∀ i : grid0.Coords, EltTy.bits .f32 = 32 ∨ (Rect.block (s := S8x3200000) S8x64000.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x64000.size a ≤ S8x3200000.size a
  hwx1_0 : ∀ i : grid1.Coords, EltTy.bits .f32 = 32 ∨ (Rect.block (s := S8x3200000) S8x64000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x64000.size a ≤ S8x3200000.size a
  hwx1_1 : ∀ i : grid1.Coords, EltTy.bits .f32 = 32 ∨ (Rect.block (s := S8x3200000) S8x64000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3x64000.size a ≤ S3x3200000.size a
  hwx1_2 : ∀ i : grid1.Coords, EltTy.bits .f32 = 32 ∨ (Rect.block (s := S3x3200000) S3x64000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x8.size a ≤ S8x8.size a
  hwx1_3 : ∀ i : grid1.Coords, EltTy.bits .f32 = 32 ∨ (Rect.block (s := S8x8) S8x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x8.size a ≤ S8x8.size a
  hwx1_4 : ∀ i : grid1.Coords, EltTy.bits .f32 = 32 ∨ (Rect.block (s := S8x8) S8x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x3.size a ≤ S8x3.size a
  hwx1_5 : ∀ i : grid1.Coords, EltTy.bits .f32 = 32 ∨ (Rect.block (s := S8x3) S8x3.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x1.size a ≤ S8x1.size a
  hwx1_6 : ∀ i : grid1.Coords, EltTy.bits .f32 = 32 ∨ (Rect.block (s := S8x1) S8x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S8x8.size a ≤ S8x8.size a
  hwx1_7 : ∀ i : grid1.Coords, EltTy.bits .f32 = 32 ∨ (Rect.block (s := S8x8) S8x8.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S8x1.size a ≤ S8x1.size a
  hwx1_8 : ∀ i : grid1.Coords, EltTy.bits .f32 = 32 ∨ (Rect.block (s := S8x1) S8x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8x64000.size a ≤ S8x3200000.size a
  hwx1_9 : ∀ i : grid1.Coords, EltTy.bits .f32 = 32 ∨ (Rect.block (s := S8x3200000) S8x64000.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x64000.size a ≤ S8x3200000.size a
  hwx2_0 : ∀ i : grid2.Coords, EltTy.bits .f32 = 32 ∨ (Rect.block (s := S8x3200000) S8x64000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x64000.size a ≤ S8x3200000.size a
  hwx2_1 : ∀ i : grid2.Coords, EltTy.bits .f32 = 32 ∨ (Rect.block (s := S8x3200000) S8x64000.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3x64000.size a ≤ S3x3200000.size a
  hwx2_2 : ∀ i : grid2.Coords, EltTy.bits .f32 = 32 ∨ (Rect.block (s := S3x3200000) S3x64000.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4x8.size a ≤ S4x8.size a
  hwx2_3 : ∀ i : grid2.Coords, EltTy.bits .f32 = 32 ∨ (Rect.block (s := S4x8) S4x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4x8.size a ≤ S4x8.size a
  hwx2_4 : ∀ i : grid2.Coords, EltTy.bits .f32 = 32 ∨ (Rect.block (s := S4x8) S4x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S4x3.size a ≤ S4x3.size a
  hwx2_5 : ∀ i : grid2.Coords, EltTy.bits .f32 = 32 ∨ (Rect.block (s := S4x3) S4x3.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S4x1.size a ≤ S4x1.size a
  hwx2_6 : ∀ i : grid2.Coords, EltTy.bits .f32 = 32 ∨ (Rect.block (s := S4x1) S4x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x4.size a ≤ S1x4.size a
  hwx2_7 : ∀ i : grid2.Coords, EltTy.bits .f32 = 32 ∨ (Rect.block (s := S1x4) S1x4.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x64000.size a ≤ S1x3200000.size a
  hwx2_9 : ∀ i : grid2.Coords, EltTy.bits .f32 = 32 ∨ (Rect.block (s := S1x3200000) S1x64000.size (cc2_transform_9 i) (hinb2_9 i)).WholeWords (EltTy.packing .f32)

variable [Facts₀]

def gather_S4x100000_S3200000x1_S4x3200000_0_1_n_n_1_1_41 : GatherDims S4x100000 S3200000x1 S4x3200000 where
  offsetDims := [0]
  collapsedSliceDims := [1]
  operandBatchingDims := []
  startIndicesBatchingDims := []
  startIndexMap := [1]
  indexVectorDim := 1
  sliceSizes := ![4, 1]
  wf := gather_S4x100000_S3200000x1_S4x3200000_0_1_n_n_1_1_41_wf
def dot_S4x4_S4x64000_S4x64000_1_0_0_1_n_n : DotDims S4x4 S4x64000 S4x64000 where
  lhsContracting := [1]
  rhsContracting := [0]
  lhsNonContracting := [0]
  rhsNonContracting := [1]
  lhsBatch := []
  rhsBatch := []
  wf := dot_S4x4_S4x64000_S4x64000_1_0_0_1_n_n_wf
def dot_S4x3_S3x64000_S4x64000_1_0_0_1_n_n : DotDims S4x3 S3x64000 S4x64000 where
  lhsContracting := [1]
  rhsContracting := [0]
  lhsNonContracting := [0]
  rhsNonContracting := [1]
  lhsBatch := []
  rhsBatch := []
  wf := dot_S4x3_S3x64000_S4x64000_1_0_0_1_n_n_wf
def dot_S8x4_S4x64000_S8x64000_1_0_0_1_n_n : DotDims S8x4 S4x64000 S8x64000 where
  lhsContracting := [1]
  rhsContracting := [0]
  lhsNonContracting := [0]
  rhsNonContracting := [1]
  lhsBatch := []
  rhsBatch := []
  wf := dot_S8x4_S4x64000_S8x64000_1_0_0_1_n_n_wf
def scatter_S8x100000_S3200000x1_S8x3200000_0_1_1_1 : ScatterDims S8x100000 S3200000x1 S8x3200000 where
  updateWindowDims := [0]
  insertedWindowDims := [1]
  scatterDimsToOperandDims := [1]
  indexVectorDim := 1
  wf := scatter_S8x100000_S3200000x1_S8x3200000_0_1_1_1_wf
def gather_S8x100000_S3200000x1_S8x3200000_0_1_n_n_1_1_81 : GatherDims S8x100000 S3200000x1 S8x3200000 where
  offsetDims := [0]
  collapsedSliceDims := [1]
  operandBatchingDims := []
  startIndicesBatchingDims := []
  startIndexMap := [1]
  indexVectorDim := 1
  sliceSizes := ![8, 1]
  wf := gather_S8x100000_S3200000x1_S8x3200000_0_1_n_n_1_1_81_wf
def dot_S8x8_S8x64000_S8x64000_1_0_0_1_n_n : DotDims S8x8 S8x64000 S8x64000 where
  lhsContracting := [1]
  rhsContracting := [0]
  lhsNonContracting := [0]
  rhsNonContracting := [1]
  lhsBatch := []
  rhsBatch := []
  wf := dot_S8x8_S8x64000_S8x64000_1_0_0_1_n_n_wf
def dot_S8x3_S3x64000_S8x64000_1_0_0_1_n_n : DotDims S8x3 S3x64000 S8x64000 where
  lhsContracting := [1]
  rhsContracting := [0]
  lhsNonContracting := [0]
  rhsNonContracting := [1]
  lhsBatch := []
  rhsBatch := []
  wf := dot_S8x3_S3x64000_S8x64000_1_0_0_1_n_n_wf
def dot_S4x8_S8x64000_S4x64000_1_0_0_1_n_n : DotDims S4x8 S8x64000 S4x64000 where
  lhsContracting := [1]
  rhsContracting := [0]
  lhsNonContracting := [0]
  rhsNonContracting := [1]
  lhsBatch := []
  rhsBatch := []
  wf := dot_S4x8_S8x64000_S4x64000_1_0_0_1_n_n_wf
def dot_S1x4_S4x64000_S1x64000_1_0_0_1_n_n : DotDims S1x4 S4x64000 S1x64000 where
  lhsContracting := [1]
  rhsContracting := [0]
  lhsNonContracting := [0]
  rhsNonContracting := [1]
  lhsBatch := []
  rhsBatch := []
  wf := dot_S1x4_S4x64000_S1x64000_1_0_0_1_n_n_wf
def scatter_S1x100000_S3200000x1_S1x3200000_0_1_1_1 : ScatterDims S1x100000 S3200000x1 S1x3200000 where
  updateWindowDims := [0]
  insertedWindowDims := [1]
  scatterDimsToOperandDims := [1]
  indexVectorDim := 1
  wf := scatter_S1x100000_S3200000x1_S1x3200000_0_1_1_1_wf

abbrev win0_0 : Pipeline.Window sig grid0 :=
  Pipeline.Window.ofSpec (Memref.whole main_v13) S4x64000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4x64000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S3x64000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S4x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S4x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S4x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S8x4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S8x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S8x64000.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v33) S8x64000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S8x64000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S3x64000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S8x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S8x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S8x3.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S8x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S8x8.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43) S8x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v44) S8x64000.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v53) S8x64000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S8x64000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S3x64000.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v56) S4x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S4x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S4x3.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S4x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v62) S1x4.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v63) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v64) S1x64000.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x4 : Shape := ⟨2, ![100000, 4]⟩
abbrev S2x3200000 : Shape := ⟨2, ![2, 3200000]⟩
abbrev S3200000x3 : Shape := ⟨2, ![3200000, 3]⟩
abbrev S11x4 : Shape := ⟨2, ![11, 4]⟩
abbrev S4 : Shape := ⟨1, ![4]⟩
abbrev S4x8 : Shape := ⟨2, ![4, 8]⟩
abbrev S8 : Shape := ⟨1, ![8]⟩
abbrev S19x8 : Shape := ⟨2, ![19, 8]⟩
abbrev S8x8 : Shape := ⟨2, ![8, 8]⟩
abbrev S19x4 : Shape := ⟨2, ![19, 4]⟩
abbrev S4x1 : Shape := ⟨2, ![4, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x4 : Shape := ⟨2, ![3200000, 4]⟩
abbrev S3200000x11 : Shape := ⟨2, ![3200000, 11]⟩
abbrev S1x4 : Shape := ⟨2, ![1, 4]⟩
abbrev S3200000x8 : Shape := ⟨2, ![3200000, 8]⟩
abbrev S1x8 : Shape := ⟨2, ![1, 8]⟩
abbrev S100000x8 : Shape := ⟨2, ![100000, 8]⟩
abbrev S3200000x19 : Shape := ⟨2, ![3200000, 19]⟩
abbrev S1x1 : Shape := ⟨2, ![1, 1]⟩
abbrev S100000x1 : Shape := ⟨2, ![100000, 1]⟩

abbrev nBuf : Space → Nat
  | .hbm => 166
  | .vmem => 0
  | .smem => 0
  | _ => 0

abbrev hbmTy0_0 (i : Nat) : BufTy := match i % 128 with
  | 0 => ⟨S100000x4, .f32⟩
  | 1 => ⟨S2x3200000, .i32⟩
  | 2 => ⟨S3200000x3, .f32⟩
  | 3 => ⟨S11x4, .f32⟩
  | 4 => ⟨S4, .f32⟩
  | 5 => ⟨S4x8, .f32⟩
  | 6 => ⟨S8, .f32⟩
  | 7 => ⟨S19x8, .f32⟩
  | 8 => ⟨S8, .f32⟩
  | 9 => ⟨S8x8, .f32⟩
  | 10 => ⟨S8, .f32⟩
  | 11 => ⟨S19x4, .f32⟩
  | 12 => ⟨S4, .f32⟩
  | 13 => ⟨S4x1, .f32⟩
  | 14 => ⟨S1, .f32⟩
  | 15 => ⟨S1x3200000, .i32⟩
  | 16 => ⟨S3200000, .i32⟩
  | 17 => ⟨S1x3200000, .i32⟩
  | 18 => ⟨S3200000, .i32⟩
  | 19 => ⟨S3200000x3, .f32⟩
  | 20 => ⟨S_, .f32⟩
  | 21 => ⟨S3200000, .f32⟩
  | 22 => ⟨S3200000x1, .f32⟩
  | 23 => ⟨S_, .f32⟩
  | 24 => ⟨S3200000x1, .f32⟩
  | 25 => ⟨S3200000x1, .f32⟩
  | 26 => ⟨S3200000x3, .f32⟩
  | 27 => ⟨S3200000x3, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000x4, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000x4, .f32⟩
  | 46 => ⟨S3200000x11, .f32⟩
  | 47 => ⟨S3200000x4, .f32⟩
  | 48 => ⟨S1x4, .f32⟩
  | 49 => ⟨S3200000x4, .f32⟩
  | 50 => ⟨S3200000x4, .f32⟩
  | 51 => ⟨S_, .f32⟩
  | 52 => ⟨S3200000x4, .f32⟩
  | 53 => ⟨S3200000x4, .i1⟩
  | 54 => ⟨S_, .f32⟩
  | 55 => ⟨S3200000x4, .f32⟩
  | 56 => ⟨S3200000x4, .i1⟩
  | 57 => ⟨S_, .f32⟩
  | 58 => ⟨S_, .f32⟩
  | 59 => ⟨S3200000x4, .f32⟩
  | 60 => ⟨S3200000x4, .f32⟩
  | 61 => ⟨S3200000x4, .f32⟩
  | 62 => ⟨S_, .f32⟩
  | 63 => ⟨S3200000x4, .f32⟩
  | 64 => ⟨S3200000x4, .f32⟩
  | 65 => ⟨S3200000x4, .f32⟩
  | 66 => ⟨S3200000x8, .f32⟩
  | 67 => ⟨S1x8, .f32⟩
  | 68 => ⟨S3200000x8, .f32⟩
  | 69 => ⟨S3200000x8, .f32⟩
  | 70 => ⟨S_, .f32⟩
  | 71 => ⟨S100000x8, .f32⟩
  | 72 => ⟨S3200000x1, .i32⟩
  | 73 => ⟨S100000x8, .f32⟩
  | 74 => ⟨S_, .i32⟩
  | 75 => ⟨S3200000, .i32⟩
  | 76 => ⟨S3200000, .i1⟩
  | 77 => ⟨S_, .i32⟩
  | 78 => ⟨S3200000, .i32⟩
  | 79 => ⟨S3200000, .i32⟩
  | 80 => ⟨S3200000, .i32⟩
  | 81 => ⟨S3200000x1, .i32⟩
  | 82 => ⟨S3200000x8, .f32⟩
  | 83 => ⟨S_, .i32⟩
  | 84 => ⟨S3200000, .i32⟩
  | 85 => ⟨S3200000, .i1⟩
  | 86 => ⟨S_, .i32⟩
  | 87 => ⟨S3200000, .i32⟩
  | 88 => ⟨S3200000, .i32⟩
  | 89 => ⟨S3200000, .i32⟩
  | 90 => ⟨S3200000x1, .i32⟩
  | 91 => ⟨S3200000x8, .f32⟩
  | 92 => ⟨S3200000x19, .f32⟩
  | 93 => ⟨S3200000x8, .f32⟩
  | 94 => ⟨S1x8, .f32⟩
  | 95 => ⟨S3200000x8, .f32⟩
  | 96 => ⟨S3200000x8, .f32⟩
  | 97 => ⟨S_, .f32⟩
  | 98 => ⟨S3200000x8, .f32⟩
  | 99 => ⟨S3200000x8, .i1⟩
  | 100 => ⟨S_, .f32⟩
  | 101 => ⟨S3200000x8, .f32⟩
  | 102 => ⟨S3200000x8, .i1⟩
  | 103 => ⟨S_, .f32⟩
  | 104 => ⟨S_, .f32⟩
  | 105 => ⟨S3200000x8, .f32⟩
  | 106 => ⟨S3200000x8, .f32⟩
  | 107 => ⟨S3200000x8, .f32⟩
  | 108 => ⟨S_, .f32⟩
  | 109 => ⟨S3200000x8, .f32⟩
  | 110 => ⟨S3200000x8, .f32⟩
  | 111 => ⟨S3200000x8, .f32⟩
  | 112 => ⟨S3200000x8, .f32⟩
  | 113 => ⟨S1x8, .f32⟩
  | 114 => ⟨S3200000x8, .f32⟩
  | 115 => ⟨S3200000x8, .f32⟩
  | 116 => ⟨S_, .f32⟩
  | 117 => ⟨S100000x8, .f32⟩
  | 118 => ⟨S3200000x1, .i32⟩
  | 119 => ⟨S100000x8, .f32⟩
  | 120 => ⟨S_, .i32⟩
  | 121 => ⟨S3200000, .i32⟩
  | 122 => ⟨S3200000, .i1⟩
  | 123 => ⟨S_, .i32⟩
  | 124 => ⟨S3200000, .i32⟩
  | 125 => ⟨S3200000, .i32⟩
  | 126 => ⟨S3200000, .i32⟩
  | 127 => ⟨S3200000x1, .i32⟩
  | _ => ⟨S100000x4, .f32⟩

abbrev hbmTy0_1 (i : Nat) : BufTy := match i % 128 with
  | 0 => ⟨S3200000x8, .f32⟩
  | 1 => ⟨S_, .i32⟩
  | 2 => ⟨S3200000, .i32⟩
  | 3 => ⟨S3200000, .i1⟩
  | 4 => ⟨S_, .i32⟩
  | 5 => ⟨S3200000, .i32⟩
  | 6 => ⟨S3200000, .i32⟩
  | 7 => ⟨S3200000, .i32⟩
  | 8 => ⟨S3200000x1, .i32⟩
  | 9 => ⟨S3200000x8, .f32⟩
  | 10 => ⟨S3200000x19, .f32⟩
  | 11 => ⟨S3200000x4, .f32⟩
  | 12 => ⟨S1x4, .f32⟩
  | 13 => ⟨S3200000x4, .f32⟩
  | 14 => ⟨S3200000x4, .f32⟩
  | 15 => ⟨S_, .f32⟩
  | 16 => ⟨S3200000x4, .f32⟩
  | 17 => ⟨S3200000x4, .i1⟩
  | 18 => ⟨S_, .f32⟩
  | 19 => ⟨S3200000x4, .f32⟩
  | 20 => ⟨S3200000x4, .i1⟩
  | 21 => ⟨S_, .f32⟩
  | 22 => ⟨S_, .f32⟩
  | 23 => ⟨S3200000x4, .f32⟩
  | 24 => ⟨S3200000x4, .f32⟩
  | 25 => ⟨S3200000x4, .f32⟩
  | 26 => ⟨S_, .f32⟩
  | 27 => ⟨S3200000x4, .f32⟩
  | 28 => ⟨S3200000x4, .f32⟩
  | 29 => ⟨S3200000x4, .f32⟩
  | 30 => ⟨S3200000x1, .f32⟩
  | 31 => ⟨S1x1, .f32⟩
  | 32 => ⟨S3200000x1, .f32⟩
  | 33 => ⟨S3200000x1, .f32⟩
  | 34 => ⟨S_, .f32⟩
  | 35 => ⟨S100000x1, .f32⟩
  | 36 => ⟨S3200000x1, .i32⟩
  | 37 => ⟨S100000x1, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_cst_1 : Ref sig .tc := ⟨.hbm, 57, rfl⟩
abbrev main_call0_call0_v0 : Ref sig .tc := ⟨.hbm, 58, rfl⟩
abbrev main_call0_call0_v1 : Ref sig .tc := ⟨.hbm, 59, rfl⟩
abbrev main_call0_v4 : Ref sig .tc := ⟨.hbm, 60, rfl⟩
abbrev main_call0_v5 : Ref sig .tc := ⟨.hbm, 61, rfl⟩
abbrev main_call0_cst_2 : Ref sig .tc := ⟨.hbm, 62, rfl⟩
abbrev main_call0_v6 : Ref sig .tc := ⟨.hbm, 63, rfl⟩
abbrev main_call0_v7 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_4 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_c_5 : Ref sig .tc := ⟨.hbm, 74, rfl⟩
abbrev main_v38 : Ref sig .tc := ⟨.hbm, 75, rfl⟩
abbrev main_v39 : Ref sig .tc := ⟨.hbm, 76, rfl⟩
abbrev main_c_6 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_7 : Ref sig .tc := ⟨.hbm, 83, rfl⟩
abbrev main_v45 : Ref sig .tc := ⟨.hbm, 84, rfl⟩
abbrev main_v46 : Ref sig .tc := ⟨.hbm, 85, rfl⟩
abbrev main_c_8 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_call1_cst : Ref sig .tc := ⟨.hbm, 97, rfl⟩
abbrev main_call1_v0 : Ref sig .tc := ⟨.hbm, 98, rfl⟩
abbrev main_call1_v1 : Ref sig .tc := ⟨.hbm, 99, rfl⟩
abbrev main_call1_cst_0 : Ref sig .tc := ⟨.hbm, 100, rfl⟩
abbrev main_call1_v2 : Ref sig .tc := ⟨.hbm, 101, rfl⟩
abbrev main_call1_v3 : Ref sig .tc := ⟨.hbm, 102, rfl⟩
abbrev main_call1_cst_1 : Ref sig .tc := ⟨.hbm, 103, rfl⟩
abbrev main_call1_call0_v0 : Ref sig .tc := ⟨.hbm, 104, rfl⟩
abbrev main_call1_call0_v1 : Ref sig .tc := ⟨.hbm, 105, rfl⟩
abbrev main_call1_v4 : Ref sig .tc := ⟨.hbm, 106, rfl⟩
abbrev main_call1_v5 : Ref sig .tc := ⟨.hbm, 107, rfl⟩
abbrev main_call1_cst_2 : Ref sig .tc := ⟨.hbm, 108, rfl⟩
abbrev main_call1_v6 : Ref sig .tc := ⟨.hbm, 109, rfl⟩
abbrev main_call1_v7 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_cst_9 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_c_10 : Ref sig .tc := ⟨.hbm, 120, rfl⟩
abbrev main_v65 : Ref sig .tc := ⟨.hbm, 121, rfl⟩
abbrev main_v66 : Ref sig .tc := ⟨.hbm, 122, rfl⟩
abbrev main_c_11 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_c_12 : Ref sig .tc := ⟨.hbm, 129, rfl⟩
abbrev main_v72 : Ref sig .tc := ⟨.hbm, 130, rfl⟩
abbrev main_v73 : Ref sig .tc := ⟨.hbm, 131, rfl⟩
abbrev main_c_13 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_call2_cst : Ref sig .tc := ⟨.hbm, 143, rfl⟩
abbrev main_call2_v0 : Ref sig .tc := ⟨.hbm, 144, rfl⟩
abbrev main_call2_v1 : Ref sig .tc := ⟨.hbm, 145, rfl⟩
abbrev main_call2_cst_0 : Ref sig .tc := ⟨.hbm, 146, rfl⟩
abbrev main_call2_v2 : Ref sig .tc := ⟨.hbm, 147, rfl⟩
abbrev main_call2_v3 : Ref sig .tc := ⟨.hbm, 148, rfl⟩
abbrev main_call2_cst_1 : Ref sig .tc := ⟨.hbm, 149, rfl⟩
abbrev main_call2_call0_v0 : Ref sig .tc := ⟨.hbm, 150, rfl⟩
abbrev main_call2_call0_v1 : Ref sig .tc := ⟨.hbm, 151, rfl⟩
abbrev main_call2_v4 : Ref sig .tc := ⟨.hbm, 152, rfl⟩
abbrev main_call2_v5 : Ref sig .tc := ⟨.hbm, 153, rfl⟩
abbrev main_call2_cst_2 : Ref sig .tc := ⟨.hbm, 154, rfl⟩
abbrev main_call2_v6 : Ref sig .tc := ⟨.hbm, 155, rfl⟩
abbrev main_call2_v7 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_cst_14 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  reducesTo_S3200000x3_S3200000_d1 : S3200000x3.ReducesTo [1] S3200000
  h_S_ : 0 < S_.numel
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S3200000x1_S3200000x3_0_1 : S3200000x1.BroadcastsInDim S3200000x3 (![0, 1] : Fin 2 → Fin S3200000x3.rank)
  bcast_S_S3200000 : S_.BroadcastsInDim S3200000 (![] : Fin 0 → Fin S3200000.rank)
  concatenates_S3200000x4_S3200000x4_S3200000x3_S3200000x11_d1 : Shape.Concatenates [S3200000x4, S3200000x4, S3200000x3] S3200000x11 1
  bcast_S4_S1x4_1 : S4.BroadcastsInDim S1x4 (![1] : Fin 1 → Fin S1x4.rank)
  bcast_S1x4_S3200000x4_0_1 : S1x4.BroadcastsInDim S3200000x4 (![0, 1] : Fin 2 → Fin S3200000x4.rank)
  bcast_S_S3200000x4 : S_.BroadcastsInDim S3200000x4 (![] : Fin 0 → Fin S3200000x4.rank)
  bcast_S8_S1x8_1 : S8.BroadcastsInDim S1x8 (![1] : Fin 1 → Fin S1x8.rank)
  bcast_S1x8_S3200000x8_0_1 : S1x8.BroadcastsInDim S3200000x8 (![0, 1] : Fin 2 → Fin S3200000x8.rank)
  bcast_S_S100000x8 : S_.BroadcastsInDim S100000x8 (![] : Fin 0 → Fin S100000x8.rank)
  concatenates_S3200000x8_S3200000x8_S3200000x3_S3200000x19_d1 : Shape.Concatenates [S3200000x8, S3200000x8, S3200000x3] S3200000x19 1
  bcast_S_S3200000x8 : S_.BroadcastsInDim S3200000x8 (![] : Fin 0 → Fin S3200000x8.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  bcast_S_S100000x1 : S_.BroadcastsInDim S100000x1 (![] : Fin 0 → Fin S100000x1.rank)
  gather_S100000x4_S3200000x1_S3200000x4_1_0_n_n_0_1_14_wf : GatherDims.WF S100000x4 S3200000x1 S3200000x4 [1] [0] [] [0] [] 1 ![1, 4]
  dot_S3200000x11_S11x4_S3200000x4_1_0_0_1_n_n_wf : DotDims.WF S3200000x11 S11x4 S3200000x4 [1] [0] [0] [1] [] []
  dot_S3200000x4_S4x8_S3200000x8_1_0_0_1_n_n_wf : DotDims.WF S3200000x4 S4x8 S3200000x8 [1] [0] [0] [1] [] []
  scatter_S100000x8_S3200000x1_S3200000x8_1_0_0_1_wf : ScatterDims.WF S100000x8 S3200000x1 S3200000x8 [1] [0] [0] 1
  gather_S100000x8_S3200000x1_S3200000x8_1_0_n_n_0_1_18_wf : GatherDims.WF S100000x8 S3200000x1 S3200000x8 [1] [0] [] [0] [] 1 ![1, 8]
  dot_S3200000x19_S19x8_S3200000x8_1_0_0_1_n_n_wf : DotDims.WF S3200000x19 S19x8 S3200000x8 [1] [0] [0] [1] [] []
  dot_S3200000x8_S8x8_S3200000x8_1_0_0_1_n_n_wf : DotDims.WF S3200000x8 S8x8 S3200000x8 [1] [0] [0] [1] [] []
  dot_S3200000x19_S19x4_S3200000x4_1_0_0_1_n_n_wf : DotDims.WF S3200000x19 S19x4 S3200000x4 [1] [0] [0] [1] [] []
  dot_S3200000x4_S4x1_S3200000x1_1_0_0_1_n_n_wf : DotDims.WF S3200000x4 S4x1 S3200000x1 [1] [0] [0] [1] [] []
  scatter_S100000x1_S3200000x1_S3200000x1_1_0_0_1_wf : ScatterDims.WF S100000x1 S3200000x1 S3200000x1 [1] [0] [0] 1

variable [Facts₀]

def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def dot_S3200000x11_S11x4_S3200000x4_1_0_0_1_n_n : DotDims S3200000x11 S11x4 S3200000x4 where
  lhsContracting := [1]
  rhsContracting := [0]
  lhsNonContracting := [0]
  rhsNonContracting := [1]
  lhsBatch := []
  rhsBatch := []
  wf := dot_S3200000x11_S11x4_S3200000x4_1_0_0_1_n_n_wf
def dot_S3200000x4_S4x8_S3200000x8_1_0_0_1_n_n : DotDims S3200000x4 S4x8 S3200000x8 where
  lhsContracting := [1]
  rhsContracting := [0]
  lhsNonContracting := [0]
  rhsNonContracting := [1]
  lhsBatch := []
  rhsBatch := []
  wf := dot_S3200000x4_S4x8_S3200000x8_1_0_0_1_n_n_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def dot_S3200000x19_S19x8_S3200000x8_1_0_0_1_n_n : DotDims S3200000x19 S19x8 S3200000x8 where
  lhsContracting := [1]
  rhsContracting := [0]
  lhsNonContracting := [0]
  rhsNonContracting := [1]
  lhsBatch := []
  rhsBatch := []
  wf := dot_S3200000x19_S19x8_S3200000x8_1_0_0_1_n_n_wf
def dot_S3200000x8_S8x8_S3200000x8_1_0_0_1_n_n : DotDims S3200000x8 S8x8 S3200000x8 where
  lhsContracting := [1]
  rhsContracting := [0]
  lhsNonContracting := [0]
  rhsNonContracting := [1]
  lhsBatch := []
  rhsBatch := []
  wf := dot_S3200000x8_S8x8_S3200000x8_1_0_0_1_n_n_wf
def dot_S3200000x19_S19x4_S3200000x4_1_0_0_1_n_n : DotDims S3200000x19 S19x4 S3200000x4 where
  lhsContracting := [1]
  rhsContracting := [0]
  lhsNonContracting := [0]
  rhsNonContracting := [1]
  lhsBatch := []
  rhsBatch := []
  wf := dot_S3200000x19_S19x4_S3200000x4_1_0_0_1_n_n_wf
def dot_S3200000x4_S4x1_S3200000x1_1_0_0_1_n_n : DotDims S3200000x4 S4x1 S3200000x1 where
  lhsContracting := [1]
  rhsContracting := [0]
  lhsNonContracting := [0]
  rhsNonContracting := [1]
  lhsBatch := []
  rhsBatch := []
  wf := dot_S3200000x4_S4x1_S3200000x1_1_0_0_1_n_n_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

class Facts : Prop extends Facts₀ where

variable [Facts]
-- ==== Proof.Spec.lean ====
import Idealize.ShloMosaic.Lib.ValueIdx
import Idealize.ShloMosaic.PureOps.Ideal.Laws
import Mathlib.Algebra.BigOperators.Fin

/-!
# What the three message-passing layers compute, index by index, on the extended reals

A graph of `NN` nodes and `NE` edges; edge `e` runs from node `src e` to node `dst e`, the two rows of the
index array `ei`. One layer takes node features `X` (a row of `C` numbers per node) and the normalised edge
features `EN` (three numbers per edge). For every edge it forms the row "features of `dst e`, features of
`src e`, edge features of `e`" of length `C + C + 3`, applies an affine map to `M` hidden units, the
exponential linear unit, a second affine map to `O` outputs, and adds the result into node `dst e`.
The first affine map is written as three partial sums (over the `dst` part, the `src` part and the edge part
of the row); the order and grouping of a finite sum on the extended reals is free, so this is the same number as
the single sum over the whole row (`sum_split3`).
-/

noncomputable section

open scoped BigOperators

namespace Cert.Spec

open Idealize.ShloMosaic Idealize.ShloMosaic.ValueIdx

/-- The number of nodes and of edges. -/
abbrev NN : ℕ := 100000
abbrev NE : ℕ := 3200000

/-- The three float literals both programs carry, as extended reals: 0, 1 and the regulariser of the
    edge-feature normalisation. -/
abbrev zero32 : EReal := Ideal.ofBits .f32 0x00000000#32
abbrev one32 : EReal := Ideal.ofBits .f32 0x3F800000#32
abbrev eps32 : EReal := Ideal.ofBits .f32 0x322BCC77#32

theorem zero32_eq : zero32 = 0 := Ideal.ofBits_zero_f32

theorem one32_eq : one32 = 1 := by
  simp [one32, Ideal.ofBits, Ideal.ieee, -EReal.coe_mul]; norm_num

/-- The exponential linear unit: `z` where `z` is positive, `exp z - 1` elsewhere. -/
def elu (z : EReal) : EReal := if zero32 < z then z else Ideal.exp z - one32

/-- The node an index word names: the word read as a signed integer, kept inside `[0, NN - 1]`.
    (For a word in range this is the word's value.) -/
def nodeOf (w : BitVec 32) : Fin NN := ⟨min w.toInt.toNat 99999, by show min _ 99999 < 100000; omega⟩

/-- The two-layer perceptron of one edge block in the channel-major layout: the arrays hold one COLUMN per
    edge; `xd`, `xs` the `C` features of the edge's two end nodes, `eT` its three edge features; `wd`, `ws`,
    `we` the three column blocks of the first weight matrix, transposed; `w2` the second, transposed; the
    biases as columns. Output channel `i 0` of edge `i 1`. -/
def mlpT {C M O T : ℕ} (xd xs : (⟨2, ![C, T]⟩ : Shape).Idx → EReal) (eT : (⟨2, ![3, T]⟩ : Shape).Idx → EReal)
    (wd ws : (⟨2, ![M, C]⟩ : Shape).Idx → EReal) (we : (⟨2, ![M, 3]⟩ : Shape).Idx → EReal)
    (b1 : (⟨2, ![M, 1]⟩ : Shape).Idx → EReal) (w2 : (⟨2, ![O, M]⟩ : Shape).Idx → EReal)
    (b2 : (⟨2, ![O, 1]⟩ : Shape).Idx → EReal) : (⟨2, ![O, T]⟩ : Shape).Idx → EReal := fun i =>
  (∑ j : Fin M, w2 (ix2 (i 0) j) *
      elu ((((∑ k : Fin C, wd (ix2 j k) * xd (ix2 k (i 1))) + (∑ k : Fin C, ws (ix2 j k) * xs (ix2 k (i 1))))
            + (∑ k : Fin 3, we (ix2 j k) * eT (ix2 k (i 1)))) + b1 (ix2 j 0)))
    + b2 (ix2 (i 0) 0)

/-- Hidden unit `j` of edge `e`: the first affine map in its three partial sums, then the unit. Row `k` of
    `W1` multiplies feature `k` of node `dst e`, row `C + k` feature `k` of node `src e`, row `C + C + k` edge
    feature `k`. -/
def hidden {C M K : ℕ} (hK : C + C + 3 = K) (X : (⟨2, ![NN, C]⟩ : Shape).Idx → EReal)
    (EN : (⟨2, ![NE, 3]⟩ : Shape).Idx → EReal) (ei : (⟨2, ![2, NE]⟩ : Shape).Idx → BitVec 32)
    (W1 : (⟨2, ![K, M]⟩ : Shape).Idx → EReal) (b1 : (⟨1, ![M]⟩ : Shape).Idx → EReal) (e : Fin NE) (j : Fin M) : EReal :=
  elu ((((∑ k : Fin C, W1 (ix2 ⟨k.val, by omega⟩ j) * X (ix2 (nodeOf (ei (ix2 1 e))) k))
          + (∑ k : Fin C, W1 (ix2 ⟨C + k.val, by omega⟩ j) * X (ix2 (nodeOf (ei (ix2 0 e))) k)))
        + (∑ k : Fin 3, W1 (ix2 ⟨C + C + k.val, by omega⟩ j) * EN (ix2 e k))) + b1 (ix1 j))

/-- What edge `e` sends: output `c` of its perceptron. -/
def message {C M O K : ℕ} (hK : C + C + 3 = K) (X : (⟨2, ![NN, C]⟩ : Shape).Idx → EReal)
    (EN : (⟨2, ![NE, 3]⟩ : Shape).Idx → EReal) (ei : (⟨2, ![2, NE]⟩ : Shape).Idx → BitVec 32)
    (W1 : (⟨2, ![K, M]⟩ : Shape).Idx → EReal) (b1 : (⟨1, ![M]⟩ : Shape).Idx → EReal)
    (W2 : (⟨2, ![M, O]⟩ : Shape).Idx → EReal) (b2 : (⟨1, ![O]⟩ : Shape).Idx → EReal) (e : Fin NE) (c : Fin O) : EReal :=
  (∑ j : Fin M, W2 (ix2 j c) * hidden hK X EN ei W1 b1 e j) + b2 (ix1 c)

/-- One layer: node `n`'s new feature `c` is zero plus the sum of the messages of the edges whose `dst` word,
    read signed, is `n`. -/
def layer {C M O K : ℕ} (hK : C + C + 3 = K) (X : (⟨2, ![NN, C]⟩ : Shape).Idx → EReal)
    (EN : (⟨2, ![NE, 3]⟩ : Shape).Idx → EReal) (ei : (⟨2, ![2, NE]⟩ : Shape).Idx → BitVec 32)
    (W1 : (⟨2, ![K, M]⟩ : Shape).Idx → EReal) (b1 : (⟨1, ![M]⟩ : Shape).Idx → EReal)
    (W2 : (⟨2, ![M, O]⟩ : Shape).Idx → EReal) (b2 : (⟨1, ![O]⟩ : Shape).Idx → EReal) :
    (⟨2, ![NN, O]⟩ : Shape).Idx → EReal := fun i =>
  zero32 + ∑ e ∈ Finset.univ.filter (fun e : Fin NE => (ei (ix2 1 e)).toInt = ((i 0).val : ℤ)),
    message hK X EN ei W1 b1 W2 b2 e (i 1)

/-- The normalised edge features: each of an edge's three numbers divided by the sum of their squares plus
    the regulariser. -/
def enorm (E : (⟨2, ![NE, 3]⟩ : Shape).Idx → EReal) : (⟨2, ![NE, 3]⟩ : Shape).Idx → EReal := fun i =>
  Ideal.div (E i) ((zero32 + ∑ k : Fin 3, E (ix2 (i 0) k) * E (ix2 (i 0) k)) + eps32)

/-- The network: three layers, of widths 4 → (4) → 8, 8 → (8) → 8, 8 → (4) → 1, over one edge-feature
    normalisation. -/
def out (x : (⟨2, ![NN, 4]⟩ : Shape).Idx → EReal) (ei : (⟨2, ![2, NE]⟩ : Shape).Idx → BitVec 32)
    (e : (⟨2, ![NE, 3]⟩ : Shape).Idx → EReal)
    (W1a : (⟨2, ![11, 4]⟩ : Shape).Idx → EReal) (b1a : (⟨1, ![4]⟩ : Shape).Idx → EReal)
    (W2a : (⟨2, ![4, 8]⟩ : Shape).Idx → EReal) (b2a : (⟨1, ![8]⟩ : Shape).Idx → EReal)
    (W1b : (⟨2, ![19, 8]⟩ : Shape).Idx → EReal) (b1b : (⟨1, ![8]⟩ : Shape).Idx → EReal)
    (W2b : (⟨2, ![8, 8]⟩ : Shape).Idx → EReal) (b2b : (⟨1, ![8]⟩ : Shape).Idx → EReal)
    (W1c : (⟨2, ![19, 4]⟩ : Shape).Idx → EReal) (b1c : (⟨1, ![4]⟩ : Shape).Idx → EReal)
    (W2c : (⟨2, ![4, 1]⟩ : Shape).Idx → EReal) (b2c : (⟨1, ![1]⟩ : Shape).Idx → EReal) :
    (⟨2, ![NN, 1]⟩ : Shape).Idx → EReal :=
  layer (C := 8) (M := 4) (O := 1) (K := 19) rfl
    (layer (C := 8) (M := 8) (O := 8) (K := 19) rfl
      (layer (C := 4) (M := 4) (O := 8) (K := 11) rfl x (enorm e) ei W1a b1a W2a b2a)
      (enorm e) ei W1b b1b W2b b2b)
    (enorm e) ei W1c b1c W2c b2c

/-- An index word in `[0, NN)` names the node of its value. -/
theorem nodeOf_val (w : BitVec 32) (h0 : 0 ≤ w.toInt) (h1 : w.toInt < 100000) : ((nodeOf w).val : ℤ) = w.toInt := by
  show ((min w.toInt.toNat 99999 : ℕ) : ℤ) = w.toInt
  omega

/-- A sum over a row of length `C + C + 3` is the sum of its three parts. -/
theorem sum_split3 {C K : ℕ} (hK : C + C + 3 = K) (f : Fin K → EReal) :
    ∑ k : Fin K, f k
      = ((∑ k : Fin C, f ⟨k.val, by omega⟩) + (∑ k : Fin C, f ⟨C + k.val, by omega⟩))
        + (∑ k : Fin 3, f ⟨C + C + k.val, by omega⟩) := by
  subst hK
  rw [Fin.sum_univ_add, Fin.sum_univ_add]
  rfl

end Cert.Spec

end
-- ==== Proof.PreIdx.lean ====
import proofs.«409580_j89481348645420_1_alg».proof.Pre_finite_inputs
import Idealize.ShloMosaic.Lib.ReduceAll
import Idealize.ShloMosaic.Lib.Affine
import Idealize.ShloMosaic.Lib.ValueIdx
import Idealize.ShloMosaic.Lib.StableHlo.Predicate

/-!
# The index words are node numbers

The precondition's last two conjuncts say that every word of the edge-index array, read as a signed
integer, is at least 0 and below 100000. Each is an "all" over the array (a reduction by `and` of a
comparison against a broadcast constant); the conjunction of all the precondition's parts being 1, each part
is 1, and an "all" that is 1 had a 1 at every index.
-/

namespace Cert.PreIdx

open Idealize.ShloMosaic Cert.Pre_finite_inputs

instance : Subsingleton S_.Idx := ⟨fun a b => funext fun d => d.elim0⟩

variable [Facts]

theorem part4_range {F : FTy → Type} [FloatOps F] (a1 : IVec S2x3200000 32) (p q : IVec S_ 1)
    (h : fn_part4 (F := F) a1 p q = fun _ => 1#1) (i : S2x3200000.Idx) :
    0 ≤ (a1 i).toInt ∧ (a1 i).toInt < 100000 := by
  have e := congrFun h ValueIdx.ix0
  dsimp only [fn_part4] at e
  obtain ⟨e12, e3⟩ := IntOp.andi_eq_one.mp e
  obtain ⟨_, e2⟩ := IntOp.andi_eq_one.mp e12
  have g2 := Host.reduce_andi_all _ _ _ _ _ e2 i
  have g3 := Host.reduce_andi_all _ _ _ _ _ e3 i
  simp only [cmpi, broadcastInDim, constantI] at g2 g3
  unfold IntOp.cmpi at g2 g3
  rw [StableHlo.Predicate.ofBool_eq_one_iff] at g2 g3
  simp only [BitVec.slt, BitVec.sle, decide_eq_true_eq] at g2 g3
  have z0 : (0#32 : BitVec 32).toInt = 0 := by decide
  have z1 : (100000#32 : BitVec 32).toInt = 100000 := by decide
  rw [z0] at g2
  rw [z1] at g3
  exact ⟨g2, g3⟩

/-- The whole precondition being 1, every index word is a node number. -/
theorem range_of_pre {F : FTy → Type} [FloatOps F] (a0 : FVec F S100000x4 .f32) (a1 : IVec S2x3200000 32) (a2 : FVec F S3200000x3 .f32)
    (a3 : FVec F S11x4 .f32) (a4 : FVec F S4 .f32) (a5 : FVec F S4x8 .f32) (a6 : FVec F S8 .f32) (a7 : FVec F S19x8 .f32)
    (a8 : FVec F S8 .f32) (a9 : FVec F S8x8 .f32) (a10 : FVec F S8 .f32) (a11 : FVec F S19x4 .f32) (a12 : FVec F S4 .f32)
    (a13 : FVec F S4x1 .f32) (a14 : FVec F S1 .f32)
    (h : fn (F := F) a0 a1 a2 a3 a4 a5 a6 a7 a8 a9 a10 a11 a12 a13 a14 = fun _ => 1#1) (i : S2x3200000.Idx) :
    0 ≤ (a1 i).toInt ∧ (a1 i).toInt < 100000 := by
  dsimp only [fn, fn_part1, fn_part2, fn_part3] at h
  exact part4_range a1 _ _ h i

end Cert.PreIdx
-- ==== Proof.KRegion0.lean ====
import proofs.«409580_j89481348645420_1_alg».proof.Proof.Gen.KernelIdeal.Frame
import proofs.«409580_j89481348645420_1_alg».proof.Proof.Spec
import Idealize.ShloMosaic.Lib.Pipeline.Value
import Idealize.ShloMosaic.Lib.ValueIdx
import Idealize.ShloMosaic.PureOps.Ideal.Laws

/-!
# What the first perceptron call leaves in its output array

The first call runs the edge perceptron with 4 input channels, 4 hidden units and 8 outputs over the
3200000 edge columns, 64000 columns at a grid point. Its body multiplies the three small weight matrices into
the three column blocks (features of the edge's end nodes, edge features), adds the three products and the
bias column, applies the exponential linear unit, multiplies by the second weight matrix and adds the second
bias column. Read entry by entry on the extended reals, each product into a zero accumulator is a finite sum
over the contracted axis, a change of float format is the identity, and the block a grid point writes back is
the block of ONE function of the whole arrays: `Cert.Spec.mlpT`. The blocks cover the array (the point that
covers column `e` is `e / 64000`), so the array ends holding that function.
-/

noncomputable section

open scoped BigOperators

namespace Cert.KernelIdeal.KRegion0

open Cert.KernelIdeal Cert.KernelIdeal.Gen Idealize.ShloMosaic Idealize.ShloMosaic.TcCoe Idealize.ShloMosaic.ValueIdx Idealize.SL.Sem
open Idealize.ShloMosaic.Pipeline (Dat)

/-! ## The three contractions, axis by axis

Each record contracts axis 1 of its left operand with axis 0 of its right operand; the left operand's axis 0 and
the right operand's axis 1 are the result's two axes. -/

theorem lhs_nn_0 (i : S4x64000.Idx) (q : dot_S4x4_S4x64000_S4x64000_1_0_0_1_n_n.contr.Idx) :
    (dot_S4x4_S4x64000_S4x64000_1_0_0_1_n_n.lhsIdx i q 0).val = (i 0).val := by
  unfold DotDims.lhsIdx
  rw [dif_neg (show ¬(0 : Fin S4x4.rank) ∈ dot_S4x4_S4x64000_S4x64000_1_0_0_1_n_n.lhsBatch by decide), dif_pos (show (0 : Fin S4x4.rank) ∈ dot_S4x4_S4x64000_S4x64000_1_0_0_1_n_n.lhsNonContracting by decide)]
  rfl
theorem lhs_nn_1 (i : S4x64000.Idx) (q : dot_S4x4_S4x64000_S4x64000_1_0_0_1_n_n.contr.Idx) :
    (dot_S4x4_S4x64000_S4x64000_1_0_0_1_n_n.lhsIdx i q 1).val = (q ⟨0, by decide⟩).val :=
  dot_S4x4_S4x64000_S4x64000_1_0_0_1_n_n.lhsIdx_val_of_single rfl i q
theorem rhs_nn_0 (i : S4x64000.Idx) (q : dot_S4x4_S4x64000_S4x64000_1_0_0_1_n_n.contr.Idx) :
    (dot_S4x4_S4x64000_S4x64000_1_0_0_1_n_n.rhsIdx i q 0).val = (q ⟨0, by decide⟩).val :=
  dot_S4x4_S4x64000_S4x64000_1_0_0_1_n_n.rhsIdx_val_of_single rfl i q
theorem rhs_nn_1 (i : S4x64000.Idx) (q : dot_S4x4_S4x64000_S4x64000_1_0_0_1_n_n.contr.Idx) :
    (dot_S4x4_S4x64000_S4x64000_1_0_0_1_n_n.rhsIdx i q 1).val = (i 1).val := by
  unfold DotDims.rhsIdx
  rw [dif_neg (show ¬(1 : Fin S4x64000.rank) ∈ dot_S4x4_S4x64000_S4x64000_1_0_0_1_n_n.rhsBatch by decide), dif_pos (show (1 : Fin S4x64000.rank) ∈ dot_S4x4_S4x64000_S4x64000_1_0_0_1_n_n.rhsNonContracting by decide)]
  rfl

/-- A 4-by-4 matrix times a 4-by-64000 block into a zero accumulator, at row `j` and column `e`: the sum over the 4 contracted positions. -/
theorem mm_nn (l : FVec Ideal S4x4 .bf16) (r : FVec Ideal S4x64000 .bf16) (j : Fin 4) (e : Fin 64000) :
    matmul dot_S4x4_S4x64000_S4x64000_1_0_0_1_n_n none l r (constant S4x64000 .f32 0x00000000#32) (ix2 j e)
      = ∑ k : Fin 4, l (ix2 j k) * r (ix2 k e) := by
  simp only [matmul]
  rw [Ideal.matmul_constant_zero_apply, ← Equiv.sum_comp (contrEquiv1 dot_S4x4_S4x64000_S4x64000_1_0_0_1_n_n 4 rfl rfl).symm]
  refine Finset.sum_congr rfl fun k _ => ?_
  have hk := contrEquiv1_symm_val dot_S4x4_S4x64000_S4x64000_1_0_0_1_n_n 4 rfl rfl k
  have el : dot_S4x4_S4x64000_S4x64000_1_0_0_1_n_n.lhsIdx (ix2 j e) ((contrEquiv1 dot_S4x4_S4x64000_S4x64000_1_0_0_1_n_n 4 rfl rfl).symm k) = ix2 j k := funext fun a => Fin.ext (by
    match a with
    | ⟨0, _⟩ => exact lhs_nn_0 _ _
    | ⟨1, _⟩ => exact (lhs_nn_1 _ _).trans hk)
  have er : dot_S4x4_S4x64000_S4x64000_1_0_0_1_n_n.rhsIdx (ix2 j e) ((contrEquiv1 dot_S4x4_S4x64000_S4x64000_1_0_0_1_n_n 4 rfl rfl).symm k) = ix2 k e := funext fun a => Fin.ext (by
    match a with
    | ⟨0, _⟩ => exact (rhs_nn_0 _ _).trans hk
    | ⟨1, _⟩ => exact rhs_nn_1 _ _)
  rw [el, er]

theorem lhs_ne_0 (i : S4x64000.Idx) (q : dot_S4x3_S3x64000_S4x64000_1_0_0_1_n_n.contr.Idx) :
    (dot_S4x3_S3x64000_S4x64000_1_0_0_1_n_n.lhsIdx i q 0).val = (i 0).val := by
  unfold DotDims.lhsIdx
  rw [dif_neg (show ¬(0 : Fin S4x3.rank) ∈ dot_S4x3_S3x64000_S4x64000_1_0_0_1_n_n.lhsBatch by decide), dif_pos (show (0 : Fin S4x3.rank) ∈ dot_S4x3_S3x64000_S4x64000_1_0_0_1_n_n.lhsNonContracting by decide)]
  rfl
theorem lhs_ne_1 (i : S4x64000.Idx) (q : dot_S4x3_S3x64000_S4x64000_1_0_0_1_n_n.contr.Idx) :
    (dot_S4x3_S3x64000_S4x64000_1_0_0_1_n_n.lhsIdx i q 1).val = (q ⟨0, by decide⟩).val :=
  dot_S4x3_S3x64000_S4x64000_1_0_0_1_n_n.lhsIdx_val_of_single rfl i q
theorem rhs_ne_0 (i : S4x64000.Idx) (q : dot_S4x3_S3x64000_S4x64000_1_0_0_1_n_n.contr.Idx) :
    (dot_S4x3_S3x64000_S4x64000_1_0_0_1_n_n.rhsIdx i q 0).val = (q ⟨0, by decide⟩).val :=
  dot_S4x3_S3x64000_S4x64000_1_0_0_1_n_n.rhsIdx_val_of_single rfl i q
theorem rhs_ne_1 (i : S4x64000.Idx) (q : dot_S4x3_S3x64000_S4x64000_1_0_0_1_n_n.contr.Idx) :
    (dot_S4x3_S3x64000_S4x64000_1_0_0_1_n_n.rhsIdx i q 1).val = (i 1).val := by
  unfold DotDims.rhsIdx
  rw [dif_neg (show ¬(1 : Fin S3x64000.rank) ∈ dot_S4x3_S3x64000_S4x64000_1_0_0_1_n_n.rhsBatch by decide), dif_pos (show (1 : Fin S3x64000.rank) ∈ dot_S4x3_S3x64000_S4x64000_1_0_0_1_n_n.rhsNonContracting by decide)]
  rfl

/-- A 4-by-3 matrix times a 3-by-64000 block into a zero accumulator, at row `j` and column `e`: the sum over the 3 contracted positions. -/
theorem mm_ne (l : FVec Ideal S4x3 .bf16) (r : FVec Ideal S3x64000 .bf16) (j : Fin 4) (e : Fin 64000) :
    matmul dot_S4x3_S3x64000_S4x64000_1_0_0_1_n_n none l r (constant S4x64000 .f32 0x00000000#32) (ix2 j e)
      = ∑ k : Fin 3, l (ix2 j k) * r (ix2 k e) := by
  simp only [matmul]
  rw [Ideal.matmul_constant_zero_apply, ← Equiv.sum_comp (contrEquiv1 dot_S4x3_S3x64000_S4x64000_1_0_0_1_n_n 3 rfl rfl).symm]
  refine Finset.sum_congr rfl fun k _ => ?_
  have hk := contrEquiv1_symm_val dot_S4x3_S3x64000_S4x64000_1_0_0_1_n_n 3 rfl rfl k
  have el : dot_S4x3_S3x64000_S4x64000_1_0_0_1_n_n.lhsIdx (ix2 j e) ((contrEquiv1 dot_S4x3_S3x64000_S4x64000_1_0_0_1_n_n 3 rfl rfl).symm k) = ix2 j k := funext fun a => Fin.ext (by
    match a with
    | ⟨0, _⟩ => exact lhs_ne_0 _ _
    | ⟨1, _⟩ => exact (lhs_ne_1 _ _).trans hk)
  have er : dot_S4x3_S3x64000_S4x64000_1_0_0_1_n_n.rhsIdx (ix2 j e) ((contrEquiv1 dot_S4x3_S3x64000_S4x64000_1_0_0_1_n_n 3 rfl rfl).symm k) = ix2 k e := funext fun a => Fin.ext (by
    match a with
    | ⟨0, _⟩ => exact (rhs_ne_0 _ _).trans hk
    | ⟨1, _⟩ => exact rhs_ne_1 _ _)
  rw [el, er]

theorem lhs_no_0 (i : S8x64000.Idx) (q : dot_S8x4_S4x64000_S8x64000_1_0_0_1_n_n.contr.Idx) :
    (dot_S8x4_S4x64000_S8x64000_1_0_0_1_n_n.lhsIdx i q 0).val = (i 0).val := by
  unfold DotDims.lhsIdx
  rw [dif_neg (show ¬(0 : Fin S8x4.rank) ∈ dot_S8x4_S4x64000_S8x64000_1_0_0_1_n_n.lhsBatch by decide), dif_pos (show (0 : Fin S8x4.rank) ∈ dot_S8x4_S4x64000_S8x64000_1_0_0_1_n_n.lhsNonContracting by decide)]
  rfl
theorem lhs_no_1 (i : S8x64000.Idx) (q : dot_S8x4_S4x64000_S8x64000_1_0_0_1_n_n.contr.Idx) :
    (dot_S8x4_S4x64000_S8x64000_1_0_0_1_n_n.lhsIdx i q 1).val = (q ⟨0, by decide⟩).val :=
  dot_S8x4_S4x64000_S8x64000_1_0_0_1_n_n.lhsIdx_val_of_single rfl i q
theorem rhs_no_0 (i : S8x64000.Idx) (q : dot_S8x4_S4x64000_S8x64000_1_0_0_1_n_n.contr.Idx) :
    (dot_S8x4_S4x64000_S8x64000_1_0_0_1_n_n.rhsIdx i q 0).val = (q ⟨0, by decide⟩).val :=
  dot_S8x4_S4x64000_S8x64000_1_0_0_1_n_n.rhsIdx_val_of_single rfl i q
theorem rhs_no_1 (i : S8x64000.Idx) (q : dot_S8x4_S4x64000_S8x64000_1_0_0_1_n_n.contr.Idx) :
    (dot_S8x4_S4x64000_S8x64000_1_0_0_1_n_n.rhsIdx i q 1).val = (i 1).val := by
  unfold DotDims.rhsIdx
  rw [dif_neg (show ¬(1 : Fin S4x64000.rank) ∈ dot_S8x4_S4x64000_S8x64000_1_0_0_1_n_n.rhsBatch by decide), dif_pos (show (1 : Fin S4x64000.rank) ∈ dot_S8x4_S4x64000_S8x64000_1_0_0_1_n_n.rhsNonContracting by decide)]
  rfl

/-- An 8-by-4 matrix times a 4-by-64000 block into a zero accumulator, at row `j` and column `e`: the sum over the 4 contracted positions. -/
theorem mm_no (l : FVec Ideal S8x4 .bf16) (r : FVec Ideal S4x64000 .bf16) (j : Fin 8) (e : Fin 64000) :
    matmul dot_S8x4_S4x64000_S8x64000_1_0_0_1_n_n none l r (constant S8x64000 .f32 0x00000000#32) (ix2 j e)
      = ∑ k : Fin 4, l (ix2 j k) * r (ix2 k e) := by
  simp only [matmul]
  rw [Ideal.matmul_constant_zero_apply, ← Equiv.sum_comp (contrEquiv1 dot_S8x4_S4x64000_S8x64000_1_0_0_1_n_n 4 rfl rfl).symm]
  refine Finset.sum_congr rfl fun k _ => ?_
  have hk := contrEquiv1_symm_val dot_S8x4_S4x64000_S8x64000_1_0_0_1_n_n 4 rfl rfl k
  have el : dot_S8x4_S4x64000_S8x64000_1_0_0_1_n_n.lhsIdx (ix2 j e) ((contrEquiv1 dot_S8x4_S4x64000_S8x64000_1_0_0_1_n_n 4 rfl rfl).symm k) = ix2 j k := funext fun a => Fin.ext (by
    match a with
    | ⟨0, _⟩ => exact lhs_no_0 _ _
    | ⟨1, _⟩ => exact (lhs_no_1 _ _).trans hk)
  have er : dot_S8x4_S4x64000_S8x64000_1_0_0_1_n_n.rhsIdx (ix2 j e) ((contrEquiv1 dot_S8x4_S4x64000_S8x64000_1_0_0_1_n_n 4 rfl rfl).symm k) = ix2 k e := funext fun a => Fin.ext (by
    match a with
    | ⟨0, _⟩ => exact (rhs_no_0 _ _).trans hk
    | ⟨1, _⟩ => exact rhs_no_1 _ _)
  rw [el, er]

/-! ## The body's arithmetic at an entry -/

/-- The unit's activation at one value: the select on `z > 0` between `z` and `exp z - 1`. -/
theorem elu_eq (z : EReal) :
    Scalar.select (FloatOps.cmpf (F := Ideal) (φ := .f32) .ogt z (Scalar.ofBits .f32 0x00000000#32)) z
        (FloatOps.subf (F := Ideal) (φ := .f32) (FloatOps.exp z) (Scalar.ofBits .f32 0x3F800000#32))
      = Cert.Spec.elu z := by
  unfold Cert.Spec.elu
  show Scalar.select (BitVec.ofBool (decide (Cert.Spec.zero32 < z))) z (Ideal.exp z - Cert.Spec.one32) = _
  by_cases h : Cert.Spec.zero32 < z
  · rw [if_pos h, decide_eq_true h]; rfl
  · rw [if_neg h, decide_eq_false h]; rfl

/-- The same with the value named by an equation. -/
theorem elu_of_eq (a b : EReal) (h : a = b) :
    Scalar.select (FloatOps.cmpf (F := Ideal) (φ := .f32) .ogt a (Scalar.ofBits .f32 0x00000000#32)) a
        (FloatOps.subf (F := Ideal) (φ := .f32) (FloatOps.exp a) (Scalar.ofBits .f32 0x3F800000#32))
      = Cert.Spec.elu b := by
  subst h; exact elu_eq a

/-- A bias column of height 4 broadcast along the 64000 columns reads its row's entry. -/
theorem bcast4 (v : FVec Ideal S4x1 .f32) (j : Fin 4) (e : Fin 64000) :
    broadcastTo S4x64000 v broadcasts_S4x1_S4x64000 (ix2 j e) = v (ix2 j 0) :=
  broadcastTo_apply v broadcasts_S4x1_S4x64000 (ix2 j e) (ix2 j 0) fun a => by
    match a with
    | ⟨0, _⟩ => rfl
    | ⟨1, _⟩ => rfl

/-- A bias column of height 8 likewise. -/
theorem bcast8 (v : FVec Ideal S8x1 .f32) (j : Fin 8) (e : Fin 64000) :
    broadcastTo S8x64000 v broadcasts_S8x1_S8x64000 (ix2 j e) = v (ix2 j 0) :=
  broadcastTo_apply v broadcasts_S8x1_S8x64000 (ix2 j e) (ix2 j 0) fun a => by
    match a with
    | ⟨0, _⟩ => rfl
    | ⟨1, _⟩ => rfl

/-- Hidden unit `j` of column `e` of a block: the three partial products added, the bias, the unit. The
    roundings to the narrower format on the way into the products are the identity here. -/
theorem hidden_apply (v0 v3 : Vec Ideal S4x64000 .f32) (v6 : Vec Ideal S3x64000 .f32) (v9 v12 : Vec Ideal S4x4 .f32)
    (v15 : Vec Ideal S4x3 .f32) (v23 : Vec Ideal S4x1 .f32) (j : Fin 4) (e : Fin 64000) :
    k0_pay3 (F := Ideal) v0 v3 v6 v9 v12 v15 v23 (ix2 j e)
      = Cert.Spec.elu ((((∑ k : Fin 4, v9 (ix2 j k) * v0 (ix2 k e)) + (∑ k : Fin 4, v12 (ix2 j k) * v3 (ix2 k e)))
            + (∑ k : Fin 3, v15 (ix2 j k) * v6 (ix2 k e))) + v23 (ix2 j 0)) := by
  unfold k0_pay3
  simp only [shapeCast_self]
  refine elu_of_eq _ _ ?_
  rw [addf_apply, addf_apply, addf_apply, mm_nn, mm_nn, mm_ne, bcast4]
  rfl

/-- Output `o` of column `e` of a block, from the hidden units' block `h`: the second product and its bias. -/
theorem second_apply (v33 : Vec Ideal S8x4 .f32) (h : FVec Ideal S4x64000 .bf16) (v38 : Vec Ideal S8x1 .f32)
    (o : Fin 8) (e : Fin 64000) :
    k0_pay1 (F := Ideal) (k0_pay2 v33) h (constant S8x64000 .f32 0x00000000#32) v38 (ix2 o e)
      = (∑ j : Fin 4, v33 (ix2 o j) * h (ix2 j e)) + v38 (ix2 o 0) := by
  unfold k0_pay1 k0_pay2
  simp only [shapeCast_self]
  rw [addf_apply, mm_no, bcast8]
  rfl

/-- What the body leaves in the output block at row `o`, column `e`, from its nine input blocks. -/
theorem out_apply (x0 x1 : Vec Ideal S4x64000 .f32) (x2 : Vec Ideal S3x64000 .f32) (x3 x4 : Vec Ideal S4x4 .f32)
    (x5 : Vec Ideal S4x3 .f32) (x6 : Vec Ideal S4x1 .f32) (x7 : Vec Ideal S8x4 .f32) (x8 : Vec Ideal S8x1 .f32)
    (o : Fin 8) (e : Fin 64000) :
    out0_9 (F := Ideal) x0 x1 x2 x3 x4 x5 x6 x7 x8 (ix2 o e)
      = (∑ j : Fin 4, x7 (ix2 o j) *
          Cert.Spec.elu ((((∑ k : Fin 4, x3 (ix2 j k) * x0 (ix2 k e)) + (∑ k : Fin 4, x4 (ix2 j k) * x1 (ix2 k e)))
            + (∑ k : Fin 3, x5 (ix2 j k) * x2 (ix2 k e))) + x6 (ix2 j 0)))
        + x8 (ix2 o 0) := by
  have hz : (![0, 0] : Fin 2 → Nat) = fun _ => 0 := funext fun a => by fin_cases a <;> rfl
  unfold out0_9
  rw [View.canon_unit_zero hz]
  simp only [View.ld_unit_zero (S := S4x64000) hz, View.ld_unit_zero (S := S3x64000) hz, View.ld_unit_zero (S := S4x4) hz,
    View.ld_unit_zero (S := S4x3) hz, View.ld_unit_zero (S := S4x1) hz, View.ld_unit_zero (S := S8x4) hz,
    View.ld_unit_zero (S := S8x1) hz]
  rw [second_apply]
  refine congrArg (· + x8 (ix2 o 0)) (Finset.sum_congr rfl fun j _ => ?_)
  rw [hidden_apply]

/-! ## From blocks to the array

A block's coordinate in its array is the block index times the block size plus the coordinate inside the block. -/

section Blocks

variable (V : (c : Dev nD) → (b : Ref sig .tc) → Buf (Elt Ideal) ((c : Thread nD τ).loc b))

/-- The index maps of the column windows at each of the 50 grid points: the three column inputs and the output take
    column block `t` and row block 0. -/
theorem idx_cols : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_9.index t (0 : Fin 2) = 0 ∧ win0_9.index t (1 : Fin 2) = t.val :=
  (by decide +kernel : ∀ t : Fin grid0.N, _)

/-- The six small arrays are fetched whole: block (0, 0) at every point. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Window 0's block at point `t` holds columns `64000 t … 64000 t + 63999` of its array. -/
theorem blk0_apply (c : Dev nD) (t : Fin cfg0.N) (k : Fin 4) (e : Fin 64000) (e' : Fin 3200000)
    (he : e'.val = t.val * 64000 + e.val) :
    (iblk0 (F := Ideal) V c 0 t : Vec Ideal S4x64000 .f32) (ix2 k e) = (V c main_v13 : S4x3200000.Idx → EReal) (ix2 k e') := by
  have h0 : win0_0.index t (0 : Fin 2) = 0 := (idx_cols t).1
  have h1 : win0_0.index t (1 : Fin 2) = t.val := (idx_cols t).2.1
  unfold iblk0
  rw [View.read_apply]
  show V c main_v13 _ = V c main_v13 _
  refine congrArg (V c main_v13) (funext fun a => Fin.ext ?_)
  match a with
  | ⟨0, _⟩ => show win0_0.index t (0 : Fin 2) * 4 + 1 * k.val = k.val; rw [h0]; omega
  | ⟨1, _⟩ => show win0_0.index t (1 : Fin 2) * 64000 + 1 * e.val = e'.val; rw [h1, he]; omega

/-- Window 1's block at point `t` holds columns `64000 t … 64000 t + 63999` of its array. -/
theorem blk1_apply (c : Dev nD) (t : Fin cfg0.N) (k : Fin 4) (e : Fin 64000) (e' : Fin 3200000)
    (he : e'.val = t.val * 64000 + e.val) :
    (iblk0 (F := Ideal) V c 1 t : Vec Ideal S4x64000 .f32) (ix2 k e) = (V c main_v14 : S4x3200000.Idx → EReal) (ix2 k e') := by
  have h0 : win0_1.index t (0 : Fin 2) = 0 := (idx_cols t).2.2.1
  have h1 : win0_1.index t (1 : Fin 2) = t.val := (idx_cols t).2.2.2.1
  unfold iblk0
  rw [View.read_apply]
  show V c main_v14 _ = V c main_v14 _
  refine congrArg (V c main_v14) (funext fun a => Fin.ext ?_)
  match a with
  | ⟨0, _⟩ => show win0_1.index t (0 : Fin 2) * 4 + 1 * k.val = k.val; rw [h0]; omega
  | ⟨1, _⟩ => show win0_1.index t (1 : Fin 2) * 64000 + 1 * e.val = e'.val; rw [h1, he]; omega

/-- Window 2's block at point `t` holds columns `64000 t … 64000 t + 63999` of its array. -/
theorem blk2_apply (c : Dev nD) (t : Fin cfg0.N) (k : Fin 3) (e : Fin 64000) (e' : Fin 3200000)
    (he : e'.val = t.val * 64000 + e.val) :
    (iblk0 (F := Ideal) V c 2 t : Vec Ideal S3x64000 .f32) (ix2 k e) = (V c main_v11 : S3x3200000.Idx → EReal) (ix2 k e') := by
  have h0 : win0_2.index t (0 : Fin 2) = 0 := (idx_cols t).2.2.2.2.1
  have h1 : win0_2.index t (1 : Fin 2) = t.val := (idx_cols t).2.2.2.2.2.1
  unfold iblk0
  rw [View.read_apply]
  show V c main_v11 _ = V c main_v11 _
  refine congrArg (V c main_v11) (funext fun a => Fin.ext ?_)
  match a with
  | ⟨0, _⟩ => show win0_2.index t (0 : Fin 2) * 3 + 1 * k.val = k.val; rw [h0]; omega
  | ⟨1, _⟩ => show win0_2.index t (1 : Fin 2) * 64000 + 1 * e.val = e'.val; rw [h1, he]; omega

/-- Window 3's block at every point is its whole array. -/
theorem blk3_eq (c : Dev nD) (t : Fin cfg0.N) :
    (iblk0 (F := Ideal) V c 3 t : Vec Ideal S4x4 .f32) = (V c main_v16 : S4x4.Idx → EReal) := by
  have h0 : win0_3.index t (0 : Fin 2) = 0 := (idx_whole t).1
  have h1 : win0_3.index t (1 : Fin 2) = 0 := (idx_whole t).2.1
  funext y
  unfold iblk0
  rw [View.read_apply]
  show V c main_v16 _ = V c main_v16 y
  refine congrArg (V c main_v16) (funext fun a => Fin.ext ?_)
  match a with
  | ⟨0, _⟩ => show win0_3.index t (0 : Fin 2) * 4 + 1 * (y 0).val = (y 0).val; rw [h0]; omega
  | ⟨1, _⟩ => show win0_3.index t (1 : Fin 2) * 4 + 1 * (y 1).val = (y 1).val; rw [h1]; omega

/-- Window 4's block at every point is its whole array. -/
theorem blk4_eq (c : Dev nD) (t : Fin cfg0.N) :
    (iblk0 (F := Ideal) V c 4 t : Vec Ideal S4x4 .f32) = (V c main_v18 : S4x4.Idx → EReal) := by
  have h0 : win0_4.index t (0 : Fin 2) = 0 := (idx_whole t).2.2.1
  have h1 : win0_4.index t (1 : Fin 2) = 0 := (idx_whole t).2.2.2.1
  funext y
  unfold iblk0
  rw [View.read_apply]
  show V c main_v18 _ = V c main_v18 y
  refine congrArg (V c main_v18) (funext fun a => Fin.ext ?_)
  match a with
  | ⟨0, _⟩ => show win0_4.index t (0 : Fin 2) * 4 + 1 * (y 0).val = (y 0).val; rw [h0]; omega
  | ⟨1, _⟩ => show win0_4.index t (1 : Fin 2) * 4 + 1 * (y 1).val = (y 1).val; rw [h1]; omega

/-- Window 5's block at every point is its whole array. -/
theorem blk5_eq (c : Dev nD) (t : Fin cfg0.N) :
    (iblk0 (F := Ideal) V c 5 t : Vec Ideal S4x3 .f32) = (V c main_v20 : S4x3.Idx → EReal) := by
  have h0 : win0_5.index t (0 : Fin 2) = 0 := (idx_whole t).2.2.2.2.1
  have h1 : win0_5.index t (1 : Fin 2) = 0 := (idx_whole t).2.2.2.2.2.1
  funext y
  unfold iblk0
  rw [View.read_apply]
  show V c main_v20 _ = V c main_v20 y
  refine congrArg (V c main_v20) (funext fun a => Fin.ext ?_)
  match a with
  | ⟨0, _⟩ => show win0_5.index t (0 : Fin 2) * 4 + 1 * (y 0).val = (y 0).val; rw [h0]; omega
  | ⟨1, _⟩ => show win0_5.index t (1 : Fin 2) * 3 + 1 * (y 1).val = (y 1).val; rw [h1]; omega

/-- Window 6's block at every point is its whole array. -/
theorem blk6_eq (c : Dev nD) (t : Fin cfg0.N) :
    (iblk0 (F := Ideal) V c 6 t : Vec Ideal S4x1 .f32) = (V c main_v21 : S4x1.Idx → EReal) := by
  have h0 : win0_6.index t (0 : Fin 2) = 0 := (idx_whole t).2.2.2.2.2.2.1
  have h1 : win0_6.index t (1 : Fin 2) = 0 := (idx_whole t).2.2.2.2.2.2.2.1
  funext y
  unfold iblk0
  rw [View.read_apply]
  show V c main_v21 _ = V c main_v21 y
  refine congrArg (V c main_v21) (funext fun a => Fin.ext ?_)
  match a with
  | ⟨0, _⟩ => show win0_6.index t (0 : Fin 2) * 4 + 1 * (y 0).val = (y 0).val; rw [h0]; omega
  | ⟨1, _⟩ => show win0_6.index t (1 : Fin 2) * 1 + 1 * (y 1).val = (y 1).val; rw [h1]; omega

/-- Window 7's block at every point is its whole array. -/
theorem blk7_eq (c : Dev nD) (t : Fin cfg0.N) :
    (iblk0 (F := Ideal) V c 7 t : Vec Ideal S8x4 .f32) = (V c main_v22 : S8x4.Idx → EReal) := by
  have h0 : win0_7.index t (0 : Fin 2) = 0 := (idx_whole t).2.2.2.2.2.2.2.2.1
  have h1 : win0_7.index t (1 : Fin 2) = 0 := (idx_whole t).2.2.2.2.2.2.2.2.2.1
  funext y
  unfold iblk0
  rw [View.read_apply]
  show V c main_v22 _ = V c main_v22 y
  refine congrArg (V c main_v22) (funext fun a => Fin.ext ?_)
  match a with
  | ⟨0, _⟩ => show win0_7.index t (0 : Fin 2) * 8 + 1 * (y 0).val = (y 0).val; rw [h0]; omega
  | ⟨1, _⟩ => show win0_7.index t (1 : Fin 2) * 4 + 1 * (y 1).val = (y 1).val; rw [h1]; omega

/-- Window 8's block at every point is its whole array. -/
theorem blk8_eq (c : Dev nD) (t : Fin cfg0.N) :
    (iblk0 (F := Ideal) V c 8 t : Vec Ideal S8x1 .f32) = (V c main_v23 : S8x1.Idx → EReal) := by
  have h0 : win0_8.index t (0 : Fin 2) = 0 := (idx_whole t).2.2.2.2.2.2.2.2.2.2.1
  have h1 : win0_8.index t (1 : Fin 2) = 0 := (idx_whole t).2.2.2.2.2.2.2.2.2.2.2
  funext y
  unfold iblk0
  rw [View.read_apply]
  show V c main_v23 _ = V c main_v23 y
  refine congrArg (V c main_v23) (funext fun a => Fin.ext ?_)
  match a with
  | ⟨0, _⟩ => show win0_8.index t (0 : Fin 2) * 8 + 1 * (y 0).val = (y 0).val; rw [h0]; omega
  | ⟨1, _⟩ => show win0_8.index t (1 : Fin 2) * 1 + 1 * (y 1).val = (y 1).val; rw [h1]; omega

/-- The body's block entry against the whole-array function: if the three column blocks hold the arrays' columns
    at offset `tv * 64000`, the output block's entry `y` is the function's value at the array index `i` with the same
    row and the column shifted by that offset. -/
theorem point_eq (X0 X1 : S4x3200000.Idx → EReal) (X2 : S3x3200000.Idx → EReal)
    (x0 x1 : Vec Ideal S4x64000 .f32) (x2 : Vec Ideal S3x64000 .f32) (x3 x4 : Vec Ideal S4x4 .f32)
    (x5 : Vec Ideal S4x3 .f32) (x6 : Vec Ideal S4x1 .f32) (x7 : Vec Ideal S8x4 .f32) (x8 : Vec Ideal S8x1 .f32)
    (tv : ℕ)
    (h0 : ∀ (k : Fin 4) (e : Fin 64000) (e' : Fin 3200000), e'.val = tv * 64000 + e.val → x0 (ix2 k e) = X0 (ix2 k e'))
    (h1 : ∀ (k : Fin 4) (e : Fin 64000) (e' : Fin 3200000), e'.val = tv * 64000 + e.val → x1 (ix2 k e) = X1 (ix2 k e'))
    (h2 : ∀ (k : Fin 3) (e : Fin 64000) (e' : Fin 3200000), e'.val = tv * 64000 + e.val → x2 (ix2 k e) = X2 (ix2 k e'))
    (y : S8x64000.Idx) (i : S8x3200000.Idx) (hi0 : (i 0).val = (y 0).val) (hi1 : (i 1).val = tv * 64000 + (y 1).val) :
    out0_9 (F := Ideal) x0 x1 x2 x3 x4 x5 x6 x7 x8 y
      = Cert.Spec.mlpT (C := 4) (M := 4) (O := 8) (T := 3200000) X0 X1 X2 x3 x4 x5 x6 x7 x8 i := by
  obtain ⟨o, e, rfl⟩ : ∃ (o : Fin 8) (e : Fin 64000), y = ix2 o e := ⟨y 0, y 1, eq_ix2 y⟩
  obtain ⟨o', e', rfl⟩ : ∃ (o' : Fin 8) (e' : Fin 3200000), i = ix2 o' e' := ⟨i 0, i 1, eq_ix2 i⟩
  obtain rfl : o' = o := Fin.ext hi0
  have he : e'.val = tv * 64000 + e.val := hi1
  rw [out_apply]
  simp only [fun k => h0 k e e' he, fun k => h1 k e e' he, fun k => h2 k e e' he]
  rfl

/-- The whole-array function the first call computes, of the region-entry contents. -/
abbrev G (c : Dev nD) : S8x3200000.Idx → EReal :=
  Cert.Spec.mlpT (C := 4) (M := 4) (O := 8) (T := 3200000) (V c main_v13) (V c main_v14) (V c main_v11) (V c main_v16)
    (V c main_v18) (V c main_v20) (V c main_v21) (V c main_v22) (V c main_v23)

/-- What point `t` writes back is block `t` of that function. -/
theorem flushed_eq (c : Dev nD) (t : Fin cfg0.N) :
    (dat0 (F := Ideal) V c).flushed 9 t = ((cfg0.win 9).blk t).view.read (Elt Ideal) (G V c) := by
  have h90 : win0_9.index t (0 : Fin 2) = 0 := (idx_cols t).2.2.2.2.2.2.1
  have h91 : win0_9.index t (1 : Fin 2) = t.val := (idx_cols t).2.2.2.2.2.2.2
  show (cfg0.win 9).cut (grid0.coords t) ((dat0 V c).after 9 t) = _
  rw [after0_9]
  funext y
  have hy0 : (y 0).val < 8 := (y 0).isLt
  have hy1 : (y 1).val < 64000 := (y 1).isLt
  rw [View.read_apply]
  show out0_9 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t) ((cfg0.win 9).xinj (grid0.coords t) y)
    = G V c (((cfg0.win 9).blk t).view.emb y)
  rw [blk3_eq V c t, blk4_eq V c t, blk5_eq V c t, blk6_eq V c t, blk7_eq V c t, blk8_eq V c t]
  refine point_eq (V c main_v13) (V c main_v14) (V c main_v11) (iblk0 V c 0 t) (iblk0 V c 1 t) (iblk0 V c 2 t)
    (V c main_v16) (V c main_v18) (V c main_v20) (V c main_v21) (V c main_v22) (V c main_v23) t.val
    (fun k e e' he => blk0_apply V c t k e e' he) (fun k e e' he => blk1_apply V c t k e e' he)
    (fun k e e' he => blk2_apply V c t k e e' he)
    ((cfg0.win 9).xinj (grid0.coords t) y) (((cfg0.win 9).blk t).view.emb y) ?_ ?_
  · show win0_9.index t (0 : Fin 2) * 8 + 1 * (y 0).val = (y 0).val
    rw [h90]; omega
  · show win0_9.index t (1 : Fin 2) * 64000 + 1 * (y 1).val = t.val * 64000 + (y 1).val
    rw [h91]; omega

/-- An index of the array is in point `t`'s block iff each coordinate is in the block's range on its axis. -/
theorem mem_blk (t : Fin cfg0.N) (i : S8x3200000.Idx) :
    i ∈ ((cfg0.win 9).blk t).view.set ↔ ∀ a : Fin 2, win0_9.index t a * S8x64000.size a ≤ (i a).val ∧ (i a).val < win0_9.index t a * S8x64000.size a + S8x64000.size a := by
  show i ∈ ((View.whole main_v24).slice (win0_9.rect t)).set ↔ _
  rw [View.set_slice_whole, Rect.mem_set_unit]
  exact Iff.rfl

/-- Every column is in some point's block: column `e` in the block of point `e / 64000`. -/
theorem cover (i : S8x3200000.Idx) :
    ∃ t : Fin cfg0.N, (cfg0.win 9).flush t = true ∧ i ∈ ((cfg0.win 9).blk t).view.set := by
  have hi0 : (i 0).val < 8 := (i 0).isLt
  have hi1 : (i 1).val < 3200000 := (i 1).isLt
  obtain ⟨t, ht⟩ : ∃ t : Fin cfg0.N, t.val = (i 1).val / 64000 :=
    ⟨⟨(i 1).val / 64000, by show (i 1).val / 64000 < grid0.N; rw [N_0]; omega⟩, rfl⟩
  have h90 : win0_9.index t (0 : Fin 2) = 0 := (idx_cols t).2.2.2.2.2.2.1
  have h91 : win0_9.index t (1 : Fin 2) = t.val := (idx_cols t).2.2.2.2.2.2.2
  refine ⟨t, flush0_9 t, ?_⟩
  rw [mem_blk]
  intro a
  match a with
  | ⟨0, _⟩ =>
    show win0_9.index t (0 : Fin 2) * 8 ≤ (i 0).val ∧ (i 0).val < win0_9.index t (0 : Fin 2) * 8 + 8
    rw [h90]; omega
  | ⟨1, _⟩ =>
    show win0_9.index t (1 : Fin 2) * 64000 ≤ (i 1).val ∧ (i 1).val < win0_9.index t (1 : Fin 2) * 64000 + 64000
    rw [h91, ht]; omega

/-- THE ARRAY after the first call: the perceptron of the region-entry arrays, entry by entry. -/
theorem arr (c : Dev nD) :
    ((dat0 (F := Ideal) V c).arrAt 9 cfg0.N : S8x3200000.Idx → EReal)
      = Cert.Spec.mlpT (C := 4) (M := 4) (O := 8) (T := 3200000) (V c main_v13) (V c main_v14) (V c main_v11)
          (V c main_v16) (V c main_v18) (V c main_v20) (V c main_v21) (V c main_v22) (V c main_v23) :=
  (dat0 (F := Ideal) V c).arrAt_eq_of_cover 9 (G V c) (fun t _ => flushed_eq V c t) cover

end Blocks

end Cert.KernelIdeal.KRegion0

end
-- ==== Proof.KRegion1.lean ====
import proofs.«409580_j89481348645420_1_alg».proof.Proof.Gen.KernelIdeal.Frame
import proofs.«409580_j89481348645420_1_alg».proof.Proof.Spec
import Idealize.ShloMosaic.Lib.Pipeline.Value
import Idealize.ShloMosaic.Lib.ValueIdx
import Idealize.ShloMosaic.PureOps.Ideal.Laws

/-!
# What the second perceptron call leaves in its output array

The call runs the two-layer perceptron of one edge block on each of 50 column blocks of 64000 edges: 8 input
channels for each end node, 3 edge features, 8 hidden units, 8 outputs. A block's entry (o, e) depends only on
column e of the three edge-indexed inputs and on the six small weight and bias arrays, which every grid point reads
whole. So the block written at point t is the block t of ONE function of the whole arrays, and the 50 blocks tile
the output array's 3200000 columns.
-/

noncomputable section

open scoped BigOperators

namespace Cert.KernelIdeal.KRegion1

open Cert.KernelIdeal Cert.KernelIdeal.Gen Idealize.ShloMosaic Idealize.ShloMosaic.TcCoe
open Idealize.ShloMosaic.ValueIdx Idealize.SL.Sem
open Idealize.ShloMosaic.Pipeline (Dat)

/-! ## The two contractions at an index

A product of an [8, K] matrix with a [K, 64000] matrix into a zero accumulator, read at (p, q), is the sum over the
one contracted coordinate k of left (p, k) times right (k, q). The four lemmas per record say which coordinate each
operand axis reads. -/

theorem lhs_D88_0 (i : S8x64000.Idx) (q : dot_S8x8_S8x64000_S8x64000_1_0_0_1_n_n.contr.Idx) :
    (dot_S8x8_S8x64000_S8x64000_1_0_0_1_n_n.lhsIdx i q 0).val = (i 0).val := by
  unfold DotDims.lhsIdx
  rw [dif_neg (show ¬(0 : Fin S8x8.rank) ∈ dot_S8x8_S8x64000_S8x64000_1_0_0_1_n_n.lhsBatch by decide), dif_pos (show (0 : Fin S8x8.rank) ∈ dot_S8x8_S8x64000_S8x64000_1_0_0_1_n_n.lhsNonContracting by decide)]
  rfl
theorem lhs_D88_1 (i : S8x64000.Idx) (q : dot_S8x8_S8x64000_S8x64000_1_0_0_1_n_n.contr.Idx) :
    (dot_S8x8_S8x64000_S8x64000_1_0_0_1_n_n.lhsIdx i q 1).val = (q ⟨0, by decide⟩).val :=
  dot_S8x8_S8x64000_S8x64000_1_0_0_1_n_n.lhsIdx_val_of_single rfl i q
theorem rhs_D88_0 (i : S8x64000.Idx) (q : dot_S8x8_S8x64000_S8x64000_1_0_0_1_n_n.contr.Idx) :
    (dot_S8x8_S8x64000_S8x64000_1_0_0_1_n_n.rhsIdx i q 0).val = (q ⟨0, by decide⟩).val :=
  dot_S8x8_S8x64000_S8x64000_1_0_0_1_n_n.rhsIdx_val_of_single rfl i q
theorem rhs_D88_1 (i : S8x64000.Idx) (q : dot_S8x8_S8x64000_S8x64000_1_0_0_1_n_n.contr.Idx) :
    (dot_S8x8_S8x64000_S8x64000_1_0_0_1_n_n.rhsIdx i q 1).val = (i 1).val := by
  unfold DotDims.rhsIdx
  rw [dif_neg (show ¬(1 : Fin S8x64000.rank) ∈ dot_S8x8_S8x64000_S8x64000_1_0_0_1_n_n.rhsBatch by decide), dif_pos (show (1 : Fin S8x64000.rank) ∈ dot_S8x8_S8x64000_S8x64000_1_0_0_1_n_n.rhsNonContracting by decide)]
  rfl

theorem lhs_D83_0 (i : S8x64000.Idx) (q : dot_S8x3_S3x64000_S8x64000_1_0_0_1_n_n.contr.Idx) :
    (dot_S8x3_S3x64000_S8x64000_1_0_0_1_n_n.lhsIdx i q 0).val = (i 0).val := by
  unfold DotDims.lhsIdx
  rw [dif_neg (show ¬(0 : Fin S8x3.rank) ∈ dot_S8x3_S3x64000_S8x64000_1_0_0_1_n_n.lhsBatch by decide), dif_pos (show (0 : Fin S8x3.rank) ∈ dot_S8x3_S3x64000_S8x64000_1_0_0_1_n_n.lhsNonContracting by decide)]
  rfl
theorem lhs_D83_1 (i : S8x64000.Idx) (q : dot_S8x3_S3x64000_S8x64000_1_0_0_1_n_n.contr.Idx) :
    (dot_S8x3_S3x64000_S8x64000_1_0_0_1_n_n.lhsIdx i q 1).val = (q ⟨0, by decide⟩).val :=
  dot_S8x3_S3x64000_S8x64000_1_0_0_1_n_n.lhsIdx_val_of_single rfl i q
theorem rhs_D83_0 (i : S8x64000.Idx) (q : dot_S8x3_S3x64000_S8x64000_1_0_0_1_n_n.contr.Idx) :
    (dot_S8x3_S3x64000_S8x64000_1_0_0_1_n_n.rhsIdx i q 0).val = (q ⟨0, by decide⟩).val :=
  dot_S8x3_S3x64000_S8x64000_1_0_0_1_n_n.rhsIdx_val_of_single rfl i q
theorem rhs_D83_1 (i : S8x64000.Idx) (q : dot_S8x3_S3x64000_S8x64000_1_0_0_1_n_n.contr.Idx) :
    (dot_S8x3_S3x64000_S8x64000_1_0_0_1_n_n.rhsIdx i q 1).val = (i 1).val := by
  unfold DotDims.rhsIdx
  rw [dif_neg (show ¬(1 : Fin S3x64000.rank) ∈ dot_S8x3_S3x64000_S8x64000_1_0_0_1_n_n.rhsBatch by decide), dif_pos (show (1 : Fin S3x64000.rank) ∈ dot_S8x3_S3x64000_S8x64000_1_0_0_1_n_n.rhsNonContracting by decide)]
  rfl

/-- The [8, 8] by [8, 64000] product into the zero accumulator, at (p, q). -/
theorem mm88 {φ₁ φ₂ : FTy} (l : FVec Ideal S8x8 φ₁) (r : FVec Ideal S8x64000 φ₂) (p : Fin 8) (q : Fin 64000) :
    matmul dot_S8x8_S8x64000_S8x64000_1_0_0_1_n_n none l r (constant (F := Ideal) S8x64000 .f32 0x00000000#32) (ix2 p q)
      = ∑ k : Fin 8, l (ix2 p k) * r (ix2 k q) := by
  simp only [matmul]
  rw [Ideal.matmul_constant_zero_apply, ← Equiv.sum_comp (contrEquiv1 dot_S8x8_S8x64000_S8x64000_1_0_0_1_n_n 8 rfl rfl).symm]
  refine Finset.sum_congr rfl fun k _ => ?_
  have hk := contrEquiv1_symm_val dot_S8x8_S8x64000_S8x64000_1_0_0_1_n_n 8 rfl rfl k
  have el : dot_S8x8_S8x64000_S8x64000_1_0_0_1_n_n.lhsIdx (ix2 p q) ((contrEquiv1 dot_S8x8_S8x64000_S8x64000_1_0_0_1_n_n 8 rfl rfl).symm k) = ix2 p k := funext fun a => Fin.ext (by
    match a with
    | ⟨0, _⟩ => exact lhs_D88_0 _ _
    | ⟨1, _⟩ => exact (lhs_D88_1 _ _).trans hk)
  have er : dot_S8x8_S8x64000_S8x64000_1_0_0_1_n_n.rhsIdx (ix2 p q) ((contrEquiv1 dot_S8x8_S8x64000_S8x64000_1_0_0_1_n_n 8 rfl rfl).symm k) = ix2 k q := funext fun a => Fin.ext (by
    match a with
    | ⟨0, _⟩ => exact (rhs_D88_0 _ _).trans hk
    | ⟨1, _⟩ => exact rhs_D88_1 _ _)
  rw [el, er]

/-- The [8, 3] by [3, 64000] product into the zero accumulator, at (p, q). -/
theorem mm83 {φ₁ φ₂ : FTy} (l : FVec Ideal S8x3 φ₁) (r : FVec Ideal S3x64000 φ₂) (p : Fin 8) (q : Fin 64000) :
    matmul dot_S8x3_S3x64000_S8x64000_1_0_0_1_n_n none l r (constant (F := Ideal) S8x64000 .f32 0x00000000#32) (ix2 p q)
      = ∑ k : Fin 3, l (ix2 p k) * r (ix2 k q) := by
  simp only [matmul]
  rw [Ideal.matmul_constant_zero_apply, ← Equiv.sum_comp (contrEquiv1 dot_S8x3_S3x64000_S8x64000_1_0_0_1_n_n 3 rfl rfl).symm]
  refine Finset.sum_congr rfl fun k _ => ?_
  have hk := contrEquiv1_symm_val dot_S8x3_S3x64000_S8x64000_1_0_0_1_n_n 3 rfl rfl k
  have el : dot_S8x3_S3x64000_S8x64000_1_0_0_1_n_n.lhsIdx (ix2 p q) ((contrEquiv1 dot_S8x3_S3x64000_S8x64000_1_0_0_1_n_n 3 rfl rfl).symm k) = ix2 p k := funext fun a => Fin.ext (by
    match a with
    | ⟨0, _⟩ => exact lhs_D83_0 _ _
    | ⟨1, _⟩ => exact (lhs_D83_1 _ _).trans hk)
  have er : dot_S8x3_S3x64000_S8x64000_1_0_0_1_n_n.rhsIdx (ix2 p q) ((contrEquiv1 dot_S8x3_S3x64000_S8x64000_1_0_0_1_n_n 3 rfl rfl).symm k) = ix2 k q := funext fun a => Fin.ext (by
    match a with
    | ⟨0, _⟩ => exact (rhs_D83_0 _ _).trans hk
    | ⟨1, _⟩ => exact rhs_D83_1 _ _)
  rw [el, er]

/-! ## The body's arithmetic at an index -/

theorem hz : (![0, 0] : Fin 2 → Nat) = fun _ => 0 := funext fun a => by fin_cases a <;> rfl

/-- The exponential of a vector, at an index. -/
theorem vexp_apply {s : Shape} {φ : FTy} (a : FVec Ideal s φ) (i : s.Idx) : exp a i = Ideal.exp (a i) := rfl

/-- A bias column broadcast along the edges reads its row's one entry. -/
theorem bcol_apply {α : Type} (v : S8x1.Idx → α) (j : Fin 8) (e : Fin 64000) :
    broadcastTo S8x64000 v broadcasts_S8x1_S8x64000 (ix2 j e) = v (ix2 j 0) :=
  broadcastTo_apply v broadcasts_S8x1_S8x64000 (ix2 j e) (ix2 j 0) (fun a => by
    match a with
    | ⟨0, _⟩ => rfl
    | ⟨1, _⟩ => rfl)

/-- The select on "z is greater than the zero word" between z and exp z minus the one word is the exponential
    linear unit. -/
theorem elu_word (z : EReal) :
    Scalar.select (FloatOps.cmpf (F := Ideal) (φ := .f32) .ogt z (FloatOps.ofBits (F := Ideal) .f32 0x00000000#32)) z
      (Ideal.exp z - FloatOps.ofBits (F := Ideal) .f32 0x3F800000#32) = Cert.Spec.elu z := by
  unfold Cert.Spec.elu
  show Scalar.select (Ideal.cmp .ogt z Cert.Spec.zero32) z (Ideal.exp z - Cert.Spec.one32) = _
  by_cases h : Cert.Spec.zero32 < z
  · rw [if_pos h]
    have hc : Ideal.cmp .ogt z Cert.Spec.zero32 = 1#1 := by
      show BitVec.ofBool (decide (Cert.Spec.zero32 < z)) = 1#1
      rw [decide_eq_true h]; rfl
    rw [hc, select_one]
  · rw [if_neg h]
    have hc : Ideal.cmp .ogt z Cert.Spec.zero32 = 0#1 := by
      show BitVec.ofBool (decide (Cert.Spec.zero32 < z)) = 0#1
      rw [decide_eq_false h]; rfl
    rw [hc, select_zero]

/-- Hidden unit j of edge column e of a block: the three partial products added, plus the bias, through the unit
    (the format changes and same-shape casts are the identity on extended reals). -/
theorem pay3_apply (v0 v3 : Vec Ideal S8x64000 .f32) (v6 : Vec Ideal S3x64000 .f32) (v9 v12 : Vec Ideal S8x8 .f32)
    (v15 : Vec Ideal S8x3 .f32) (v23 : Vec Ideal S8x1 .f32) (j : Fin 8) (e : Fin 64000) :
    k1_pay3 (F := Ideal) v0 v3 v6 v9 v12 v15 v23 (ix2 j e)
      = Cert.Spec.elu ((((∑ k : Fin 8, v9 (ix2 j k) * v0 (ix2 k e)) + (∑ k : Fin 8, v12 (ix2 j k) * v3 (ix2 k e)))
          + (∑ k : Fin 3, v15 (ix2 j k) * v6 (ix2 k e))) + v23 (ix2 j 0)) := by
  unfold k1_pay3
  simp only [shapeCast_self, truncf_apply, select_apply, cmpf_apply, subf_apply, addf_apply, broadcast_apply, vexp_apply,
    mm88, mm83, bcol_apply]
  exact elu_word _

/-- The second weight matrix passes through unchanged. -/
theorem pay2_eq (v33 : Vec Ideal S8x8 .f32) : (k1_pay2 (F := Ideal) v33 : S8x8.Idx → EReal) = v33 := by
  unfold k1_pay2
  simp only [shapeCast_self]
  rfl

/-- Output o of edge column e of a block: the second product plus the bias. -/
theorem pay1_apply (v35 : FVec Ideal S8x8 .bf16) (v36 : FVec Ideal S8x64000 .bf16) (v38 : Vec Ideal S8x1 .f32)
    (o : Fin 8) (e : Fin 64000) :
    k1_pay1 (F := Ideal) v35 v36 (constant (F := Ideal) S8x64000 .f32 0x00000000#32) v38 (ix2 o e)
      = (∑ j : Fin 8, v35 (ix2 o j) * v36 (ix2 j e)) + v38 (ix2 o 0) := by
  unfold k1_pay1
  simp only [shapeCast_self, addf_apply, mm88, bcol_apply]

/-- THE BLOCK the body leaves: the perceptron of the nine input blocks, entry by entry. -/
theorem out_eq (x0 x1 : Vec Ideal S8x64000 .f32) (x2 : Vec Ideal S3x64000 .f32) (x3 x4 : Vec Ideal S8x8 .f32)
    (x5 : Vec Ideal S8x3 .f32) (x6 : Vec Ideal S8x1 .f32) (x7 : Vec Ideal S8x8 .f32) (x8 : Vec Ideal S8x1 .f32) :
    (out1_9 (F := Ideal) x0 x1 x2 x3 x4 x5 x6 x7 x8 : S8x64000.Idx → EReal)
      = Cert.Spec.mlpT (C := 8) (M := 8) (O := 8) (T := 64000) x0 x1 x2 x3 x4 x5 x6 x7 x8 := by
  unfold out1_9
  rw [View.canon_unit_zero hz]
  simp only [View.ld_unit_zero (S := S8x64000) hz, View.ld_unit_zero (S := S3x64000) hz, View.ld_unit_zero (S := S8x8) hz,
    View.ld_unit_zero (S := S8x3) hz, View.ld_unit_zero (S := S8x1) hz]
  funext i
  obtain ⟨o, e, rfl⟩ : ∃ (o : Fin 8) (e : Fin 64000), i = ix2 o e := ⟨i 0, i 1, eq_ix2 i⟩
  rw [pay1_apply]
  unfold Cert.Spec.mlpT
  simp only [pay3_apply, pay2_eq]

/-! ## From the blocks to the array

A block entry (o, e) at grid point t sits in the arrays at column t * 64000 + e of the three edge-indexed windows
and of the output, and at its own place in the six small windows, whose one block is the whole array. -/

/-- The perceptron of blocks at (o, e) is the perceptron of whole arrays at (o, e') when column e of each
    edge-indexed block is column e' of its array and the small blocks are the small arrays. -/
theorem mlpT_block (x0 x1 : S8x64000.Idx → EReal) (x2 : S3x64000.Idx → EReal)
    (A0 A1 : S8x3200000.Idx → EReal) (A2 : S3x3200000.Idx → EReal)
    (x3 x4 A3 A4 : S8x8.Idx → EReal) (x5 A5 : S8x3.Idx → EReal) (x6 A6 : S8x1.Idx → EReal)
    (x7 A7 : S8x8.Idx → EReal) (x8 A8 : S8x1.Idx → EReal)
    (y : S8x64000.Idx) (i : S8x3200000.Idx) (h0 : (i 0).val = (y 0).val)
    (hx0 : ∀ k : Fin 8, x0 (ix2 k (y 1)) = A0 (ix2 k (i 1)))
    (hx1 : ∀ k : Fin 8, x1 (ix2 k (y 1)) = A1 (ix2 k (i 1)))
    (hx2 : ∀ k : Fin 3, x2 (ix2 k (y 1)) = A2 (ix2 k (i 1)))
    (h3 : x3 = A3) (h4 : x4 = A4) (h5 : x5 = A5) (h6 : x6 = A6) (h7 : x7 = A7) (h8 : x8 = A8) :
    Cert.Spec.mlpT (C := 8) (M := 8) (O := 8) (T := 64000) x0 x1 x2 x3 x4 x5 x6 x7 x8 y
      = Cert.Spec.mlpT (C := 8) (M := 8) (O := 8) (T := 3200000) A0 A1 A2 A3 A4 A5 A6 A7 A8 i := by
  subst h3 h4 h5 h6 h7 h8
  obtain ⟨o, e, rfl⟩ : ∃ (o : Fin 8) (e : Fin 64000), y = ix2 o e := ⟨y 0, y 1, eq_ix2 y⟩
  obtain ⟨o', e', rfl⟩ : ∃ (o' : Fin 8) (e' : Fin 3200000), i = ix2 o' e' := ⟨i 0, i 1, eq_ix2 i⟩
  obtain rfl : o' = o := Fin.ext h0
  have e0 : ∀ k : Fin 8, x0 (ix2 k e) = A0 (ix2 k e') := hx0
  have e1 : ∀ k : Fin 8, x1 (ix2 k e) = A1 (ix2 k e') := hx1
  have e2 : ∀ k : Fin 3, x2 (ix2 k e) = A2 (ix2 k e') := hx2
  show (∑ j : Fin 8, x7 (ix2 o' j) *
      Cert.Spec.elu ((((∑ k : Fin 8, x3 (ix2 j k) * x0 (ix2 k e)) + (∑ k : Fin 8, x4 (ix2 j k) * x1 (ix2 k e)))
            + (∑ k : Fin 3, x5 (ix2 j k) * x2 (ix2 k e))) + x6 (ix2 j 0)))
      + x8 (ix2 o' 0)
    = (∑ j : Fin 8, x7 (ix2 o' j) *
      Cert.Spec.elu ((((∑ k : Fin 8, x3 (ix2 j k) * A0 (ix2 k e')) + (∑ k : Fin 8, x4 (ix2 j k) * A1 (ix2 k e')))
            + (∑ k : Fin 3, x5 (ix2 j k) * A2 (ix2 k e'))) + x6 (ix2 j 0)))
      + x8 (ix2 o' 0)
  simp only [e0, e1, e2]

section Blocks

variable (V : (c : Dev nD) → (b : Ref sig .tc) → Buf (Elt Ideal) ((c : Thread nD τ).loc b))

/-- The windows' index maps over the 50 grid points: the three edge-indexed inputs and the output take column block
    t, row block 0; the six small windows take block (0, 0). -/
theorem idx_facts : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = t.val :=
  (by decide +kernel : ∀ t : Fin grid1.N, _)

/-- Entry (k, e) of the first end-node block at point t is entry (k, t * 64000 + e) of its array. -/
theorem blk0_apply (c : Dev nD) (t : Fin cfg1.N) (k : Fin 8) (e : Fin 64000) (e' : Fin 3200000)
    (he : e'.val = t.val * 64000 + e.val) :
    (iblk1 V c 0 t : S8x64000.Idx → EReal) (ix2 k e) = (V c main_v33 : S8x3200000.Idx → EReal) (ix2 k e') := by
  obtain ⟨i0, i1, -⟩ := idx_facts t
  unfold iblk1
  rw [View.read_apply]
  show V c main_v33 _ = V c main_v33 _
  congr 1
  funext a
  apply Fin.ext
  match a with
  | ⟨0, _⟩ => show win1_0.index t 0 * 8 + 1 * k.val = k.val; rw [i0]; omega
  | ⟨1, _⟩ => show win1_0.index t 1 * 64000 + 1 * e.val = e'.val; rw [i1, he]; omega

/-- The same for the second end-node block … -/
theorem blk1_apply (c : Dev nD) (t : Fin cfg1.N) (k : Fin 8) (e : Fin 64000) (e' : Fin 3200000)
    (he : e'.val = t.val * 64000 + e.val) :
    (iblk1 V c 1 t : S8x64000.Idx → EReal) (ix2 k e) = (V c main_v34 : S8x3200000.Idx → EReal) (ix2 k e') := by
  obtain ⟨-, -, i0, i1, -⟩ := idx_facts t
  unfold iblk1
  rw [View.read_apply]
  show V c main_v34 _ = V c main_v34 _
  congr 1
  funext a
  apply Fin.ext
  match a with
  | ⟨0, _⟩ => show win1_1.index t 0 * 8 + 1 * k.val = k.val; rw [i0]; omega
  | ⟨1, _⟩ => show win1_1.index t 1 * 64000 + 1 * e.val = e'.val; rw [i1, he]; omega

/-- … and for the edge-feature block, of three rows. -/
theorem blk2_apply (c : Dev nD) (t : Fin cfg1.N) (k : Fin 3) (e : Fin 64000) (e' : Fin 3200000)
    (he : e'.val = t.val * 64000 + e.val) :
    (iblk1 V c 2 t : S3x64000.Idx → EReal) (ix2 k e) = (V c main_v11 : S3x3200000.Idx → EReal) (ix2 k e') := by
  obtain ⟨-, -, -, -, i0, i1, -⟩ := idx_facts t
  unfold iblk1
  rw [View.read_apply]
  show V c main_v11 _ = V c main_v11 _
  congr 1
  funext a
  apply Fin.ext
  match a with
  | ⟨0, _⟩ => show win1_2.index t 0 * 3 + 1 * k.val = k.val; rw [i0]; omega
  | ⟨1, _⟩ => show win1_2.index t 1 * 64000 + 1 * e.val = e'.val; rw [i1, he]; omega

/-- Each small window's one block is its whole array, at every point: the first weight matrix's three column
    blocks, the first bias, the second weight matrix, the second bias. -/
theorem blk3_eq (c : Dev nD) (t : Fin cfg1.N) : (iblk1 V c 3 t : S8x8.Idx → EReal) = (V c main_v36 : S8x8.Idx → EReal) := by
  obtain ⟨-, -, -, -, -, -, i0, i1, -⟩ := idx_facts t
  funext x
  unfold iblk1
  rw [View.read_apply]
  show V c main_v36 _ = V c main_v36 _
  congr 1
  funext a
  apply Fin.ext
  match a with
  | ⟨0, _⟩ => show win1_3.index t 0 * 8 + 1 * (x 0).val = (x 0).val; rw [i0]; omega
  | ⟨1, _⟩ => show win1_3.index t 1 * 8 + 1 * (x 1).val = (x 1).val; rw [i1]; omega

theorem blk4_eq (c : Dev nD) (t : Fin cfg1.N) : (iblk1 V c 4 t : S8x8.Idx → EReal) = (V c main_v38 : S8x8.Idx → EReal) := by
  obtain ⟨-, -, -, -, -, -, -, -, i0, i1, -⟩ := idx_facts t
  funext x
  unfold iblk1
  rw [View.read_apply]
  show V c main_v38 _ = V c main_v38 _
  congr 1
  funext a
  apply Fin.ext
  match a with
  | ⟨0, _⟩ => show win1_4.index t 0 * 8 + 1 * (x 0).val = (x 0).val; rw [i0]; omega
  | ⟨1, _⟩ => show win1_4.index t 1 * 8 + 1 * (x 1).val = (x 1).val; rw [i1]; omega

theorem blk5_eq (c : Dev nD) (t : Fin cfg1.N) : (iblk1 V c 5 t : S8x3.Idx → EReal) = (V c main_v40 : S8x3.Idx → EReal) := by
  obtain ⟨-, -, -, -, -, -, -, -, -, -, i0, i1, -⟩ := idx_facts t
  funext x
  unfold iblk1
  rw [View.read_apply]
  show V c main_v40 _ = V c main_v40 _
  congr 1
  funext a
  apply Fin.ext
  match a with
  | ⟨0, _⟩ => show win1_5.index t 0 * 8 + 1 * (x 0).val = (x 0).val; rw [i0]; omega
  | ⟨1, _⟩ => show win1_5.index t 1 * 3 + 1 * (x 1).val = (x 1).val; rw [i1]; omega

theorem blk6_eq (c : Dev nD) (t : Fin cfg1.N) : (iblk1 V c 6 t : S8x1.Idx → EReal) = (V c main_v41 : S8x1.Idx → EReal) := by
  obtain ⟨-, -, -, -, -, -, -, -, -, -, -, -, i0, i1, -⟩ := idx_facts t
  funext x
  unfold iblk1
  rw [View.read_apply]
  show V c main_v41 _ = V c main_v41 _
  congr 1
  funext a
  apply Fin.ext
  match a with
  | ⟨0, _⟩ => show win1_6.index t 0 * 8 + 1 * (x 0).val = (x 0).val; rw [i0]; omega
  | ⟨1, _⟩ => show win1_6.index t 1 * 1 + 1 * (x 1).val = (x 1).val; rw [i1]; omega

theorem blk7_eq (c : Dev nD) (t : Fin cfg1.N) : (iblk1 V c 7 t : S8x8.Idx → EReal) = (V c main_v42 : S8x8.Idx → EReal) := by
  obtain ⟨-, -, -, -, -, -, -, -, -, -, -, -, -, -, i0, i1, -⟩ := idx_facts t
  funext x
  unfold iblk1
  rw [View.read_apply]
  show V c main_v42 _ = V c main_v42 _
  congr 1
  funext a
  apply Fin.ext
  match a with
  | ⟨0, _⟩ => show win1_7.index t 0 * 8 + 1 * (x 0).val = (x 0).val; rw [i0]; omega
  | ⟨1, _⟩ => show win1_7.index t 1 * 8 + 1 * (x 1).val = (x 1).val; rw [i1]; omega

theorem blk8_eq (c : Dev nD) (t : Fin cfg1.N) : (iblk1 V c 8 t : S8x1.Idx → EReal) = (V c main_v43 : S8x1.Idx → EReal) := by
  obtain ⟨-, -, -, -, -, -, -, -, -, -, -, -, -, -, -, -, i0, i1, -⟩ := idx_facts t
  funext x
  unfold iblk1
  rw [View.read_apply]
  show V c main_v43 _ = V c main_v43 _
  congr 1
  funext a
  apply Fin.ext
  match a with
  | ⟨0, _⟩ => show win1_8.index t 0 * 8 + 1 * (x 0).val = (x 0).val; rw [i0]; omega
  | ⟨1, _⟩ => show win1_8.index t 1 * 1 + 1 * (x 1).val = (x 1).val; rw [i1]; omega

/-- The whole output array as one function of the nine whole input arrays. -/
abbrev whole (c : Dev nD) : S8x3200000.Idx → EReal :=
  Cert.Spec.mlpT (C := 8) (M := 8) (O := 8) (T := 3200000) (V c main_v33) (V c main_v34) (V c main_v11) (V c main_v36)
    (V c main_v38) (V c main_v40) (V c main_v41) (V c main_v42) (V c main_v43)

/-- WHAT POINT t WRITES BACK is block t of that function. -/
theorem flushed_eq (c : Dev nD) (t : Fin cfg1.N) :
    (dat1 (F := Ideal) V c).flushed 9 t = ((cfg1.win 9).blk t).view.read (Elt Ideal) (whole V c) := by
  show (cfg1.win 9).cut (grid1.coords t) ((dat1 (F := Ideal) V c).after 9 t) = _
  rw [after1_9]
  obtain ⟨-, -, -, -, -, -, -, -, -, -, -, -, -, -, -, -, -, -, i0, i1⟩ := idx_facts t
  funext y
  show out1_9 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) y = whole V c (((cfg1.win 9).blk t).view.emb y)
  refine (congrFun (out_eq (iblk1 V c 0 t) (iblk1 V c 1 t) (iblk1 V c 2 t) (iblk1 V c 3 t) (iblk1 V c 4 t) (iblk1 V c 5 t)
      (iblk1 V c 6 t) (iblk1 V c 7 t) (iblk1 V c 8 t)) y).trans ?_
  have h0 : ((((cfg1.win 9).blk t).view.emb y) 0).val = (y 0).val := by
    show win1_9.index t 0 * 8 + 1 * (y 0).val = (y 0).val; rw [i0]; omega
  have h1 : ((((cfg1.win 9).blk t).view.emb y) 1).val = t.val * 64000 + (y 1).val := by
    show win1_9.index t 1 * 64000 + 1 * (y 1).val = t.val * 64000 + (y 1).val; rw [i1]; omega
  exact mlpT_block (iblk1 V c 0 t) (iblk1 V c 1 t) (iblk1 V c 2 t) (V c main_v33) (V c main_v34) (V c main_v11)
    (iblk1 V c 3 t) (iblk1 V c 4 t) (V c main_v36) (V c main_v38) (iblk1 V c 5 t) (V c main_v40) (iblk1 V c 6 t) (V c main_v41)
    (iblk1 V c 7 t) (V c main_v42) (iblk1 V c 8 t) (V c main_v43) y (((cfg1.win 9).blk t).view.emb y) h0
    (fun k => blk0_apply V c t k (y 1) ((((cfg1.win 9).blk t).view.emb y) 1) h1)
    (fun k => blk1_apply V c t k (y 1) ((((cfg1.win 9).blk t).view.emb y) 1) h1)
    (fun k => blk2_apply V c t k (y 1) ((((cfg1.win 9).blk t).view.emb y) 1) h1)
    (blk3_eq V c t) (blk4_eq V c t) (blk5_eq V c t) (blk6_eq V c t) (blk7_eq V c t) (blk8_eq V c t)

/-- An index of the output array is in point t's block iff each coordinate is in the block's range on its axis. -/
theorem mem_blk (t : Fin cfg1.N) (i : S8x3200000.Idx) :
    i ∈ ((cfg1.win 9).blk t).view.set ↔ ∀ a : Fin 2, win1_9.index t a * S8x64000.size a ≤ (i a).val ∧ (i a).val < win1_9.index t a * S8x64000.size a + S8x64000.size a := by
  show i ∈ ((View.whole main_v44).slice (win1_9.rect t)).set ↔ _
  rw [View.set_slice_whole, Rect.mem_set_unit]
  exact Iff.rfl

/-- Every column e lies in the block of point e / 64000. -/
theorem cover (i : S8x3200000.Idx) :
    ∃ t : Fin cfg1.N, (cfg1.win 9).flush t = true ∧ i ∈ ((cfg1.win 9).blk t).view.set := by
  have hi0 : (i 0).val < 8 := (i 0).isLt
  have hi1 : (i 1).val < 3200000 := (i 1).isLt
  have hN : grid1.N = 50 := N_1
  let t : Fin cfg1.N := ⟨(i 1).val / 64000, by show (i 1).val / 64000 < grid1.N; rw [hN]; omega⟩
  obtain ⟨-, -, -, -, -, -, -, -, -, -, -, -, -, -, -, -, -, -, i0, i1⟩ := idx_facts t
  have i1' : win1_9.index t (1 : Fin 2) = (i 1).val / 64000 := i1
  refine ⟨t, flush1_9 t, ?_⟩
  rw [mem_blk]
  intro a
  match a with
  | ⟨0, _⟩ => show win1_9.index t (0 : Fin 2) * 8 ≤ (i 0).val ∧ (i 0).val < win1_9.index t (0 : Fin 2) * 8 + 8; rw [i0]; omega
  | ⟨1, _⟩ => show win1_9.index t (1 : Fin 2) * 64000 ≤ (i 1).val ∧ (i 1).val < win1_9.index t (1 : Fin 2) * 64000 + 64000; rw [i1']; omega

/-- THE OUTPUT ARRAY after the call: the perceptron of the nine arrays as the call finds them, column by column. -/
theorem arr (c : Dev nD) :
    ((dat1 (F := Ideal) V c).arrAt 9 cfg1.N : S8x3200000.Idx → EReal)
      = Cert.Spec.mlpT (C := 8) (M := 8) (O := 8) (T := 3200000) (V c main_v33) (V c main_v34) (V c main_v11)
          (V c main_v36) (V c main_v38) (V c main_v40) (V c main_v41) (V c main_v42) (V c main_v43) :=
  (dat1 (F := Ideal) V c).arrAt_eq_of_cover 9 (whole V c) (fun t _ => flushed_eq V c t) cover

end Blocks

end Cert.KernelIdeal.KRegion1

end
-- ==== Proof.KRegion2.lean ====
import proofs.«409580_j89481348645420_1_alg».proof.Proof.Gen.KernelIdeal.Frame
import proofs.«409580_j89481348645420_1_alg».proof.Proof.Spec
import Idealize.ShloMosaic.Lib.Pipeline.Value
import Idealize.ShloMosaic.Lib.ValueIdx
import Idealize.ShloMosaic.PureOps.Ideal.Laws

/-!
# What the third edge perceptron leaves in its output array

The third call of the edge kernel works on 8 input channels, 4 hidden units and 1 output, over the 3200000
edge columns in 50 blocks of 64000 columns. At block `t` it reads columns `64000 t … 64000 t + 63999` of the
two gathered node-feature arrays and of the edge-feature array, reads the six small weight and bias arrays
whole, and writes columns `64000 t … 64000 t + 63999` of the one-row result.

Inside a block the value at (row `o`, column `e`) is
`(∑ j, w2 o j * elu (((∑ k, wd j k * xd k e) + (∑ k, ws j k * xs k e)) + (∑ k, we j k * ee k e) + b1 j)) + b2 o`:
each matrix product accumulates into a zero block, so it is the bare sum over the contracted coordinate; the
changes of float format are the identity on extended reals; the bias columns are broadcast along the edge axis;
the unit is chosen by the comparison `0 < z`.

Since the formula at column `e` of the block only reads column `e` of the block's inputs, the block written at
`t` is the block of ONE function of the whole arrays, `Cert.Spec.mlpT`, and since the 50 blocks tile the
columns (column `e` lies in block `e / 64000`), the result array ends holding that function.
-/

noncomputable section

open scoped BigOperators

namespace Cert.KernelIdeal.KRegion2

open Cert.KernelIdeal Cert.KernelIdeal.Gen Idealize.ShloMosaic Idealize.ShloMosaic.TcCoe Idealize.ShloMosaic.ValueIdx
open Idealize.SL.Sem
open Idealize.ShloMosaic.Pipeline (Dat)

/-! ## The three matrix products at an index

Each product contracts the left operand's second axis with the right operand's first. The operand indices at output
index `i` and contraction index `q` are therefore `(i 0, q)` and `(q, i 1)`; one lemma per operand axis. -/

/-- Left operand, free axis: the output's row. -/
theorem lhs48_0 (i : S4x64000.Idx) (q : dot_S4x8_S8x64000_S4x64000_1_0_0_1_n_n.contr.Idx) :
    (dot_S4x8_S8x64000_S4x64000_1_0_0_1_n_n.lhsIdx i q 0).val = (i 0).val := by
  unfold DotDims.lhsIdx
  rw [dif_neg (show ¬(0 : Fin S4x8.rank) ∈ dot_S4x8_S8x64000_S4x64000_1_0_0_1_n_n.lhsBatch by decide), dif_pos (show (0 : Fin S4x8.rank) ∈ dot_S4x8_S8x64000_S4x64000_1_0_0_1_n_n.lhsNonContracting by decide)]
  rfl
/-- Left operand, contracted axis: the contraction coordinate. -/
theorem lhs48_1 (i : S4x64000.Idx) (q : dot_S4x8_S8x64000_S4x64000_1_0_0_1_n_n.contr.Idx) :
    (dot_S4x8_S8x64000_S4x64000_1_0_0_1_n_n.lhsIdx i q 1).val = (q ⟨0, by decide⟩).val :=
  dot_S4x8_S8x64000_S4x64000_1_0_0_1_n_n.lhsIdx_val_of_single rfl i q
/-- Right operand, contracted axis: the contraction coordinate. -/
theorem rhs48_0 (i : S4x64000.Idx) (q : dot_S4x8_S8x64000_S4x64000_1_0_0_1_n_n.contr.Idx) :
    (dot_S4x8_S8x64000_S4x64000_1_0_0_1_n_n.rhsIdx i q 0).val = (q ⟨0, by decide⟩).val :=
  dot_S4x8_S8x64000_S4x64000_1_0_0_1_n_n.rhsIdx_val_of_single rfl i q
/-- Right operand, free axis: the output's column. -/
theorem rhs48_1 (i : S4x64000.Idx) (q : dot_S4x8_S8x64000_S4x64000_1_0_0_1_n_n.contr.Idx) :
    (dot_S4x8_S8x64000_S4x64000_1_0_0_1_n_n.rhsIdx i q 1).val = (i 1).val := by
  unfold DotDims.rhsIdx
  rw [dif_neg (show ¬(1 : Fin S8x64000.rank) ∈ dot_S4x8_S8x64000_S4x64000_1_0_0_1_n_n.rhsBatch by decide), dif_pos (show (1 : Fin S8x64000.rank) ∈ dot_S4x8_S8x64000_S4x64000_1_0_0_1_n_n.rhsNonContracting by decide)]
  rfl

/-- the 4×8 weight block times the 8×64000 feature block, into a zero block, at (row `j`, column `e`): the sum over the 8 contracted coordinates. -/
theorem mm48 {φ₁ φ₂ : FTy} (w : FVec Ideal S4x8 φ₁) (x : FVec Ideal S8x64000 φ₂) (j : Fin 4) (e : Fin 64000) :
    matmul dot_S4x8_S8x64000_S4x64000_1_0_0_1_n_n none w x (constant S4x64000 .f32 0x00000000#32) (ix2 j e)
      = ∑ k : Fin 8, w (ix2 j k) * x (ix2 k e) := by
  simp only [matmul]
  rw [Ideal.matmul_constant_zero_apply, ← Equiv.sum_comp (contrEquiv1 dot_S4x8_S8x64000_S4x64000_1_0_0_1_n_n 8 rfl rfl).symm]
  refine Finset.sum_congr rfl fun k _ => ?_
  have hk := contrEquiv1_symm_val dot_S4x8_S8x64000_S4x64000_1_0_0_1_n_n 8 rfl rfl k
  have el : dot_S4x8_S8x64000_S4x64000_1_0_0_1_n_n.lhsIdx (ix2 j e) ((contrEquiv1 dot_S4x8_S8x64000_S4x64000_1_0_0_1_n_n 8 rfl rfl).symm k) = ix2 j k := funext fun a => Fin.ext (by
    match a with
    | ⟨0, _⟩ => exact lhs48_0 _ _
    | ⟨1, _⟩ => exact (lhs48_1 _ _).trans hk)
  have er : dot_S4x8_S8x64000_S4x64000_1_0_0_1_n_n.rhsIdx (ix2 j e) ((contrEquiv1 dot_S4x8_S8x64000_S4x64000_1_0_0_1_n_n 8 rfl rfl).symm k) = ix2 k e := funext fun a => Fin.ext (by
    match a with
    | ⟨0, _⟩ => exact (rhs48_0 _ _).trans hk
    | ⟨1, _⟩ => exact rhs48_1 _ _)
  rw [el, er]

/-- Left operand, free axis: the output's row. -/
theorem lhs43_0 (i : S4x64000.Idx) (q : dot_S4x3_S3x64000_S4x64000_1_0_0_1_n_n.contr.Idx) :
    (dot_S4x3_S3x64000_S4x64000_1_0_0_1_n_n.lhsIdx i q 0).val = (i 0).val := by
  unfold DotDims.lhsIdx
  rw [dif_neg (show ¬(0 : Fin S4x3.rank) ∈ dot_S4x3_S3x64000_S4x64000_1_0_0_1_n_n.lhsBatch by decide), dif_pos (show (0 : Fin S4x3.rank) ∈ dot_S4x3_S3x64000_S4x64000_1_0_0_1_n_n.lhsNonContracting by decide)]
  rfl
/-- Left operand, contracted axis: the contraction coordinate. -/
theorem lhs43_1 (i : S4x64000.Idx) (q : dot_S4x3_S3x64000_S4x64000_1_0_0_1_n_n.contr.Idx) :
    (dot_S4x3_S3x64000_S4x64000_1_0_0_1_n_n.lhsIdx i q 1).val = (q ⟨0, by decide⟩).val :=
  dot_S4x3_S3x64000_S4x64000_1_0_0_1_n_n.lhsIdx_val_of_single rfl i q
/-- Right operand, contracted axis: the contraction coordinate. -/
theorem rhs43_0 (i : S4x64000.Idx) (q : dot_S4x3_S3x64000_S4x64000_1_0_0_1_n_n.contr.Idx) :
    (dot_S4x3_S3x64000_S4x64000_1_0_0_1_n_n.rhsIdx i q 0).val = (q ⟨0, by decide⟩).val :=
  dot_S4x3_S3x64000_S4x64000_1_0_0_1_n_n.rhsIdx_val_of_single rfl i q
/-- Right operand, free axis: the output's column. -/
theorem rhs43_1 (i : S4x64000.Idx) (q : dot_S4x3_S3x64000_S4x64000_1_0_0_1_n_n.contr.Idx) :
    (dot_S4x3_S3x64000_S4x64000_1_0_0_1_n_n.rhsIdx i q 1).val = (i 1).val := by
  unfold DotDims.rhsIdx
  rw [dif_neg (show ¬(1 : Fin S3x64000.rank) ∈ dot_S4x3_S3x64000_S4x64000_1_0_0_1_n_n.rhsBatch by decide), dif_pos (show (1 : Fin S3x64000.rank) ∈ dot_S4x3_S3x64000_S4x64000_1_0_0_1_n_n.rhsNonContracting by decide)]
  rfl

/-- the 4×3 weight block times the 3×64000 edge-feature block, into a zero block, at (row `j`, column `e`): the sum over the 3 contracted coordinates. -/
theorem mm43 {φ₁ φ₂ : FTy} (w : FVec Ideal S4x3 φ₁) (x : FVec Ideal S3x64000 φ₂) (j : Fin 4) (e : Fin 64000) :
    matmul dot_S4x3_S3x64000_S4x64000_1_0_0_1_n_n none w x (constant S4x64000 .f32 0x00000000#32) (ix2 j e)
      = ∑ k : Fin 3, w (ix2 j k) * x (ix2 k e) := by
  simp only [matmul]
  rw [Ideal.matmul_constant_zero_apply, ← Equiv.sum_comp (contrEquiv1 dot_S4x3_S3x64000_S4x64000_1_0_0_1_n_n 3 rfl rfl).symm]
  refine Finset.sum_congr rfl fun k _ => ?_
  have hk := contrEquiv1_symm_val dot_S4x3_S3x64000_S4x64000_1_0_0_1_n_n 3 rfl rfl k
  have el : dot_S4x3_S3x64000_S4x64000_1_0_0_1_n_n.lhsIdx (ix2 j e) ((contrEquiv1 dot_S4x3_S3x64000_S4x64000_1_0_0_1_n_n 3 rfl rfl).symm k) = ix2 j k := funext fun a => Fin.ext (by
    match a with
    | ⟨0, _⟩ => exact lhs43_0 _ _
    | ⟨1, _⟩ => exact (lhs43_1 _ _).trans hk)
  have er : dot_S4x3_S3x64000_S4x64000_1_0_0_1_n_n.rhsIdx (ix2 j e) ((contrEquiv1 dot_S4x3_S3x64000_S4x64000_1_0_0_1_n_n 3 rfl rfl).symm k) = ix2 k e := funext fun a => Fin.ext (by
    match a with
    | ⟨0, _⟩ => exact (rhs43_0 _ _).trans hk
    | ⟨1, _⟩ => exact rhs43_1 _ _)
  rw [el, er]

/-- Left operand, free axis: the output's row. -/
theorem lhs14_0 (i : S1x64000.Idx) (q : dot_S1x4_S4x64000_S1x64000_1_0_0_1_n_n.contr.Idx) :
    (dot_S1x4_S4x64000_S1x64000_1_0_0_1_n_n.lhsIdx i q 0).val = (i 0).val := by
  unfold DotDims.lhsIdx
  rw [dif_neg (show ¬(0 : Fin S1x4.rank) ∈ dot_S1x4_S4x64000_S1x64000_1_0_0_1_n_n.lhsBatch by decide), dif_pos (show (0 : Fin S1x4.rank) ∈ dot_S1x4_S4x64000_S1x64000_1_0_0_1_n_n.lhsNonContracting by decide)]
  rfl
/-- Left operand, contracted axis: the contraction coordinate. -/
theorem lhs14_1 (i : S1x64000.Idx) (q : dot_S1x4_S4x64000_S1x64000_1_0_0_1_n_n.contr.Idx) :
    (dot_S1x4_S4x64000_S1x64000_1_0_0_1_n_n.lhsIdx i q 1).val = (q ⟨0, by decide⟩).val :=
  dot_S1x4_S4x64000_S1x64000_1_0_0_1_n_n.lhsIdx_val_of_single rfl i q
/-- Right operand, contracted axis: the contraction coordinate. -/
theorem rhs14_0 (i : S1x64000.Idx) (q : dot_S1x4_S4x64000_S1x64000_1_0_0_1_n_n.contr.Idx) :
    (dot_S1x4_S4x64000_S1x64000_1_0_0_1_n_n.rhsIdx i q 0).val = (q ⟨0, by decide⟩).val :=
  dot_S1x4_S4x64000_S1x64000_1_0_0_1_n_n.rhsIdx_val_of_single rfl i q
/-- Right operand, free axis: the output's column. -/
theorem rhs14_1 (i : S1x64000.Idx) (q : dot_S1x4_S4x64000_S1x64000_1_0_0_1_n_n.contr.Idx) :
    (dot_S1x4_S4x64000_S1x64000_1_0_0_1_n_n.rhsIdx i q 1).val = (i 1).val := by
  unfold DotDims.rhsIdx
  rw [dif_neg (show ¬(1 : Fin S4x64000.rank) ∈ dot_S1x4_S4x64000_S1x64000_1_0_0_1_n_n.rhsBatch by decide), dif_pos (show (1 : Fin S4x64000.rank) ∈ dot_S1x4_S4x64000_S1x64000_1_0_0_1_n_n.rhsNonContracting by decide)]
  rfl

/-- the 1×4 weight block times the 4×64000 hidden block, into a zero block, at (row `j`, column `e`): the sum over the 4 contracted coordinates. -/
theorem mm14 {φ₁ φ₂ : FTy} (w : FVec Ideal S1x4 φ₁) (x : FVec Ideal S4x64000 φ₂) (j : Fin 1) (e : Fin 64000) :
    matmul dot_S1x4_S4x64000_S1x64000_1_0_0_1_n_n none w x (constant S1x64000 .f32 0x00000000#32) (ix2 j e)
      = ∑ k : Fin 4, w (ix2 j k) * x (ix2 k e) := by
  simp only [matmul]
  rw [Ideal.matmul_constant_zero_apply, ← Equiv.sum_comp (contrEquiv1 dot_S1x4_S4x64000_S1x64000_1_0_0_1_n_n 4 rfl rfl).symm]
  refine Finset.sum_congr rfl fun k _ => ?_
  have hk := contrEquiv1_symm_val dot_S1x4_S4x64000_S1x64000_1_0_0_1_n_n 4 rfl rfl k
  have el : dot_S1x4_S4x64000_S1x64000_1_0_0_1_n_n.lhsIdx (ix2 j e) ((contrEquiv1 dot_S1x4_S4x64000_S1x64000_1_0_0_1_n_n 4 rfl rfl).symm k) = ix2 j k := funext fun a => Fin.ext (by
    match a with
    | ⟨0, _⟩ => exact lhs14_0 _ _
    | ⟨1, _⟩ => exact (lhs14_1 _ _).trans hk)
  have er : dot_S1x4_S4x64000_S1x64000_1_0_0_1_n_n.rhsIdx (ix2 j e) ((contrEquiv1 dot_S1x4_S4x64000_S1x64000_1_0_0_1_n_n 4 rfl rfl).symm k) = ix2 k e := funext fun a => Fin.ext (by
    match a with
    | ⟨0, _⟩ => exact (rhs14_0 _ _).trans hk
    | ⟨1, _⟩ => exact rhs14_1 _ _)
  rw [el, er]

/-! ## The body's arithmetic at an index -/

/-- The exponential of a block at an index is the exponential of the entry. -/
theorem exp_at {s : Shape} {φ : FTy} (a : FVec Ideal s φ) (i : s.Idx) : exp a i = Ideal.exp (a i) := rfl

/-- A bias column broadcast along the 64000 edge columns reads its row's one entry. -/
theorem bcol4 (b : S4x1.Idx → EReal) (j : Fin 4) (e : Fin 64000) :
    broadcastTo S4x64000 b broadcasts_S4x1_S4x64000 (ix2 j e) = b (ix2 j 0) :=
  broadcastTo_apply b broadcasts_S4x1_S4x64000 (ix2 j e) (ix2 j 0) (fun a => by
    match a with
    | ⟨0, _⟩ => rfl
    | ⟨1, _⟩ => rfl)

/-- The same for the one-row output's bias. -/
theorem bcol1 (b : S1x1.Idx → EReal) (o : Fin 1) (e : Fin 64000) :
    broadcastTo S1x64000 b broadcasts_S1x1_S1x64000 (ix2 o e) = b (ix2 o 0) :=
  broadcastTo_apply b broadcasts_S1x1_S1x64000 (ix2 o e) (ix2 o 0) (fun a => by
    match a with
    | ⟨0, _⟩ => exact Fin.val_eq_zero o
    | ⟨1, _⟩ => rfl)

/-- The comparison `z > 0` chooses as the order on the extended reals does: the selected value is the
    exponential linear unit of `z`. -/
theorem select_elu (z : EReal) :
    Scalar.select (FloatOps.cmpf (F := Ideal) (φ := .f32) .ogt z (FloatOps.ofBits .f32 0x00000000#32)) z
        (Ideal.exp z - FloatOps.ofBits (F := Ideal) .f32 0x3F800000#32)
      = Cert.Spec.elu z := by
  show (if BitVec.ofBool (decide (Cert.Spec.zero32 < z)) = 1 then z else Ideal.exp z - Cert.Spec.one32)
    = if Cert.Spec.zero32 < z then z else Ideal.exp z - Cert.Spec.one32
  by_cases h : Cert.Spec.zero32 < z
  · rw [if_pos h, decide_eq_true h]; rfl
  · rw [if_neg h, decide_eq_false h]; rfl

/-- The hidden block at (unit `j`, column `e`): the three partial sums, the bias, the unit. -/
theorem pay3_at (x0 x1 : Vec Ideal S8x64000 .f32) (x2 : Vec Ideal S3x64000 .f32) (x3 x4 : Vec Ideal S4x8 .f32)
    (x5 : Vec Ideal S4x3 .f32) (x6 : Vec Ideal S4x1 .f32) (j : Fin 4) (e : Fin 64000) :
    k2_pay3 (F := Ideal) x0 x1 x2 x3 x4 x5 x6 (ix2 j e)
      = Cert.Spec.elu ((((∑ k : Fin 8, x3 (ix2 j k) * x0 (ix2 k e)) + (∑ k : Fin 8, x4 (ix2 j k) * x1 (ix2 k e)))
            + (∑ k : Fin 3, x5 (ix2 j k) * x2 (ix2 k e))) + x6 (ix2 j 0)) := by
  unfold k2_pay3
  simp only [shapeCast_self, truncf_apply, select_apply, cmpf_apply, subf_apply, addf_apply, broadcast_apply, exp_at,
    mm48, mm43, bcol4]
  exact select_elu _

/-- The output block at (row `o`, column `e`): the sum over the hidden units, the bias. -/
theorem pay1_at (w2 : Vec Ideal S1x4 .f32) (h : FVec Ideal S4x64000 .bf16) (b2 : Vec Ideal S1x1 .f32) (o : Fin 1) (e : Fin 64000) :
    k2_pay1 (F := Ideal) (k2_pay2 w2) h (constant S1x64000 .f32 0x00000000#32) b2 (ix2 o e)
      = (∑ j : Fin 4, w2 (ix2 o j) * h (ix2 j e)) + b2 (ix2 o 0) := by
  unfold k2_pay1 k2_pay2
  simp only [shapeCast_self, truncf_apply, addf_apply, mm14, bcol1]

/-! ## The body's store is the perceptron of the block's columns -/

theorem hz : (![0, 0] : Fin 2 → Nat) = fun _ => 0 := funext fun a => by fin_cases a <;> rfl

/-- What the body leaves in the output window's buffer, from the nine input blocks: every load and the one store go
    through the whole buffers, so it is the payload, which at (row `o`, column `e`) is the perceptron of column
    `e` of the block's inputs. -/
theorem out_eq (x0 x1 : Vec Ideal S8x64000 .f32) (x2 : Vec Ideal S3x64000 .f32) (x3 x4 : Vec Ideal S4x8 .f32)
    (x5 : Vec Ideal S4x3 .f32) (x6 : Vec Ideal S4x1 .f32) (x7 : Vec Ideal S1x4 .f32) (x8 : Vec Ideal S1x1 .f32) :
    (out2_9 (F := Ideal) x0 x1 x2 x3 x4 x5 x6 x7 x8 : S1x64000.Idx → EReal)
      = Cert.Spec.mlpT (C := 8) (M := 4) (O := 1) (T := 64000) x0 x1 x2 x3 x4 x5 x6 x7 x8 := by
  unfold out2_9
  rw [View.canon_unit_zero hz]
  simp only [View.ld_unit_zero (S := S8x64000) hz, View.ld_unit_zero (S := S3x64000) hz, View.ld_unit_zero (S := S4x8) hz,
    View.ld_unit_zero (S := S4x3) hz, View.ld_unit_zero (S := S4x1) hz, View.ld_unit_zero (S := S1x4) hz,
    View.ld_unit_zero (S := S1x1) hz]
  funext i
  obtain ⟨o, e, rfl⟩ : ∃ (o : Fin 1) (e : Fin 64000), i = ix2 o e := ⟨i 0, i 1, eq_ix2 i⟩
  refine (pay1_at x7 _ x8 o e).trans ?_
  simp only [pay3_at]
  rfl

/-- Column `e` of block `t`, as a column of the whole array. -/
abbrev col (t : ℕ) (ht : t < 50) (e : Fin 64000) : Fin 3200000 := ⟨t * 64000 + e.val, by omega⟩

/-- The perceptron's value at a column reads its three edge-major inputs at that column only: if block inputs
    `x0 x1 x2` are columns `t * 64000 …` of arrays `A0 A1 A2`, the block's perceptron at column `e` is the arrays'
    at column `t * 64000 + e`. -/
theorem mlpT_block (t : ℕ) (ht : t < 50)
    (A0 A1 : S8x3200000.Idx → EReal) (A2 : S3x3200000.Idx → EReal)
    (x0 x1 : S8x64000.Idx → EReal) (x2 : S3x64000.Idx → EReal)
    (wd ws : S4x8.Idx → EReal) (we : S4x3.Idx → EReal) (b1 : S4x1.Idx → EReal) (w2 : S1x4.Idx → EReal) (b2 : S1x1.Idx → EReal)
    (h0 : ∀ (k : Fin 8) (e : Fin 64000), x0 (ix2 k e) = A0 (ix2 k (col t ht e)))
    (h1 : ∀ (k : Fin 8) (e : Fin 64000), x1 (ix2 k e) = A1 (ix2 k (col t ht e)))
    (h2 : ∀ (k : Fin 3) (e : Fin 64000), x2 (ix2 k e) = A2 (ix2 k (col t ht e)))
    (o : Fin 1) (e : Fin 64000) :
    Cert.Spec.mlpT (C := 8) (M := 4) (O := 1) (T := 64000) x0 x1 x2 wd ws we b1 w2 b2 (ix2 o e)
      = Cert.Spec.mlpT (C := 8) (M := 4) (O := 1) (T := 3200000) A0 A1 A2 wd ws we b1 w2 b2
          (ix2 o (col t ht e)) := by
  show (∑ j : Fin 4, w2 (ix2 o j) * Cert.Spec.elu ((((∑ k : Fin 8, wd (ix2 j k) * x0 (ix2 k e))
          + (∑ k : Fin 8, ws (ix2 j k) * x1 (ix2 k e))) + (∑ k : Fin 3, we (ix2 j k) * x2 (ix2 k e))) + b1 (ix2 j 0)))
        + b2 (ix2 o 0)
    = (∑ j : Fin 4, w2 (ix2 o j) * Cert.Spec.elu ((((∑ k : Fin 8, wd (ix2 j k) * A0 (ix2 k (col t ht e)))
          + (∑ k : Fin 8, ws (ix2 j k) * A1 (ix2 k (col t ht e))))
          + (∑ k : Fin 3, we (ix2 j k) * A2 (ix2 k (col t ht e)))) + b1 (ix2 j 0)))
        + b2 (ix2 o 0)
  simp only [h0, h1, h2]

/-! ## From the blocks to the array -/

/-- A grid point's number is below 50. -/
theorem t_lt (t : Fin cfg2.N) : t.val < 50 := lt_of_lt_of_eq t.isLt N_2

/-- The printed index maps, decided over the 50 points: the three edge-major inputs and the output take column block
    `t`, the six small arrays block (0, 0). -/
theorem idx_facts : ∀ t : Fin cfg2.N,
    (win2_0.index t (0 : Fin 2) = 0 ∧ win2_0.index t (1 : Fin 2) = t.val)
    ∧ (win2_1.index t (0 : Fin 2) = 0 ∧ win2_1.index t (1 : Fin 2) = t.val)
    ∧ (win2_2.index t (0 : Fin 2) = 0 ∧ win2_2.index t (1 : Fin 2) = t.val)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = t.val) :=
  (by decide +kernel : ∀ t : Fin grid2.N, _)

section Blocks
variable (V : (c : Dev nD) → (b : Ref sig .tc) → Buf (Elt Ideal) ((c : Thread nD τ).loc b)) (c : Dev nD) (t : Fin cfg2.N)

/-! A block's entry sits in its array, on each axis, at block index × block size + 1 × its own coordinate. -/

/-- Block `t` of the first gathered feature array is its columns `64000 t … 64000 t + 63999`. -/
theorem blk0_at (k : Fin 8) (e : Fin 64000) :
    (iblk2 (F := Ideal) V c 0 t : S8x64000.Idx → EReal) (ix2 k e)
      = (V c main_v53 : S8x3200000.Idx → EReal) (ix2 k (col t.val (t_lt t) e)) := by
  obtain ⟨⟨i0, i1⟩, -⟩ := idx_facts t
  show V c main_v53 (((cfg2.win 0).blk t).view.emb (ix2 k e)) = V c main_v53 _
  congr 1
  funext a; apply Fin.ext
  match a with
  | ⟨0, _⟩ => show win2_0.index t (0 : Fin 2) * 8 + 1 * k.val = k.val; rw [i0]; omega
  | ⟨1, _⟩ => show win2_0.index t (1 : Fin 2) * 64000 + 1 * e.val = t.val * 64000 + e.val; rw [i1]; omega

/-- Block `t` of the second gathered feature array is its columns `64000 t … 64000 t + 63999`. -/
theorem blk1_at (k : Fin 8) (e : Fin 64000) :
    (iblk2 (F := Ideal) V c 1 t : S8x64000.Idx → EReal) (ix2 k e)
      = (V c main_v54 : S8x3200000.Idx → EReal) (ix2 k (col t.val (t_lt t) e)) := by
  obtain ⟨-, ⟨i0, i1⟩, -⟩ := idx_facts t
  show V c main_v54 (((cfg2.win 1).blk t).view.emb (ix2 k e)) = V c main_v54 _
  congr 1
  funext a; apply Fin.ext
  match a with
  | ⟨0, _⟩ => show win2_1.index t (0 : Fin 2) * 8 + 1 * k.val = k.val; rw [i0]; omega
  | ⟨1, _⟩ => show win2_1.index t (1 : Fin 2) * 64000 + 1 * e.val = t.val * 64000 + e.val; rw [i1]; omega

/-- Block `t` of the edge-feature array is its columns `64000 t … 64000 t + 63999`. -/
theorem blk2_at (k : Fin 3) (e : Fin 64000) :
    (iblk2 (F := Ideal) V c 2 t : S3x64000.Idx → EReal) (ix2 k e)
      = (V c main_v11 : S3x3200000.Idx → EReal) (ix2 k (col t.val (t_lt t) e)) := by
  obtain ⟨-, -, ⟨i0, i1⟩, -⟩ := idx_facts t
  show V c main_v11 (((cfg2.win 2).blk t).view.emb (ix2 k e)) = V c main_v11 _
  congr 1
  funext a; apply Fin.ext
  match a with
  | ⟨0, _⟩ => show win2_2.index t (0 : Fin 2) * 3 + 1 * k.val = k.val; rw [i0]; omega
  | ⟨1, _⟩ => show win2_2.index t (1 : Fin 2) * 64000 + 1 * e.val = t.val * 64000 + e.val; rw [i1]; omega

/-! The six small arrays are read whole at every point. -/

theorem blk3_eq : (iblk2 (F := Ideal) V c 3 t : S4x8.Idx → EReal) = (V c main_v56 : S4x8.Idx → EReal) := by
  obtain ⟨-, -, -, ⟨i0, i1⟩, -⟩ := idx_facts t
  funext x
  show V c main_v56 (((cfg2.win 3).blk t).view.emb x) = V c main_v56 x
  congr 1
  funext a; apply Fin.ext
  match a with
  | ⟨0, _⟩ => show win2_3.index t (0 : Fin 2) * 4 + 1 * (x 0).val = (x 0).val; rw [i0]; omega
  | ⟨1, _⟩ => show win2_3.index t (1 : Fin 2) * 8 + 1 * (x 1).val = (x 1).val; rw [i1]; omega

theorem blk4_eq : (iblk2 (F := Ideal) V c 4 t : S4x8.Idx → EReal) = (V c main_v58 : S4x8.Idx → EReal) := by
  obtain ⟨-, -, -, -, ⟨i0, i1⟩, -⟩ := idx_facts t
  funext x
  show V c main_v58 (((cfg2.win 4).blk t).view.emb x) = V c main_v58 x
  congr 1
  funext a; apply Fin.ext
  match a with
  | ⟨0, _⟩ => show win2_4.index t (0 : Fin 2) * 4 + 1 * (x 0).val = (x 0).val; rw [i0]; omega
  | ⟨1, _⟩ => show win2_4.index t (1 : Fin 2) * 8 + 1 * (x 1).val = (x 1).val; rw [i1]; omega

theorem blk5_eq : (iblk2 (F := Ideal) V c 5 t : S4x3.Idx → EReal) = (V c main_v60 : S4x3.Idx → EReal) := by
  obtain ⟨-, -, -, -, -, ⟨i0, i1⟩, -⟩ := idx_facts t
  funext x
  show V c main_v60 (((cfg2.win 5).blk t).view.emb x) = V c main_v60 x
  congr 1
  funext a; apply Fin.ext
  match a with
  | ⟨0, _⟩ => show win2_5.index t (0 : Fin 2) * 4 + 1 * (x 0).val = (x 0).val; rw [i0]; omega
  | ⟨1, _⟩ => show win2_5.index t (1 : Fin 2) * 3 + 1 * (x 1).val = (x 1).val; rw [i1]; omega

theorem blk6_eq : (iblk2 (F := Ideal) V c 6 t : S4x1.Idx → EReal) = (V c main_v61 : S4x1.Idx → EReal) := by
  obtain ⟨-, -, -, -, -, -, ⟨i0, i1⟩, -⟩ := idx_facts t
  funext x
  show V c main_v61 (((cfg2.win 6).blk t).view.emb x) = V c main_v61 x
  congr 1
  funext a; apply Fin.ext
  match a with
  | ⟨0, _⟩ => show win2_6.index t (0 : Fin 2) * 4 + 1 * (x 0).val = (x 0).val; rw [i0]; omega
  | ⟨1, _⟩ => show win2_6.index t (1 : Fin 2) * 1 + 1 * (x 1).val = (x 1).val; rw [i1]; omega

theorem blk7_eq : (iblk2 (F := Ideal) V c 7 t : S1x4.Idx → EReal) = (V c main_v62 : S1x4.Idx → EReal) := by
  obtain ⟨-, -, -, -, -, -, -, ⟨i0, i1⟩, -⟩ := idx_facts t
  funext x
  show V c main_v62 (((cfg2.win 7).blk t).view.emb x) = V c main_v62 x
  congr 1
  funext a; apply Fin.ext
  match a with
  | ⟨0, _⟩ => show win2_7.index t (0 : Fin 2) * 1 + 1 * (x 0).val = (x 0).val; rw [i0]; omega
  | ⟨1, _⟩ => show win2_7.index t (1 : Fin 2) * 4 + 1 * (x 1).val = (x 1).val; rw [i1]; omega

theorem blk8_eq : (iblk2 (F := Ideal) V c 8 t : S1x1.Idx → EReal) = (V c main_v63 : S1x1.Idx → EReal) := by
  obtain ⟨-, -, -, -, -, -, -, -, ⟨i0, i1⟩, -⟩ := idx_facts t
  funext x
  show V c main_v63 (((cfg2.win 8).blk t).view.emb x) = V c main_v63 x
  congr 1
  funext a; apply Fin.ext
  match a with
  | ⟨0, _⟩ => show win2_8.index t (0 : Fin 2) * 1 + 1 * (x 0).val = (x 0).val; rw [i0]; omega
  | ⟨1, _⟩ => show win2_8.index t (1 : Fin 2) * 1 + 1 * (x 1).val = (x 1).val; rw [i1]; omega

/-- The whole-array function the output ends holding: the perceptron of the nine arrays as the call finds them. -/
abbrev G : S1x3200000.Idx → EReal :=
  Cert.Spec.mlpT (C := 8) (M := 4) (O := 1) (T := 3200000) (V c main_v53) (V c main_v54) (V c main_v11) (V c main_v56)
    (V c main_v58) (V c main_v60) (V c main_v61) (V c main_v62) (V c main_v63)

/-- What the body leaves at point `t`, at entry `y` of the block, is `G` at the entry's place `i` in the array
    (same row, column `64000 t + y 1`). -/
theorem after_at (y : S1x64000.Idx) (i : S1x3200000.Idx) (hi : (i 1).val = t.val * 64000 + (y 1).val) :
    (out2_9 (F := Ideal) (iblk2 V c 0 t) (iblk2 V c 1 t) (iblk2 V c 2 t) (iblk2 V c 3 t) (iblk2 V c 4 t) (iblk2 V c 5 t)
        (iblk2 V c 6 t) (iblk2 V c 7 t) (iblk2 V c 8 t) : S1x64000.Idx → EReal) y = G V c i := by
  obtain ⟨o, e, rfl⟩ : ∃ (o : Fin 1) (e : Fin 64000), y = ix2 o e := ⟨y 0, y 1, eq_ix2 y⟩
  obtain ⟨o', e', rfl⟩ : ∃ (o' : Fin 1) (e' : Fin 3200000), i = ix2 o' e' := ⟨i 0, i 1, eq_ix2 i⟩
  obtain rfl : o' = o := Subsingleton.elim _ _
  obtain rfl : e' = col t.val (t_lt t) e := Fin.ext hi
  refine (congrFun (out_eq (iblk2 V c 0 t) (iblk2 V c 1 t) (iblk2 V c 2 t) (iblk2 V c 3 t) (iblk2 V c 4 t) (iblk2 V c 5 t)
    (iblk2 V c 6 t) (iblk2 V c 7 t) (iblk2 V c 8 t)) (ix2 o' e)).trans ?_
  rw [blk3_eq V c t, blk4_eq V c t, blk5_eq V c t, blk6_eq V c t, blk7_eq V c t, blk8_eq V c t]
  exact mlpT_block t.val (t_lt t) (V c main_v53) (V c main_v54) (V c main_v11) (iblk2 V c 0 t) (iblk2 V c 1 t) (iblk2 V c 2 t)
    (V c main_v56) (V c main_v58) (V c main_v60) (V c main_v61) (V c main_v62) (V c main_v63)
    (blk0_at V c t) (blk1_at V c t) (blk2_at V c t) o' e

end Blocks

section Array
variable (V : (c : Dev nD) → (b : Ref sig .tc) → Buf (Elt Ideal) ((c : Thread nD τ).loc b)) (c : Dev nD)

/-- WHAT POINT `t` WRITES BACK is block `t` of `G`: the window is not cut, so the write-back moves all of what the body
    left, and entry `y` of the output's block sits at column `64000 t + y 1` of the array. -/
theorem flushed_eq (t : Fin cfg2.N) :
    (dat2 (F := Ideal) V c).flushed 9 t = ((cfg2.win 9).blk t).view.read (Elt Ideal) (G V c) := by
  obtain ⟨-, -, -, -, -, -, -, -, -, ⟨i0, i1⟩⟩ := idx_facts t
  show (cfg2.win 9).cut (grid2.coords t) ((dat2 V c).after 9 t) = _
  rw [after2_9]
  funext y
  refine after_at V c t y (((cfg2.win 9).blk t).view.emb y) ?_
  show win2_9.index t (1 : Fin 2) * 64000 + 1 * (y 1).val = t.val * 64000 + (y 1).val
  rw [i1]; omega

/-- An index of the array is in point `t`'s block iff each coordinate is in the block's range on its axis. -/
theorem mem_blk (t : Fin cfg2.N) (i : S1x3200000.Idx) :
    i ∈ ((cfg2.win 9).blk t).view.set ↔ ∀ a : Fin 2, win2_9.index t a * S1x64000.size a ≤ (i a).val
      ∧ (i a).val < win2_9.index t a * S1x64000.size a + S1x64000.size a := by
  show i ∈ ((View.whole main_v64).slice (win2_9.rect t)).set ↔ _
  rw [View.set_slice_whole, Rect.mem_set_unit]
  exact Iff.rfl

/-- The 50 blocks tile the columns: column `e` lies in the block of point `e / 64000`, which is written back. -/
theorem cover (i : S1x3200000.Idx) :
    ∃ t : Fin cfg2.N, (cfg2.win 9).flush t = true ∧ i ∈ ((cfg2.win 9).blk t).view.set := by
  have hi0 : (i 0).val < 1 := (i 0).isLt
  have hi1 : (i 1).val < 3200000 := (i 1).isLt
  have hq : (i 1).val / 64000 < cfg2.N := by rw [show cfg2.N = 50 from N_2]; omega
  obtain ⟨-, -, -, -, -, -, -, -, -, ⟨i0, i1⟩⟩ := idx_facts ⟨(i 1).val / 64000, hq⟩
  refine ⟨⟨(i 1).val / 64000, hq⟩, flush2_9 _, ?_⟩
  rw [mem_blk]
  intro a
  match a with
  | ⟨0, _⟩ =>
    show win2_9.index ⟨(i 1).val / 64000, hq⟩ (0 : Fin 2) * 1 ≤ (i 0).val
      ∧ (i 0).val < win2_9.index ⟨(i 1).val / 64000, hq⟩ (0 : Fin 2) * 1 + 1
    rw [i0]; omega
  | ⟨1, _⟩ =>
    show win2_9.index ⟨(i 1).val / 64000, hq⟩ (1 : Fin 2) * 64000 ≤ (i 1).val
      ∧ (i 1).val < win2_9.index ⟨(i 1).val / 64000, hq⟩ (1 : Fin 2) * 64000 + 64000
    rw [i1]
    show (i 1).val / 64000 * 64000 ≤ (i 1).val ∧ (i 1).val < (i 1).val / 64000 * 64000 + 64000
    omega

/-- THE OUTPUT ARRAY AFTER THE CALL: the perceptron of the nine arrays as the call finds them, column by column. -/
theorem arr : ((dat2 (F := Ideal) V c).arrAt 9 cfg2.N : S1x3200000.Idx → EReal)
    = Cert.Spec.mlpT (C := 8) (M := 4) (O := 1) (T := 3200000) (V c main_v53) (V c main_v54) (V c main_v11)
        (V c main_v56) (V c main_v58) (V c main_v60) (V c main_v61) (V c main_v62) (V c main_v63) :=
  (dat2 (F := Ideal) V c).arrAt_eq_of_cover 9 (G V c) (fun t _ => flushed_eq V c t) cover

end Array

end Cert.KernelIdeal.KRegion2

end
-- ==== Proof.KShared.lean ====
import proofs.«409580_j89481348645420_1_alg».proof.Proof.Gen.KernelIdeal.Frame
import proofs.«409580_j89481348645420_1_alg».proof.Proof.Spec
import Idealize.ShloMosaic.Lib.ValueLayout
import Idealize.ShloMosaic.Lib.IdealHost

/-!
# What every layer reads: the edge lists and the normalised edge features

The first stretch of the program, before any layer, cuts the edge-index array into its two rows (row 0 the source
node of each edge, row 1 the target node), and normalises the edge features: each of an edge's three numbers is
divided by the sum of their squares plus a regulariser. The normalised features are kept both edge-major and,
transposed, channel-major. Nothing later writes these four arrays: each layer finds them as the first stretch left
them. This module says what they hold, at every boundary of the run where a layer reads them:

* `src_at_W…` / `dst_at_W…`: the source / target list at position `e` is row 0 / row 1 of the launch's edge-index
  array at column `e`;
* `eT_at_W…`: the channel-major normalised features at `(k, e)` are `Cert.Spec.enorm` of the launch's edge features at
  `(e, k)`;
* `enorm_v10`: at the end of the run the edge-major normalised features are `Cert.Spec.enorm` of the launch's.

Each comes from one reading of the first stretch over an arbitrary valuation before it (`after0_…`, `…_core`) and
from the fact that no later stretch writes the array and every region either leaves it alone or reads it through an
input window.
-/

set_option maxRecDepth 16384

noncomputable section

namespace Cert.KernelIdeal.KShared

open Idealize.ShloMosaic Idealize.ShloMosaic.TcCoe Idealize.ShloMosaic.ValueIdx
open Cert.KernelIdeal Cert.KernelIdeal.Gen
open scoped BigOperators

/-! ## The first stretch over any valuation before it -/

/-- The source list: row 0 of the edge-index array, as a vector. -/
theorem after0_v1 (V : Valuation τ sig (Elt Ideal)) :
    (StableHlo.after (hostOps0 (F := Ideal)) V (Proc.devRef .tc main_v1) : S3200000.Idx → BitVec 32)
      = shapeCast S3200000 (extractStridedSlice S1x3200000 ![0, 0] (V (Proc.devRef .tc main_arg1) : S2x3200000.Idx → BitVec 32)
          slices_S2x3200000_S1x3200000_0_0) shapeCasts_S1x3200000_S3200000 := by
  after_results
  rfl

/-- The target list: row 1 of the edge-index array, as a vector. -/
theorem after0_v3 (V : Valuation τ sig (Elt Ideal)) :
    (StableHlo.after (hostOps0 (F := Ideal)) V (Proc.devRef .tc main_v3) : S3200000.Idx → BitVec 32)
      = shapeCast S3200000 (extractStridedSlice S1x3200000 ![1, 0] (V (Proc.devRef .tc main_arg1) : S2x3200000.Idx → BitVec 32)
          slices_S2x3200000_S1x3200000_1_0) shapeCasts_S1x3200000_S3200000 := by
  after_results
  rfl

/-- The normalised edge features, as the stretch computes them from the edge features `E`. -/
def normTerm (E : S3200000x3.Idx → EReal) : S3200000x3.Idx → EReal :=
  Host.divf (F := Ideal) (φ := .f32) E
    (broadcastInDim S3200000x3 ![0, 1] bcast_S3200000x1_S3200000x3_0_1
      (addf (F := Ideal) (φ := .f32)
        (broadcastInDim S3200000x1 ![0] bcast_S3200000_S3200000x1_0
          (Host.reduceAdd (F := Ideal) (φ := .f32) (mulf (F := Ideal) (φ := .f32) E E) (constant (F := Ideal) S_ .f32 0x00000000#32)
            reducesTo_S3200000x3_S3200000_d1 h_S_))
        (broadcastInDim S3200000x1 ![] bcast_S_S3200000x1 (constant (F := Ideal) S_ .f32 0x322BCC77#32))))

theorem after0_v10 (V : Valuation τ sig (Elt Ideal)) :
    (StableHlo.after (hostOps0 (F := Ideal)) V (Proc.devRef .tc main_v10) : S3200000x3.Idx → EReal)
      = normTerm (V (Proc.devRef .tc main_arg2) : S3200000x3.Idx → EReal) := by
  unfold normTerm
  after_results

theorem after0_v11 (V : Valuation τ sig (Elt Ideal)) :
    (StableHlo.after (hostOps0 (F := Ideal)) V (Proc.devRef .tc main_v11) : S3x3200000.Idx → EReal)
      = transpose S3x3200000 [1, 0] (normTerm (V (Proc.devRef .tc main_arg2) : S3200000x3.Idx → EReal))
          transposes_S3200000x3_S3x3200000_1_0 := by
  unfold normTerm
  after_results

/-! ## The first stretch's arrays at an index -/

/-- Row `r` of the edge-index array, cut out and written as a vector, reads at `e` the array at `(r, e)`. -/
theorem row_apply (r : Nat) (X : S2x3200000.Idx → BitVec 32) (h : S2x3200000.Slices ![r, 0] S1x3200000)
    (hc : S1x3200000.ShapeCasts S3200000) (k : Fin 2) (hk : k.val = r) (e : S3200000.Idx) :
    shapeCast S3200000 (extractStridedSlice S1x3200000 ![r, 0] X h) hc e = X (ix2 k (e 0)) := by
  rw [eq_ix1 e]
  refine (shapeCast_1a_a_apply _ hc (e 0)).trans ?_
  exact slice2_axis0_apply r X h 0 (e 0) k (by show k.val = r + 0; omega)

/-- The `Reduces` fact of the sum over an edge's three numbers: it names the index with the coordinate put back. -/
theorem red3 : S3200000x3.Reduces [1] S3200000 := by decide

theorem lift_ix (p : Fin 3200000) (k : Fin 3) : red3.lift (ix1 p) k = ix2 p k := by
  funext c
  apply Fin.ext
  match c with
  | ⟨0, _⟩ => rfl
  | ⟨1, _⟩ => rfl

/-- THE NORMALISATION AT AN INDEX: the stretch's term is `Cert.Spec.enorm`. The divisor is a broadcast along the row of
    the column "sum of the edge's squares, plus the regulariser"; the sum is the host's reduction from zero. -/
theorem normTerm_apply (E : S3200000x3.Idx → EReal) (p : Fin 3200000) (q : Fin 3) :
    normTerm E (ix2 p q) = Cert.Spec.enorm E (ix2 p q) := by
  have h5 : Host.reduceAdd (F := Ideal) (φ := .f32) (mulf (F := Ideal) (φ := .f32) E E)
        (constant (F := Ideal) S_ .f32 0x00000000#32) reducesTo_S3200000x3_S3200000_d1 h_S_ (ix1 p)
      = Cert.Spec.zero32 + ∑ k : Fin 3, E (ix2 p k) * E (ix2 p k) := by
    rw [hostReduceAdd_apply, Ideal.hostReduceAdd_single _ red3]
    refine congrArg₂ (· + ·) rfl (Finset.sum_congr rfl fun k _ => ?_)
    exact congrArg (fun i => E i * E i) (lift_ix p k)
  unfold normTerm Cert.Spec.enorm
  rw [hostDivf_apply]
  refine congrArg (Ideal.div (E (ix2 p q))) ?_
  rw [broadcastInDim_apply _ _ _ (ix2 p q) (ix2 p 0) (fun a => by match a with | ⟨0, _⟩ => rfl | ⟨1, _⟩ => rfl)]
  rw [addf_apply]
  refine congrArg₂ (· + ·) ?_ rfl
  rw [broadcastInDim_apply _ _ _ (ix2 p 0) (ix1 p) (fun a => by match a with | ⟨0, _⟩ => rfl)]
  exact h5

theorem normTerm_eq (E : S3200000x3.Idx → EReal) : normTerm E = Cert.Spec.enorm E :=
  funext fun i => by rw [eq_ix2 i]; exact normTerm_apply E (i 0) (i 1)

/-! ## No later stretch writes them; a region leaves them alone or reads them through an input window -/

/-- A buffer that no operation of a stretch writes holds after the stretch what it held before. -/
macro "keep_stretch " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

section Run
variable (m : (ℓ : Loc nD τ sig) → Buf (Elt Ideal) ℓ) (ρ : Dev nD → PrngReg) (c : Dev nD)

/-! ### `main_v1`, boundary by boundary -/
theorem W2_v1 : (W2 (F := Ideal) m ρ c (Proc.devRef .tc main_v1) : S3200000.Idx → BitVec 32) = W1 (F := Ideal) m ρ c (Proc.devRef .tc main_v1) := by keep_stretch hostOps0_1
theorem W3_v1 : (W3 (F := Ideal) m ρ c (Proc.devRef .tc main_v1) : S3200000.Idx → BitVec 32) = W2 (F := Ideal) m ρ c (Proc.devRef .tc main_v1) := by keep_stretch hostOps0_2
theorem W4_v1 : (W4 (F := Ideal) m ρ c (Proc.devRef .tc main_v1) : S3200000.Idx → BitVec 32) = W3 (F := Ideal) m ρ c (Proc.devRef .tc main_v1) := by keep_stretch hostOps0_3
theorem W5_v1 : (W5 (F := Ideal) m ρ c (Proc.devRef .tc main_v1) : S3200000.Idx → BitVec 32) = W4 (F := Ideal) m ρ c (Proc.devRef .tc main_v1) :=
  W5_of_ne m ρ c main_v1 (by decide)
theorem W6_v1 : (W6 (F := Ideal) m ρ c (Proc.devRef .tc main_v1) : S3200000.Idx → BitVec 32) = W5 (F := Ideal) m ρ c (Proc.devRef .tc main_v1) := by keep_stretch hostOps1
theorem W7_v1 : (W7 (F := Ideal) m ρ c (Proc.devRef .tc main_v1) : S3200000.Idx → BitVec 32) = W6 (F := Ideal) m ρ c (Proc.devRef .tc main_v1) := by keep_stretch hostOps1_1
theorem W8_v1 : (W8 (F := Ideal) m ρ c (Proc.devRef .tc main_v1) : S3200000.Idx → BitVec 32) = W7 (F := Ideal) m ρ c (Proc.devRef .tc main_v1) := by keep_stretch hostOps1_2
theorem W9_v1 : (W9 (F := Ideal) m ρ c (Proc.devRef .tc main_v1) : S3200000.Idx → BitVec 32) = W8 (F := Ideal) m ρ c (Proc.devRef .tc main_v1) := by keep_stretch hostOps1_3
theorem W10_v1 : (W10 (F := Ideal) m ρ c (Proc.devRef .tc main_v1) : S3200000.Idx → BitVec 32) = W9 (F := Ideal) m ρ c (Proc.devRef .tc main_v1) :=
  W10_of_ne m ρ c main_v1 (by decide)
theorem W11_v1 : (W11 (F := Ideal) m ρ c (Proc.devRef .tc main_v1) : S3200000.Idx → BitVec 32) = W10 (F := Ideal) m ρ c (Proc.devRef .tc main_v1) := by keep_stretch hostOps2
theorem W12_v1 : (W12 (F := Ideal) m ρ c (Proc.devRef .tc main_v1) : S3200000.Idx → BitVec 32) = W11 (F := Ideal) m ρ c (Proc.devRef .tc main_v1) := by keep_stretch hostOps2_1
theorem W13_v1 : (W13 (F := Ideal) m ρ c (Proc.devRef .tc main_v1) : S3200000.Idx → BitVec 32) = W12 (F := Ideal) m ρ c (Proc.devRef .tc main_v1) := by keep_stretch hostOps2_2
theorem W14_v1 : (W14 (F := Ideal) m ρ c (Proc.devRef .tc main_v1) : S3200000.Idx → BitVec 32) = W13 (F := Ideal) m ρ c (Proc.devRef .tc main_v1) := by keep_stretch hostOps2_3
theorem W15_v1 : (W15 (F := Ideal) m ρ c (Proc.devRef .tc main_v1) : S3200000.Idx → BitVec 32) = W14 (F := Ideal) m ρ c (Proc.devRef .tc main_v1) :=
  W15_of_ne m ρ c main_v1 (by decide)
theorem W16_v1 : (W16 (F := Ideal) m ρ c (Proc.devRef .tc main_v1) : S3200000.Idx → BitVec 32) = W15 (F := Ideal) m ρ c (Proc.devRef .tc main_v1) := by keep_stretch hostOps3

/-! ### `main_v3`, boundary by boundary -/
theorem W2_v3 : (W2 (F := Ideal) m ρ c (Proc.devRef .tc main_v3) : S3200000.Idx → BitVec 32) = W1 (F := Ideal) m ρ c (Proc.devRef .tc main_v3) := by keep_stretch hostOps0_1
theorem W3_v3 : (W3 (F := Ideal) m ρ c (Proc.devRef .tc main_v3) : S3200000.Idx → BitVec 32) = W2 (F := Ideal) m ρ c (Proc.devRef .tc main_v3) := by keep_stretch hostOps0_2
theorem W4_v3 : (W4 (F := Ideal) m ρ c (Proc.devRef .tc main_v3) : S3200000.Idx → BitVec 32) = W3 (F := Ideal) m ρ c (Proc.devRef .tc main_v3) := by keep_stretch hostOps0_3
theorem W5_v3 : (W5 (F := Ideal) m ρ c (Proc.devRef .tc main_v3) : S3200000.Idx → BitVec 32) = W4 (F := Ideal) m ρ c (Proc.devRef .tc main_v3) :=
  W5_of_ne m ρ c main_v3 (by decide)
theorem W6_v3 : (W6 (F := Ideal) m ρ c (Proc.devRef .tc main_v3) : S3200000.Idx → BitVec 32) = W5 (F := Ideal) m ρ c (Proc.devRef .tc main_v3) := by keep_stretch hostOps1
theorem W7_v3 : (W7 (F := Ideal) m ρ c (Proc.devRef .tc main_v3) : S3200000.Idx → BitVec 32) = W6 (F := Ideal) m ρ c (Proc.devRef .tc main_v3) := by keep_stretch hostOps1_1
theorem W8_v3 : (W8 (F := Ideal) m ρ c (Proc.devRef .tc main_v3) : S3200000.Idx → BitVec 32) = W7 (F := Ideal) m ρ c (Proc.devRef .tc main_v3) := by keep_stretch hostOps1_2
theorem W9_v3 : (W9 (F := Ideal) m ρ c (Proc.devRef .tc main_v3) : S3200000.Idx → BitVec 32) = W8 (F := Ideal) m ρ c (Proc.devRef .tc main_v3) := by keep_stretch hostOps1_3
theorem W10_v3 : (W10 (F := Ideal) m ρ c (Proc.devRef .tc main_v3) : S3200000.Idx → BitVec 32) = W9 (F := Ideal) m ρ c (Proc.devRef .tc main_v3) :=
  W10_of_ne m ρ c main_v3 (by decide)
theorem W11_v3 : (W11 (F := Ideal) m ρ c (Proc.devRef .tc main_v3) : S3200000.Idx → BitVec 32) = W10 (F := Ideal) m ρ c (Proc.devRef .tc main_v3) := by keep_stretch hostOps2
theorem W12_v3 : (W12 (F := Ideal) m ρ c (Proc.devRef .tc main_v3) : S3200000.Idx → BitVec 32) = W11 (F := Ideal) m ρ c (Proc.devRef .tc main_v3) := by keep_stretch hostOps2_1
theorem W13_v3 : (W13 (F := Ideal) m ρ c (Proc.devRef .tc main_v3) : S3200000.Idx → BitVec 32) = W12 (F := Ideal) m ρ c (Proc.devRef .tc main_v3) := by keep_stretch hostOps2_2
theorem W14_v3 : (W14 (F := Ideal) m ρ c (Proc.devRef .tc main_v3) : S3200000.Idx → BitVec 32) = W13 (F := Ideal) m ρ c (Proc.devRef .tc main_v3) := by keep_stretch hostOps2_3
theorem W15_v3 : (W15 (F := Ideal) m ρ c (Proc.devRef .tc main_v3) : S3200000.Idx → BitVec 32) = W14 (F := Ideal) m ρ c (Proc.devRef .tc main_v3) :=
  W15_of_ne m ρ c main_v3 (by decide)
theorem W16_v3 : (W16 (F := Ideal) m ρ c (Proc.devRef .tc main_v3) : S3200000.Idx → BitVec 32) = W15 (F := Ideal) m ρ c (Proc.devRef .tc main_v3) := by keep_stretch hostOps3

/-! ### `main_v10`, boundary by boundary -/
theorem W2_v10 : (W2 (F := Ideal) m ρ c (Proc.devRef .tc main_v10) : S3200000x3.Idx → EReal) = W1 (F := Ideal) m ρ c (Proc.devRef .tc main_v10) := by keep_stretch hostOps0_1
theorem W3_v10 : (W3 (F := Ideal) m ρ c (Proc.devRef .tc main_v10) : S3200000x3.Idx → EReal) = W2 (F := Ideal) m ρ c (Proc.devRef .tc main_v10) := by keep_stretch hostOps0_2
theorem W4_v10 : (W4 (F := Ideal) m ρ c (Proc.devRef .tc main_v10) : S3200000x3.Idx → EReal) = W3 (F := Ideal) m ρ c (Proc.devRef .tc main_v10) := by keep_stretch hostOps0_3
theorem W5_v10 : (W5 (F := Ideal) m ρ c (Proc.devRef .tc main_v10) : S3200000x3.Idx → EReal) = W4 (F := Ideal) m ρ c (Proc.devRef .tc main_v10) :=
  W5_of_ne m ρ c main_v10 (by decide)
theorem W6_v10 : (W6 (F := Ideal) m ρ c (Proc.devRef .tc main_v10) : S3200000x3.Idx → EReal) = W5 (F := Ideal) m ρ c (Proc.devRef .tc main_v10) := by keep_stretch hostOps1
theorem W7_v10 : (W7 (F := Ideal) m ρ c (Proc.devRef .tc main_v10) : S3200000x3.Idx → EReal) = W6 (F := Ideal) m ρ c (Proc.devRef .tc main_v10) := by keep_stretch hostOps1_1
theorem W8_v10 : (W8 (F := Ideal) m ρ c (Proc.devRef .tc main_v10) : S3200000x3.Idx → EReal) = W7 (F := Ideal) m ρ c (Proc.devRef .tc main_v10) := by keep_stretch hostOps1_2
theorem W9_v10 : (W9 (F := Ideal) m ρ c (Proc.devRef .tc main_v10) : S3200000x3.Idx → EReal) = W8 (F := Ideal) m ρ c (Proc.devRef .tc main_v10) := by keep_stretch hostOps1_3
theorem W10_v10 : (W10 (F := Ideal) m ρ c (Proc.devRef .tc main_v10) : S3200000x3.Idx → EReal) = W9 (F := Ideal) m ρ c (Proc.devRef .tc main_v10) :=
  W10_of_ne m ρ c main_v10 (by decide)
theorem W11_v10 : (W11 (F := Ideal) m ρ c (Proc.devRef .tc main_v10) : S3200000x3.Idx → EReal) = W10 (F := Ideal) m ρ c (Proc.devRef .tc main_v10) := by keep_stretch hostOps2
theorem W12_v10 : (W12 (F := Ideal) m ρ c (Proc.devRef .tc main_v10) : S3200000x3.Idx → EReal) = W11 (F := Ideal) m ρ c (Proc.devRef .tc main_v10) := by keep_stretch hostOps2_1
theorem W13_v10 : (W13 (F := Ideal) m ρ c (Proc.devRef .tc main_v10) : S3200000x3.Idx → EReal) = W12 (F := Ideal) m ρ c (Proc.devRef .tc main_v10) := by keep_stretch hostOps2_2
theorem W14_v10 : (W14 (F := Ideal) m ρ c (Proc.devRef .tc main_v10) : S3200000x3.Idx → EReal) = W13 (F := Ideal) m ρ c (Proc.devRef .tc main_v10) := by keep_stretch hostOps2_3
theorem W15_v10 : (W15 (F := Ideal) m ρ c (Proc.devRef .tc main_v10) : S3200000x3.Idx → EReal) = W14 (F := Ideal) m ρ c (Proc.devRef .tc main_v10) :=
  W15_of_ne m ρ c main_v10 (by decide)
theorem W16_v10 : (W16 (F := Ideal) m ρ c (Proc.devRef .tc main_v10) : S3200000x3.Idx → EReal) = W15 (F := Ideal) m ρ c (Proc.devRef .tc main_v10) := by keep_stretch hostOps3

/-! ### `main_v11`, boundary by boundary -/
theorem W2_v11 : (W2 (F := Ideal) m ρ c (Proc.devRef .tc main_v11) : S3x3200000.Idx → EReal) = W1 (F := Ideal) m ρ c (Proc.devRef .tc main_v11) := by keep_stretch hostOps0_1
theorem W3_v11 : (W3 (F := Ideal) m ρ c (Proc.devRef .tc main_v11) : S3x3200000.Idx → EReal) = W2 (F := Ideal) m ρ c (Proc.devRef .tc main_v11) := by keep_stretch hostOps0_2
theorem W4_v11 : (W4 (F := Ideal) m ρ c (Proc.devRef .tc main_v11) : S3x3200000.Idx → EReal) = W3 (F := Ideal) m ρ c (Proc.devRef .tc main_v11) := by keep_stretch hostOps0_3
theorem W5_v11 : (W5 (F := Ideal) m ρ c (Proc.devRef .tc main_v11) : S3x3200000.Idx → EReal) = W4 (F := Ideal) m ρ c (Proc.devRef .tc main_v11) :=
  (W5_arr m ρ c 2).trans (((dat0 (V4 m ρ) c).arrAt_in 2 rfl cfg0.N).trans (A_eq0 (V4 m ρ) c 2))
theorem W6_v11 : (W6 (F := Ideal) m ρ c (Proc.devRef .tc main_v11) : S3x3200000.Idx → EReal) = W5 (F := Ideal) m ρ c (Proc.devRef .tc main_v11) := by keep_stretch hostOps1
theorem W7_v11 : (W7 (F := Ideal) m ρ c (Proc.devRef .tc main_v11) : S3x3200000.Idx → EReal) = W6 (F := Ideal) m ρ c (Proc.devRef .tc main_v11) := by keep_stretch hostOps1_1
theorem W8_v11 : (W8 (F := Ideal) m ρ c (Proc.devRef .tc main_v11) : S3x3200000.Idx → EReal) = W7 (F := Ideal) m ρ c (Proc.devRef .tc main_v11) := by keep_stretch hostOps1_2
theorem W9_v11 : (W9 (F := Ideal) m ρ c (Proc.devRef .tc main_v11) : S3x3200000.Idx → EReal) = W8 (F := Ideal) m ρ c (Proc.devRef .tc main_v11) := by keep_stretch hostOps1_3
theorem W10_v11 : (W10 (F := Ideal) m ρ c (Proc.devRef .tc main_v11) : S3x3200000.Idx → EReal) = W9 (F := Ideal) m ρ c (Proc.devRef .tc main_v11) :=
  (W10_arr m ρ c 2).trans (((dat1 (V9 m ρ) c).arrAt_in 2 rfl cfg1.N).trans (A_eq1 (V9 m ρ) c 2))
theorem W11_v11 : (W11 (F := Ideal) m ρ c (Proc.devRef .tc main_v11) : S3x3200000.Idx → EReal) = W10 (F := Ideal) m ρ c (Proc.devRef .tc main_v11) := by keep_stretch hostOps2
theorem W12_v11 : (W12 (F := Ideal) m ρ c (Proc.devRef .tc main_v11) : S3x3200000.Idx → EReal) = W11 (F := Ideal) m ρ c (Proc.devRef .tc main_v11) := by keep_stretch hostOps2_1
theorem W13_v11 : (W13 (F := Ideal) m ρ c (Proc.devRef .tc main_v11) : S3x3200000.Idx → EReal) = W12 (F := Ideal) m ρ c (Proc.devRef .tc main_v11) := by keep_stretch hostOps2_2
theorem W14_v11 : (W14 (F := Ideal) m ρ c (Proc.devRef .tc main_v11) : S3x3200000.Idx → EReal) = W13 (F := Ideal) m ρ c (Proc.devRef .tc main_v11) := by keep_stretch hostOps2_3
theorem W15_v11 : (W15 (F := Ideal) m ρ c (Proc.devRef .tc main_v11) : S3x3200000.Idx → EReal) = W14 (F := Ideal) m ρ c (Proc.devRef .tc main_v11) :=
  (W15_arr m ρ c 2).trans (((dat2 (V14 m ρ) c).arrAt_in 2 rfl cfg2.N).trans (A_eq2 (V14 m ρ) c 2))
theorem W16_v11 : (W16 (F := Ideal) m ρ c (Proc.devRef .tc main_v11) : S3x3200000.Idx → EReal) = W15 (F := Ideal) m ρ c (Proc.devRef .tc main_v11) := by keep_stretch hostOps3

/-! ## What the layers read -/

/-- The source list after the first stretch: row 0 of the launch's edge-index array. -/
theorem src_at_W1 (e : S3200000.Idx) :
    (W1 (F := Ideal) m ρ c (Proc.devRef .tc main_v1) : S3200000.Idx → BitVec 32) e
      = (m ((c : Thread nD τ).loc main_arg1) : S2x3200000.Idx → BitVec 32) (ix2 0 (e 0)) :=
  (congrFun (after0_v1 (W0 (F := Ideal) m ρ c)) e).trans (row_apply 0 _ _ _ 0 rfl e)

/-- The target list after the first stretch: row 1 of the launch's edge-index array. -/
theorem dst_at_W1 (e : S3200000.Idx) :
    (W1 (F := Ideal) m ρ c (Proc.devRef .tc main_v3) : S3200000.Idx → BitVec 32) e
      = (m ((c : Thread nD τ).loc main_arg1) : S2x3200000.Idx → BitVec 32) (ix2 1 (e 0)) :=
  (congrFun (after0_v3 (W0 (F := Ideal) m ρ c)) e).trans (row_apply 1 _ _ _ 1 rfl e)

/-- The edge-major normalised features after the first stretch. -/
theorem enorm_v10_at_W1 :
    (W1 (F := Ideal) m ρ c (Proc.devRef .tc main_v10) : S3200000x3.Idx → EReal) = Cert.Spec.enorm (m ((c : Thread nD τ).loc main_arg2)) :=
  (after0_v10 (W0 (F := Ideal) m ρ c)).trans (normTerm_eq _)

/-- The channel-major normalised features after the first stretch, at `(k, e)`. -/
theorem eT_at_W1 (k : Fin 3) (e : Fin 3200000) :
    (W1 (F := Ideal) m ρ c (Proc.devRef .tc main_v11) : S3x3200000.Idx → EReal) (ix2 k e)
      = Cert.Spec.enorm (m ((c : Thread nD τ).loc main_arg2)) (ix2 e k) := by
  refine (congrFun (after0_v11 (W0 (F := Ideal) m ρ c)) (ix2 k e)).trans ?_
  refine (transpose_ix2_apply _ _ k e).trans ?_
  exact normTerm_apply _ e k

theorem src_at_W2 (e : S3200000.Idx) :
    (W2 (F := Ideal) m ρ c (Proc.devRef .tc main_v1) : S3200000.Idx → BitVec 32) e
      = (m ((c : Thread nD τ).loc main_arg1) : S2x3200000.Idx → BitVec 32) (ix2 0 (e 0)) :=
  (congrFun (W2_v1 m ρ c) e).trans (src_at_W1 m ρ c e)
theorem dst_at_W2 (e : S3200000.Idx) :
    (W2 (F := Ideal) m ρ c (Proc.devRef .tc main_v3) : S3200000.Idx → BitVec 32) e
      = (m ((c : Thread nD τ).loc main_arg1) : S2x3200000.Idx → BitVec 32) (ix2 1 (e 0)) :=
  (congrFun (W2_v3 m ρ c) e).trans (dst_at_W1 m ρ c e)
theorem enorm_v10_at_W2 :
    (W2 (F := Ideal) m ρ c (Proc.devRef .tc main_v10) : S3200000x3.Idx → EReal) = Cert.Spec.enorm (m ((c : Thread nD τ).loc main_arg2)) :=
  (W2_v10 m ρ c).trans (enorm_v10_at_W1 m ρ c)
theorem eT_at_W2 (k : Fin 3) (e : Fin 3200000) :
    (W2 (F := Ideal) m ρ c (Proc.devRef .tc main_v11) : S3x3200000.Idx → EReal) (ix2 k e)
      = Cert.Spec.enorm (m ((c : Thread nD τ).loc main_arg2)) (ix2 e k) :=
  (congrFun (W2_v11 m ρ c) (ix2 k e)).trans (eT_at_W1 m ρ c k e)

theorem src_at_W3 (e : S3200000.Idx) :
    (W3 (F := Ideal) m ρ c (Proc.devRef .tc main_v1) : S3200000.Idx → BitVec 32) e
      = (m ((c : Thread nD τ).loc main_arg1) : S2x3200000.Idx → BitVec 32) (ix2 0 (e 0)) :=
  (congrFun (W3_v1 m ρ c) e).trans (src_at_W2 m ρ c e)
theorem dst_at_W3 (e : S3200000.Idx) :
    (W3 (F := Ideal) m ρ c (Proc.devRef .tc main_v3) : S3200000.Idx → BitVec 32) e
      = (m ((c : Thread nD τ).loc main_arg1) : S2x3200000.Idx → BitVec 32) (ix2 1 (e 0)) :=
  (congrFun (W3_v3 m ρ c) e).trans (dst_at_W2 m ρ c e)
theorem enorm_v10_at_W3 :
    (W3 (F := Ideal) m ρ c (Proc.devRef .tc main_v10) : S3200000x3.Idx → EReal) = Cert.Spec.enorm (m ((c : Thread nD τ).loc main_arg2)) :=
  (W3_v10 m ρ c).trans (enorm_v10_at_W2 m ρ c)
theorem eT_at_W3 (k : Fin 3) (e : Fin 3200000) :
    (W3 (F := Ideal) m ρ c (Proc.devRef .tc main_v11) : S3x3200000.Idx → EReal) (ix2 k e)
      = Cert.Spec.enorm (m ((c : Thread nD τ).loc main_arg2)) (ix2 e k) :=
  (congrFun (W3_v11 m ρ c) (ix2 k e)).trans (eT_at_W2 m ρ c k e)

theorem src_at_W4 (e : S3200000.Idx) :
    (W4 (F := Ideal) m ρ c (Proc.devRef .tc main_v1) : S3200000.Idx → BitVec 32) e
      = (m ((c : Thread nD τ).loc main_arg1) : S2x3200000.Idx → BitVec 32) (ix2 0 (e 0)) :=
  (congrFun (W4_v1 m ρ c) e).trans (src_at_W3 m ρ c e)
theorem dst_at_W4 (e : S3200000.Idx) :
    (W4 (F := Ideal) m ρ c (Proc.devRef .tc main_v3) : S3200000.Idx → BitVec 32) e
      = (m ((c : Thread nD τ).loc main_arg1) : S2x3200000.Idx → BitVec 32) (ix2 1 (e 0)) :=
  (congrFun (W4_v3 m ρ c) e).trans (dst_at_W3 m ρ c e)
theorem enorm_v10_at_W4 :
    (W4 (F := Ideal) m ρ c (Proc.devRef .tc main_v10) : S3200000x3.Idx → EReal) = Cert.Spec.enorm (m ((c : Thread nD τ).loc main_arg2)) :=
  (W4_v10 m ρ c).trans (enorm_v10_at_W3 m ρ c)
theorem eT_at_W4 (k : Fin 3) (e : Fin 3200000) :
    (W4 (F := Ideal) m ρ c (Proc.devRef .tc main_v11) : S3x3200000.Idx → EReal) (ix2 k e)
      = Cert.Spec.enorm (m ((c : Thread nD τ).loc main_arg2)) (ix2 e k) :=
  (congrFun (W4_v11 m ρ c) (ix2 k e)).trans (eT_at_W3 m ρ c k e)

theorem src_at_W5 (e : S3200000.Idx) :
    (W5 (F := Ideal) m ρ c (Proc.devRef .tc main_v1) : S3200000.Idx → BitVec 32) e
      = (m ((c : Thread nD τ).loc main_arg1) : S2x3200000.Idx → BitVec 32) (ix2 0 (e 0)) :=
  (congrFun (W5_v1 m ρ c) e).trans (src_at_W4 m ρ c e)
theorem dst_at_W5 (e : S3200000.Idx) :
    (W5 (F := Ideal) m ρ c (Proc.devRef .tc main_v3) : S3200000.Idx → BitVec 32) e
      = (m ((c : Thread nD τ).loc main_arg1) : S2x3200000.Idx → BitVec 32) (ix2 1 (e 0)) :=
  (congrFun (W5_v3 m ρ c) e).trans (dst_at_W4 m ρ c e)
theorem enorm_v10_at_W5 :
    (W5 (F := Ideal) m ρ c (Proc.devRef .tc main_v10) : S3200000x3.Idx → EReal) = Cert.Spec.enorm (m ((c : Thread nD τ).loc main_arg2)) :=
  (W5_v10 m ρ c).trans (enorm_v10_at_W4 m ρ c)
theorem eT_at_W5 (k : Fin 3) (e : Fin 3200000) :
    (W5 (F := Ideal) m ρ c (Proc.devRef .tc main_v11) : S3x3200000.Idx → EReal) (ix2 k e)
      = Cert.Spec.enorm (m ((c : Thread nD τ).loc main_arg2)) (ix2 e k) :=
  (congrFun (W5_v11 m ρ c) (ix2 k e)).trans (eT_at_W4 m ρ c k e)

theorem src_at_W6 (e : S3200000.Idx) :
    (W6 (F := Ideal) m ρ c (Proc.devRef .tc main_v1) : S3200000.Idx → BitVec 32) e
      = (m ((c : Thread nD τ).loc main_arg1) : S2x3200000.Idx → BitVec 32) (ix2 0 (e 0)) :=
  (congrFun (W6_v1 m ρ c) e).trans (src_at_W5 m ρ c e)
theorem dst_at_W6 (e : S3200000.Idx) :
    (W6 (F := Ideal) m ρ c (Proc.devRef .tc main_v3) : S3200000.Idx → BitVec 32) e
      = (m ((c : Thread nD τ).loc main_arg1) : S2x3200000.Idx → BitVec 32) (ix2 1 (e 0)) :=
  (congrFun (W6_v3 m ρ c) e).trans (dst_at_W5 m ρ c e)
theorem enorm_v10_at_W6 :
    (W6 (F := Ideal) m ρ c (Proc.devRef .tc main_v10) : S3200000x3.Idx → EReal) = Cert.Spec.enorm (m ((c : Thread nD τ).loc main_arg2)) :=
  (W6_v10 m ρ c).trans (enorm_v10_at_W5 m ρ c)
theorem eT_at_W6 (k : Fin 3) (e : Fin 3200000) :
    (W6 (F := Ideal) m ρ c (Proc.devRef .tc main_v11) : S3x3200000.Idx → EReal) (ix2 k e)
      = Cert.Spec.enorm (m ((c : Thread nD τ).loc main_arg2)) (ix2 e k) :=
  (congrFun (W6_v11 m ρ c) (ix2 k e)).trans (eT_at_W5 m ρ c k e)

theorem src_at_W7 (e : S3200000.Idx) :
    (W7 (F := Ideal) m ρ c (Proc.devRef .tc main_v1) : S3200000.Idx → BitVec 32) e
      = (m ((c : Thread nD τ).loc main_arg1) : S2x3200000.Idx → BitVec 32) (ix2 0 (e 0)) :=
  (congrFun (W7_v1 m ρ c) e).trans (src_at_W6 m ρ c e)
theorem dst_at_W7 (e : S3200000.Idx) :
    (W7 (F := Ideal) m ρ c (Proc.devRef .tc main_v3) : S3200000.Idx → BitVec 32) e
      = (m ((c : Thread nD τ).loc main_arg1) : S2x3200000.Idx → BitVec 32) (ix2 1 (e 0)) :=
  (congrFun (W7_v3 m ρ c) e).trans (dst_at_W6 m ρ c e)
theorem enorm_v10_at_W7 :
    (W7 (F := Ideal) m ρ c (Proc.devRef .tc main_v10) : S3200000x3.Idx → EReal) = Cert.Spec.enorm (m ((c : Thread nD τ).loc main_arg2)) :=
  (W7_v10 m ρ c).trans (enorm_v10_at_W6 m ρ c)
theorem eT_at_W7 (k : Fin 3) (e : Fin 3200000) :
    (W7 (F := Ideal) m ρ c (Proc.devRef .tc main_v11) : S3x3200000.Idx → EReal) (ix2 k e)
      = Cert.Spec.enorm (m ((c : Thread nD τ).loc main_arg2)) (ix2 e k) :=
  (congrFun (W7_v11 m ρ c) (ix2 k e)).trans (eT_at_W6 m ρ c k e)

theorem src_at_W8 (e : S3200000.Idx) :
    (W8 (F := Ideal) m ρ c (Proc.devRef .tc main_v1) : S3200000.Idx → BitVec 32) e
      = (m ((c : Thread nD τ).loc main_arg1) : S2x3200000.Idx → BitVec 32) (ix2 0 (e 0)) :=
  (congrFun (W8_v1 m ρ c) e).trans (src_at_W7 m ρ c e)
theorem dst_at_W8 (e : S3200000.Idx) :
    (W8 (F := Ideal) m ρ c (Proc.devRef .tc main_v3) : S3200000.Idx → BitVec 32) e
      = (m ((c : Thread nD τ).loc main_arg1) : S2x3200000.Idx → BitVec 32) (ix2 1 (e 0)) :=
  (congrFun (W8_v3 m ρ c) e).trans (dst_at_W7 m ρ c e)
theorem enorm_v10_at_W8 :
    (W8 (F := Ideal) m ρ c (Proc.devRef .tc main_v10) : S3200000x3.Idx → EReal) = Cert.Spec.enorm (m ((c : Thread nD τ).loc main_arg2)) :=
  (W8_v10 m ρ c).trans (enorm_v10_at_W7 m ρ c)
theorem eT_at_W8 (k : Fin 3) (e : Fin 3200000) :
    (W8 (F := Ideal) m ρ c (Proc.devRef .tc main_v11) : S3x3200000.Idx → EReal) (ix2 k e)
      = Cert.Spec.enorm (m ((c : Thread nD τ).loc main_arg2)) (ix2 e k) :=
  (congrFun (W8_v11 m ρ c) (ix2 k e)).trans (eT_at_W7 m ρ c k e)

theorem src_at_W9 (e : S3200000.Idx) :
    (W9 (F := Ideal) m ρ c (Proc.devRef .tc main_v1) : S3200000.Idx → BitVec 32) e
      = (m ((c : Thread nD τ).loc main_arg1) : S2x3200000.Idx → BitVec 32) (ix2 0 (e 0)) :=
  (congrFun (W9_v1 m ρ c) e).trans (src_at_W8 m ρ c e)
theorem dst_at_W9 (e : S3200000.Idx) :
    (W9 (F := Ideal) m ρ c (Proc.devRef .tc main_v3) : S3200000.Idx → BitVec 32) e
      = (m ((c : Thread nD τ).loc main_arg1) : S2x3200000.Idx → BitVec 32) (ix2 1 (e 0)) :=
  (congrFun (W9_v3 m ρ c) e).trans (dst_at_W8 m ρ c e)
theorem enorm_v10_at_W9 :
    (W9 (F := Ideal) m ρ c (Proc.devRef .tc main_v10) : S3200000x3.Idx → EReal) = Cert.Spec.enorm (m ((c : Thread nD τ).loc main_arg2)) :=
  (W9_v10 m ρ c).trans (enorm_v10_at_W8 m ρ c)
theorem eT_at_W9 (k : Fin 3) (e : Fin 3200000) :
    (W9 (F := Ideal) m ρ c (Proc.devRef .tc main_v11) : S3x3200000.Idx → EReal) (ix2 k e)
      = Cert.Spec.enorm (m ((c : Thread nD τ).loc main_arg2)) (ix2 e k) :=
  (congrFun (W9_v11 m ρ c) (ix2 k e)).trans (eT_at_W8 m ρ c k e)

theorem src_at_W10 (e : S3200000.Idx) :
    (W10 (F := Ideal) m ρ c (Proc.devRef .tc main_v1) : S3200000.Idx → BitVec 32) e
      = (m ((c : Thread nD τ).loc main_arg1) : S2x3200000.Idx → BitVec 32) (ix2 0 (e 0)) :=
  (congrFun (W10_v1 m ρ c) e).trans (src_at_W9 m ρ c e)
theorem dst_at_W10 (e : S3200000.Idx) :
    (W10 (F := Ideal) m ρ c (Proc.devRef .tc main_v3) : S3200000.Idx → BitVec 32) e
      = (m ((c : Thread nD τ).loc main_arg1) : S2x3200000.Idx → BitVec 32) (ix2 1 (e 0)) :=
  (congrFun (W10_v3 m ρ c) e).trans (dst_at_W9 m ρ c e)
theorem enorm_v10_at_W10 :
    (W10 (F := Ideal) m ρ c (Proc.devRef .tc main_v10) : S3200000x3.Idx → EReal) = Cert.Spec.enorm (m ((c : Thread nD τ).loc main_arg2)) :=
  (W10_v10 m ρ c).trans (enorm_v10_at_W9 m ρ c)
theorem eT_at_W10 (k : Fin 3) (e : Fin 3200000) :
    (W10 (F := Ideal) m ρ c (Proc.devRef .tc main_v11) : S3x3200000.Idx → EReal) (ix2 k e)
      = Cert.Spec.enorm (m ((c : Thread nD τ).loc main_arg2)) (ix2 e k) :=
  (congrFun (W10_v11 m ρ c) (ix2 k e)).trans (eT_at_W9 m ρ c k e)

theorem src_at_W11 (e : S3200000.Idx) :
    (W11 (F := Ideal) m ρ c (Proc.devRef .tc main_v1) : S3200000.Idx → BitVec 32) e
      = (m ((c : Thread nD τ).loc main_arg1) : S2x3200000.Idx → BitVec 32) (ix2 0 (e 0)) :=
  (congrFun (W11_v1 m ρ c) e).trans (src_at_W10 m ρ c e)
theorem dst_at_W11 (e : S3200000.Idx) :
    (W11 (F := Ideal) m ρ c (Proc.devRef .tc main_v3) : S3200000.Idx → BitVec 32) e
      = (m ((c : Thread nD τ).loc main_arg1) : S2x3200000.Idx → BitVec 32) (ix2 1 (e 0)) :=
  (congrFun (W11_v3 m ρ c) e).trans (dst_at_W10 m ρ c e)
theorem enorm_v10_at_W11 :
    (W11 (F := Ideal) m ρ c (Proc.devRef .tc main_v10) : S3200000x3.Idx → EReal) = Cert.Spec.enorm (m ((c : Thread nD τ).loc main_arg2)) :=
  (W11_v10 m ρ c).trans (enorm_v10_at_W10 m ρ c)
theorem eT_at_W11 (k : Fin 3) (e : Fin 3200000) :
    (W11 (F := Ideal) m ρ c (Proc.devRef .tc main_v11) : S3x3200000.Idx → EReal) (ix2 k e)
      = Cert.Spec.enorm (m ((c : Thread nD τ).loc main_arg2)) (ix2 e k) :=
  (congrFun (W11_v11 m ρ c) (ix2 k e)).trans (eT_at_W10 m ρ c k e)

theorem src_at_W12 (e : S3200000.Idx) :
    (W12 (F := Ideal) m ρ c (Proc.devRef .tc main_v1) : S3200000.Idx → BitVec 32) e
      = (m ((c : Thread nD τ).loc main_arg1) : S2x3200000.Idx → BitVec 32) (ix2 0 (e 0)) :=
  (congrFun (W12_v1 m ρ c) e).trans (src_at_W11 m ρ c e)
theorem dst_at_W12 (e : S3200000.Idx) :
    (W12 (F := Ideal) m ρ c (Proc.devRef .tc main_v3) : S3200000.Idx → BitVec 32) e
      = (m ((c : Thread nD τ).loc main_arg1) : S2x3200000.Idx → BitVec 32) (ix2 1 (e 0)) :=
  (congrFun (W12_v3 m ρ c) e).trans (dst_at_W11 m ρ c e)
theorem enorm_v10_at_W12 :
    (W12 (F := Ideal) m ρ c (Proc.devRef .tc main_v10) : S3200000x3.Idx → EReal) = Cert.Spec.enorm (m ((c : Thread nD τ).loc main_arg2)) :=
  (W12_v10 m ρ c).trans (enorm_v10_at_W11 m ρ c)
theorem eT_at_W12 (k : Fin 3) (e : Fin 3200000) :
    (W12 (F := Ideal) m ρ c (Proc.devRef .tc main_v11) : S3x3200000.Idx → EReal) (ix2 k e)
      = Cert.Spec.enorm (m ((c : Thread nD τ).loc main_arg2)) (ix2 e k) :=
  (congrFun (W12_v11 m ρ c) (ix2 k e)).trans (eT_at_W11 m ρ c k e)

theorem src_at_W13 (e : S3200000.Idx) :
    (W13 (F := Ideal) m ρ c (Proc.devRef .tc main_v1) : S3200000.Idx → BitVec 32) e
      = (m ((c : Thread nD τ).loc main_arg1) : S2x3200000.Idx → BitVec 32) (ix2 0 (e 0)) :=
  (congrFun (W13_v1 m ρ c) e).trans (src_at_W12 m ρ c e)
theorem dst_at_W13 (e : S3200000.Idx) :
    (W13 (F := Ideal) m ρ c (Proc.devRef .tc main_v3) : S3200000.Idx → BitVec 32) e
      = (m ((c : Thread nD τ).loc main_arg1) : S2x3200000.Idx → BitVec 32) (ix2 1 (e 0)) :=
  (congrFun (W13_v3 m ρ c) e).trans (dst_at_W12 m ρ c e)
theorem enorm_v10_at_W13 :
    (W13 (F := Ideal) m ρ c (Proc.devRef .tc main_v10) : S3200000x3.Idx → EReal) = Cert.Spec.enorm (m ((c : Thread nD τ).loc main_arg2)) :=
  (W13_v10 m ρ c).trans (enorm_v10_at_W12 m ρ c)
theorem eT_at_W13 (k : Fin 3) (e : Fin 3200000) :
    (W13 (F := Ideal) m ρ c (Proc.devRef .tc main_v11) : S3x3200000.Idx → EReal) (ix2 k e)
      = Cert.Spec.enorm (m ((c : Thread nD τ).loc main_arg2)) (ix2 e k) :=
  (congrFun (W13_v11 m ρ c) (ix2 k e)).trans (eT_at_W12 m ρ c k e)

theorem src_at_W14 (e : S3200000.Idx) :
    (W14 (F := Ideal) m ρ c (Proc.devRef .tc main_v1) : S3200000.Idx → BitVec 32) e
      = (m ((c : Thread nD τ).loc main_arg1) : S2x3200000.Idx → BitVec 32) (ix2 0 (e 0)) :=
  (congrFun (W14_v1 m ρ c) e).trans (src_at_W13 m ρ c e)
theorem dst_at_W14 (e : S3200000.Idx) :
    (W14 (F := Ideal) m ρ c (Proc.devRef .tc main_v3) : S3200000.Idx → BitVec 32) e
      = (m ((c : Thread nD τ).loc main_arg1) : S2x3200000.Idx → BitVec 32) (ix2 1 (e 0)) :=
  (congrFun (W14_v3 m ρ c) e).trans (dst_at_W13 m ρ c e)
theorem enorm_v10_at_W14 :
    (W14 (F := Ideal) m ρ c (Proc.devRef .tc main_v10) : S3200000x3.Idx → EReal) = Cert.Spec.enorm (m ((c : Thread nD τ).loc main_arg2)) :=
  (W14_v10 m ρ c).trans (enorm_v10_at_W13 m ρ c)
theorem eT_at_W14 (k : Fin 3) (e : Fin 3200000) :
    (W14 (F := Ideal) m ρ c (Proc.devRef .tc main_v11) : S3x3200000.Idx → EReal) (ix2 k e)
      = Cert.Spec.enorm (m ((c : Thread nD τ).loc main_arg2)) (ix2 e k) :=
  (congrFun (W14_v11 m ρ c) (ix2 k e)).trans (eT_at_W13 m ρ c k e)

theorem src_at_W15 (e : S3200000.Idx) :
    (W15 (F := Ideal) m ρ c (Proc.devRef .tc main_v1) : S3200000.Idx → BitVec 32) e
      = (m ((c : Thread nD τ).loc main_arg1) : S2x3200000.Idx → BitVec 32) (ix2 0 (e 0)) :=
  (congrFun (W15_v1 m ρ c) e).trans (src_at_W14 m ρ c e)
theorem dst_at_W15 (e : S3200000.Idx) :
    (W15 (F := Ideal) m ρ c (Proc.devRef .tc main_v3) : S3200000.Idx → BitVec 32) e
      = (m ((c : Thread nD τ).loc main_arg1) : S2x3200000.Idx → BitVec 32) (ix2 1 (e 0)) :=
  (congrFun (W15_v3 m ρ c) e).trans (dst_at_W14 m ρ c e)
theorem enorm_v10_at_W15 :
    (W15 (F := Ideal) m ρ c (Proc.devRef .tc main_v10) : S3200000x3.Idx → EReal) = Cert.Spec.enorm (m ((c : Thread nD τ).loc main_arg2)) :=
  (W15_v10 m ρ c).trans (enorm_v10_at_W14 m ρ c)
theorem eT_at_W15 (k : Fin 3) (e : Fin 3200000) :
    (W15 (F := Ideal) m ρ c (Proc.devRef .tc main_v11) : S3x3200000.Idx → EReal) (ix2 k e)
      = Cert.Spec.enorm (m ((c : Thread nD τ).loc main_arg2)) (ix2 e k) :=
  (congrFun (W15_v11 m ρ c) (ix2 k e)).trans (eT_at_W14 m ρ c k e)

theorem src_at_W16 (e : S3200000.Idx) :
    (W16 (F := Ideal) m ρ c (Proc.devRef .tc main_v1) : S3200000.Idx → BitVec 32) e
      = (m ((c : Thread nD τ).loc main_arg1) : S2x3200000.Idx → BitVec 32) (ix2 0 (e 0)) :=
  (congrFun (W16_v1 m ρ c) e).trans (src_at_W15 m ρ c e)
theorem dst_at_W16 (e : S3200000.Idx) :
    (W16 (F := Ideal) m ρ c (Proc.devRef .tc main_v3) : S3200000.Idx → BitVec 32) e
      = (m ((c : Thread nD τ).loc main_arg1) : S2x3200000.Idx → BitVec 32) (ix2 1 (e 0)) :=
  (congrFun (W16_v3 m ρ c) e).trans (dst_at_W15 m ρ c e)
theorem enorm_v10_at_W16 :
    (W16 (F := Ideal) m ρ c (Proc.devRef .tc main_v10) : S3200000x3.Idx → EReal) = Cert.Spec.enorm (m ((c : Thread nD τ).loc main_arg2)) :=
  (W16_v10 m ρ c).trans (enorm_v10_at_W15 m ρ c)
theorem eT_at_W16 (k : Fin 3) (e : Fin 3200000) :
    (W16 (F := Ideal) m ρ c (Proc.devRef .tc main_v11) : S3x3200000.Idx → EReal) (ix2 k e)
      = Cert.Spec.enorm (m ((c : Thread nD τ).loc main_arg2)) (ix2 e k) :=
  (congrFun (W16_v11 m ρ c) (ix2 k e)).trans (eT_at_W15 m ρ c k e)

/-- AT THE END OF THE RUN the edge-major normalised features are `Cert.Spec.enorm` of the launch's edge features. -/
theorem enorm_v10 :
    (W16 (F := Ideal) m ρ c (Proc.devRef .tc main_v10) : S3200000x3.Idx → EReal) = Cert.Spec.enorm (m ((c : Thread nD τ).loc main_arg2)) :=
  enorm_v10_at_W16 m ρ c

end Run

end Cert.KernelIdeal.KShared

end
-- ==== Proof.LibScatterGatherCols.lean ====
import Idealize.ShloMosaic.Lib.ValueIdx
import Idealize.ShloMosaic.PureOps.Contract
import Mathlib.Algebra.BigOperators.Group.Finset.Basic
import Mathlib.Algebra.BigOperators.Group.Finset.Piecewise

/-!
# Column gather and column scatter-add, read at an index

Two array operations over a CHANNEL-MAJOR table of `D` rows (channels) and `N` columns (entries),
indexed by a column of `n` integer words:

* the COLUMN GATHER `table[:, idx]`: result column `e` is the table's column named by the `e`-th index
  word. The word is read as a SIGNED integer and CLAMPED into `[0, N − 1]` (a negative word reads column
  `0`, a word past the end reads the last column); the row (channel) is kept. `gather_cols` states this
  for a `D × N` table at one element `(k, e)`, for any element type, and `gather_cols_ideal` for a table
  of extended reals.
* the COLUMN SCATTER-ADD (a segment sum along the second axis, `table.at[:, idx].add(updates)`) over the
  extended reals: result element `(k, v)` is the operand's element plus the sum of the update elements
  `(k, e)` over exactly those update columns `e` whose index word, read SIGNED and NOT clamped, EQUALS
  `v`. An update column whose index is negative or at least `N` lands nowhere and is dropped.
  `resultIdx_cols` says where one update element lands; `hostScatterAdd_cols` / `scatterAdd_cols` give
  the sum for a `D × N` operand with `D × n` updates.

Every statement is for arbitrary extents `D`, `N`, `n` and any record of dimension numbers whose lists
are the ones named by the hypotheses (one collapsed / inserted column axis `1`, the index vector on axis
`1` of the `n × 1` index column, the row axis `0` an offset / window axis), so each applies to a
concrete record with `rfl` for every list.
-/

open scoped BigOperators

namespace Cert.LibScatterGatherCols

open Idealize.ShloMosaic Idealize.ShloMosaic.ValueIdx

/-! ## The column gather -/

/-- THE COLUMN GATHER AT `(k, e)`: the table at row `k`, column "index word `e`, read signed and clamped
    into `[0, N − 1]`". On the row axis (an offset axis, not start-indexed) the operand coordinate is the
    result's row; on the column axis (collapsed, start-indexed) it is the clamped start. -/
theorem gather_cols {α : Type} {D N n w : Nat} (d : GatherDims ⟨2, ![D, N]⟩ ⟨2, ![n, 1]⟩ ⟨2, ![D, n]⟩)
    (hoff : d.offsetDims = [0]) (hcoll : d.collapsedSliceDims = [1]) (hob : d.operandBatchingDims = [])
    (hsim : d.startIndexMap = [1]) (hivd : d.indexVectorDim = 1)
    (x : (⟨2, ![D, N]⟩ : Shape).Idx → α) (idx : IVec ⟨2, ![n, 1]⟩ w) (k : Fin D) (e : Fin n) (hN : 0 < N) :
    Host.gather d x idx (ix2 k e) = x (ix2 k ⟨min (idx (ix2 e 0)).toInt.toNat (N - 1), by omega⟩) := by
  -- the collapsed column axis has slice size 1, so the clamp's upper end is N − 1
  have hsl : d.sliceSizes 1 = 1 := d.slice_collapsed 1 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the row axis: start 0, no batching, offset coordinate the result's row
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (0 : Fin 2) ∉ ([1] : List (Fin 2)) by decide)
    · split
      · rw [Nat.add_zero, Nat.zero_add]
        rfl
      · next ha => exact absurd (show (0 : Fin 2) ∈ ([0] : List (Fin 2)) by decide) ha
  | ⟨1, _⟩ =>
    -- the start index of result element (k, e) is read at (e, 0) of the index column
    have hsi : ∀ c, (GatherDims.siIdx ⟨[0], [1], [], sb, [1], 1, ss, wf⟩ (ix2 k e) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 1) + 0 + 0 = min (idx (ix2 e 0)).toInt.toNat (N - 1)
    rw [hsi, hsl]
    rfl

/-- The column gather of a table of extended reals (any float format's ideal values), at `(k, e)`. -/
theorem gather_cols_ideal {φ : FTy} {D N n w : Nat} (d : GatherDims ⟨2, ![D, N]⟩ ⟨2, ![n, 1]⟩ ⟨2, ![D, n]⟩)
    (hoff : d.offsetDims = [0]) (hcoll : d.collapsedSliceDims = [1]) (hob : d.operandBatchingDims = [])
    (hsim : d.startIndexMap = [1]) (hivd : d.indexVectorDim = 1)
    (x : FVec Ideal ⟨2, ![D, N]⟩ φ) (idx : IVec ⟨2, ![n, 1]⟩ w) (k : Fin D) (e : Fin n) (hN : 0 < N) :
    (Host.gather d x idx : FVec Ideal ⟨2, ![D, n]⟩ φ) (ix2 k e)
      = x (ix2 k ⟨min (idx (ix2 e 0)).toInt.toNat (N - 1), by omega⟩) :=
  gather_cols d hoff hcoll hob hsim hivd x idx k e hN

/-! ## The column scatter-add over a `D × N` operand -/

/-- WHERE AN UPDATE ELEMENT LANDS: update element `(k', e)` lands on operand element `(k, v)` exactly when
    the `e`-th index word, read signed, is `v`, and the rows agree. (On the row axis the landing
    coordinate is start 0 plus the update's row; on the column axis it is the unclamped start plus window
    coordinate 0; a landing point outside the operand is no point at all.) -/
theorem resultIdx_cols {D N n w : Nat} (d : ScatterDims ⟨2, ![D, N]⟩ ⟨2, ![n, 1]⟩ ⟨2, ![D, n]⟩)
    (huw : d.updateWindowDims = [0]) (hiw : d.insertedWindowDims = [1])
    (hsd : d.scatterDimsToOperandDims = [1]) (hivd : d.indexVectorDim = 1)
    (idx : IVec ⟨2, ![n, 1]⟩ w) (k' : Fin D) (e : Fin n) (k : Fin D) (v : Fin N) :
    d.resultIdx? (ix2 k' e) idx = some (ix2 k v) ↔ (idx (ix2 e 0)).toInt = (v.val : ℤ) ∧ k' = k := by
  obtain ⟨uw, iw, sd, ivd, wf⟩ := d
  simp only at huw hiw hsd hivd
  subst huw hiw hsd hivd
  -- the start and the window coordinate on each of the two operand axes
  have hs0 : ScatterDims.start ⟨[0], [1], [1], 1, wf⟩ (ix2 k' e) idx 0 = 0 := by
    unfold ScatterDims.start
    split
    · next ha => exact absurd ha (show (0 : Fin 2) ∉ ([1] : List (Fin 2)) by decide)
    · rfl
  have hs1 : ScatterDims.start ⟨[0], [1], [1], 1, wf⟩ (ix2 k' e) idx 1 = (idx (ix2 e 0)).toInt := by
    unfold ScatterDims.start
    split
    · congr 2
      funext b
      apply Fin.ext
      match b with
      | ⟨0, _⟩ => rfl
      | ⟨1, _⟩ => rfl
    · next ha => exact absurd (show (1 : Fin 2) ∈ ([1] : List (Fin 2)) by decide) ha
  have hw0 : ScatterDims.window ⟨[0], [1], [1], 1, wf⟩ (ix2 k' e) 0 = k'.val := by
    unfold ScatterDims.window
    split
    · rfl
    · next ha => exact absurd (show (0 : Fin 2) ∈ ([0] : List (Fin 2)) by decide) ha
  have hw1 : ScatterDims.window ⟨[0], [1], [1], 1, wf⟩ (ix2 k' e) 1 = 0 := by
    unfold ScatterDims.window
    split
    · next ha => exact absurd ha (show (1 : Fin 2) ∉ ([0] : List (Fin 2)) by decide)
    · rfl
  unfold ScatterDims.resultIdx?
  split
  · next h =>
    -- the landing point is inside the operand: compare it with (k, v) coordinate by coordinate
    have h1 := h 1
    rw [hs1, hw1] at h1
    constructor
    · intro hf
      have hf' := Option.some.inj hf
      have e0 : (ScatterDims.start ⟨[0], [1], [1], 1, wf⟩ (ix2 k' e) idx 0
          + (ScatterDims.window ⟨[0], [1], [1], 1, wf⟩ (ix2 k' e) 0 : ℕ)).toNat = k.val :=
        congrArg (fun f : (⟨2, ![D, N]⟩ : Shape).Idx => (f 0).val) hf'
      have e1 : (ScatterDims.start ⟨[0], [1], [1], 1, wf⟩ (ix2 k' e) idx 1
          + (ScatterDims.window ⟨[0], [1], [1], 1, wf⟩ (ix2 k' e) 1 : ℕ)).toNat = v.val :=
        congrArg (fun f : (⟨2, ![D, N]⟩ : Shape).Idx => (f 1).val) hf'
      rw [hs0, hw0] at e0
      rw [hs1, hw1] at e1
      exact ⟨by omega, Fin.ext (by omega)⟩
    · rintro ⟨hv, rfl⟩
      congr 1
      funext a
      apply Fin.ext
      match a with
      | ⟨0, _⟩ =>
        show (ScatterDims.start ⟨[0], [1], [1], 1, wf⟩ (ix2 k' e) idx 0
          + (ScatterDims.window ⟨[0], [1], [1], 1, wf⟩ (ix2 k' e) 0 : ℕ)).toNat = k'.val
        rw [hs0, hw0]; omega
      | ⟨1, _⟩ =>
        show (ScatterDims.start ⟨[0], [1], [1], 1, wf⟩ (ix2 k' e) idx 1
          + (ScatterDims.window ⟨[0], [1], [1], 1, wf⟩ (ix2 k' e) 1 : ℕ)).toNat = v.val
        rw [hs1, hw1]; omega
  · next h =>
    -- the landing point is outside the operand: then the index word is no column of it
    constructor
    · intro hf; exact absurd hf (by simp)
    · rintro ⟨hv, rfl⟩
      exfalso
      apply h
      intro a
      match a with
      | ⟨0, _⟩ =>
        show 0 ≤ ScatterDims.start ⟨[0], [1], [1], 1, wf⟩ (ix2 k' e) idx 0
            + (ScatterDims.window ⟨[0], [1], [1], 1, wf⟩ (ix2 k' e) 0 : ℕ)
          ∧ ScatterDims.start ⟨[0], [1], [1], 1, wf⟩ (ix2 k' e) idx 0
            + (ScatterDims.window ⟨[0], [1], [1], 1, wf⟩ (ix2 k' e) 0 : ℕ) < (D : ℤ)
        rw [hs0, hw0]
        have := k'.isLt
        omega
      | ⟨1, _⟩ =>
        show 0 ≤ ScatterDims.start ⟨[0], [1], [1], 1, wf⟩ (ix2 k' e) idx 1
            + (ScatterDims.window ⟨[0], [1], [1], 1, wf⟩ (ix2 k' e) 1 : ℕ)
          ∧ ScatterDims.start ⟨[0], [1], [1], 1, wf⟩ (ix2 k' e) idx 1
            + (ScatterDims.window ⟨[0], [1], [1], 1, wf⟩ (ix2 k' e) 1 : ℕ) < (N : ℤ)
        rw [hs1, hw1]
        have := v.isLt
        omega

/-- THE COLUMN SCATTER-ADD AT `(k, v)`: the operand's element plus the sum, over the update columns `e`
    whose index word read signed equals `v`, of the update element `(k, e)`. The sum over all update
    elements that land on `(k, v)` splits into rows and columns; the two sums are exchanged, and in each
    column only row `k` can land there. -/
theorem hostScatterAdd_cols {D N n w : Nat} (d : ScatterDims ⟨2, ![D, N]⟩ ⟨2, ![n, 1]⟩ ⟨2, ![D, n]⟩)
    (huw : d.updateWindowDims = [0]) (hiw : d.insertedWindowDims = [1])
    (hsd : d.scatterDimsToOperandDims = [1]) (hivd : d.indexVectorDim = 1)
    (x : (⟨2, ![D, N]⟩ : Shape).Idx → EReal) (idx : IVec ⟨2, ![n, 1]⟩ w)
    (upd : (⟨2, ![D, n]⟩ : Shape).Idx → EReal) (k : Fin D) (v : Fin N) :
    Ideal.hostScatterAdd d x idx upd (ix2 k v)
      = x (ix2 k v)
        + ∑ e ∈ Finset.univ.filter (fun e : Fin n => (idx (ix2 e 0)).toInt = (v.val : ℤ)), upd (ix2 k e) := by
  classical
  unfold Ideal.hostScatterAdd
  congr 1
  rw [Finset.sum_filter, sum_idx2, Finset.sum_comm, Finset.sum_filter]
  refine Finset.sum_congr rfl (fun e _ => ?_)
  simp only [resultIdx_cols d huw hiw hsd hivd]
  by_cases hP : (idx (ix2 e 0)).toInt = (v.val : ℤ)
  · simp [hP]
  · simp [hP]

/-- The same for the scatter-add operation at the ideal instance (any float format). -/
theorem scatterAdd_cols {φ : FTy} {D N n w : Nat} (d : ScatterDims ⟨2, ![D, N]⟩ ⟨2, ![n, 1]⟩ ⟨2, ![D, n]⟩)
    (huw : d.updateWindowDims = [0]) (hiw : d.insertedWindowDims = [1])
    (hsd : d.scatterDimsToOperandDims = [1]) (hivd : d.indexVectorDim = 1)
    (x : FVec Ideal ⟨2, ![D, N]⟩ φ) (idx : IVec ⟨2, ![n, 1]⟩ w)
    (upd : FVec Ideal ⟨2, ![D, n]⟩ φ) (k : Fin D) (v : Fin N) :
    Host.scatterAdd (F := Ideal) d x idx upd (ix2 k v)
      = x (ix2 k v)
        + ∑ e ∈ Finset.univ.filter (fun e : Fin n => (idx (ix2 e 0)).toInt = (v.val : ℤ)), upd (ix2 k e) := by
  unfold Host.scatterAdd
  rw [Ideal.hostScatterAdd_def]
  exact hostScatterAdd_cols d huw hiw hsd hivd x idx upd k v

end Cert.LibScatterGatherCols
-- ==== Proof.LibTakeCols.lean ====
import Idealize.ShloMosaic.Lib.ValueIdx
import Idealize.ShloMosaic.PureOps.Contract
import Idealize.ShloMosaic.PureOps.Reduce
import Mathlib.Algebra.BigOperators.Group.Finset.Basic
import proofs.«409580_j89481348645420_1_alg».proof.Proof.LibScatterGatherCols

/-!
# Taking and scatter-adding columns by node number, with the index wrap and the range mask read away

A program that takes columns of a channel-major table `x` (`D` rows, 100000 columns) by a vector `w` of `n` index
words (`take(x, w, axis = 1)`) does four things: it WRAPS a negative word (`w + 100000` where `w < 0`, else `w`),
makes the wrapped vector an `n × 1` column, GATHERS the columns it names (each word clamped into the table), and
MASKS the result: where the wrapped word is outside `[0, 99999]` the gathered column is replaced by a fill value.
For index words that ARE node numbers — `0 ≤ w e < 100000` for every `e` — none of this shows:

* `wrap_id` / `wrap_id_vec`: the wrap keeps a non-negative word;
* `take_apply`: the whole take, at row `k` and position `e`, is the table at row `k`, column "word `e` read
  signed and clamped into `[0, 99999]`" — the range mask is 1 everywhere, so the fill value is never selected;
* `scatter_wrap_apply`: the scatter-add of `D × n` updates into a table of zeros along the wrapped index column is, at
  `(k, v)`, zero plus the sum of the update elements `(k, e)` over the positions `e` whose word is `v`.

The operations are spelled exactly as a program prints them (a scalar constant broadcast to a shape, a comparison, a
select, a reduction by `and` along the unit axis, a broadcast of the mask along the rows), over arbitrary extents
`D`, `n` (and `N` for the scatter) and arbitrary proofs of the operations' side conditions, so each statement
applies to a printed term by unification.
-/

open scoped BigOperators

namespace Cert.LibTakeCols

open Idealize.ShloMosaic Idealize.ShloMosaic.ValueIdx Cert.LibScatterGatherCols

/-! ## Words -/

/-- A non-negative word is not below zero: the signed comparison `w < 0` is 0. -/
theorem cmpi_slt_zero (w : BitVec 32) (h0 : 0 ≤ w.toInt) : IntOp.cmpi .slt w 0#32 = 0#1 := by
  have h : w.slt 0#32 = false := by
    show decide (w.toInt < (0#32 : BitVec 32).toInt) = false
    rw [show (0#32 : BitVec 32).toInt = 0 from by decide]
    exact decide_eq_false (by omega)
  unfold IntOp.cmpi
  show BitVec.ofBool (w.slt 0#32) = 0#1
  rw [h]
  rfl

/-- A non-negative word is at least zero: the signed comparison `w ≥ 0` is 1. -/
theorem cmpi_sge_zero (w : BitVec 32) (h0 : 0 ≤ w.toInt) : IntOp.cmpi .sge w 0#32 = 1#1 := by
  have h : (0#32 : BitVec 32).sle w = true := by
    show decide ((0#32 : BitVec 32).toInt ≤ w.toInt) = true
    rw [show (0#32 : BitVec 32).toInt = 0 from by decide]
    exact decide_eq_true h0
  unfold IntOp.cmpi
  show BitVec.ofBool ((0#32 : BitVec 32).sle w) = 1#1
  rw [h]
  rfl

/-- A word below 100000 is at most 99999: the signed comparison `w ≤ 99999` is 1. -/
theorem cmpi_sle_top (w : BitVec 32) (h1 : w.toInt < 100000) : IntOp.cmpi .sle w 99999#32 = 1#1 := by
  have h : w.sle 99999#32 = true := by
    show decide (w.toInt ≤ (99999#32 : BitVec 32).toInt) = true
    rw [show (99999#32 : BitVec 32).toInt = 99999 from by decide]
    exact decide_eq_true (by omega)
  unfold IntOp.cmpi
  show BitVec.ofBool (w.sle 99999#32) = 1#1
  rw [h]
  rfl

/-- THE WRAP AT ONE WORD: a non-negative word is kept (the branch that adds 100000 is not taken). -/
theorem wrap_id (w : BitVec 32) (h0 : 0 ≤ w.toInt) :
    Scalar.select (IntOp.cmpi .slt w 0#32) (IntOp.addi w 100000#32) w = w := by
  rw [cmpi_slt_zero w h0]
  exact select_zero _ _

/-- THE WRAP OF A VECTOR of non-negative words is the vector. -/
theorem wrap_id_vec {n : Nat} (hb0 : (⟨0, ![]⟩ : Shape).BroadcastsInDim ⟨1, ![n]⟩ ![])
    (w : IVec ⟨1, ![n]⟩ 32) (hw : ∀ e, 0 ≤ (w e).toInt) :
    select (cmpi .slt w (broadcastInDim ⟨1, ![n]⟩ ![] hb0 (constantI ⟨0, ![]⟩ 32 0#32))) (addi w (broadcastInDim ⟨1, ![n]⟩ ![] hb0 (constantI ⟨0, ![]⟩ 32 100000#32))) w = w :=
  funext fun e => wrap_id (w e) (hw e)

/-! ## The pieces of the take -/

/-- A vector as an `n × 1` column reads, at `(e, 0)`, the vector at `e`. -/
theorem col_apply {α : Type} {n : Nat} (hb1 : (⟨1, ![n]⟩ : Shape).BroadcastsInDim ⟨2, ![n, 1]⟩ ![0])
    (v : (⟨1, ![n]⟩ : Shape).Idx → α) (e : Fin n) :
    broadcastInDim ⟨2, ![n, 1]⟩ ![0] hb1 v (ix2 e 0) = v (ix1 e) := by
  simp only [broadcastInDim]
  congr 1
  funext a
  have ha : a = 0 := Subsingleton.elim _ _
  subst ha
  apply Fin.ext
  have he := e.isLt
  split
  · next h1 => change n = 1 at h1; show (0 : Nat) = e.val; omega
  · rfl

/-- A left fold by `and` from 1 over words that are all 1 is 1. -/
theorem foldl_andi_one {ι : Type} (f : ι → BitVec 1) (hf : ∀ i, f i = 1#1) :
    ∀ l : List ι, l.foldl (fun r i => IntOp.andi r (f i)) 1#1 = 1#1
  | [] => rfl
  | a :: l => by
    rw [List.foldl_cons, hf a, show IntOp.andi (1#1 : BitVec 1) 1#1 = 1#1 from rfl]
    exact foldl_andi_one f hf l

/-- A reduction by `and`, from 1, of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-! ## The take -/

/-- THE TAKE AT `(k, e)`, for index words that are node numbers: the table at row `k`, column "word `e` read signed
    and clamped into `[0, 99999]`". The wrap keeps every word; the range mask is 1 at every position, so the select
    keeps the gathered element; the gather reads the clamped column. -/
theorem take_apply {F : FTy → Type} [FloatOps F] {D n : Nat}
    (hb0 : (⟨0, ![]⟩ : Shape).BroadcastsInDim ⟨1, ![n]⟩ ![])
    (hb1 : (⟨1, ![n]⟩ : Shape).BroadcastsInDim ⟨2, ![n, 1]⟩ ![0])
    (hb2 : (⟨0, ![]⟩ : Shape).BroadcastsInDim ⟨2, ![n, 1]⟩ ![])
    (hb3 : (⟨1, ![1]⟩ : Shape).BroadcastsInDim ⟨2, ![1, 1]⟩ ![1])
    (hb4 : (⟨2, ![1, 1]⟩ : Shape).BroadcastsInDim ⟨2, ![n, 1]⟩ ![0, 1])
    (hr : (⟨2, ![n, 1]⟩ : Shape).ReducesTo [1] ⟨1, ![n]⟩) (hu : 0 < (⟨0, ![]⟩ : Shape).numel)
    (d : GatherDims ⟨2, ![D, 100000]⟩ ⟨2, ![n, 1]⟩ ⟨2, ![D, n]⟩)
    (hoff : d.offsetDims = [0]) (hcoll : d.collapsedSliceDims = [1]) (hob : d.operandBatchingDims = [])
    (hsim : d.startIndexMap = [1]) (hivd : d.indexVectorDim = 1)
    (hb5 : (⟨1, ![n]⟩ : Shape).BroadcastsInDim ⟨2, ![D, n]⟩ ![1])
    (hb6 : (⟨0, ![]⟩ : Shape).BroadcastsInDim ⟨2, ![D, n]⟩ ![])
    (x : FVec F ⟨2, ![D, 100000]⟩ .f32) (w : IVec ⟨1, ![n]⟩ 32)
    (hw : ∀ e, 0 ≤ (w e).toInt ∧ (w e).toInt < 100000) (k : Fin D) (e : Fin n) :
    (select (broadcastInDim ⟨2, ![D, n]⟩ ![1] hb5 (Host.reduce IntOp.andi (andi (cmpi .sge (broadcastInDim ⟨2, ![n, 1]⟩ ![0] hb1 (select (cmpi .slt w (broadcastInDim ⟨1, ![n]⟩ ![] hb0 (constantI ⟨0, ![]⟩ 32 0#32))) (addi w (broadcastInDim ⟨1, ![n]⟩ ![] hb0 (constantI ⟨0, ![]⟩ 32 100000#32))) w)) (broadcastInDim ⟨2, ![n, 1]⟩ ![] hb2 (constantI ⟨0, ![]⟩ 32 0#32))) (cmpi .sle (broadcastInDim ⟨2, ![n, 1]⟩ ![0] hb1 (select (cmpi .slt w (broadcastInDim ⟨1, ![n]⟩ ![] hb0 (constantI ⟨0, ![]⟩ 32 0#32))) (addi w (broadcastInDim ⟨1, ![n]⟩ ![] hb0 (constantI ⟨0, ![]⟩ 32 100000#32))) w)) (broadcastInDim ⟨2, ![n, 1]⟩ ![0, 1] hb4 (broadcastInDim ⟨2, ![1, 1]⟩ ![1] hb3 (constantI ⟨1, ![1]⟩ 32 99999#32))))) (constantI ⟨0, ![]⟩ 1 1#1) hr hu)) (Host.gather d x (broadcastInDim ⟨2, ![n, 1]⟩ ![0] hb1 (select (cmpi .slt w (broadcastInDim ⟨1, ![n]⟩ ![] hb0 (constantI ⟨0, ![]⟩ 32 0#32))) (addi w (broadcastInDim ⟨1, ![n]⟩ ![] hb0 (constantI ⟨0, ![]⟩ 32 100000#32))) w))) (broadcastInDim ⟨2, ![D, n]⟩ ![] hb6 (constant ⟨0, ![]⟩ .f32 0x7FC00000#32)) : FVec F ⟨2, ![D, n]⟩ .f32) (ix2 k e)
      = x (ix2 k ⟨min (w (ix1 e)).toInt.toNat (100000 - 1), by omega⟩) := by
  -- the wrap keeps every word
  rw [wrap_id_vec hb0 w fun e => (hw e).1]
  -- the range mask is 1 at every position
  have hmask : ∀ j, andi
      (cmpi .sge (broadcastInDim ⟨2, ![n, 1]⟩ ![0] hb1 w) (broadcastInDim ⟨2, ![n, 1]⟩ ![] hb2 (constantI ⟨0, ![]⟩ 32 0#32)))
      (cmpi .sle (broadcastInDim ⟨2, ![n, 1]⟩ ![0] hb1 w)
        (broadcastInDim ⟨2, ![n, 1]⟩ ![0, 1] hb4 (broadcastInDim ⟨2, ![1, 1]⟩ ![1] hb3 (constantI ⟨1, ![1]⟩ 32 99999#32)))) j
      = 1#1 := by
    intro j
    show IntOp.andi (IntOp.cmpi .sge (w _) 0#32) (IntOp.cmpi .sle (w _) 99999#32) = 1#1
    rw [cmpi_sge_zero _ (hw _).1, cmpi_sle_top _ (hw _).2]
    rfl
  rw [select_apply]
  rw [show broadcastInDim ⟨2, ![D, n]⟩ ![1] hb5 (Host.reduce IntOp.andi _ (constantI ⟨0, ![]⟩ 1 1#1) hr hu) (ix2 k e) = 1#1 from
    reduce_andi_ones _ _ hr hu hmask rfl _]
  rw [select_one]
  -- the gather reads the clamped column; the index column at (e, 0) is the word
  refine (gather_cols d hoff hcoll hob hsim hivd x _ k e (by norm_num)).trans
    (congrArg (fun c => x (ix2 k c)) (Fin.ext ?_))
  show min (broadcastInDim ⟨2, ![n, 1]⟩ ![0] hb1 w (ix2 e 0)).toInt.toNat (100000 - 1)
    = min (w (ix1 e)).toInt.toNat (100000 - 1)
  rw [col_apply hb1 w e]

/-! ## The scatter-add into zeros along the wrapped index column -/

/-- THE SCATTER-ADD AT `(k, v)`, for non-negative index words: zero plus the sum, over the positions `e` whose word
    is `v`, of the update element `(k, e)`. -/
theorem scatter_wrap_apply {D N n : Nat}
    (hb0 : (⟨0, ![]⟩ : Shape).BroadcastsInDim ⟨1, ![n]⟩ ![])
    (hb1 : (⟨1, ![n]⟩ : Shape).BroadcastsInDim ⟨2, ![n, 1]⟩ ![0])
    (hbz : (⟨0, ![]⟩ : Shape).BroadcastsInDim ⟨2, ![D, N]⟩ ![])
    (d : ScatterDims ⟨2, ![D, N]⟩ ⟨2, ![n, 1]⟩ ⟨2, ![D, n]⟩)
    (huw : d.updateWindowDims = [0]) (hiw : d.insertedWindowDims = [1])
    (hsd : d.scatterDimsToOperandDims = [1]) (hivd : d.indexVectorDim = 1)
    (w : IVec ⟨1, ![n]⟩ 32) (hw : ∀ e, 0 ≤ (w e).toInt)
    (upd : FVec Ideal ⟨2, ![D, n]⟩ .f32) (k : Fin D) (v : Fin N) :
    Host.scatterAdd (F := Ideal) d (broadcastInDim ⟨2, ![D, N]⟩ ![] hbz (constant ⟨0, ![]⟩ .f32 0x00000000#32))
        (broadcastInDim ⟨2, ![n, 1]⟩ ![0] hb1 (select (cmpi .slt w (broadcastInDim ⟨1, ![n]⟩ ![] hb0 (constantI ⟨0, ![]⟩ 32 0#32))) (addi w (broadcastInDim ⟨1, ![n]⟩ ![] hb0 (constantI ⟨0, ![]⟩ 32 100000#32))) w)) upd (ix2 k v)
      = Ideal.ofBits .f32 0x00000000#32
        + ∑ e ∈ Finset.univ.filter (fun e : Fin n => (w (ix1 e)).toInt = (v.val : ℤ)), upd (ix2 k e) := by
  rw [wrap_id_vec hb0 w hw, scatterAdd_cols d huw hiw hsd hivd]
  refine congrArg₂ (· + ·) rfl (Finset.sum_congr (Finset.filter_congr fun e _ => ?_) fun _ _ => rfl)
  rw [col_apply hb1 w e]

end Cert.LibTakeCols
-- ==== Proof.SpecGlue.lean ====
import proofs.«409580_j89481348645420_1_alg».proof.Proof.Spec

/-!
# The channel-major perceptron is the edge's message

The perceptron of the channel-major layout reads, for edge column e, the features of the edge's two end nodes, its
three edge features, and the two weight matrices transposed and cut into column blocks. When those arrays are the
gathered, transposed and cut forms of a layer's arguments, its output channel c of edge e is what edge e sends on
channel c, term by term; summed over the edges that end in a node, and started from zero, it is the layer.
-/

noncomputable section

open scoped BigOperators

namespace Cert.SpecGlue

open Cert.Spec Idealize.ShloMosaic Idealize.ShloMosaic.ValueIdx

/-- Output channel c of edge e of the channel-major perceptron is the message of edge e on channel c. -/
theorem mlpT_eq_message {C M O K : ℕ} (hK : C + C + 3 = K) (X : (⟨2, ![NN, C]⟩ : Shape).Idx → EReal)
    (EN : (⟨2, ![NE, 3]⟩ : Shape).Idx → EReal) (ei : (⟨2, ![2, NE]⟩ : Shape).Idx → BitVec 32)
    (W1 : (⟨2, ![K, M]⟩ : Shape).Idx → EReal) (b1 : (⟨1, ![M]⟩ : Shape).Idx → EReal)
    (W2 : (⟨2, ![M, O]⟩ : Shape).Idx → EReal) (b2 : (⟨1, ![O]⟩ : Shape).Idx → EReal)
    (xd xs : (⟨2, ![C, NE]⟩ : Shape).Idx → EReal) (eT : (⟨2, ![3, NE]⟩ : Shape).Idx → EReal)
    (wd ws : (⟨2, ![M, C]⟩ : Shape).Idx → EReal) (we : (⟨2, ![M, 3]⟩ : Shape).Idx → EReal)
    (b1c : (⟨2, ![M, 1]⟩ : Shape).Idx → EReal) (w2 : (⟨2, ![O, M]⟩ : Shape).Idx → EReal)
    (b2c : (⟨2, ![O, 1]⟩ : Shape).Idx → EReal)
    (hxd : ∀ (k : Fin C) (e : Fin NE), xd (ix2 k e) = X (ix2 (nodeOf (ei (ix2 1 e))) k))
    (hxs : ∀ (k : Fin C) (e : Fin NE), xs (ix2 k e) = X (ix2 (nodeOf (ei (ix2 0 e))) k))
    (heT : ∀ (k : Fin 3) (e : Fin NE), eT (ix2 k e) = EN (ix2 e k))
    (hwd : ∀ (j : Fin M) (k : Fin C), wd (ix2 j k) = W1 (ix2 ⟨k.val, by omega⟩ j))
    (hws : ∀ (j : Fin M) (k : Fin C), ws (ix2 j k) = W1 (ix2 ⟨C + k.val, by omega⟩ j))
    (hwe : ∀ (j : Fin M) (k : Fin 3), we (ix2 j k) = W1 (ix2 ⟨C + C + k.val, by omega⟩ j))
    (hb1 : ∀ j : Fin M, b1c (ix2 j 0) = b1 (ix1 j)) (hw2 : ∀ (c : Fin O) (j : Fin M), w2 (ix2 c j) = W2 (ix2 j c))
    (hb2 : ∀ c : Fin O, b2c (ix2 c 0) = b2 (ix1 c))
    (c : Fin O) (e : Fin NE) :
    mlpT (T := NE) xd xs eT wd ws we b1c w2 b2c (ix2 c e) = message hK X EN ei W1 b1 W2 b2 e c := by
  show (∑ j : Fin M, w2 (ix2 c j) *
      elu ((((∑ k : Fin C, wd (ix2 j k) * xd (ix2 k e)) + (∑ k : Fin C, ws (ix2 j k) * xs (ix2 k e)))
            + (∑ k : Fin 3, we (ix2 j k) * eT (ix2 k e))) + b1c (ix2 j 0)))
      + b2c (ix2 c 0)
    = (∑ j : Fin M, W2 (ix2 j c) * hidden hK X EN ei W1 b1 e j) + b2 (ix1 c)
  unfold Cert.Spec.hidden
  simp only [hxd, hxs, heT, hwd, hws, hwe, hb1, hw2, hb2]

/-- Zero plus the sum of the perceptron's channel k over the edges whose end word, read signed, is node n, is the
    layer's new feature k of node n. -/
theorem layer_of_sum {C M O K : ℕ} (hK : C + C + 3 = K) (X : (⟨2, ![NN, C]⟩ : Shape).Idx → EReal)
    (EN : (⟨2, ![NE, 3]⟩ : Shape).Idx → EReal) (ei : (⟨2, ![2, NE]⟩ : Shape).Idx → BitVec 32)
    (W1 : (⟨2, ![K, M]⟩ : Shape).Idx → EReal) (b1 : (⟨1, ![M]⟩ : Shape).Idx → EReal)
    (W2 : (⟨2, ![M, O]⟩ : Shape).Idx → EReal) (b2 : (⟨1, ![O]⟩ : Shape).Idx → EReal)
    (xd xs : (⟨2, ![C, NE]⟩ : Shape).Idx → EReal) (eT : (⟨2, ![3, NE]⟩ : Shape).Idx → EReal)
    (wd ws : (⟨2, ![M, C]⟩ : Shape).Idx → EReal) (we : (⟨2, ![M, 3]⟩ : Shape).Idx → EReal)
    (b1c : (⟨2, ![M, 1]⟩ : Shape).Idx → EReal) (w2 : (⟨2, ![O, M]⟩ : Shape).Idx → EReal)
    (b2c : (⟨2, ![O, 1]⟩ : Shape).Idx → EReal)
    (hxd : ∀ (k : Fin C) (e : Fin NE), xd (ix2 k e) = X (ix2 (nodeOf (ei (ix2 1 e))) k))
    (hxs : ∀ (k : Fin C) (e : Fin NE), xs (ix2 k e) = X (ix2 (nodeOf (ei (ix2 0 e))) k))
    (heT : ∀ (k : Fin 3) (e : Fin NE), eT (ix2 k e) = EN (ix2 e k))
    (hwd : ∀ (j : Fin M) (k : Fin C), wd (ix2 j k) = W1 (ix2 ⟨k.val, by omega⟩ j))
    (hws : ∀ (j : Fin M) (k : Fin C), ws (ix2 j k) = W1 (ix2 ⟨C + k.val, by omega⟩ j))
    (hwe : ∀ (j : Fin M) (k : Fin 3), we (ix2 j k) = W1 (ix2 ⟨C + C + k.val, by omega⟩ j))
    (hb1 : ∀ j : Fin M, b1c (ix2 j 0) = b1 (ix1 j)) (hw2 : ∀ (c : Fin O) (j : Fin M), w2 (ix2 c j) = W2 (ix2 j c))
    (hb2 : ∀ c : Fin O, b2c (ix2 c 0) = b2 (ix1 c))
    (n : Fin NN) (k : Fin O) :
    zero32 + ∑ e ∈ Finset.univ.filter (fun e : Fin NE => (ei (ix2 1 e)).toInt = (n.val : ℤ)),
        mlpT (T := NE) xd xs eT wd ws we b1c w2 b2c (ix2 k e)
      = layer hK X EN ei W1 b1 W2 b2 (ix2 n k) := by
  unfold Cert.Spec.layer
  refine congrArg (zero32 + ·) ?_
  exact Finset.sum_congr rfl fun e _ =>
    mlpT_eq_message hK X EN ei W1 b1 W2 b2 xd xs eT wd ws we b1c w2 b2c hxd hxs heT hwd hws hwe hb1 hw2 hb2 k e

end Cert.SpecGlue

end
-- ==== Proof.KLayer0W.lean ====
import proofs.«409580_j89481348645420_1_alg».proof.Proof.Gen.KernelIdeal.Frame
import proofs.«409580_j89481348645420_1_alg».proof.Proof.Spec
import Idealize.ShloMosaic.Lib.Pipeline.Value
import Idealize.ShloMosaic.Lib.ValueIdx
import Idealize.ShloMosaic.Lib.StableHlo.Run

/-!
# The six small arrays the first perceptron call reads

Before the first call the host cuts the first weight matrix `W1` (11 rows: 4 for the features of the edge's end node
`dst`, 4 for those of `src`, 3 for the edge features; 4 columns, one per hidden unit) into its three row blocks and
transposes each, reshapes the first bias to a column, transposes the second weight matrix and reshapes the second
bias to a column. Entry by entry: a transposed slice at `(j, k)` is the matrix at `(offset + k, j)`; a vector reshaped
to a column at `(j, 0)` is the vector at `j`. The four arguments themselves are written by no earlier host operation,
so they still hold their launch contents.
-/

noncomputable section

namespace Cert.KernelIdeal.KLayer0W

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The arguments at the call's entry -/

/-- The argument `main_arg3` is written by no host operation before the first call: at the call's entry it holds its launch contents. -/
theorem W3_main_arg3 : W3 (F := Ideal) m ρ c (Proc.devRef .tc main_arg3) = m ((c : Thread nD τ).loc main_arg3) :=
  calc W3 (F := Ideal) m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The argument `main_arg4` is written by no host operation before the first call: at the call's entry it holds its launch contents. -/
theorem W3_main_arg4 : W3 (F := Ideal) m ρ c (Proc.devRef .tc main_arg4) = m ((c : Thread nD τ).loc main_arg4) :=
  calc W3 (F := Ideal) m ρ c (Proc.devRef .tc main_arg4)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The argument `main_arg5` is written by no host operation before the first call: at the call's entry it holds its launch contents. -/
theorem W3_main_arg5 : W3 (F := Ideal) m ρ c (Proc.devRef .tc main_arg5) = m ((c : Thread nD τ).loc main_arg5) :=
  calc W3 (F := Ideal) m ρ c (Proc.devRef .tc main_arg5)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The argument `main_arg6` is written by no host operation before the first call: at the call's entry it holds its launch contents. -/
theorem W3_main_arg6 : W3 (F := Ideal) m ρ c (Proc.devRef .tc main_arg6) = m ((c : Thread nD τ).loc main_arg6) :=
  calc W3 (F := Ideal) m ρ c (Proc.devRef .tc main_arg6)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## What the nine host operations leave, over any contents `W` they start from -/

theorem v16_of (W : Valuation τ sig (Elt Ideal)) :
    StableHlo.after (hostOps0_3 (F := Ideal)) W (Proc.devRef .tc main_v16)
      = transpose S4x4 [1, 0] (extractStridedSlice S4x4 ![0, 0] (W (Proc.devRef .tc main_arg3)) slices_S11x4_S4x4_0_0) transposes_S4x4_S4x4_1_0 := by
  after_results

theorem v18_of (W : Valuation τ sig (Elt Ideal)) :
    StableHlo.after (hostOps0_3 (F := Ideal)) W (Proc.devRef .tc main_v18)
      = transpose S4x4 [1, 0] (extractStridedSlice S4x4 ![4, 0] (W (Proc.devRef .tc main_arg3)) slices_S11x4_S4x4_4_0) transposes_S4x4_S4x4_1_0 := by
  after_results

theorem v20_of (W : Valuation τ sig (Elt Ideal)) :
    StableHlo.after (hostOps0_3 (F := Ideal)) W (Proc.devRef .tc main_v20)
      = transpose S4x3 [1, 0] (extractStridedSlice S3x4 ![8, 0] (W (Proc.devRef .tc main_arg3)) slices_S11x4_S3x4_8_0) transposes_S3x4_S4x3_1_0 := by
  after_results

theorem v21_of (W : Valuation τ sig (Elt Ideal)) :
    StableHlo.after (hostOps0_3 (F := Ideal)) W (Proc.devRef .tc main_v21)
      = shapeCast S4x1 (W (Proc.devRef .tc main_arg4)) shapeCasts_S4_S4x1 := by
  after_results
  rfl

theorem v22_of (W : Valuation τ sig (Elt Ideal)) :
    StableHlo.after (hostOps0_3 (F := Ideal)) W (Proc.devRef .tc main_v22)
      = transpose S8x4 [1, 0] (W (Proc.devRef .tc main_arg5)) transposes_S4x8_S8x4_1_0 := by
  after_results

theorem v23_of (W : Valuation τ sig (Elt Ideal)) :
    StableHlo.after (hostOps0_3 (F := Ideal)) W (Proc.devRef .tc main_v23)
      = shapeCast S8x1 (W (Proc.devRef .tc main_arg6)) shapeCasts_S8_S8x1 := by
  after_results
  rfl

/-! ## Entry by entry

`W1 := m (… main_arg3)` is the 11-by-4 first weight matrix, `b1 := m (… main_arg4)` its bias, `W2 := m (… main_arg5)` the
4-by-8 second weight matrix, `b2 := m (… main_arg6)` its bias. -/

/-- Rows 0 to 3 of the first weight matrix, transposed: hidden unit `j`'s weight on feature `k` of the edge's `dst` node. -/
theorem wd_at (j : Fin 4) (k : Fin 4) :
    (W4 (F := Ideal) m ρ c (Proc.devRef .tc main_v16) : S4x4.Idx → EReal) (ix2 j k)
      = (m ((c : Thread nD τ).loc main_arg3) : S11x4.Idx → EReal) (ix2 ⟨k.val, by omega⟩ j) := by
  have h : W4 (F := Ideal) m ρ c (Proc.devRef .tc main_v16) = _ := v16_of (W3 (F := Ideal) m ρ c)
  rw [h, W3_main_arg3]
  refine (transpose_apply [1, 0] _ transposes_S4x4_S4x4_1_0 (ix2 j k) (ix2 k j) (fun b => by
    match b with
    | ⟨0, _⟩ => rfl
    | ⟨1, _⟩ => rfl)).trans ?_
  refine extractStridedSlice_apply ![0, 0] _ slices_S11x4_S4x4_0_0 (ix2 k j) (ix2 ⟨k.val, by omega⟩ j) (fun a => by
    match a with
    | ⟨0, _⟩ => show k.val = 0 + k.val; omega
    | ⟨1, _⟩ => show j.val = 0 + j.val; omega)

/-- Rows 4 to 7, transposed: hidden unit `j`'s weight on feature `k` of the edge's `src` node. -/
theorem ws_at (j : Fin 4) (k : Fin 4) :
    (W4 (F := Ideal) m ρ c (Proc.devRef .tc main_v18) : S4x4.Idx → EReal) (ix2 j k)
      = (m ((c : Thread nD τ).loc main_arg3) : S11x4.Idx → EReal) (ix2 ⟨4 + k.val, by omega⟩ j) := by
  have h : W4 (F := Ideal) m ρ c (Proc.devRef .tc main_v18) = _ := v18_of (W3 (F := Ideal) m ρ c)
  rw [h, W3_main_arg3]
  refine (transpose_apply [1, 0] _ transposes_S4x4_S4x4_1_0 (ix2 j k) (ix2 k j) (fun b => by
    match b with
    | ⟨0, _⟩ => rfl
    | ⟨1, _⟩ => rfl)).trans ?_
  refine extractStridedSlice_apply ![4, 0] _ slices_S11x4_S4x4_4_0 (ix2 k j) (ix2 ⟨4 + k.val, by omega⟩ j) (fun a => by
    match a with
    | ⟨0, _⟩ => show 4 + k.val = 4 + k.val; omega
    | ⟨1, _⟩ => show j.val = 0 + j.val; omega)

/-- Rows 8 to 10, transposed: hidden unit `j`'s weight on edge feature `k`. -/
theorem we_at (j : Fin 4) (k : Fin 3) :
    (W4 (F := Ideal) m ρ c (Proc.devRef .tc main_v20) : S4x3.Idx → EReal) (ix2 j k)
      = (m ((c : Thread nD τ).loc main_arg3) : S11x4.Idx → EReal) (ix2 ⟨4 + 4 + k.val, by omega⟩ j) := by
  have h : W4 (F := Ideal) m ρ c (Proc.devRef .tc main_v20) = _ := v20_of (W3 (F := Ideal) m ρ c)
  rw [h, W3_main_arg3]
  refine (transpose_apply [1, 0] _ transposes_S3x4_S4x3_1_0 (ix2 j k) (ix2 k j) (fun b => by
    match b with
    | ⟨0, _⟩ => rfl
    | ⟨1, _⟩ => rfl)).trans ?_
  refine extractStridedSlice_apply ![8, 0] _ slices_S11x4_S3x4_8_0 (ix2 k j) (ix2 ⟨4 + 4 + k.val, by omega⟩ j) (fun a => by
    match a with
    | ⟨0, _⟩ => show 4 + 4 + k.val = 8 + k.val; omega
    | ⟨1, _⟩ => show j.val = 0 + j.val; omega)

/-- The first bias as a column: row `j` holds entry `j`. -/
theorem b1_at (j : Fin 4) :
    (W4 (F := Ideal) m ρ c (Proc.devRef .tc main_v21) : S4x1.Idx → EReal) (ix2 j 0)
      = (m ((c : Thread nD τ).loc main_arg4) : S4.Idx → EReal) (ix1 j) := by
  have h : W4 (F := Ideal) m ρ c (Proc.devRef .tc main_v21) = _ := v21_of (W3 (F := Ideal) m ρ c)
  rw [h, W3_main_arg4]
  refine shapeCast_apply _ shapeCasts_S4_S4x1 (ix2 j 0) (ix1 j) ?_
  rw [Shape.rowMajor_val_one, Shape.rowMajor_val_two]
  show j.val = j.val * 1 + 0
  omega

/-- The second weight matrix, transposed: output `c'`'s weight on hidden unit `j`. -/
theorem w2_at (c' : Fin 8) (j : Fin 4) :
    (W4 (F := Ideal) m ρ c (Proc.devRef .tc main_v22) : S8x4.Idx → EReal) (ix2 c' j)
      = (m ((c : Thread nD τ).loc main_arg5) : S4x8.Idx → EReal) (ix2 j c') := by
  have h : W4 (F := Ideal) m ρ c (Proc.devRef .tc main_v22) = _ := v22_of (W3 (F := Ideal) m ρ c)
  rw [h, W3_main_arg5]
  exact transpose_apply [1, 0] _ transposes_S4x8_S8x4_1_0 (ix2 c' j) (ix2 j c') (fun b => by
    match b with
    | ⟨0, _⟩ => rfl
    | ⟨1, _⟩ => rfl)

/-- The second bias as a column: row `c'` holds entry `c'`. -/
theorem b2_at (c' : Fin 8) :
    (W4 (F := Ideal) m ρ c (Proc.devRef .tc main_v23) : S8x1.Idx → EReal) (ix2 c' 0)
      = (m ((c : Thread nD τ).loc main_arg6) : S8.Idx → EReal) (ix1 c') := by
  have h : W4 (F := Ideal) m ρ c (Proc.devRef .tc main_v23) = _ := v23_of (W3 (F := Ideal) m ρ c)
  rw [h, W3_main_arg6]
  refine shapeCast_apply _ shapeCasts_S8_S8x1 (ix2 c' 0) (ix1 c') ?_
  rw [Shape.rowMajor_val_one, Shape.rowMajor_val_two]
  show c'.val = c'.val * 1 + 0
  omega

end Cert.KernelIdeal.KLayer0W

end
-- ==== Proof.KLayer0X.lean ====
import proofs.«409580_j89481348645420_1_alg».proof.Proof.Gen.KernelIdeal.Frame
import proofs.«409580_j89481348645420_1_alg».proof.Proof.Spec
import proofs.«409580_j89481348645420_1_alg».proof.Proof.LibTakeCols
import Idealize.ShloMosaic.Lib.ValueLayout

/-!
# The node features after the first layer's scatter-add

After the first perceptron call the program adds the call's output columns into a table of zeros, 8 rows by 100000
node columns: column e of the output goes to the node its edge ends in, the second row of the edge-index array. For
index words that are node numbers, entry (k, n) of the table is zero plus the sum, over the edges e that end in n,
of entry (k, e) of the call's output array.
-/

noncomputable section

open scoped BigOperators

namespace Cert.KernelIdeal.KLayer0X

open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg)

/-- A buffer that no operation of a stretch writes holds after the stretch what it held before. -/
macro "kept_over " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The two stretches, over any contents before them -/

/-- The stretch after the first call leaves in the table the scatter-add, into zeros, of the call's output along the
    wrapped end-node words written as a column. -/
theorem after1_v32 (V : Valuation τ sig (Elt Ideal)) :
    (StableHlo.after (hostOps1 (F := Ideal)) V (Proc.devRef .tc main_v32) : S8x100000.Idx → EReal)
      = Host.scatterAdd (F := Ideal) scatter_S8x100000_S3200000x1_S8x3200000_0_1_1_1
          (broadcastInDim S8x100000 ![] bcast_S_S8x100000 (constant (F := Ideal) S_ .f32 0x00000000#32))
          (broadcastInDim S3200000x1 ![0] bcast_S3200000_S3200000x1_0
            (select (cmpi .slt (V (Proc.devRef .tc main_v3) : S3200000.Idx → BitVec 32) (broadcastInDim S3200000 ![] bcast_S_S3200000 (constantI S_ 32 0#32)))
              (addi (V (Proc.devRef .tc main_v3) : S3200000.Idx → BitVec 32) (broadcastInDim S3200000 ![] bcast_S_S3200000 (constantI S_ 32 100000#32)))
              (V (Proc.devRef .tc main_v3) : S3200000.Idx → BitVec 32)))
          (V (Proc.devRef .tc main_v24) : S8x3200000.Idx → EReal) := by
  after_results_simp

/-- The first stretch of the program leaves the end-node words as the second row of the edge-index array, flat. -/
theorem after0_v3 (V : Valuation τ sig (Elt Ideal)) :
    (StableHlo.after (hostOps0 (F := Ideal)) V (Proc.devRef .tc main_v3) : S3200000.Idx → BitVec 32)
      = shapeCast S3200000 (extractStridedSlice S1x3200000 ![1, 0] (V (Proc.devRef .tc main_arg1) : S2x3200000.Idx → BitVec 32) slices_S2x3200000_S1x3200000_1_0) shapeCasts_S1x3200000_S3200000 := by
  after_results
  rfl

/-! ## What the fold carries unchanged -/

/-- The table is not written again before the second call. -/
theorem W9_v32 (c : Dev nD) :
    W9 (F := Ideal) m ρ c (Proc.devRef .tc main_v32) = W6 (F := Ideal) m ρ c (Proc.devRef .tc main_v32) :=
  calc W9 (F := Ideal) m ρ c (Proc.devRef .tc main_v32)
    _ = W8 (F := Ideal) m ρ c (Proc.devRef .tc main_v32) := by kept_over hostOps1_3
    _ = W7 (F := Ideal) m ρ c (Proc.devRef .tc main_v32) := by kept_over hostOps1_2
    _ = W6 (F := Ideal) m ρ c (Proc.devRef .tc main_v32) := by kept_over hostOps1_1

/-- The end-node words are written once, by the first stretch, and the first call does not touch them. -/
theorem W5_v3 (c : Dev nD) :
    W5 (F := Ideal) m ρ c (Proc.devRef .tc main_v3) = W1 (F := Ideal) m ρ c (Proc.devRef .tc main_v3) :=
  calc W5 (F := Ideal) m ρ c (Proc.devRef .tc main_v3)
    _ = W4 (F := Ideal) m ρ c (Proc.devRef .tc main_v3) := W5_of_ne m ρ c main_v3 (by decide)
    _ = W3 (F := Ideal) m ρ c (Proc.devRef .tc main_v3) := by kept_over hostOps0_3
    _ = W2 (F := Ideal) m ρ c (Proc.devRef .tc main_v3) := by kept_over hostOps0_2
    _ = W1 (F := Ideal) m ρ c (Proc.devRef .tc main_v3) := by kept_over hostOps0_1

/-- Word e of the end-node vector, as the scatter-add finds it, is entry (1, e) of the edge-index array. -/
theorem dst_at (c : Dev nD) (e : Fin 3200000) :
    (W5 (F := Ideal) m ρ c (Proc.devRef .tc main_v3) : S3200000.Idx → BitVec 32) (ix1 e)
      = (m ((c : Thread nD τ).loc main_arg1) : S2x3200000.Idx → BitVec 32) (ix2 1 e) := by
  rw [W5_v3]
  refine (congrFun (after0_v3 (W0 (F := Ideal) m ρ c)) (ix1 e)).trans ?_
  refine (shapeCast_1a_a_apply _ _ e).trans ?_
  exact slice2_axis0_apply 1 _ _ (0 : Fin 1) e (1 : Fin 2) rfl

/-! ## The table at an entry -/

/-- ENTRY (k, n) OF THE TABLE as the second call's stretch finds it: zero plus the sum, over the edges that end in
    node n, of entry (k, e) of the first call's output array. -/
theorem scatter_at_arr (c : Dev nD)
    (hidx : ∀ i, 0 ≤ ((m ((c : Thread nD τ).loc main_arg1) : S2x3200000.Idx → BitVec 32) i).toInt
      ∧ ((m ((c : Thread nD τ).loc main_arg1) : S2x3200000.Idx → BitVec 32) i).toInt < 100000)
    (k : Fin 8) (n : Fin 100000) :
    (W9 (F := Ideal) m ρ c (Proc.devRef .tc main_v32) : S8x100000.Idx → EReal) (ix2 k n)
      = Cert.Spec.zero32 + (∑ e ∈ Finset.univ.filter (fun e : Fin 3200000 =>
            ((m ((c : Thread nD τ).loc main_arg1) : S2x3200000.Idx → BitVec 32) (ix2 1 e)).toInt = (n.val : ℤ)),
          ((dat0 (F := Ideal) (V4 m ρ) c).arrAt 9 cfg0.N : S8x3200000.Idx → EReal) (ix2 k e) : EReal) := by
  have hw : ∀ i : S3200000.Idx, 0 ≤ ((W5 (F := Ideal) m ρ c (Proc.devRef .tc main_v3) : S3200000.Idx → BitVec 32) i).toInt := by
    intro i
    obtain ⟨e, rfl⟩ : ∃ e : Fin 3200000, i = ix1 e := ⟨i 0, eq_ix1 i⟩
    exact le_of_le_of_eq (hidx (ix2 1 e)).1 (congrArg BitVec.toInt (dst_at m ρ c e).symm)
  rw [W9_v32]
  refine (congrFun (after1_v32 (W5 (F := Ideal) m ρ c)) (ix2 k n)).trans ?_
  refine (Cert.LibTakeCols.scatter_wrap_apply (D := 8) (N := 100000) (n := 3200000) bcast_S_S3200000
    bcast_S3200000_S3200000x1_0 bcast_S_S8x100000 scatter_S8x100000_S3200000x1_S8x3200000_0_1_1_1 rfl rfl rfl rfl
    (W5 (F := Ideal) m ρ c (Proc.devRef .tc main_v3)) hw (W5 (F := Ideal) m ρ c (Proc.devRef .tc main_v24)) k n).trans ?_
  refine congrArg₂ (· + ·) rfl (Finset.sum_congr (Finset.filter_congr fun e _ => by rw [dst_at]) fun e _ => ?_)
  exact congrFun (W5_arr m ρ c 9) (ix2 k e)

/-- The same with the first call's output array named: whatever function of the edges it is known to be, the table
    sums that function over the edges that end in the node. -/
theorem scatter_at (c : Dev nD)
    (hidx : ∀ i, 0 ≤ ((m ((c : Thread nD τ).loc main_arg1) : S2x3200000.Idx → BitVec 32) i).toInt
      ∧ ((m ((c : Thread nD τ).loc main_arg1) : S2x3200000.Idx → BitVec 32) i).toInt < 100000)
    (out : S8x3200000.Idx → EReal)
    (hout : ((dat0 (F := Ideal) (V4 m ρ) c).arrAt 9 cfg0.N : S8x3200000.Idx → EReal) = out)
    (k : Fin 8) (n : Fin 100000) :
    (W9 (F := Ideal) m ρ c (Proc.devRef .tc main_v32) : S8x100000.Idx → EReal) (ix2 k n)
      = Cert.Spec.zero32 + ∑ e ∈ Finset.univ.filter (fun e : Fin 3200000 =>
            ((m ((c : Thread nD τ).loc main_arg1) : S2x3200000.Idx → BitVec 32) (ix2 1 e)).toInt = (n.val : ℤ)),
          out (ix2 k e) := by
  subst hout
  exact scatter_at_arr m ρ c hidx k n

end Cert.KernelIdeal.KLayer0X

end
-- ==== Proof.KLayer0.lean ====
import proofs.«409580_j89481348645420_1_alg».proof.Proof.Gen.KernelIdeal.Frame
import proofs.«409580_j89481348645420_1_alg».proof.Proof.Spec
import proofs.«409580_j89481348645420_1_alg».proof.Proof.LibTakeCols
import proofs.«409580_j89481348645420_1_alg».proof.Proof.SpecGlue
import proofs.«409580_j89481348645420_1_alg».proof.Proof.KLayer0W
import proofs.«409580_j89481348645420_1_alg».proof.Proof.KLayer0X
import Idealize.ShloMosaic.Lib.Pipeline.Value
import Idealize.ShloMosaic.Lib.ValueLayout
import Idealize.ShloMosaic.Lib.IdealHost
import Idealize.ShloMosaic.Lib.StableHlo.Run

/-!
# The first message-passing layer of the kernel program, entry by entry

Around its first edge-block call the program does the following on whole arrays. Before the call: it cuts the two
rows of the edge index array (row 0 the source node of each edge, row 1 the target node), normalises the edge
features and transposes them, transposes the node features into a table of 4 rows (channels) and 100000 columns
(nodes), and takes the columns of that table named by the target words and by the source words, which gives two
arrays of 4 rows and one column per edge. After the call: it adds the call's output columns (8 rows, one column per
edge) into a table of zeros, each column into the column of its edge's target node.

This file reads the three edge-indexed input arrays of the call at an index — under the hypothesis that every index
word is a node number, `0 ≤ w < 100000` —

* `xd_at`: row `k`, column `e` of the first is feature `k` of node `dst e`;
* `xs_at`: row `k`, column `e` of the second is feature `k` of node `src e`;
* `eT_at`: row `k`, column `e` of the third is normalised edge feature `k` of edge `e`;

and puts them, the six small weight and bias arrays, the call's output as the two-layer perceptron of its nine
input arrays, and the sum over the edges that end in a node together: entry `(k, n)` of the table after the
scatter-add is feature `k` of node `n` after one layer (`layer0`).
-/

set_option maxRecDepth 16384

noncomputable section

open scoped BigOperators

namespace Cert.KernelIdeal.KLayer0

open Idealize.ShloMosaic Idealize.ShloMosaic.TcCoe Idealize.ShloMosaic.ValueIdx
open Cert.KernelIdeal Cert.KernelIdeal.Gen

/-! ## The first stretch of array operations, over any buffer contents before it

Each statement reads one array the stretch writes at an index, in terms of the contents `V` of the argument
buffer it is computed from. -/

section Stage0
variable (V : Valuation τ sig (Elt Ideal))

/-- The `dst` words: row 1 of the index array. -/
theorem st0_v3 (e : Fin 3200000) :
    (StableHlo.after (Gen.hostOps0 (F := Ideal)) V (Proc.devRef .tc main_v3) : S3200000.Idx → BitVec 32) (ix1 e)
      = (V (Proc.devRef .tc main_arg1) : S2x3200000.Idx → BitVec 32) (ix2 1 e) := by
  after_results
  show shapeCast S3200000 (extractStridedSlice S1x3200000 ![1, 0] (V (Proc.devRef .tc main_arg1)) _) _ (ix1 e) = _
  refine (shapeCast_1a_a_apply _ _ e).trans ?_
  exact slice2_axis0_apply 1 _ _ (0 : Fin 1) e (1 : Fin 2) rfl

/-- The `src` words: row 0 of the index array. -/
theorem st0_v1 (e : Fin 3200000) :
    (StableHlo.after (Gen.hostOps0 (F := Ideal)) V (Proc.devRef .tc main_v1) : S3200000.Idx → BitVec 32) (ix1 e)
      = (V (Proc.devRef .tc main_arg1) : S2x3200000.Idx → BitVec 32) (ix2 0 e) := by
  after_results
  show shapeCast S3200000 (extractStridedSlice S1x3200000 ![0, 0] (V (Proc.devRef .tc main_arg1)) _) _ (ix1 e) = _
  refine (shapeCast_1a_a_apply _ _ e).trans ?_
  exact slice2_axis0_apply 0 _ _ (0 : Fin 1) e (0 : Fin 2) rfl

/-- The node features, channel-major. -/
theorem st0_v12 (k : Fin 4) (n : Fin 100000) :
    (StableHlo.after (Gen.hostOps0 (F := Ideal)) V (Proc.devRef .tc main_v12) : S4x100000.Idx → EReal) (ix2 k n)
      = (V (Proc.devRef .tc main_arg0) : S100000x4.Idx → EReal) (ix2 n k) := by
  after_results
  exact transpose_ix2_apply _ _ k n

/-- The normalised edge features, transposed: channel `k` of edge `e`. -/
theorem st0_v11 (k : Fin 3) (e : Fin 3200000) :
    (StableHlo.after (Gen.hostOps0 (F := Ideal)) V (Proc.devRef .tc main_v11) : S3x3200000.Idx → EReal) (ix2 k e)
      = Cert.Spec.enorm (V (Proc.devRef .tc main_arg2)) (ix2 e k) := by
  after_results
  refine (transpose_ix2_apply _ _ k e).trans ?_
  refine (hostDivf_apply _ _ _).trans ?_
  unfold Cert.Spec.enorm
  refine congrArg (Ideal.div _) ?_
  refine (broadcastInDim_apply _ _ _ (ix2 e k) (ix2 e (0 : Fin 1)) ?_).trans ?_
  · intro a
    match a with
    | ⟨0, _⟩ => rfl
    | ⟨1, _⟩ => rfl
  refine (addf_apply _ _ _).trans ?_
  refine congrArg₂ (· + ·) ?_ ?_
  · refine (broadcastInDim_apply _ _ _ (ix2 e (0 : Fin 1)) (ix1 e) ?_).trans ?_
    · intro a
      match a with
      | ⟨0, _⟩ => rfl
    rw [hostReduceAdd_apply, Ideal.hostReduceAdd_single _ (by decide : S3200000x3.Reduces [1] S3200000)]
    refine congrArg₂ (· + ·) rfl ?_
    refine Finset.sum_congr rfl fun j _ => ?_
    have hl : ∀ (h : S3200000x3.Reduces [1] S3200000), h.lift (ix1 e) j = ix2 e j := fun h => by
      funext c
      apply Fin.ext
      match c with
      | ⟨0, _⟩ => rfl
      | ⟨1, _⟩ => rfl
    refine (mulf_apply _ _ _).trans ?_
    rw [hl]
    rfl
  · exact (broadcastInDim_scalar_apply _ _ _).trans rfl

end Stage0

/-! ## The gathered node features

`take` along the node axis of the channel-major table: a negative index word is wrapped by the number of nodes, the
wrapped words become a column of start indices, the columns they name are gathered, and a column whose wrapped word
lies outside the table is replaced by a fill value. -/

/-- A value stored through a typed reference and read back through it is the value. -/
theorem ofBuf_toBuf {T : BufTy} (x : StableHlo.TRef sig T) (v : T.Contents (Elt Ideal)) :
    x.ofBuf (x.toBuf v) = v := by
  unfold StableHlo.TRef.ofBuf StableHlo.TRef.toBuf
  simp

/-- The take of the columns of the four-row table `x` named by the words `w`, as the program spells it. -/
def takeTerm (x : FVec Ideal S4x100000 .f32) (w : IVec S3200000 32) : FVec Ideal S4x3200000 .f32 :=
  select
    (broadcastInDim S4x3200000 ![1] bcast_S3200000_S4x3200000_1
      (Host.reduce IntOp.andi
        (andi (cmpi .sge (broadcastInDim S3200000x1 ![0] bcast_S3200000_S3200000x1_0
      (select (cmpi .slt w (broadcastInDim S3200000 ![] bcast_S_S3200000 (constantI S_ 32 0#32)))
        (addi w (broadcastInDim S3200000 ![] bcast_S_S3200000 (constantI S_ 32 100000#32))) w)) (broadcastInDim S3200000x1 ![] bcast_S_S3200000x1 (constantI S_ 32 0#32)))
          (cmpi .sle (broadcastInDim S3200000x1 ![0] bcast_S3200000_S3200000x1_0
      (select (cmpi .slt w (broadcastInDim S3200000 ![] bcast_S_S3200000 (constantI S_ 32 0#32)))
        (addi w (broadcastInDim S3200000 ![] bcast_S_S3200000 (constantI S_ 32 100000#32))) w)) (broadcastInDim S3200000x1 ![0, 1] bcast_S1x1_S3200000x1_0_1
            (broadcastInDim S1x1 ![1] bcast_S1_S1x1_1 (constantI S1 32 99999#32)))))
        (constantI S_ 1 1#1) reducesTo_S3200000x1_S3200000_d1 h_S_))
    (Host.gather gather_S4x100000_S3200000x1_S4x3200000_0_1_n_n_1_1_41 x (broadcastInDim S3200000x1 ![0] bcast_S3200000_S3200000x1_0
      (select (cmpi .slt w (broadcastInDim S3200000 ![] bcast_S_S3200000 (constantI S_ 32 0#32)))
        (addi w (broadcastInDim S3200000 ![] bcast_S_S3200000 (constantI S_ 32 100000#32))) w)))
    (broadcastInDim S4x3200000 ![] bcast_S_S4x3200000 (constant (F := Ideal) S_ .f32 0x7FC00000#32))

theorem ofBuf_v3 (v : (Proc.devRef (τ := τ) .tc main_v3).ty.Contents (Elt Ideal)) :
    (StableHlo.TRef.of main_v3 : StableHlo.TRef sig ⟨S3200000, .i32⟩).ofBuf v = v := rfl
theorem ofBuf_v1 (v : (Proc.devRef (τ := τ) .tc main_v1).ty.Contents (Elt Ideal)) :
    (StableHlo.TRef.of main_v1 : StableHlo.TRef sig ⟨S3200000, .i32⟩).ofBuf v = v := rfl
theorem ofBuf_v12 (v : (Proc.devRef (τ := τ) .tc main_v12).ty.Contents (Elt Ideal)) :
    (StableHlo.TRef.of main_v12 : StableHlo.TRef sig ⟨S4x100000, .f32⟩).ofBuf v = v := rfl
theorem toBuf_v13 (v : (⟨S4x3200000, .f32⟩ : BufTy).Contents (Elt Ideal)) :
    (StableHlo.TRef.of main_v13 : StableHlo.TRef sig ⟨S4x3200000, .f32⟩).toBuf v = v := rfl
theorem toBuf_v14 (v : (⟨S4x3200000, .f32⟩ : BufTy).Contents (Elt Ideal)) :
    (StableHlo.TRef.of main_v14 : StableHlo.TRef sig ⟨S4x3200000, .f32⟩).toBuf v = v := rfl

/-- The first take's result buffer after its stretch, over any contents before it. -/
theorem after01_v13 (V : Valuation τ sig (Elt Ideal)) :
    (StableHlo.after (hostOps0_1 (F := Ideal)) V (Proc.devRef .tc main_v13) : S4x3200000.Idx → EReal)
      = takeTerm (V (Proc.devRef .tc main_v12) : S4x100000.Idx → EReal) (V (Proc.devRef .tc main_v3) : S3200000.Idx → BitVec 32) := by
  after_results_simp
  simp only [ofBuf_toBuf, ofBuf_v3, ofBuf_v1, ofBuf_v12, toBuf_v13, toBuf_v14]
  rfl

/-- The second take's result buffer after its stretch. -/
theorem after02_v14 (V : Valuation τ sig (Elt Ideal)) :
    (StableHlo.after (hostOps0_2 (F := Ideal)) V (Proc.devRef .tc main_v14) : S4x3200000.Idx → EReal)
      = takeTerm (V (Proc.devRef .tc main_v12) : S4x100000.Idx → EReal) (V (Proc.devRef .tc main_v1) : S3200000.Idx → BitVec 32) := by
  after_results_simp
  simp only [ofBuf_toBuf, ofBuf_v3, ofBuf_v1, ofBuf_v12, toBuf_v13, toBuf_v14]
  rfl

/-- For index words that are node numbers the take reads, at row `k` and position `e`, the table's row `k` at the
    column of word `e`. -/
theorem takeTerm_apply (x : FVec Ideal S4x100000 .f32) (w : IVec S3200000 32)
    (hw : ∀ e, 0 ≤ (w e).toInt ∧ (w e).toInt < 100000) (k : Fin 4) (e : Fin 3200000) :
    takeTerm x w (ix2 k e) = x (ix2 k (Cert.Spec.nodeOf (w (ix1 e)))) :=
  Cert.LibTakeCols.take_apply _ _ _ _ _ _ _ _ rfl rfl rfl rfl rfl _ _ x w hw k e

/-! ## The three edge-indexed arrays as the first region finds them -/

section Boundary
variable (m : (ℓ : Loc nD τ sig) → Buf (Elt Ideal) ℓ) (ρ : Dev nD → PrngReg)

/-- A buffer that no operation of a stretch writes holds after the stretch what it held before. -/
macro "keep_stretch " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- The target-node words after the first stretch: row 1 of the index array. -/
theorem dst_W1 (c : Dev nD) (e : Fin 3200000) :
    (W1 (F := Ideal) m ρ c (Proc.devRef .tc main_v3) : S3200000.Idx → BitVec 32) (ix1 e)
      = (m ((c : Thread nD τ).loc main_arg1) : S2x3200000.Idx → BitVec 32) (ix2 1 e) :=
  (st0_v3 (W0 (F := Ideal) m ρ c) e).trans rfl

/-- The source-node words after the first stretch: row 0 of the index array. -/
theorem src_W1 (c : Dev nD) (e : Fin 3200000) :
    (W1 (F := Ideal) m ρ c (Proc.devRef .tc main_v1) : S3200000.Idx → BitVec 32) (ix1 e)
      = (m ((c : Thread nD τ).loc main_arg1) : S2x3200000.Idx → BitVec 32) (ix2 0 e) :=
  (st0_v1 (W0 (F := Ideal) m ρ c) e).trans rfl

/-- The channel-major node table after the first stretch. -/
theorem xT_W1 (c : Dev nD) (k : Fin 4) (n : Fin 100000) :
    (W1 (F := Ideal) m ρ c (Proc.devRef .tc main_v12) : S4x100000.Idx → EReal) (ix2 k n)
      = (m ((c : Thread nD τ).loc main_arg0) : S100000x4.Idx → EReal) (ix2 n k) :=
  (st0_v12 (W0 (F := Ideal) m ρ c) k n).trans rfl

/-- The features of each edge's target node, channel-major, at the region's entry. -/
theorem xd_at (c : Dev nD)
    (hidx : ∀ i, 0 ≤ ((m ((c : Thread nD τ).loc main_arg1) : S2x3200000.Idx → BitVec 32) i).toInt ∧ ((m ((c : Thread nD τ).loc main_arg1) : S2x3200000.Idx → BitVec 32) i).toInt < 100000)
    (k : Fin 4) (e : Fin 3200000) :
    (W4 (F := Ideal) m ρ c (Proc.devRef .tc main_v13) : S4x3200000.Idx → EReal) (ix2 k e)
      = (m ((c : Thread nD τ).loc main_arg0) : S100000x4.Idx → EReal)
          (ix2 (Cert.Spec.nodeOf ((m ((c : Thread nD τ).loc main_arg1) : S2x3200000.Idx → BitVec 32) (ix2 1 e))) k) := by
  have h43 : W4 (F := Ideal) m ρ c (Proc.devRef .tc main_v13) = W3 (F := Ideal) m ρ c (Proc.devRef .tc main_v13) := by
    keep_stretch hostOps0_3
  have h32 : W3 (F := Ideal) m ρ c (Proc.devRef .tc main_v13) = W2 (F := Ideal) m ρ c (Proc.devRef .tc main_v13) := by
    keep_stretch hostOps0_2
  rw [h43, h32]
  refine (congrFun (after01_v13 (W1 (F := Ideal) m ρ c)) (ix2 k e)).trans ?_
  have hw : ∀ e' : S3200000.Idx, 0 ≤ ((W1 (F := Ideal) m ρ c (Proc.devRef .tc main_v3) : S3200000.Idx → BitVec 32) e').toInt
      ∧ ((W1 (F := Ideal) m ρ c (Proc.devRef .tc main_v3) : S3200000.Idx → BitVec 32) e').toInt < 100000 := by
    intro e'
    obtain ⟨p, rfl⟩ : ∃ p : Fin 3200000, e' = ix1 p := ⟨e' 0, eq_ix1 e'⟩
    exact Eq.mpr (congrArg (fun w : BitVec 32 => 0 ≤ w.toInt ∧ w.toInt < 100000) (dst_W1 m ρ c p)) (hidx (ix2 1 p))
  refine (takeTerm_apply _ _ hw k e).trans ?_
  rw [dst_W1 m ρ c e]
  exact xT_W1 m ρ c k _

/-- The features of each edge's source node, channel-major, at the region's entry. -/
theorem xs_at (c : Dev nD)
    (hidx : ∀ i, 0 ≤ ((m ((c : Thread nD τ).loc main_arg1) : S2x3200000.Idx → BitVec 32) i).toInt ∧ ((m ((c : Thread nD τ).loc main_arg1) : S2x3200000.Idx → BitVec 32) i).toInt < 100000)
    (k : Fin 4) (e : Fin 3200000) :
    (W4 (F := Ideal) m ρ c (Proc.devRef .tc main_v14) : S4x3200000.Idx → EReal) (ix2 k e)
      = (m ((c : Thread nD τ).loc main_arg0) : S100000x4.Idx → EReal)
          (ix2 (Cert.Spec.nodeOf ((m ((c : Thread nD τ).loc main_arg1) : S2x3200000.Idx → BitVec 32) (ix2 0 e))) k) := by
  have h43 : W4 (F := Ideal) m ρ c (Proc.devRef .tc main_v14) = W3 (F := Ideal) m ρ c (Proc.devRef .tc main_v14) := by
    keep_stretch hostOps0_3
  have hv1 : W2 (F := Ideal) m ρ c (Proc.devRef .tc main_v1) = W1 (F := Ideal) m ρ c (Proc.devRef .tc main_v1) := by
    keep_stretch hostOps0_1
  have hv12 : W2 (F := Ideal) m ρ c (Proc.devRef .tc main_v12) = W1 (F := Ideal) m ρ c (Proc.devRef .tc main_v12) := by
    keep_stretch hostOps0_1
  rw [h43]
  refine (congrFun (after02_v14 (W2 (F := Ideal) m ρ c)) (ix2 k e)).trans ?_
  rw [hv1, hv12]
  have hw : ∀ e' : S3200000.Idx, 0 ≤ ((W1 (F := Ideal) m ρ c (Proc.devRef .tc main_v1) : S3200000.Idx → BitVec 32) e').toInt
      ∧ ((W1 (F := Ideal) m ρ c (Proc.devRef .tc main_v1) : S3200000.Idx → BitVec 32) e').toInt < 100000 := by
    intro e'
    obtain ⟨p, rfl⟩ : ∃ p : Fin 3200000, e' = ix1 p := ⟨e' 0, eq_ix1 e'⟩
    exact Eq.mpr (congrArg (fun w : BitVec 32 => 0 ≤ w.toInt ∧ w.toInt < 100000) (src_W1 m ρ c p)) (hidx (ix2 0 p))
  refine (takeTerm_apply _ _ hw k e).trans ?_
  rw [src_W1 m ρ c e]
  exact xT_W1 m ρ c k _

/-- The normalised edge features, one column per edge, at the region's entry. -/
theorem eT_at (c : Dev nD) (k : Fin 3) (e : Fin 3200000) :
    (W4 (F := Ideal) m ρ c (Proc.devRef .tc main_v11) : S3x3200000.Idx → EReal) (ix2 k e)
      = Cert.Spec.enorm (m ((c : Thread nD τ).loc main_arg2)) (ix2 e k) := by
  have h43 : W4 (F := Ideal) m ρ c (Proc.devRef .tc main_v11) = W3 (F := Ideal) m ρ c (Proc.devRef .tc main_v11) := by
    keep_stretch hostOps0_3
  have h32 : W3 (F := Ideal) m ρ c (Proc.devRef .tc main_v11) = W2 (F := Ideal) m ρ c (Proc.devRef .tc main_v11) := by
    keep_stretch hostOps0_2
  have h21 : W2 (F := Ideal) m ρ c (Proc.devRef .tc main_v11) = W1 (F := Ideal) m ρ c (Proc.devRef .tc main_v11) := by
    keep_stretch hostOps0_1
  rw [h43, h32, h21]
  exact (st0_v11 (W0 (F := Ideal) m ρ c) k e).trans rfl

end Boundary

/-! ## One layer

Entry `(k, n)` of the table after the scatter-add is zero plus the sum, over the edges whose target word is `n`, of
row `k` of the call's output at that edge; the output is the perceptron of the nine input arrays; each input array
read at an index is the corresponding entry of the node features, the normalised edge features, the weights and the
biases; so the sum is the layer's. -/

theorem layer0 (m : (ℓ : Loc nD τ sig) → Buf (Elt Ideal) ℓ) (ρ : Dev nD → PrngReg) (c : Dev nD)
    (hidx : ∀ i, 0 ≤ ((m ((c : Thread nD τ).loc main_arg1) : S2x3200000.Idx → BitVec 32) i).toInt ∧ ((m ((c : Thread nD τ).loc main_arg1) : S2x3200000.Idx → BitVec 32) i).toInt < 100000)
    (hr : ∀ (V : (c : Dev nD) → (b : Ref sig .tc) → Buf (Elt Ideal) ((c : Thread nD τ).loc b)) (c : Dev nD), ((Gen.dat0 (F := Ideal) V c).arrAt 9 cfg0.N : S8x3200000.Idx → EReal) = Cert.Spec.mlpT (C := 4) (M := 4) (O := 8) (T := 3200000) (V c main_v13) (V c main_v14) (V c main_v11) (V c main_v16) (V c main_v18) (V c main_v20) (V c main_v21) (V c main_v22) (V c main_v23)) :
    ∀ (k : Fin 8) (n : Fin 100000), (Gen.W9 (F := Ideal) m ρ c (Proc.devRef .tc main_v32) : S8x100000.Idx → EReal) (ix2 k n)
      = Cert.Spec.layer (C := 4) (M := 4) (O := 8) (K := 11) rfl (m ((c : Thread nD τ).loc main_arg0)) (Cert.Spec.enorm (m ((c : Thread nD τ).loc main_arg2))) (m ((c : Thread nD τ).loc main_arg1)) (m ((c : Thread nD τ).loc main_arg3)) (m ((c : Thread nD τ).loc main_arg4)) (m ((c : Thread nD τ).loc main_arg5)) (m ((c : Thread nD τ).loc main_arg6)) (ix2 n k) := by
  intro k n
  refine (Cert.KernelIdeal.KLayer0X.scatter_at m ρ c hidx _ (hr (Gen.V4 (F := Ideal) m ρ) c) k n).trans ?_
  exact Cert.SpecGlue.layer_of_sum (C := 4) (M := 4) (O := 8) (K := 11) rfl
    (m ((c : Thread nD τ).loc main_arg0)) (Cert.Spec.enorm (m ((c : Thread nD τ).loc main_arg2))) (m ((c : Thread nD τ).loc main_arg1))
    (m ((c : Thread nD τ).loc main_arg3)) (m ((c : Thread nD τ).loc main_arg4)) (m ((c : Thread nD τ).loc main_arg5)) (m ((c : Thread nD τ).loc main_arg6))
    (Gen.V4 (F := Ideal) m ρ c main_v13) (Gen.V4 (F := Ideal) m ρ c main_v14) (Gen.V4 (F := Ideal) m ρ c main_v11)
    (Gen.V4 (F := Ideal) m ρ c main_v16) (Gen.V4 (F := Ideal) m ρ c main_v18) (Gen.V4 (F := Ideal) m ρ c main_v20)
    (Gen.V4 (F := Ideal) m ρ c main_v21) (Gen.V4 (F := Ideal) m ρ c main_v22) (Gen.V4 (F := Ideal) m ρ c main_v23)
    (xd_at m ρ c hidx) (xs_at m ρ c hidx) (eT_at m ρ c)
    (Cert.KernelIdeal.KLayer0W.wd_at m ρ c) (Cert.KernelIdeal.KLayer0W.ws_at m ρ c) (Cert.KernelIdeal.KLayer0W.we_at m ρ c)
    (Cert.KernelIdeal.KLayer0W.b1_at m ρ c) (Cert.KernelIdeal.KLayer0W.w2_at m ρ c) (Cert.KernelIdeal.KLayer0W.b2_at m ρ c) n k

end Cert.KernelIdeal.KLayer0
-- ==== Proof.KLayer1.lean ====
import proofs.«409580_j89481348645420_1_alg».proof.Proof.Gen.KernelIdeal.Frame
import proofs.«409580_j89481348645420_1_alg».proof.Proof.Spec
import proofs.«409580_j89481348645420_1_alg».proof.Proof.LibScatterGatherCols
import proofs.«409580_j89481348645420_1_alg».proof.Proof.LibTakeCols
import proofs.«409580_j89481348645420_1_alg».proof.Proof.SpecGlue
import Idealize.ShloMosaic.Lib.ValueLayout
import Idealize.ShloMosaic.Lib.IdealHost
import Idealize.ShloMosaic.Lib.StableHlo.Predicate

/-!
# One message-passing layer of the kernel program, read index by index (the layer of widths 8 → (8) → 8)

Between the scatter-add that ends the first layer and the scatter-add that ends this one the program does, in
order: two takes of node-feature columns (by the target-node word and by the source-node word of every edge),
the cutting and transposing of the layer's weights, the edge perceptron over blocks of edges, and the scatter-add
of the perceptron's output columns into the target nodes.

This module reads each array the perceptron is given at an index — the gathered features of an edge's two end
nodes, the transposed normalised edge features, the three transposed row blocks of the first weight matrix, the
transposed second weight matrix and the two biases as columns — and then the scatter-add at an index. Given that
the perceptron's output array is the specification's two-layer perceptron of those nine arrays, and that the node
features before the layer are `X` transposed, the node features after the layer are the specification's layer
applied to `X`, transposed.

All index words are assumed to be node numbers (`0 ≤ w < 100000`): then the wrap of negative words is the
identity, the take's range mask is true everywhere, and the clamped column read is the node the word names.
-/

set_option maxRecDepth 16384

noncomputable section

namespace Cert.KernelIdeal.KLayer1

open Idealize.ShloMosaic Idealize.ShloMosaic.TcCoe Idealize.ShloMosaic.ValueIdx
open Cert.KernelIdeal Cert.KernelIdeal.Gen
open scoped BigOperators

variable (m : (ℓ : Loc nD τ sig) → Buf (Elt Ideal) ℓ) (ρ : Dev nD → PrngReg)

/-- A buffer that no operation of a stretch writes holds after the stretch what it held before. -/
macro "keep_stretch " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The weight matrices and biases of layer 1 as region 1 finds them

The stretch before region 1 cuts the first weight matrix (19 rows: 8 for the features of the target node, 8 for
those of the source node, 3 for the edge features) into its three row blocks and transposes each, transposes the
second weight matrix, and writes each bias as a column. -/

theorem after13_v36 (V : Valuation τ sig (Elt Ideal)) :
    (StableHlo.after (hostOps1_3 (F := Ideal)) V (Proc.devRef .tc main_v36) : S8x8.Idx → EReal)
      = transpose S8x8 [1, 0] (extractStridedSlice S8x8 ![0, 0] (V (Proc.devRef .tc main_arg7) : S19x8.Idx → EReal) slices_S19x8_S8x8_0_0) transposes_S8x8_S8x8_1_0 := by
  after_results

theorem after13_v38 (V : Valuation τ sig (Elt Ideal)) :
    (StableHlo.after (hostOps1_3 (F := Ideal)) V (Proc.devRef .tc main_v38) : S8x8.Idx → EReal)
      = transpose S8x8 [1, 0] (extractStridedSlice S8x8 ![8, 0] (V (Proc.devRef .tc main_arg7) : S19x8.Idx → EReal) slices_S19x8_S8x8_8_0) transposes_S8x8_S8x8_1_0 := by
  after_results

theorem after13_v40 (V : Valuation τ sig (Elt Ideal)) :
    (StableHlo.after (hostOps1_3 (F := Ideal)) V (Proc.devRef .tc main_v40) : S8x3.Idx → EReal)
      = transpose S8x3 [1, 0] (extractStridedSlice S3x8 ![16, 0] (V (Proc.devRef .tc main_arg7) : S19x8.Idx → EReal) slices_S19x8_S3x8_16_0) transposes_S3x8_S8x3_1_0 := by
  after_results

theorem after13_v41 (V : Valuation τ sig (Elt Ideal)) :
    (StableHlo.after (hostOps1_3 (F := Ideal)) V (Proc.devRef .tc main_v41) : S8x1.Idx → EReal)
      = shapeCast S8x1 (V (Proc.devRef .tc main_arg8) : S8.Idx → EReal) shapeCasts_S8_S8x1 := by
  after_results
  rfl

theorem after13_v42 (V : Valuation τ sig (Elt Ideal)) :
    (StableHlo.after (hostOps1_3 (F := Ideal)) V (Proc.devRef .tc main_v42) : S8x8.Idx → EReal)
      = transpose S8x8 [1, 0] (V (Proc.devRef .tc main_arg9) : S8x8.Idx → EReal) transposes_S8x8_S8x8_1_0 := by
  after_results

theorem after13_v43 (V : Valuation τ sig (Elt Ideal)) :
    (StableHlo.after (hostOps1_3 (F := Ideal)) V (Proc.devRef .tc main_v43) : S8x1.Idx → EReal)
      = shapeCast S8x1 (V (Proc.devRef .tc main_arg10) : S8.Idx → EReal) shapeCasts_S8_S8x1 := by
  after_results
  rfl

/-- A vector written as a column reads, at row `j`, the vector's entry `j`. -/
theorem column_apply (v : S8.Idx → EReal) (j : Fin 8) : shapeCast S8x1 v shapeCasts_S8_S8x1 (ix2 j 0) = v (ix1 j) :=
  shapeCast_apply (s := S8) (t := S8x1) _ _ (ix2 j 0) (ix1 j) (by
    rw [Shape.rowMajor_val_two, Shape.rowMajor_val_one]; show j.val = j.val * 1 + 0; omega)

theorem W8_arg7 (c : Dev nD) :
    W8 (F := Ideal) m ρ c (Proc.devRef .tc main_arg7) = W0 (F := Ideal) m ρ c (Proc.devRef .tc main_arg7) :=
  calc W8 (F := Ideal) m ρ c (Proc.devRef .tc main_arg7)
    _ = W7 (F := Ideal) m ρ c (Proc.devRef .tc main_arg7) := by keep_stretch hostOps1_2
    _ = W6 (F := Ideal) m ρ c (Proc.devRef .tc main_arg7) := by keep_stretch hostOps1_1
    _ = W5 (F := Ideal) m ρ c (Proc.devRef .tc main_arg7) := by keep_stretch hostOps1
    _ = W4 (F := Ideal) m ρ c (Proc.devRef .tc main_arg7) := W5_of_ne m ρ c main_arg7 (by decide)
    _ = W3 (F := Ideal) m ρ c (Proc.devRef .tc main_arg7) := by keep_stretch hostOps0_3
    _ = W2 (F := Ideal) m ρ c (Proc.devRef .tc main_arg7) := by keep_stretch hostOps0_2
    _ = W1 (F := Ideal) m ρ c (Proc.devRef .tc main_arg7) := by keep_stretch hostOps0_1
    _ = W0 (F := Ideal) m ρ c (Proc.devRef .tc main_arg7) := by keep_stretch hostOps0

theorem W8_arg8 (c : Dev nD) :
    W8 (F := Ideal) m ρ c (Proc.devRef .tc main_arg8) = W0 (F := Ideal) m ρ c (Proc.devRef .tc main_arg8) :=
  calc W8 (F := Ideal) m ρ c (Proc.devRef .tc main_arg8)
    _ = W7 (F := Ideal) m ρ c (Proc.devRef .tc main_arg8) := by keep_stretch hostOps1_2
    _ = W6 (F := Ideal) m ρ c (Proc.devRef .tc main_arg8) := by keep_stretch hostOps1_1
    _ = W5 (F := Ideal) m ρ c (Proc.devRef .tc main_arg8) := by keep_stretch hostOps1
    _ = W4 (F := Ideal) m ρ c (Proc.devRef .tc main_arg8) := W5_of_ne m ρ c main_arg8 (by decide)
    _ = W3 (F := Ideal) m ρ c (Proc.devRef .tc main_arg8) := by keep_stretch hostOps0_3
    _ = W2 (F := Ideal) m ρ c (Proc.devRef .tc main_arg8) := by keep_stretch hostOps0_2
    _ = W1 (F := Ideal) m ρ c (Proc.devRef .tc main_arg8) := by keep_stretch hostOps0_1
    _ = W0 (F := Ideal) m ρ c (Proc.devRef .tc main_arg8) := by keep_stretch hostOps0

theorem W8_arg9 (c : Dev nD) :
    W8 (F := Ideal) m ρ c (Proc.devRef .tc main_arg9) = W0 (F := Ideal) m ρ c (Proc.devRef .tc main_arg9) :=
  calc W8 (F := Ideal) m ρ c (Proc.devRef .tc main_arg9)
    _ = W7 (F := Ideal) m ρ c (Proc.devRef .tc main_arg9) := by keep_stretch hostOps1_2
    _ = W6 (F := Ideal) m ρ c (Proc.devRef .tc main_arg9) := by keep_stretch hostOps1_1
    _ = W5 (F := Ideal) m ρ c (Proc.devRef .tc main_arg9) := by keep_stretch hostOps1
    _ = W4 (F := Ideal) m ρ c (Proc.devRef .tc main_arg9) := W5_of_ne m ρ c main_arg9 (by decide)
    _ = W3 (F := Ideal) m ρ c (Proc.devRef .tc main_arg9) := by keep_stretch hostOps0_3
    _ = W2 (F := Ideal) m ρ c (Proc.devRef .tc main_arg9) := by keep_stretch hostOps0_2
    _ = W1 (F := Ideal) m ρ c (Proc.devRef .tc main_arg9) := by keep_stretch hostOps0_1
    _ = W0 (F := Ideal) m ρ c (Proc.devRef .tc main_arg9) := by keep_stretch hostOps0

theorem W8_arg10 (c : Dev nD) :
    W8 (F := Ideal) m ρ c (Proc.devRef .tc main_arg10) = W0 (F := Ideal) m ρ c (Proc.devRef .tc main_arg10) :=
  calc W8 (F := Ideal) m ρ c (Proc.devRef .tc main_arg10)
    _ = W7 (F := Ideal) m ρ c (Proc.devRef .tc main_arg10) := by keep_stretch hostOps1_2
    _ = W6 (F := Ideal) m ρ c (Proc.devRef .tc main_arg10) := by keep_stretch hostOps1_1
    _ = W5 (F := Ideal) m ρ c (Proc.devRef .tc main_arg10) := by keep_stretch hostOps1
    _ = W4 (F := Ideal) m ρ c (Proc.devRef .tc main_arg10) := W5_of_ne m ρ c main_arg10 (by decide)
    _ = W3 (F := Ideal) m ρ c (Proc.devRef .tc main_arg10) := by keep_stretch hostOps0_3
    _ = W2 (F := Ideal) m ρ c (Proc.devRef .tc main_arg10) := by keep_stretch hostOps0_2
    _ = W1 (F := Ideal) m ρ c (Proc.devRef .tc main_arg10) := by keep_stretch hostOps0_1
    _ = W0 (F := Ideal) m ρ c (Proc.devRef .tc main_arg10) := by keep_stretch hostOps0

/-- The block of the first weight matrix that multiplies the target node's features, transposed. -/
theorem wd_read (c : Dev nD) (j k : Fin 8) :
    (W9 (F := Ideal) m ρ c (Proc.devRef .tc main_v36) : S8x8.Idx → EReal) (ix2 j k)
      = (m ((c : Thread nD τ).loc main_arg7) : S19x8.Idx → EReal) (ix2 ⟨k.val, by omega⟩ j) := by
  refine (congrFun (after13_v36 (W8 (F := Ideal) m ρ c)) (ix2 j k)).trans ?_
  rw [W8_arg7]
  refine (transpose_ix2_apply _ _ j k).trans ?_
  exact slice2_axis0_apply 0 _ _ k j ⟨k.val, by omega⟩ (by show k.val = 0 + k.val; omega)

/-- The block that multiplies the source node's features, transposed. -/
theorem ws_read (c : Dev nD) (j k : Fin 8) :
    (W9 (F := Ideal) m ρ c (Proc.devRef .tc main_v38) : S8x8.Idx → EReal) (ix2 j k)
      = (m ((c : Thread nD τ).loc main_arg7) : S19x8.Idx → EReal) (ix2 ⟨8 + k.val, by omega⟩ j) := by
  refine (congrFun (after13_v38 (W8 (F := Ideal) m ρ c)) (ix2 j k)).trans ?_
  rw [W8_arg7]
  refine (transpose_ix2_apply _ _ j k).trans ?_
  exact slice2_axis0_apply 8 _ _ k j ⟨8 + k.val, by omega⟩ rfl

/-- The block that multiplies the edge features, transposed. -/
theorem we_read (c : Dev nD) (j : Fin 8) (k : Fin 3) :
    (W9 (F := Ideal) m ρ c (Proc.devRef .tc main_v40) : S8x3.Idx → EReal) (ix2 j k)
      = (m ((c : Thread nD τ).loc main_arg7) : S19x8.Idx → EReal) (ix2 ⟨8 + 8 + k.val, by omega⟩ j) := by
  refine (congrFun (after13_v40 (W8 (F := Ideal) m ρ c)) (ix2 j k)).trans ?_
  rw [W8_arg7]
  refine (transpose_ix2_apply _ _ j k).trans ?_
  exact slice2_axis0_apply 16 _ _ k j ⟨8 + 8 + k.val, by omega⟩ rfl

/-- The first bias as a column. -/
theorem b1_read (c : Dev nD) (j : Fin 8) :
    (W9 (F := Ideal) m ρ c (Proc.devRef .tc main_v41) : S8x1.Idx → EReal) (ix2 j 0)
      = (m ((c : Thread nD τ).loc main_arg8) : S8.Idx → EReal) (ix1 j) := by
  refine (congrFun (after13_v41 (W8 (F := Ideal) m ρ c)) (ix2 j 0)).trans ?_
  rw [W8_arg8]
  exact column_apply _ j

/-- The second weight matrix, transposed. -/
theorem w2_read (c : Dev nD) (o j : Fin 8) :
    (W9 (F := Ideal) m ρ c (Proc.devRef .tc main_v42) : S8x8.Idx → EReal) (ix2 o j)
      = (m ((c : Thread nD τ).loc main_arg9) : S8x8.Idx → EReal) (ix2 j o) := by
  refine (congrFun (after13_v42 (W8 (F := Ideal) m ρ c)) (ix2 o j)).trans ?_
  rw [W8_arg9]
  exact transpose_ix2_apply _ _ o j

/-- The second bias as a column. -/
theorem b2_read (c : Dev nD) (o : Fin 8) :
    (W9 (F := Ideal) m ρ c (Proc.devRef .tc main_v43) : S8x1.Idx → EReal) (ix2 o 0)
      = (m ((c : Thread nD τ).loc main_arg10) : S8.Idx → EReal) (ix1 o) := by
  refine (congrFun (after13_v43 (W8 (F := Ideal) m ρ c)) (ix2 o 0)).trans ?_
  rw [W8_arg10]
  exact column_apply _ o

/-! ## The normalised edge features, transposed

The first stretch of the program divides each edge's three numbers by the sum of their squares plus the
regulariser and transposes the result, so that column `e` holds edge `e`'s three normalised features. -/

/-- The host's term for the transposed normalised edge features, as a function of the edge-feature array. -/
def enormT (E : FVec Ideal S3200000x3 .f32) : FVec Ideal S3x3200000 .f32 :=
  transpose S3x3200000 [1, 0]
    (Host.divf (F := Ideal) E
      (broadcastInDim S3200000x3 ![0, 1] bcast_S3200000x1_S3200000x3_0_1
        (addf
          (broadcastInDim S3200000x1 ![0] bcast_S3200000_S3200000x1_0
            (Host.reduceAdd (F := Ideal) (mulf E E) (constant (F := Ideal) S_ .f32 0x00000000#32)
              reducesTo_S3200000x3_S3200000_d1 h_S_))
          (broadcastInDim S3200000x1 ![] bcast_S_S3200000x1 (constant (F := Ideal) S_ .f32 0x322BCC77#32)))))
    transposes_S3200000x3_S3x3200000_1_0

theorem after0_v11 (V : Valuation τ sig (Elt Ideal)) :
    (StableHlo.after (hostOps0 (F := Ideal)) V (Proc.devRef .tc main_v11) : S3x3200000.Idx → EReal)
      = enormT (V (Proc.devRef .tc main_arg2) : S3200000x3.Idx → EReal) := by
  after_results
  rfl

/-- The sum of squares of one edge's three features, as the host's reduction along the second axis states it. -/
theorem sumsq_apply (E : FVec Ideal S3200000x3 .f32) (e : Fin 3200000) :
    Host.reduceAdd (F := Ideal) (mulf E E) (constant (F := Ideal) S_ .f32 0x00000000#32)
        reducesTo_S3200000x3_S3200000_d1 h_S_ (ix1 e)
      = Cert.Spec.zero32 + ∑ k : Fin 3, E (ix2 e k) * E (ix2 e k) := by
  rw [hostReduceAdd_apply, Ideal.hostReduceAdd_single reducesTo_S3200000x3_S3200000_d1 (by decide)]
  refine congrArg₂ (· + ·) rfl (Finset.sum_congr rfl fun k _ => ?_)
  have hk : (Shape.Reduces.lift (by decide : S3200000x3.Reduces [1] S3200000) (ix1 e) k : S3200000x3.Idx) = ix2 e k :=
    funext fun a => Fin.ext (by match a with | ⟨0, _⟩ => rfl | ⟨1, _⟩ => rfl)
  rw [mulf_apply, hk]
  rfl

/-- Column `e`, row `k` of the transposed array is feature `k` of edge `e`, normalised. -/
theorem enormT_apply (E : FVec Ideal S3200000x3 .f32) (k : Fin 3) (e : Fin 3200000) :
    enormT E (ix2 k e) = Cert.Spec.enorm E (ix2 e k) := by
  unfold enormT
  refine (transpose_ix2_apply _ _ k e).trans ?_
  rw [hostDivf_apply]
  show Ideal.div (E (ix2 e k)) _ = Ideal.div (E (ix2 e k)) _
  refine congrArg (Ideal.div (E (ix2 e k))) ?_
  refine (broadcastInDim_apply _ _ _ (ix2 e k) (ix2 e 0) (fun a => by
    match a with | ⟨0, _⟩ => rfl | ⟨1, _⟩ => rfl)).trans ?_
  rw [addf_apply]
  refine congrArg₂ (· + ·) ?_ ?_
  · refine (broadcastInDim_apply _ _ _ (ix2 e 0) (ix1 e) (fun a => by
      match a with | ⟨0, _⟩ => rfl)).trans ?_
    exact sumsq_apply E e
  · exact broadcastInDim_scalar_apply _ _ _

/-! ## Buffers that a run of stretches and regions leaves as they were -/

/-- Region 0 reads the transposed edge features through an input window and writes nothing there. -/
theorem W5_v11 (c : Dev nD) :
    W5 (F := Ideal) m ρ c (Proc.devRef .tc main_v11) = W4 (F := Ideal) m ρ c (Proc.devRef .tc main_v11) :=
  (W5_arr m ρ c 2).trans (((dat0 (V4 (F := Ideal) m ρ) c).arrAt_in 2 rfl cfg0.N).trans (A_eq0 (V4 (F := Ideal) m ρ) c 2))

theorem W9_v11 (c : Dev nD) :
    W9 (F := Ideal) m ρ c (Proc.devRef .tc main_v11) = W1 (F := Ideal) m ρ c (Proc.devRef .tc main_v11) :=
  calc W9 (F := Ideal) m ρ c (Proc.devRef .tc main_v11)
    _ = W8 (F := Ideal) m ρ c (Proc.devRef .tc main_v11) := by keep_stretch hostOps1_3
    _ = W7 (F := Ideal) m ρ c (Proc.devRef .tc main_v11) := by keep_stretch hostOps1_2
    _ = W6 (F := Ideal) m ρ c (Proc.devRef .tc main_v11) := by keep_stretch hostOps1_1
    _ = W5 (F := Ideal) m ρ c (Proc.devRef .tc main_v11) := by keep_stretch hostOps1
    _ = W4 (F := Ideal) m ρ c (Proc.devRef .tc main_v11) := W5_v11 m ρ c
    _ = W3 (F := Ideal) m ρ c (Proc.devRef .tc main_v11) := by keep_stretch hostOps0_3
    _ = W2 (F := Ideal) m ρ c (Proc.devRef .tc main_v11) := by keep_stretch hostOps0_2
    _ = W1 (F := Ideal) m ρ c (Proc.devRef .tc main_v11) := by keep_stretch hostOps0_1

theorem W6_v3 (c : Dev nD) :
    W6 (F := Ideal) m ρ c (Proc.devRef .tc main_v3) = W1 (F := Ideal) m ρ c (Proc.devRef .tc main_v3) :=
  calc W6 (F := Ideal) m ρ c (Proc.devRef .tc main_v3)
    _ = W5 (F := Ideal) m ρ c (Proc.devRef .tc main_v3) := by keep_stretch hostOps1
    _ = W4 (F := Ideal) m ρ c (Proc.devRef .tc main_v3) := W5_of_ne m ρ c main_v3 (by decide)
    _ = W3 (F := Ideal) m ρ c (Proc.devRef .tc main_v3) := by keep_stretch hostOps0_3
    _ = W2 (F := Ideal) m ρ c (Proc.devRef .tc main_v3) := by keep_stretch hostOps0_2
    _ = W1 (F := Ideal) m ρ c (Proc.devRef .tc main_v3) := by keep_stretch hostOps0_1

theorem W7_v1 (c : Dev nD) :
    W7 (F := Ideal) m ρ c (Proc.devRef .tc main_v1) = W1 (F := Ideal) m ρ c (Proc.devRef .tc main_v1) :=
  calc W7 (F := Ideal) m ρ c (Proc.devRef .tc main_v1)
    _ = W6 (F := Ideal) m ρ c (Proc.devRef .tc main_v1) := by keep_stretch hostOps1_1
    _ = W5 (F := Ideal) m ρ c (Proc.devRef .tc main_v1) := by keep_stretch hostOps1
    _ = W4 (F := Ideal) m ρ c (Proc.devRef .tc main_v1) := W5_of_ne m ρ c main_v1 (by decide)
    _ = W3 (F := Ideal) m ρ c (Proc.devRef .tc main_v1) := by keep_stretch hostOps0_3
    _ = W2 (F := Ideal) m ρ c (Proc.devRef .tc main_v1) := by keep_stretch hostOps0_2
    _ = W1 (F := Ideal) m ρ c (Proc.devRef .tc main_v1) := by keep_stretch hostOps0_1

theorem W10_v3 (c : Dev nD) :
    W10 (F := Ideal) m ρ c (Proc.devRef .tc main_v3) = W6 (F := Ideal) m ρ c (Proc.devRef .tc main_v3) :=
  calc W10 (F := Ideal) m ρ c (Proc.devRef .tc main_v3)
    _ = W9 (F := Ideal) m ρ c (Proc.devRef .tc main_v3) := W10_of_ne m ρ c main_v3 (by decide)
    _ = W8 (F := Ideal) m ρ c (Proc.devRef .tc main_v3) := by keep_stretch hostOps1_3
    _ = W7 (F := Ideal) m ρ c (Proc.devRef .tc main_v3) := by keep_stretch hostOps1_2
    _ = W6 (F := Ideal) m ρ c (Proc.devRef .tc main_v3) := by keep_stretch hostOps1_1

theorem W9_v32_6 (c : Dev nD) :
    W9 (F := Ideal) m ρ c (Proc.devRef .tc main_v32) = W6 (F := Ideal) m ρ c (Proc.devRef .tc main_v32) :=
  calc W9 (F := Ideal) m ρ c (Proc.devRef .tc main_v32)
    _ = W8 (F := Ideal) m ρ c (Proc.devRef .tc main_v32) := by keep_stretch hostOps1_3
    _ = W7 (F := Ideal) m ρ c (Proc.devRef .tc main_v32) := by keep_stretch hostOps1_2
    _ = W6 (F := Ideal) m ρ c (Proc.devRef .tc main_v32) := by keep_stretch hostOps1_1

theorem W9_v32_7 (c : Dev nD) :
    W9 (F := Ideal) m ρ c (Proc.devRef .tc main_v32) = W7 (F := Ideal) m ρ c (Proc.devRef .tc main_v32) :=
  calc W9 (F := Ideal) m ρ c (Proc.devRef .tc main_v32)
    _ = W8 (F := Ideal) m ρ c (Proc.devRef .tc main_v32) := by keep_stretch hostOps1_3
    _ = W7 (F := Ideal) m ρ c (Proc.devRef .tc main_v32) := by keep_stretch hostOps1_2

theorem W9_v33 (c : Dev nD) :
    W9 (F := Ideal) m ρ c (Proc.devRef .tc main_v33) = W7 (F := Ideal) m ρ c (Proc.devRef .tc main_v33) :=
  calc W9 (F := Ideal) m ρ c (Proc.devRef .tc main_v33)
    _ = W8 (F := Ideal) m ρ c (Proc.devRef .tc main_v33) := by keep_stretch hostOps1_3
    _ = W7 (F := Ideal) m ρ c (Proc.devRef .tc main_v33) := by keep_stretch hostOps1_2

theorem W9_v34 (c : Dev nD) :
    W9 (F := Ideal) m ρ c (Proc.devRef .tc main_v34) = W8 (F := Ideal) m ρ c (Proc.devRef .tc main_v34) :=
  calc W9 (F := Ideal) m ρ c (Proc.devRef .tc main_v34)
    _ = W8 (F := Ideal) m ρ c (Proc.devRef .tc main_v34) := by keep_stretch hostOps1_3

theorem W14_v52 (c : Dev nD) :
    W14 (F := Ideal) m ρ c (Proc.devRef .tc main_v52) = W11 (F := Ideal) m ρ c (Proc.devRef .tc main_v52) :=
  calc W14 (F := Ideal) m ρ c (Proc.devRef .tc main_v52)
    _ = W13 (F := Ideal) m ρ c (Proc.devRef .tc main_v52) := by keep_stretch hostOps2_3
    _ = W12 (F := Ideal) m ρ c (Proc.devRef .tc main_v52) := by keep_stretch hostOps2_2
    _ = W11 (F := Ideal) m ρ c (Proc.devRef .tc main_v52) := by keep_stretch hostOps2_1

/-- The transposed edge features as region 1 finds them. -/
theorem eT_read (c : Dev nD) (k : Fin 3) (e : Fin 3200000) :
    (W9 (F := Ideal) m ρ c (Proc.devRef .tc main_v11) : S3x3200000.Idx → EReal) (ix2 k e)
      = Cert.Spec.enorm (m ((c : Thread nD τ).loc main_arg2)) (ix2 e k) := by
  rw [W9_v11]
  refine (congrFun (after0_v11 (W0 (F := Ideal) m ρ c)) (ix2 k e)).trans ?_
  exact enormT_apply _ k e

/-! ## The two rows of the edge index array -/

theorem after0_v3 (V : Valuation τ sig (Elt Ideal)) :
    (StableHlo.after (hostOps0 (F := Ideal)) V (Proc.devRef .tc main_v3) : S3200000.Idx → BitVec 32)
      = shapeCast S3200000 (extractStridedSlice S1x3200000 ![1, 0] (V (Proc.devRef .tc main_arg1) : S2x3200000.Idx → BitVec 32) slices_S2x3200000_S1x3200000_1_0) shapeCasts_S1x3200000_S3200000 := by
  after_results
  rfl

theorem after0_v1 (V : Valuation τ sig (Elt Ideal)) :
    (StableHlo.after (hostOps0 (F := Ideal)) V (Proc.devRef .tc main_v1) : S3200000.Idx → BitVec 32)
      = shapeCast S3200000 (extractStridedSlice S1x3200000 ![0, 0] (V (Proc.devRef .tc main_arg1) : S2x3200000.Idx → BitVec 32) slices_S2x3200000_S1x3200000_0_0) shapeCasts_S1x3200000_S3200000 := by
  after_results
  rfl

/-- A row of the index array, cut out and flattened, reads at `e` the array's entry `(r, e)`. -/
theorem row_apply (ei : S2x3200000.Idx → BitVec 32) (r : Fin 2) (h : S2x3200000.Slices ![r.val, 0] S1x3200000) (e : Fin 3200000) :
    shapeCast S3200000 (extractStridedSlice S1x3200000 ![r.val, 0] ei h) shapeCasts_S1x3200000_S3200000 (ix1 e) = ei (ix2 r e) := by
  refine (shapeCast_apply (s := S1x3200000) (t := S3200000) _ _ (ix1 e) (ix2 0 e) (by
    rw [Shape.rowMajor_val_two, Shape.rowMajor_val_one]; show 0 * 3200000 + e.val = e.val; omega)).trans ?_
  exact slice2_axis0_apply r.val ei h 0 e r (by show r.val = r.val + 0; omega)

/-- The target-node words of the edges, as every later boundary holds them. -/
theorem dst_read (c : Dev nD) (e : Fin 3200000) :
    (W1 (F := Ideal) m ρ c (Proc.devRef .tc main_v3) : S3200000.Idx → BitVec 32) (ix1 e)
      = (m ((c : Thread nD τ).loc main_arg1) : S2x3200000.Idx → BitVec 32) (ix2 1 e) := by
  refine (congrFun (after0_v3 (W0 (F := Ideal) m ρ c)) (ix1 e)).trans ?_
  exact row_apply _ 1 _ e

/-- The source-node words of the edges. -/
theorem src_read (c : Dev nD) (e : Fin 3200000) :
    (W1 (F := Ideal) m ρ c (Proc.devRef .tc main_v1) : S3200000.Idx → BitVec 32) (ix1 e)
      = (m ((c : Thread nD τ).loc main_arg1) : S2x3200000.Idx → BitVec 32) (ix2 0 e) := by
  refine (congrFun (after0_v1 (W0 (F := Ideal) m ρ c)) (ix1 e)).trans ?_
  exact row_apply _ 0 _ e

/-! ## The gathered node features

`jnp.take` along the node axis, as the program states it: negative words are wrapped, the wrapped words
become a column of start indices, the columns they name are gathered, and a column whose word is out of range
is replaced by a fill value. -/

/-- A value stored to a typed reference's buffer and read back is the value. -/
theorem ofBuf_toBuf {T : BufTy} (x : StableHlo.TRef sig T) (v : T.Contents (Elt Ideal)) :
    x.ofBuf (x.toBuf v) = v := by
  unfold StableHlo.TRef.ofBuf StableHlo.TRef.toBuf
  simp

/-- The program's take of the columns of `x` named by the words `w`. -/
def takeTerm (x : FVec Ideal S8x100000 .f32) (w : IVec S3200000 32) : FVec Ideal S8x3200000 .f32 :=
  select
    (broadcastInDim S8x3200000 ![1] bcast_S3200000_S8x3200000_1
      (Host.reduce IntOp.andi
        (andi (cmpi .sge (broadcastInDim S3200000x1 ![0] bcast_S3200000_S3200000x1_0
      (select (cmpi .slt w (broadcastInDim S3200000 ![] bcast_S_S3200000 (constantI S_ 32 0#32)))
        (addi w (broadcastInDim S3200000 ![] bcast_S_S3200000 (constantI S_ 32 100000#32))) w)) (broadcastInDim S3200000x1 ![] bcast_S_S3200000x1 (constantI S_ 32 0#32)))
          (cmpi .sle (broadcastInDim S3200000x1 ![0] bcast_S3200000_S3200000x1_0
      (select (cmpi .slt w (broadcastInDim S3200000 ![] bcast_S_S3200000 (constantI S_ 32 0#32)))
        (addi w (broadcastInDim S3200000 ![] bcast_S_S3200000 (constantI S_ 32 100000#32))) w)) (broadcastInDim S3200000x1 ![0, 1] bcast_S1x1_S3200000x1_0_1
            (broadcastInDim S1x1 ![1] bcast_S1_S1x1_1 (constantI S1 32 99999#32)))))
        (constantI S_ 1 1#1) reducesTo_S3200000x1_S3200000_d1 h_S_))
    (Host.gather gather_S8x100000_S3200000x1_S8x3200000_0_1_n_n_1_1_81 x (broadcastInDim S3200000x1 ![0] bcast_S3200000_S3200000x1_0
      (select (cmpi .slt w (broadcastInDim S3200000 ![] bcast_S_S3200000 (constantI S_ 32 0#32)))
        (addi w (broadcastInDim S3200000 ![] bcast_S_S3200000 (constantI S_ 32 100000#32))) w)))
    (broadcastInDim S8x3200000 ![] bcast_S_S8x3200000 (constant (F := Ideal) S_ .f32 0x7FC00000#32))

theorem ofBuf_v3 (v : (Proc.devRef (τ := τ) .tc main_v3).ty.Contents (Elt Ideal)) :
    (StableHlo.TRef.of main_v3 : StableHlo.TRef sig ⟨S3200000, .i32⟩).ofBuf v = v := rfl
theorem ofBuf_v1 (v : (Proc.devRef (τ := τ) .tc main_v1).ty.Contents (Elt Ideal)) :
    (StableHlo.TRef.of main_v1 : StableHlo.TRef sig ⟨S3200000, .i32⟩).ofBuf v = v := rfl
theorem ofBuf_v32 (v : (Proc.devRef (τ := τ) .tc main_v32).ty.Contents (Elt Ideal)) :
    (StableHlo.TRef.of main_v32 : StableHlo.TRef sig ⟨S8x100000, .f32⟩).ofBuf v = v := rfl
theorem toBuf_v33 (v : (⟨S8x3200000, .f32⟩ : BufTy).Contents (Elt Ideal)) :
    (StableHlo.TRef.of main_v33 : StableHlo.TRef sig ⟨S8x3200000, .f32⟩).toBuf v = v := rfl
theorem toBuf_v34 (v : (⟨S8x3200000, .f32⟩ : BufTy).Contents (Elt Ideal)) :
    (StableHlo.TRef.of main_v34 : StableHlo.TRef sig ⟨S8x3200000, .f32⟩).toBuf v = v := rfl

theorem after11_v33 (V : Valuation τ sig (Elt Ideal)) :
    (StableHlo.after (hostOps1_1 (F := Ideal)) V (Proc.devRef .tc main_v33) : S8x3200000.Idx → EReal)
      = takeTerm (V (Proc.devRef .tc main_v32) : S8x100000.Idx → EReal) (V (Proc.devRef .tc main_v3) : S3200000.Idx → BitVec 32) := by
  after_results_simp
  simp only [ofBuf_toBuf, ofBuf_v3, ofBuf_v1, ofBuf_v32, toBuf_v33, toBuf_v34]
  rfl

theorem after12_v34 (V : Valuation τ sig (Elt Ideal)) :
    (StableHlo.after (hostOps1_2 (F := Ideal)) V (Proc.devRef .tc main_v34) : S8x3200000.Idx → EReal)
      = takeTerm (V (Proc.devRef .tc main_v32) : S8x100000.Idx → EReal) (V (Proc.devRef .tc main_v1) : S3200000.Idx → BitVec 32) := by
  after_results_simp
  simp only [ofBuf_toBuf, ofBuf_v3, ofBuf_v1, ofBuf_v32, toBuf_v33, toBuf_v34]
  rfl

/-- For words that are node numbers the take reads, at row `k` and position `e`, the table's row `k` at the
    column of word `e`. -/
theorem takeTerm_apply (x : FVec Ideal S8x100000 .f32) (w : IVec S3200000 32)
    (hw : ∀ e, 0 ≤ (w e).toInt ∧ (w e).toInt < 100000) (k : Fin 8) (e : Fin 3200000) :
    takeTerm x w (ix2 k e) = x (ix2 k (Cert.Spec.nodeOf (w (ix1 e)))) :=
  Cert.LibTakeCols.take_apply _ _ _ _ _ _ _ _ rfl rfl rfl rfl rfl _ _ x w hw k e

/-! ## The scatter-add of the messages into the target nodes -/

/-- The program's scatter-add of the update columns `u` into a table of zeros, along the wrapped words `w`. -/
def scatterTerm (w : IVec S3200000 32) (u : FVec Ideal S8x3200000 .f32) : FVec Ideal S8x100000 .f32 :=
  Host.scatterAdd (F := Ideal) scatter_S8x100000_S3200000x1_S8x3200000_0_1_1_1
    (broadcastInDim S8x100000 ![] bcast_S_S8x100000 (constant (F := Ideal) S_ .f32 0x00000000#32))
    (broadcastInDim S3200000x1 ![0] bcast_S3200000_S3200000x1_0
      (select (cmpi .slt w (broadcastInDim S3200000 ![] bcast_S_S3200000 (constantI S_ 32 0#32)))
        (addi w (broadcastInDim S3200000 ![] bcast_S_S3200000 (constantI S_ 32 100000#32))) w))
    u

theorem after2_v52 (V : Valuation τ sig (Elt Ideal)) :
    (StableHlo.after (hostOps2 (F := Ideal)) V (Proc.devRef .tc main_v52) : S8x100000.Idx → EReal)
      = scatterTerm (V (Proc.devRef .tc main_v3) : S3200000.Idx → BitVec 32) (V (Proc.devRef .tc main_v44) : S8x3200000.Idx → EReal) := by
  after_results
  rfl

/-- For words that are not negative, node `n`'s row `k` after the scatter-add is zero plus the sum of the update
    columns whose word is `n`. -/
theorem scatterTerm_apply (w : IVec S3200000 32) (hw : ∀ e, 0 ≤ (w e).toInt) (u : FVec Ideal S8x3200000 .f32)
    (k : Fin 8) (n : Fin 100000) :
    scatterTerm w u (ix2 k n)
      = Cert.Spec.zero32 + ∑ e ∈ Finset.univ.filter (fun e : Fin 3200000 => (w (ix1 e)).toInt = (n.val : ℤ)), u (ix2 k e) :=
  Cert.LibTakeCols.scatter_wrap_apply _ _ _ _ rfl rfl rfl rfl w hw u k n

/-! ## The index words where the takes and the scatter read them -/

theorem dst_at6 (c : Dev nD) (e : Fin 3200000) :
    (W6 (F := Ideal) m ρ c (Proc.devRef .tc main_v3) : S3200000.Idx → BitVec 32) (ix1 e)
      = (m ((c : Thread nD τ).loc main_arg1) : S2x3200000.Idx → BitVec 32) (ix2 1 e) := by
  rw [W6_v3]; exact dst_read m ρ c e

theorem dst_at10 (c : Dev nD) (e : Fin 3200000) :
    (W10 (F := Ideal) m ρ c (Proc.devRef .tc main_v3) : S3200000.Idx → BitVec 32) (ix1 e)
      = (m ((c : Thread nD τ).loc main_arg1) : S2x3200000.Idx → BitVec 32) (ix2 1 e) := by
  rw [W10_v3]; exact dst_at6 m ρ c e

theorem src_at7 (c : Dev nD) (e : Fin 3200000) :
    (W7 (F := Ideal) m ρ c (Proc.devRef .tc main_v1) : S3200000.Idx → BitVec 32) (ix1 e)
      = (m ((c : Thread nD τ).loc main_arg1) : S2x3200000.Idx → BitVec 32) (ix2 0 e) := by
  rw [W7_v1]; exact src_read m ρ c e

/-! ## The gathered features of an edge's two end nodes -/

/-- Column `e` of the first gathered array holds the features of edge `e`'s target node. -/
theorem xd_read (c : Dev nD)
    (hidx : ∀ i, 0 ≤ ((m ((c : Thread nD τ).loc main_arg1) : S2x3200000.Idx → BitVec 32) i).toInt
      ∧ ((m ((c : Thread nD τ).loc main_arg1) : S2x3200000.Idx → BitVec 32) i).toInt < 100000)
    (X : (⟨2, ![100000, 8]⟩ : Shape).Idx → EReal)
    (hprev : ∀ (k : Fin 8) (n : Fin 100000),
      (W9 (F := Ideal) m ρ c (Proc.devRef .tc main_v32) : S8x100000.Idx → EReal) (ix2 k n) = X (ix2 n k))
    (k : Fin 8) (e : Fin 3200000) :
    (W9 (F := Ideal) m ρ c (Proc.devRef .tc main_v33) : S8x3200000.Idx → EReal) (ix2 k e)
      = X (ix2 (Cert.Spec.nodeOf ((m ((c : Thread nD τ).loc main_arg1) : S2x3200000.Idx → BitVec 32) (ix2 1 e))) k) := by
  rw [W9_v33]
  refine (congrFun (after11_v33 (W6 (F := Ideal) m ρ c)) (ix2 k e)).trans ?_
  refine (takeTerm_apply _ _ (fun j => by
    obtain ⟨e', rfl⟩ : ∃ e' : Fin 3200000, j = ix1 e' := ⟨j 0, eq_ix1 j⟩
    rw [dst_at6]; exact hidx _) k e).trans ?_
  rw [dst_at6, ← W9_v32_6]
  exact hprev k _

/-- Column `e` of the second gathered array holds the features of edge `e`'s source node. -/
theorem xs_read (c : Dev nD)
    (hidx : ∀ i, 0 ≤ ((m ((c : Thread nD τ).loc main_arg1) : S2x3200000.Idx → BitVec 32) i).toInt
      ∧ ((m ((c : Thread nD τ).loc main_arg1) : S2x3200000.Idx → BitVec 32) i).toInt < 100000)
    (X : (⟨2, ![100000, 8]⟩ : Shape).Idx → EReal)
    (hprev : ∀ (k : Fin 8) (n : Fin 100000),
      (W9 (F := Ideal) m ρ c (Proc.devRef .tc main_v32) : S8x100000.Idx → EReal) (ix2 k n) = X (ix2 n k))
    (k : Fin 8) (e : Fin 3200000) :
    (W9 (F := Ideal) m ρ c (Proc.devRef .tc main_v34) : S8x3200000.Idx → EReal) (ix2 k e)
      = X (ix2 (Cert.Spec.nodeOf ((m ((c : Thread nD τ).loc main_arg1) : S2x3200000.Idx → BitVec 32) (ix2 0 e))) k) := by
  rw [W9_v34]
  refine (congrFun (after12_v34 (W7 (F := Ideal) m ρ c)) (ix2 k e)).trans ?_
  refine (takeTerm_apply _ _ (fun j => by
    obtain ⟨e', rfl⟩ : ∃ e' : Fin 3200000, j = ix1 e' := ⟨j 0, eq_ix1 j⟩
    rw [src_at7]; exact hidx _) k e).trans ?_
  rw [src_at7, ← W9_v32_7]
  exact hprev k _

/-! ## Layer 1 -/

/-- After the scatter-add that follows region 1, row `k` of node `n` is feature `k` of node `n` after one
    message-passing layer over the previous features `X`. -/
theorem layer1 (c : Dev nD)
    (hidx : ∀ i, 0 ≤ ((m ((c : Thread nD τ).loc main_arg1) : S2x3200000.Idx → BitVec 32) i).toInt
      ∧ ((m ((c : Thread nD τ).loc main_arg1) : S2x3200000.Idx → BitVec 32) i).toInt < 100000)
    (hr : ∀ (V : (c : Dev nD) → (b : Ref sig .tc) → Buf (Elt Ideal) ((c : Thread nD τ).loc b)) (c : Dev nD),
      ((Gen.dat1 (F := Ideal) V c).arrAt 9 cfg1.N : S8x3200000.Idx → EReal)
        = Cert.Spec.mlpT (C := 8) (M := 8) (O := 8) (T := 3200000) (V c main_v33) (V c main_v34) (V c main_v11)
            (V c main_v36) (V c main_v38) (V c main_v40) (V c main_v41) (V c main_v42) (V c main_v43))
    (X : (⟨2, ![100000, 8]⟩ : Shape).Idx → EReal)
    (hprev : ∀ (k : Fin 8) (n : Fin 100000),
      (Gen.W9 (F := Ideal) m ρ c (Proc.devRef .tc main_v32) : S8x100000.Idx → EReal) (ix2 k n) = X (ix2 n k)) :
    ∀ (k : Fin 8) (n : Fin 100000),
      (Gen.W14 (F := Ideal) m ρ c (Proc.devRef .tc main_v52) : S8x100000.Idx → EReal) (ix2 k n)
        = Cert.Spec.layer (C := 8) (M := 8) (O := 8) (K := 19) rfl X
            (Cert.Spec.enorm (m ((c : Thread nD τ).loc main_arg2))) (m ((c : Thread nD τ).loc main_arg1))
            (m ((c : Thread nD τ).loc main_arg7)) (m ((c : Thread nD τ).loc main_arg8))
            (m ((c : Thread nD τ).loc main_arg9)) (m ((c : Thread nD τ).loc main_arg10)) (ix2 n k) := by
  intro k n
  rw [W14_v52]
  refine (congrFun (after2_v52 (W10 (F := Ideal) m ρ c)) (ix2 k n)).trans ?_
  refine (scatterTerm_apply _ (fun j => by
    obtain ⟨e', rfl⟩ : ∃ e' : Fin 3200000, j = ix1 e' := ⟨j 0, eq_ix1 j⟩
    rw [dst_at10]; exact (hidx _).1) _ k n).trans ?_
  -- region 1's output array is the perceptron of the nine arrays as the region found them
  have h44 : (W10 (F := Ideal) m ρ c (Proc.devRef .tc main_v44) : S8x3200000.Idx → EReal)
      = Cert.Spec.mlpT (C := 8) (M := 8) (O := 8) (T := 3200000)
          (W9 (F := Ideal) m ρ c (Proc.devRef .tc main_v33)) (W9 (F := Ideal) m ρ c (Proc.devRef .tc main_v34))
          (W9 (F := Ideal) m ρ c (Proc.devRef .tc main_v11)) (W9 (F := Ideal) m ρ c (Proc.devRef .tc main_v36))
          (W9 (F := Ideal) m ρ c (Proc.devRef .tc main_v38)) (W9 (F := Ideal) m ρ c (Proc.devRef .tc main_v40))
          (W9 (F := Ideal) m ρ c (Proc.devRef .tc main_v41)) (W9 (F := Ideal) m ρ c (Proc.devRef .tc main_v42))
          (W9 (F := Ideal) m ρ c (Proc.devRef .tc main_v43)) :=
    (W10_arr m ρ c 9).trans (hr (V9 (F := Ideal) m ρ) c)
  rw [h44]
  -- the scatter's words are the target-node words
  have hsum : (∑ e ∈ Finset.univ.filter (fun e : Fin 3200000 =>
        ((W10 (F := Ideal) m ρ c (Proc.devRef .tc main_v3) : S3200000.Idx → BitVec 32) (ix1 e)).toInt = (n.val : ℤ)),
        Cert.Spec.mlpT (C := 8) (M := 8) (O := 8) (T := 3200000)
          (W9 (F := Ideal) m ρ c (Proc.devRef .tc main_v33)) (W9 (F := Ideal) m ρ c (Proc.devRef .tc main_v34))
          (W9 (F := Ideal) m ρ c (Proc.devRef .tc main_v11)) (W9 (F := Ideal) m ρ c (Proc.devRef .tc main_v36))
          (W9 (F := Ideal) m ρ c (Proc.devRef .tc main_v38)) (W9 (F := Ideal) m ρ c (Proc.devRef .tc main_v40))
          (W9 (F := Ideal) m ρ c (Proc.devRef .tc main_v41)) (W9 (F := Ideal) m ρ c (Proc.devRef .tc main_v42))
          (W9 (F := Ideal) m ρ c (Proc.devRef .tc main_v43)) (ix2 k e))
      = ∑ e ∈ Finset.univ.filter (fun e : Fin 3200000 =>
        ((m ((c : Thread nD τ).loc main_arg1) : S2x3200000.Idx → BitVec 32) (ix2 1 e)).toInt = (n.val : ℤ)),
        Cert.Spec.mlpT (C := 8) (M := 8) (O := 8) (T := 3200000)
          (W9 (F := Ideal) m ρ c (Proc.devRef .tc main_v33)) (W9 (F := Ideal) m ρ c (Proc.devRef .tc main_v34))
          (W9 (F := Ideal) m ρ c (Proc.devRef .tc main_v11)) (W9 (F := Ideal) m ρ c (Proc.devRef .tc main_v36))
          (W9 (F := Ideal) m ρ c (Proc.devRef .tc main_v38)) (W9 (F := Ideal) m ρ c (Proc.devRef .tc main_v40))
          (W9 (F := Ideal) m ρ c (Proc.devRef .tc main_v41)) (W9 (F := Ideal) m ρ c (Proc.devRef .tc main_v42))
          (W9 (F := Ideal) m ρ c (Proc.devRef .tc main_v43)) (ix2 k e) :=
    Finset.sum_congr (Finset.filter_congr fun e _ => by rw [dst_at10]) fun _ _ => rfl
  rw [hsum]
  exact Cert.SpecGlue.layer_of_sum rfl X (Cert.Spec.enorm (m ((c : Thread nD τ).loc main_arg2)))
    (m ((c : Thread nD τ).loc main_arg1)) (m ((c : Thread nD τ).loc main_arg7)) (m ((c : Thread nD τ).loc main_arg8))
    (m ((c : Thread nD τ).loc main_arg9)) (m ((c : Thread nD τ).loc main_arg10))
    _ _ _ _ _ _ _ _ _
    (xd_read m ρ c hidx X hprev) (xs_read m ρ c hidx X hprev) (eT_read m ρ c)
    (wd_read m ρ c) (ws_read m ρ c) (we_read m ρ c) (b1_read m ρ c) (w2_read m ρ c) (b2_read m ρ c) n k

end Cert.KernelIdeal.KLayer1
-- ==== Proof.KLayer2W.lean ====
import proofs.«409580_j89481348645420_1_alg».proof.Proof.Gen.KernelIdeal.Frame
import proofs.«409580_j89481348645420_1_alg».proof.Proof.Spec
import Idealize.ShloMosaic.Lib.Pipeline.Value
import Idealize.ShloMosaic.Lib.ValueIdx

/-!
# The six small arrays the third edge perceptron reads, entry by entry

Before its third call of the edge kernel the program cuts the first weight matrix `W1` (19 rows: 8 for the features
of an edge's target node, 8 for its source node, 3 for the edge's own features; 4 columns, one per hidden unit) into
its three row blocks and transposes each, turns the first bias vector into a column, transposes the second weight
matrix `W2` (4 × 1) into a row, and turns the second bias into a 1 × 1 array. None of these nine operations, none of
the earlier host operations and neither of the earlier kernel calls writes an argument, so at this point the four
arguments still hold what the program was launched with, and each small array is read off its argument:
entry (`j`, `k`) of the transposed block that starts at row `r` is `W1 (r + k, j)`, the bias columns are the bias
vectors, entry (0, `j`) of the transposed second matrix is `W2 (j, 0)`.
-/

noncomputable section

namespace Cert.KernelIdeal.KLayer2W

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-! ## The four arguments are still as launched when the nine operations run

The generated frame reads each argument back from the program's end to its launch; the end is three steps after the
point wanted here (the nine operations, the third call, the closing operations), none of which writes an argument. -/

theorem arg11_kept : W13 (F := Ideal) m ρ c (Proc.devRef .tc main_arg11) = m ((c : Thread nD τ).loc main_arg11) := by
  have e3 : W16 (F := Ideal) m ρ c (Proc.devRef .tc main_arg11) = W15 m ρ c (Proc.devRef .tc main_arg11) :=
    StableHlo.after_of_forall_not_mem (b := Proc.devRef .tc main_arg11) _ _ (List.forall_iff_forall_mem.mp (by
      simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
      repeat' apply And.intro
      all_goals exact StableHlo.devRef_ne_of_ne (by decide)))
  have e2 : W15 (F := Ideal) m ρ c (Proc.devRef .tc main_arg11) = W14 m ρ c (Proc.devRef .tc main_arg11) :=
    W15_of_ne m ρ c main_arg11 (by decide)
  have e1 : W14 (F := Ideal) m ρ c (Proc.devRef .tc main_arg11) = W13 m ρ c (Proc.devRef .tc main_arg11) :=
    StableHlo.after_of_forall_not_mem (b := Proc.devRef .tc main_arg11) _ _ (List.forall_iff_forall_mem.mp (by
      simp only [hostOps2_3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
      repeat' apply And.intro
      all_goals exact StableHlo.devRef_ne_of_ne (by decide)))
  exact (e1.symm.trans (e2.symm.trans e3.symm)).trans (W16_main_arg11 m ρ c)

theorem arg12_kept : W13 (F := Ideal) m ρ c (Proc.devRef .tc main_arg12) = m ((c : Thread nD τ).loc main_arg12) := by
  have e3 : W16 (F := Ideal) m ρ c (Proc.devRef .tc main_arg12) = W15 m ρ c (Proc.devRef .tc main_arg12) :=
    StableHlo.after_of_forall_not_mem (b := Proc.devRef .tc main_arg12) _ _ (List.forall_iff_forall_mem.mp (by
      simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
      repeat' apply And.intro
      all_goals exact StableHlo.devRef_ne_of_ne (by decide)))
  have e2 : W15 (F := Ideal) m ρ c (Proc.devRef .tc main_arg12) = W14 m ρ c (Proc.devRef .tc main_arg12) :=
    W15_of_ne m ρ c main_arg12 (by decide)
  have e1 : W14 (F := Ideal) m ρ c (Proc.devRef .tc main_arg12) = W13 m ρ c (Proc.devRef .tc main_arg12) :=
    StableHlo.after_of_forall_not_mem (b := Proc.devRef .tc main_arg12) _ _ (List.forall_iff_forall_mem.mp (by
      simp only [hostOps2_3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
      repeat' apply And.intro
      all_goals exact StableHlo.devRef_ne_of_ne (by decide)))
  exact (e1.symm.trans (e2.symm.trans e3.symm)).trans (W16_main_arg12 m ρ c)

theorem arg13_kept : W13 (F := Ideal) m ρ c (Proc.devRef .tc main_arg13) = m ((c : Thread nD τ).loc main_arg13) := by
  have e3 : W16 (F := Ideal) m ρ c (Proc.devRef .tc main_arg13) = W15 m ρ c (Proc.devRef .tc main_arg13) :=
    StableHlo.after_of_forall_not_mem (b := Proc.devRef .tc main_arg13) _ _ (List.forall_iff_forall_mem.mp (by
      simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
      repeat' apply And.intro
      all_goals exact StableHlo.devRef_ne_of_ne (by decide)))
  have e2 : W15 (F := Ideal) m ρ c (Proc.devRef .tc main_arg13) = W14 m ρ c (Proc.devRef .tc main_arg13) :=
    W15_of_ne m ρ c main_arg13 (by decide)
  have e1 : W14 (F := Ideal) m ρ c (Proc.devRef .tc main_arg13) = W13 m ρ c (Proc.devRef .tc main_arg13) :=
    StableHlo.after_of_forall_not_mem (b := Proc.devRef .tc main_arg13) _ _ (List.forall_iff_forall_mem.mp (by
      simp only [hostOps2_3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
      repeat' apply And.intro
      all_goals exact StableHlo.devRef_ne_of_ne (by decide)))
  exact (e1.symm.trans (e2.symm.trans e3.symm)).trans (W16_main_arg13 m ρ c)

theorem arg14_kept : W13 (F := Ideal) m ρ c (Proc.devRef .tc main_arg14) = m ((c : Thread nD τ).loc main_arg14) := by
  have e3 : W16 (F := Ideal) m ρ c (Proc.devRef .tc main_arg14) = W15 m ρ c (Proc.devRef .tc main_arg14) :=
    StableHlo.after_of_forall_not_mem (b := Proc.devRef .tc main_arg14) _ _ (List.forall_iff_forall_mem.mp (by
      simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
      repeat' apply And.intro
      all_goals exact StableHlo.devRef_ne_of_ne (by decide)))
  have e2 : W15 (F := Ideal) m ρ c (Proc.devRef .tc main_arg14) = W14 m ρ c (Proc.devRef .tc main_arg14) :=
    W15_of_ne m ρ c main_arg14 (by decide)
  have e1 : W14 (F := Ideal) m ρ c (Proc.devRef .tc main_arg14) = W13 m ρ c (Proc.devRef .tc main_arg14) :=
    StableHlo.after_of_forall_not_mem (b := Proc.devRef .tc main_arg14) _ _ (List.forall_iff_forall_mem.mp (by
      simp only [hostOps2_3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
      repeat' apply And.intro
      all_goals exact StableHlo.devRef_ne_of_ne (by decide)))
  exact (e1.symm.trans (e2.symm.trans e3.symm)).trans (W16_main_arg14 m ρ c)

/-! ## What the nine operations leave in the six arrays, as terms of what they find

Stated over ANY contents `V` the nine operations may find: each result buffer holds its operation's function of its
operand's buffer, the operands being buffers no earlier operation of the nine writes. -/

section Nine
variable (V : Valuation τ sig (Elt Ideal))

/-- The target-node row block of the first weight matrix, transposed. -/
theorem v56_eq : (StableHlo.after (hostOps2_3 (F := Ideal)) V (Proc.devRef .tc main_v56) : S4x8.Idx → EReal)
    = transpose S4x8 [1, 0] (extractStridedSlice S8x4 ![0, 0] (V (Proc.devRef .tc main_arg11) : S19x4.Idx → EReal) slices_S19x4_S8x4_0_0) transposes_S8x4_S4x8_1_0 := by
  after_results
/-- The source-node row block, transposed. -/
theorem v58_eq : (StableHlo.after (hostOps2_3 (F := Ideal)) V (Proc.devRef .tc main_v58) : S4x8.Idx → EReal)
    = transpose S4x8 [1, 0] (extractStridedSlice S8x4 ![8, 0] (V (Proc.devRef .tc main_arg11) : S19x4.Idx → EReal) slices_S19x4_S8x4_8_0) transposes_S8x4_S4x8_1_0 := by
  after_results
/-- The edge-feature row block, transposed. -/
theorem v60_eq : (StableHlo.after (hostOps2_3 (F := Ideal)) V (Proc.devRef .tc main_v60) : S4x3.Idx → EReal)
    = transpose S4x3 [1, 0] (extractStridedSlice S3x4 ![16, 0] (V (Proc.devRef .tc main_arg11) : S19x4.Idx → EReal) slices_S19x4_S3x4_16_0) transposes_S3x4_S4x3_1_0 := by
  after_results
/-- The first bias as a column. -/
theorem v61_eq : (StableHlo.after (hostOps2_3 (F := Ideal)) V (Proc.devRef .tc main_v61) : S4x1.Idx → EReal)
    = shapeCast S4x1 (V (Proc.devRef .tc main_arg12) : S4.Idx → EReal) shapeCasts_S4_S4x1 := by
  after_results
  rfl
/-- The second weight matrix, transposed. -/
theorem v62_eq : (StableHlo.after (hostOps2_3 (F := Ideal)) V (Proc.devRef .tc main_v62) : S1x4.Idx → EReal)
    = transpose S1x4 [1, 0] (V (Proc.devRef .tc main_arg13) : S4x1.Idx → EReal) transposes_S4x1_S1x4_1_0 := by
  after_results
/-- The second bias as a 1 × 1 array. -/
theorem v63_eq : (StableHlo.after (hostOps2_3 (F := Ideal)) V (Proc.devRef .tc main_v63) : S1x1.Idx → EReal)
    = shapeCast S1x1 (V (Proc.devRef .tc main_arg14) : S1.Idx → EReal) shapeCasts_S1_S1x1 := by
  after_results
  rfl

end Nine

/-! ## The six arrays at an index -/

/-- A transposed 8-row block of the 19 × 4 matrix that starts at row `r`: entry (`j`, `k`) is the matrix at (`r + k`, `j`). -/
theorem tblock8_at (A : S19x4.Idx → EReal) (off : Fin 2 → Nat) (h : S19x4.Slices off S8x4) (r : Nat) (h0 : off 0 = r) (h1 : off 1 = 0)
    (j : Fin 4) (k : Fin 8) (hr : r + k.val < 19) :
    transpose S4x8 [1, 0] (extractStridedSlice S8x4 off A h) transposes_S8x4_S4x8_1_0 (ix2 j k) = A (ix2 (⟨r + k.val, hr⟩ : Fin 19) j) := by
  refine (transpose_apply [1, 0] _ transposes_S8x4_S4x8_1_0 (ix2 j k) (ix2 k j) (fun b => by
    match b with
    | ⟨0, _⟩ => rfl
    | ⟨1, _⟩ => rfl)).trans ?_
  refine extractStridedSlice_apply off A h (ix2 k j) (ix2 (⟨r + k.val, hr⟩ : Fin 19) j) (fun a => by
    match a with
    | ⟨0, _⟩ => show r + k.val = off 0 + k.val; rw [h0]
    | ⟨1, _⟩ => show j.val = off 1 + j.val; rw [h1]; omega)

/-- The same for the 3-row block. -/
theorem tblock3_at (A : S19x4.Idx → EReal) (off : Fin 2 → Nat) (h : S19x4.Slices off S3x4) (r : Nat) (h0 : off 0 = r) (h1 : off 1 = 0)
    (j : Fin 4) (k : Fin 3) (hr : r + k.val < 19) :
    transpose S4x3 [1, 0] (extractStridedSlice S3x4 off A h) transposes_S3x4_S4x3_1_0 (ix2 j k) = A (ix2 (⟨r + k.val, hr⟩ : Fin 19) j) := by
  refine (transpose_apply [1, 0] _ transposes_S3x4_S4x3_1_0 (ix2 j k) (ix2 k j) (fun b => by
    match b with
    | ⟨0, _⟩ => rfl
    | ⟨1, _⟩ => rfl)).trans ?_
  refine extractStridedSlice_apply off A h (ix2 k j) (ix2 (⟨r + k.val, hr⟩ : Fin 19) j) (fun a => by
    match a with
    | ⟨0, _⟩ => show r + k.val = off 0 + k.val; rw [h0]
    | ⟨1, _⟩ => show j.val = off 1 + j.val; rw [h1]; omega)

/-! ## The six arrays as the third call finds them -/

/-- Target-node block: hidden unit `j`'s weight on feature `k` is row `k` of `W1`. -/
theorem wd_at (j : Fin 4) (k : Fin 8) :
    (W14 (F := Ideal) m ρ c (Proc.devRef .tc main_v56) : S4x8.Idx → EReal) (ix2 j k)
      = (m ((c : Thread nD τ).loc main_arg11) : S19x4.Idx → EReal) (ix2 (⟨k.val, by omega⟩ : Fin 19) j) := by
  refine (congrFun (v56_eq (W13 m ρ c)) (ix2 j k)).trans ?_
  rw [arg11_kept m ρ c]
  refine (tblock8_at _ ![0, 0] slices_S19x4_S8x4_0_0 0 rfl rfl j k (by omega)).trans ?_
  exact congrArg (fun r : Fin 19 => (m ((c : Thread nD τ).loc main_arg11) : S19x4.Idx → EReal) (ix2 r j)) (Fin.ext (Nat.zero_add _))

/-- Source-node block: row `8 + k` of `W1`. -/
theorem ws_at (j : Fin 4) (k : Fin 8) :
    (W14 (F := Ideal) m ρ c (Proc.devRef .tc main_v58) : S4x8.Idx → EReal) (ix2 j k)
      = (m ((c : Thread nD τ).loc main_arg11) : S19x4.Idx → EReal) (ix2 (⟨8 + k.val, by omega⟩ : Fin 19) j) := by
  refine (congrFun (v58_eq (W13 m ρ c)) (ix2 j k)).trans ?_
  rw [arg11_kept m ρ c]
  exact tblock8_at _ ![8, 0] slices_S19x4_S8x4_8_0 8 rfl rfl j k (by omega)

/-- Edge-feature block: row `8 + 8 + k` of `W1`. -/
theorem we_at (j : Fin 4) (k : Fin 3) :
    (W14 (F := Ideal) m ρ c (Proc.devRef .tc main_v60) : S4x3.Idx → EReal) (ix2 j k)
      = (m ((c : Thread nD τ).loc main_arg11) : S19x4.Idx → EReal) (ix2 (⟨8 + 8 + k.val, by omega⟩ : Fin 19) j) := by
  refine (congrFun (v60_eq (W13 m ρ c)) (ix2 j k)).trans ?_
  rw [arg11_kept m ρ c]
  exact tblock3_at _ ![16, 0] slices_S19x4_S3x4_16_0 (8 + 8) rfl rfl j k (by omega)

/-- The first bias column's entry `j` is the bias vector's. -/
theorem b1_at (j : Fin 4) :
    (W14 (F := Ideal) m ρ c (Proc.devRef .tc main_v61) : S4x1.Idx → EReal) (ix2 j 0)
      = (m ((c : Thread nD τ).loc main_arg12) : S4.Idx → EReal) (ix1 j) := by
  refine (congrFun (v61_eq (W13 m ρ c)) (ix2 j 0)).trans ?_
  rw [arg12_kept m ρ c]
  refine shapeCast_apply _ shapeCasts_S4_S4x1 (ix2 j 0) (ix1 j) ?_
  rw [Shape.rowMajor_val_one, Shape.rowMajor_val_two]
  show j.val = j.val * 1 + 0
  omega

/-- The transposed second weight matrix at (`c'`, `j`) is `W2` at (`j`, `c'`). -/
theorem w2_at (c' : Fin 1) (j : Fin 4) :
    (W14 (F := Ideal) m ρ c (Proc.devRef .tc main_v62) : S1x4.Idx → EReal) (ix2 c' j)
      = (m ((c : Thread nD τ).loc main_arg13) : S4x1.Idx → EReal) (ix2 j c') := by
  refine (congrFun (v62_eq (W13 m ρ c)) (ix2 c' j)).trans ?_
  rw [arg13_kept m ρ c]
  exact transpose_apply [1, 0] _ transposes_S4x1_S1x4_1_0 (ix2 c' j) (ix2 j c') (fun b => by
    match b with
    | ⟨0, _⟩ => rfl
    | ⟨1, _⟩ => rfl)

/-- The second bias's one entry. -/
theorem b2_at (c' : Fin 1) :
    (W14 (F := Ideal) m ρ c (Proc.devRef .tc main_v63) : S1x1.Idx → EReal) (ix2 c' 0)
      = (m ((c : Thread nD τ).loc main_arg14) : S1.Idx → EReal) (ix1 c') := by
  refine (congrFun (v63_eq (W13 m ρ c)) (ix2 c' 0)).trans ?_
  rw [arg14_kept m ρ c]
  refine shapeCast_apply _ shapeCasts_S1_S1x1 (ix2 c' 0) (ix1 c') ?_
  rw [Shape.rowMajor_val_one, Shape.rowMajor_val_two]
  show c'.val = c'.val * 1 + 0
  omega

end Cert.KernelIdeal.KLayer2W

end
-- ==== Proof.KLayer2S.lean ====
import proofs.«409580_j89481348645420_1_alg».proof.Proof.Gen.KernelIdeal.Frame
import proofs.«409580_j89481348645420_1_alg».proof.Proof.Spec
import proofs.«409580_j89481348645420_1_alg».proof.Proof.LibTakeCols
import Idealize.ShloMosaic.Lib.Pipeline.Value
import Idealize.ShloMosaic.Lib.ValueIdx

/-!
# The last layer's aggregation: the third call's one-row result summed into the nodes

After the third call of the edge kernel its result holds one number per edge (one row, 3200000 columns). The closing
operations make a one-row table of 100000 zeros, wrap the target-node words (`w + 100000` where `w < 0`), make them a
column, add every edge's number into the table at its target node, and transpose the table into a column: the
program's result.

For target words that are not negative the wrap keeps each word, so entry (`n`, 0) of the result is zero plus the sum
of the call's numbers over the edges whose target word, read as a signed integer, is `n`.
-/

noncomputable section

open scoped BigOperators

namespace Cert.KernelIdeal.KLayer2S

open Cert.KernelIdeal Cert.KernelIdeal.Gen Idealize.ShloMosaic Idealize.ShloMosaic.TcCoe Idealize.ShloMosaic.ValueIdx
open Idealize.SL.Sem

/-- What the closing operations leave in the result buffer, over ANY contents `V` they may find: the transposed
    scatter-add, into the table of zeros, of the third call's result along the wrapped target column. -/
theorem v73_eq (V : Valuation τ sig (Elt Ideal)) :
    (StableHlo.after (hostOps3 (F := Ideal)) V (Proc.devRef .tc main_v73) : S100000x1.Idx → EReal)
      = transpose S100000x1 [1, 0]
          (Host.scatterAdd (F := Ideal) scatter_S1x100000_S3200000x1_S1x3200000_0_1_1_1
            (broadcastInDim S1x100000 ![] bcast_S_S1x100000 (constant (F := Ideal) S_ .f32 0x00000000#32))
            (broadcastInDim S3200000x1 ![0] bcast_S3200000_S3200000x1_0
              (select (cmpi .slt (V (Proc.devRef .tc main_v3) : S3200000.Idx → BitVec 32) (broadcastInDim S3200000 ![] bcast_S_S3200000 (constantI S_ 32 0#32)))
                (addi (V (Proc.devRef .tc main_v3) : S3200000.Idx → BitVec 32) (broadcastInDim S3200000 ![] bcast_S_S3200000 (constantI S_ 32 100000#32)))
                (V (Proc.devRef .tc main_v3) : S3200000.Idx → BitVec 32)))
            (V (Proc.devRef .tc main_v64) : S1x3200000.Idx → EReal))
          transposes_S1x100000_S100000x1_1_0 := by
  after_results_simp

section Out
variable (m : (ℓ : Loc nD τ sig) → Buf (Elt Ideal) ℓ) (ρ : Dev nD → PrngReg) (c : Dev nD)

/-- The target-node words and the third call's result as the closing operations find them, at their literal types. -/
abbrev dstW : S3200000.Idx → BitVec 32 := W15 (F := Ideal) m ρ c (Proc.devRef .tc main_v3)
abbrev edgeOut : S1x3200000.Idx → EReal := W15 (F := Ideal) m ρ c (Proc.devRef .tc main_v64)

/-- THE PROGRAM'S RESULT AT NODE `n`: zero plus the third call's numbers summed over the edges whose target word is
    `n` (target words not negative: the wrap keeps them). -/
theorem out_at (hdst : ∀ e : S3200000.Idx, 0 ≤ (dstW m ρ c e).toInt) (n : Fin 100000) (k : Fin 1) :
    (W16 (F := Ideal) m ρ c (Proc.devRef .tc main_v73) : S100000x1.Idx → EReal) (ix2 n k)
      = Ideal.ofBits .f32 0x00000000#32
        + ∑ e ∈ Finset.univ.filter (fun e : Fin 3200000 => (dstW m ρ c (ix1 e)).toInt = (n.val : ℤ)), edgeOut m ρ c (ix2 k e) := by
  refine (congrFun (v73_eq (W15 m ρ c)) (ix2 n k)).trans ?_
  refine (transpose_apply [1, 0] _ transposes_S1x100000_S100000x1_1_0 (ix2 n k) (ix2 k n) (fun b => by
    match b with
    | ⟨0, _⟩ => rfl
    | ⟨1, _⟩ => rfl)).trans ?_
  exact Cert.LibTakeCols.scatter_wrap_apply (D := 1) (N := 100000) (n := 3200000) bcast_S_S3200000 bcast_S3200000_S3200000x1_0
    bcast_S_S1x100000 scatter_S1x100000_S3200000x1_S1x3200000_0_1_1_1 rfl rfl rfl rfl
    (dstW m ρ c) hdst (edgeOut m ρ c) k n

end Out

end Cert.KernelIdeal.KLayer2S

end
-- ==== Proof.KLayer2.lean ====
import proofs.«409580_j89481348645420_1_alg».proof.Proof.Gen.KernelIdeal.Frame
import proofs.«409580_j89481348645420_1_alg».proof.Proof.Spec
import proofs.«409580_j89481348645420_1_alg».proof.Proof.LibScatterGatherCols
import proofs.«409580_j89481348645420_1_alg».proof.Proof.LibTakeCols
import proofs.«409580_j89481348645420_1_alg».proof.Proof.KShared
import proofs.«409580_j89481348645420_1_alg».proof.Proof.KLayer2W
import proofs.«409580_j89481348645420_1_alg».proof.Proof.KLayer2S
import proofs.«409580_j89481348645420_1_alg».proof.Proof.SpecGlue
import Idealize.ShloMosaic.Lib.Pipeline.Value
import Idealize.ShloMosaic.Lib.ValueLayout

/-!
# The third message-passing layer of the kernel program

The program's third layer works on the channel-major table `main_v52` (8 rows, one column per node) that the second
layer's scatter-add left. It takes, for every edge, the column of the edge's target node and the column of its
source node (two column gathers by the two rows of the index array), hands these two 8 × 3200000 arrays, the
transposed normalised edge features and the six small weight and bias arrays to the edge perceptron, adds the
perceptron's 1 × 3200000 result into a 1 × 100000 table of zeros along the target nodes, and transposes.

Read index by index, under the hypothesis that every index word is a node number:

* column `e` of the first gathered array is the row of node `dst e` of the previous layer's result, and column `e` of
  the second the row of node `src e` (`xd_at`, `xs_at`): the index normalisation keeps a node number, the range mask
  is one everywhere, and the gather reads the clamped word, which is the node the word names;
* the last array at `(n, k)` is zero plus the sum, over the edges whose target word is `n`, of the perceptron's
  output `k` of the edge; each factor of the perceptron is the matching factor of the specification's message, so the
  sum is the specification's layer (`layer2`).
-/

set_option maxRecDepth 16384

noncomputable section

open scoped BigOperators

namespace Cert.KernelIdeal.KLayer2

open Idealize.ShloMosaic Idealize.ShloMosaic.TcCoe Idealize.ShloMosaic.Tactic Idealize.ShloMosaic.ValueIdx
open Idealize.SL.Sem
open Cert.KernelIdeal Cert.KernelIdeal.Gen

variable (m : (ℓ : Loc nD τ sig) → Buf (Elt Ideal) ℓ) (ρ : Dev nD → PrngReg)

/-- A buffer that no operation of a stretch writes holds after the stretch what it held before it: every
    operation's result buffer is another reference. -/
local macro "kept_through " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The gathered node features

`jnp.take` along the node axis, as the program prints it: negative words are wrapped, the wrapped words become a
column of start indices, the columns they name are gathered, and a column whose word is out of range is replaced
by a fill value. -/

/-- A value stored to a typed reference's buffer and read back is the value. -/
theorem ofBuf_toBuf {T : BufTy} (x : StableHlo.TRef sig T) (v : T.Contents (Elt Ideal)) :
    x.ofBuf (x.toBuf v) = v := by
  unfold StableHlo.TRef.ofBuf StableHlo.TRef.toBuf
  simp

/-- The printed take of the columns of an 8-row table `x` named by the words `w`. -/
def takeTerm (x : FVec Ideal S8x100000 .f32) (w : IVec S3200000 32) : FVec Ideal S8x3200000 .f32 :=
  select
    (broadcastInDim S8x3200000 ![1] bcast_S3200000_S8x3200000_1
      (Host.reduce IntOp.andi
        (andi (cmpi .sge (broadcastInDim S3200000x1 ![0] bcast_S3200000_S3200000x1_0
      (select (cmpi .slt w (broadcastInDim S3200000 ![] bcast_S_S3200000 (constantI S_ 32 0#32)))
        (addi w (broadcastInDim S3200000 ![] bcast_S_S3200000 (constantI S_ 32 100000#32))) w)) (broadcastInDim S3200000x1 ![] bcast_S_S3200000x1 (constantI S_ 32 0#32)))
          (cmpi .sle (broadcastInDim S3200000x1 ![0] bcast_S3200000_S3200000x1_0
      (select (cmpi .slt w (broadcastInDim S3200000 ![] bcast_S_S3200000 (constantI S_ 32 0#32)))
        (addi w (broadcastInDim S3200000 ![] bcast_S_S3200000 (constantI S_ 32 100000#32))) w)) (broadcastInDim S3200000x1 ![0, 1] bcast_S1x1_S3200000x1_0_1
            (broadcastInDim S1x1 ![1] bcast_S1_S1x1_1 (constantI S1 32 99999#32)))))
        (constantI S_ 1 1#1) reducesTo_S3200000x1_S3200000_d1 h_S_))
    (Host.gather gather_S8x100000_S3200000x1_S8x3200000_0_1_n_n_1_1_81 x (broadcastInDim S3200000x1 ![0] bcast_S3200000_S3200000x1_0
      (select (cmpi .slt w (broadcastInDim S3200000 ![] bcast_S_S3200000 (constantI S_ 32 0#32)))
        (addi w (broadcastInDim S3200000 ![] bcast_S_S3200000 (constantI S_ 32 100000#32))) w)))
    (broadcastInDim S8x3200000 ![] bcast_S_S8x3200000 (constant (F := Ideal) S_ .f32 0x7FC00000#32))

theorem ofBuf_v3 (v : (Proc.devRef (τ := τ) .tc main_v3).ty.Contents (Elt Ideal)) :
    (StableHlo.TRef.of main_v3 : StableHlo.TRef sig ⟨S3200000, .i32⟩).ofBuf v = v := rfl
theorem ofBuf_v1 (v : (Proc.devRef (τ := τ) .tc main_v1).ty.Contents (Elt Ideal)) :
    (StableHlo.TRef.of main_v1 : StableHlo.TRef sig ⟨S3200000, .i32⟩).ofBuf v = v := rfl
theorem ofBuf_v52 (v : (Proc.devRef (τ := τ) .tc main_v52).ty.Contents (Elt Ideal)) :
    (StableHlo.TRef.of main_v52 : StableHlo.TRef sig ⟨S8x100000, .f32⟩).ofBuf v = v := rfl
theorem toBuf_v53 (v : (⟨S8x3200000, .f32⟩ : BufTy).Contents (Elt Ideal)) :
    (StableHlo.TRef.of main_v53 : StableHlo.TRef sig ⟨S8x3200000, .f32⟩).toBuf v = v := rfl
theorem toBuf_v54 (v : (⟨S8x3200000, .f32⟩ : BufTy).Contents (Elt Ideal)) :
    (StableHlo.TRef.of main_v54 : StableHlo.TRef sig ⟨S8x3200000, .f32⟩).toBuf v = v := rfl

theorem after21_v53 (V : Valuation τ sig (Elt Ideal)) :
    (StableHlo.after (hostOps2_1 (F := Ideal)) V (Proc.devRef .tc main_v53) : S8x3200000.Idx → EReal)
      = takeTerm (V (Proc.devRef .tc main_v52) : S8x100000.Idx → EReal) (V (Proc.devRef .tc main_v3) : S3200000.Idx → BitVec 32) := by
  after_results_simp
  simp only [ofBuf_toBuf, ofBuf_v3, ofBuf_v1, ofBuf_v52, toBuf_v53, toBuf_v54]
  rfl

theorem after22_v54 (V : Valuation τ sig (Elt Ideal)) :
    (StableHlo.after (hostOps2_2 (F := Ideal)) V (Proc.devRef .tc main_v54) : S8x3200000.Idx → EReal)
      = takeTerm (V (Proc.devRef .tc main_v52) : S8x100000.Idx → EReal) (V (Proc.devRef .tc main_v1) : S3200000.Idx → BitVec 32) := by
  after_results_simp
  simp only [ofBuf_toBuf, ofBuf_v3, ofBuf_v1, ofBuf_v52, toBuf_v53, toBuf_v54]
  rfl

/-- For words that are node numbers the take reads, at row `k` and position `e`, the table's row `k` at the
    column of word `e`. -/
theorem takeTerm_apply (x : FVec Ideal S8x100000 .f32) (w : IVec S3200000 32)
    (hw : ∀ e, 0 ≤ (w e).toInt ∧ (w e).toInt < 100000) (k : Fin 8) (e : Fin 3200000) :
    takeTerm x w (ix2 k e) = x (ix2 k (Cert.Spec.nodeOf (w (ix1 e)))) :=
  Cert.LibTakeCols.take_apply _ _ _ _ _ _ _ _ rfl rfl rfl rfl rfl _ _ x w hw k e

/-! ## The two gathered arrays as region 2 finds them -/

section Readings
variable (c : Dev nD)

/-- The index array: row 1 holds the target-node words, row 0 the source-node words. -/
abbrev EI : S2x3200000.Idx → BitVec 32 := m ((c : Thread nD τ).loc main_arg1)

theorem v53_kept : W14 (F := Ideal) m ρ c (Proc.devRef .tc main_v53) = W12 (F := Ideal) m ρ c (Proc.devRef .tc main_v53) :=
  calc W14 (F := Ideal) m ρ c (Proc.devRef .tc main_v53)
    _ = W13 (F := Ideal) m ρ c (Proc.devRef .tc main_v53) := by kept_through hostOps2_3
    _ = W12 (F := Ideal) m ρ c (Proc.devRef .tc main_v53) := by kept_through hostOps2_2

theorem v54_kept : W14 (F := Ideal) m ρ c (Proc.devRef .tc main_v54) = W13 (F := Ideal) m ρ c (Proc.devRef .tc main_v54) := by
  kept_through hostOps2_3

theorem v52_kept12 : W14 (F := Ideal) m ρ c (Proc.devRef .tc main_v52) = W12 (F := Ideal) m ρ c (Proc.devRef .tc main_v52) :=
  calc W14 (F := Ideal) m ρ c (Proc.devRef .tc main_v52)
    _ = W13 (F := Ideal) m ρ c (Proc.devRef .tc main_v52) := by kept_through hostOps2_3
    _ = W12 (F := Ideal) m ρ c (Proc.devRef .tc main_v52) := by kept_through hostOps2_2

theorem v52_kept11 : W14 (F := Ideal) m ρ c (Proc.devRef .tc main_v52) = W11 (F := Ideal) m ρ c (Proc.devRef .tc main_v52) :=
  (v52_kept12 m ρ c).trans (by kept_through hostOps2_1)

/-- The features of the edges' target nodes, one column per edge: column `e` is the row of node `dst e` of the
    previous layer's result. -/
theorem xd_at (hidx : ∀ i, 0 ≤ (EI m c i).toInt ∧ (EI m c i).toInt < 100000)
    (hdst : ∀ e : Fin 3200000, (W11 (F := Ideal) m ρ c (Proc.devRef .tc main_v3) : S3200000.Idx → BitVec 32) (ix1 e) = EI m c (ix2 1 e))
    (X : (⟨2, ![100000, 8]⟩ : Shape).Idx → EReal)
    (hprev : ∀ (k : Fin 8) (n : Fin 100000), (W14 (F := Ideal) m ρ c (Proc.devRef .tc main_v52) : S8x100000.Idx → EReal) (ix2 k n) = X (ix2 n k))
    (k : Fin 8) (e : Fin 3200000) :
    (W14 (F := Ideal) m ρ c (Proc.devRef .tc main_v53) : S8x3200000.Idx → EReal) (ix2 k e)
      = X (ix2 (Cert.Spec.nodeOf (EI m c (ix2 1 e))) k) := by
  have hw : ∀ i : S3200000.Idx, 0 ≤ ((W11 (F := Ideal) m ρ c (Proc.devRef .tc main_v3) : S3200000.Idx → BitVec 32) i).toInt
      ∧ ((W11 (F := Ideal) m ρ c (Proc.devRef .tc main_v3) : S3200000.Idx → BitVec 32) i).toInt < 100000 := by
    intro i
    obtain ⟨e', rfl⟩ : ∃ e' : Fin 3200000, i = ix1 e' := ⟨i 0, eq_ix1 i⟩
    have h := hidx (ix2 1 e')
    rw [← hdst e'] at h
    exact h
  refine (congrArg (fun f : S8x3200000.Idx → EReal => f (ix2 k e)) (v53_kept m ρ c)).trans ?_
  refine (congrFun (after21_v53 (W11 (F := Ideal) m ρ c)) (ix2 k e)).trans ?_
  refine (takeTerm_apply _ _ hw k e).trans ?_
  refine (congrArg (fun w : BitVec 32 => (W11 (F := Ideal) m ρ c (Proc.devRef .tc main_v52) : S8x100000.Idx → EReal) (ix2 k (Cert.Spec.nodeOf w))) (hdst e)).trans ?_
  refine (congrArg (fun f : S8x100000.Idx → EReal => f (ix2 k (Cert.Spec.nodeOf (EI m c (ix2 1 e))))) (v52_kept11 m ρ c).symm).trans ?_
  exact hprev k _

/-- The features of the edges' source nodes, likewise. -/
theorem xs_at (hidx : ∀ i, 0 ≤ (EI m c i).toInt ∧ (EI m c i).toInt < 100000)
    (hsrc : ∀ e : Fin 3200000, (W12 (F := Ideal) m ρ c (Proc.devRef .tc main_v1) : S3200000.Idx → BitVec 32) (ix1 e) = EI m c (ix2 0 e))
    (X : (⟨2, ![100000, 8]⟩ : Shape).Idx → EReal)
    (hprev : ∀ (k : Fin 8) (n : Fin 100000), (W14 (F := Ideal) m ρ c (Proc.devRef .tc main_v52) : S8x100000.Idx → EReal) (ix2 k n) = X (ix2 n k))
    (k : Fin 8) (e : Fin 3200000) :
    (W14 (F := Ideal) m ρ c (Proc.devRef .tc main_v54) : S8x3200000.Idx → EReal) (ix2 k e)
      = X (ix2 (Cert.Spec.nodeOf (EI m c (ix2 0 e))) k) := by
  have hw : ∀ i : S3200000.Idx, 0 ≤ ((W12 (F := Ideal) m ρ c (Proc.devRef .tc main_v1) : S3200000.Idx → BitVec 32) i).toInt
      ∧ ((W12 (F := Ideal) m ρ c (Proc.devRef .tc main_v1) : S3200000.Idx → BitVec 32) i).toInt < 100000 := by
    intro i
    obtain ⟨e', rfl⟩ : ∃ e' : Fin 3200000, i = ix1 e' := ⟨i 0, eq_ix1 i⟩
    have h := hidx (ix2 0 e')
    rw [← hsrc e'] at h
    exact h
  refine (congrArg (fun f : S8x3200000.Idx → EReal => f (ix2 k e)) (v54_kept m ρ c)).trans ?_
  refine (congrFun (after22_v54 (W12 (F := Ideal) m ρ c)) (ix2 k e)).trans ?_
  refine (takeTerm_apply _ _ hw k e).trans ?_
  refine (congrArg (fun w : BitVec 32 => (W12 (F := Ideal) m ρ c (Proc.devRef .tc main_v52) : S8x100000.Idx → EReal) (ix2 k (Cert.Spec.nodeOf w))) (hsrc e)).trans ?_
  refine (congrArg (fun f : S8x100000.Idx → EReal => f (ix2 k (Cert.Spec.nodeOf (EI m c (ix2 0 e))))) (v52_kept12 m ρ c).symm).trans ?_
  exact hprev k _

end Readings

/-! ## The layer -/

/-- THE THIRD LAYER. With the previous layer's result `X` in the table the two gathers read (channel-major), the
    region's output array the perceptron of its nine window arrays, and every index word a node number, the
    program's last array holds at `(n, k)` zero plus the sum, over the edges whose target word is `n`, of the
    edge's message: the layer of the specification. -/
theorem layer2 (c : Dev nD)
    (hidx : ∀ i, 0 ≤ ((m ((c : Thread nD τ).loc main_arg1) : S2x3200000.Idx → BitVec 32) i).toInt ∧ ((m ((c : Thread nD τ).loc main_arg1) : S2x3200000.Idx → BitVec 32) i).toInt < 100000)
    (hr : ∀ (V : (c : Dev nD) → (b : Ref sig .tc) → Buf (Elt Ideal) ((c : Thread nD τ).loc b)) (c : Dev nD), ((Gen.dat2 (F := Ideal) V c).arrAt 9 cfg2.N : S1x3200000.Idx → EReal) = Cert.Spec.mlpT (C := 8) (M := 4) (O := 1) (T := 3200000) (V c main_v53) (V c main_v54) (V c main_v11) (V c main_v56) (V c main_v58) (V c main_v60) (V c main_v61) (V c main_v62) (V c main_v63))
    (X : (⟨2, ![100000, 8]⟩ : Shape).Idx → EReal) (hprev : ∀ (k : Fin 8) (n : Fin 100000), (Gen.W14 (F := Ideal) m ρ c (Proc.devRef .tc main_v52) : S8x100000.Idx → EReal) (ix2 k n) = X (ix2 n k)) :
    ∀ (n : Fin 100000) (k : Fin 1), (Gen.W16 (F := Ideal) m ρ c (Proc.devRef .tc main_v73) : S100000x1.Idx → EReal) (ix2 n k)
      = Cert.Spec.layer (C := 8) (M := 4) (O := 1) (K := 19) rfl X (Cert.Spec.enorm (m ((c : Thread nD τ).loc main_arg2))) (m ((c : Thread nD τ).loc main_arg1)) (m ((c : Thread nD τ).loc main_arg11)) (m ((c : Thread nD τ).loc main_arg12)) (m ((c : Thread nD τ).loc main_arg13)) (m ((c : Thread nD τ).loc main_arg14)) (ix2 n k) := by
  intro n k
  -- the index rows where the two gathers and the scatter read them
  have hdst11 : ∀ e : Fin 3200000, (W11 (F := Ideal) m ρ c (Proc.devRef .tc main_v3) : S3200000.Idx → BitVec 32) (ix1 e) = EI m c (ix2 1 e) :=
    fun e => KShared.dst_at_W11 m ρ c (ix1 e)
  have hsrc12 : ∀ e : Fin 3200000, (W12 (F := Ideal) m ρ c (Proc.devRef .tc main_v1) : S3200000.Idx → BitVec 32) (ix1 e) = EI m c (ix2 0 e) :=
    fun e => KShared.src_at_W12 m ρ c (ix1 e)
  have hdst15 : ∀ e : Fin 3200000, (W15 (F := Ideal) m ρ c (Proc.devRef .tc main_v3) : S3200000.Idx → BitVec 32) (ix1 e) = EI m c (ix2 1 e) :=
    fun e => KShared.dst_at_W15 m ρ c (ix1 e)
  have hnn : ∀ e : S3200000.Idx, 0 ≤ ((W15 (F := Ideal) m ρ c (Proc.devRef .tc main_v3) : S3200000.Idx → BitVec 32) e).toInt := by
    intro e
    obtain ⟨e', rfl⟩ : ∃ e' : Fin 3200000, e = ix1 e' := ⟨e 0, eq_ix1 e⟩
    have h : 0 ≤ (EI m c (ix2 1 e')).toInt := (hidx (ix2 1 e')).1
    rw [← hdst15 e'] at h
    exact h
  -- the region's output array at its exit is the perceptron of the nine arrays at its entry
  have harr : (W15 (F := Ideal) m ρ c (Proc.devRef .tc main_v64) : S1x3200000.Idx → EReal)
      = Cert.Spec.mlpT (C := 8) (M := 4) (O := 1) (T := 3200000) (V14 (F := Ideal) m ρ c main_v53) (V14 (F := Ideal) m ρ c main_v54)
          (V14 (F := Ideal) m ρ c main_v11) (V14 (F := Ideal) m ρ c main_v56) (V14 (F := Ideal) m ρ c main_v58) (V14 (F := Ideal) m ρ c main_v60)
          (V14 (F := Ideal) m ρ c main_v61) (V14 (F := Ideal) m ρ c main_v62) (V14 (F := Ideal) m ρ c main_v63) :=
    (W15_arr m ρ c 9).trans (hr (V14 (F := Ideal) m ρ) c)
  have key := Cert.SpecGlue.layer_of_sum (C := 8) (M := 4) (O := 1) (K := 19) rfl X
    (Cert.Spec.enorm (m ((c : Thread nD τ).loc main_arg2))) (EI m c)
    (m ((c : Thread nD τ).loc main_arg11)) (m ((c : Thread nD τ).loc main_arg12)) (m ((c : Thread nD τ).loc main_arg13)) (m ((c : Thread nD τ).loc main_arg14))
    (V14 (F := Ideal) m ρ c main_v53) (V14 (F := Ideal) m ρ c main_v54) (V14 (F := Ideal) m ρ c main_v11)
    (V14 (F := Ideal) m ρ c main_v56) (V14 (F := Ideal) m ρ c main_v58) (V14 (F := Ideal) m ρ c main_v60)
    (V14 (F := Ideal) m ρ c main_v61) (V14 (F := Ideal) m ρ c main_v62) (V14 (F := Ideal) m ρ c main_v63)
    (xd_at m ρ c hidx hdst11 X hprev) (xs_at m ρ c hidx hsrc12 X hprev) (KShared.eT_at_W14 m ρ c)
    (KLayer2W.wd_at m ρ c) (KLayer2W.ws_at m ρ c) (KLayer2W.we_at m ρ c) (KLayer2W.b1_at m ρ c) (KLayer2W.w2_at m ρ c) (KLayer2W.b2_at m ρ c) n k
  refine Eq.trans ?_ key
  refine (KLayer2S.out_at m ρ c hnn n k).trans ?_
  refine congrArg (fun s : EReal => Cert.Spec.zero32 + s) ?_
  refine Finset.sum_congr ?_ fun e _ => ?_
  · exact Finset.filter_congr fun e _ => iff_of_eq (congrArg (fun w : BitVec 32 => w.toInt = (n.val : ℤ)) (hdst15 e))
  · exact congrFun harr (ix2 k e)

end Cert.KernelIdeal.KLayer2

end
-- ==== Proof.RefOps.lean ====
/- The reference program's operations as lists: @main's 151 StableHLO operations in order, each call of @elu / @elu_1
    (and, inside it, of @_where…) replaced by the callee's operations over that call's own buffer record. The list is cut
    into 7 consecutive pieces: at the end of each printed window of @main, before every concatenate, after every
    scatter-add. Per piece: the list, the references it writes, and that every buffer it touches is a TensorCore reference. -/
import proofs.«409580_j89481348645420_1_alg».proof.ReferenceIdeal
import proofs.«409580_j89481348645420_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 31 of 151. -/
abbrev ops0 : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),  -- %0 = stablehlo.slice %arg1 [0:1, 0:3200000] : (tensor<2x3200000xi32>) -> tensor<1x3200000xi32>
    StableHlo.reshape main_v0 main_v1 rfl shapeCasts_S1x3200000_S3200000,  -- %1 = stablehlo.reshape %0 : (tensor<1x3200000xi32>) -> tensor<3200000xi32>
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),  -- %2 = stablehlo.slice %arg1 [1:2, 0:3200000] : (tensor<2x3200000xi32>) -> tensor<1x3200000xi32>
    StableHlo.reshape main_v2 main_v3 rfl shapeCasts_S1x3200000_S3200000,  -- %3 = stablehlo.reshape %2 : (tensor<1x3200000xi32>) -> tensor<3200000xi32>
    StableHlo.binary main_arg2 main_arg2 main_v4 (mulf : (⟨S3200000x3, .f32⟩ : BufTy).Contents (Elt F) → (⟨S3200000x3, .f32⟩ : BufTy).Contents (Elt F) → (⟨S3200000x3, .f32⟩ : BufTy).Contents (Elt F)),  -- %4 = stablehlo.multiply %arg2, %arg2 : tensor<3200000x3xf32>
    StableHlo.nullary main_cst (constant S_ .f32 0x00000000#32),  -- %cst = stablehlo.constant dense<0.000000e+00> : tensor<f32>
    StableHlo.binary main_v4 main_cst main_v5 ((fun x v => Host.reduceAdd x v reducesTo_S3200000x3_S3200000_d1 h_S_) : (⟨S3200000x3, .f32⟩ : BufTy).Contents (Elt F) → (⟨S_, .f32⟩ : BufTy).Contents (Elt F) → (⟨S3200000, .f32⟩ : BufTy).Contents (Elt F)),  -- %5 = stablehlo.reduce(%4 init: %cst) applies stablehlo.add across dimensions = [1] : (tensor<320 …
    StableHlo.unary main_v5 main_v6 (broadcastInDim S3200000x1 ![0] bcast_S3200000_S3200000x1_0 : (⟨S3200000, .f32⟩ : BufTy).Contents (Elt F) → (⟨S3200000x1, .f32⟩ : BufTy).Contents (Elt F)),  -- %6 = stablehlo.broadcast_in_dim %5, dims = [0] : (tensor<3200000xf32>) -> tensor<3200000x1xf32>
    StableHlo.nullary main_cst_0 (constant S_ .f32 0x322BCC77#32),  -- %cst_0 = stablehlo.constant dense<9.99999993E-9> : tensor<f32>
    StableHlo.unary main_cst_0 main_v7 (broadcastInDim S3200000x1 ![] bcast_S_S3200000x1 : (⟨S_, .f32⟩ : BufTy).Contents (Elt F) → (⟨S3200000x1, .f32⟩ : BufTy).Contents (Elt F)),  -- %7 = stablehlo.broadcast_in_dim %cst_0, dims = [] : (tensor<f32>) -> tensor<3200000x1xf32>
    StableHlo.binary main_v6 main_v7 main_v8 (addf : (⟨S3200000x1, .f32⟩ : BufTy).Contents (Elt F) → (⟨S3200000x1, .f32⟩ : BufTy).Contents (Elt F) → (⟨S3200000x1, .f32⟩ : BufTy).Contents (Elt F)),  -- %8 = stablehlo.add %6, %7 : tensor<3200000x1xf32>
    StableHlo.unary main_v8 main_v9 (broadcastInDim S3200000x3 ![0, 1] bcast_S3200000x1_S3200000x3_0_1 : (⟨S3200000x1, .f32⟩ : BufTy).Contents (Elt F) → (⟨S3200000x3, .f32⟩ : BufTy).Contents (Elt F)),  -- %9 = stablehlo.broadcast_in_dim %8, dims = [0, 1] : (tensor<3200000x1xf32>) -> tensor<3200000x3x …
    StableHlo.binary main_arg2 main_v9 main_v10 (Host.divf : (⟨S3200000x3, .f32⟩ : BufTy).Contents (Elt F) → (⟨S3200000x3, .f32⟩ : BufTy).Contents (Elt F) → (⟨S3200000x3, .f32⟩ : BufTy).Contents (Elt F)),  -- %10 = stablehlo.divide %arg2, %9 : tensor<3200000x3xf32>
    StableHlo.nullary main_c (constantI S_ 32 0#32),  -- %c = stablehlo.constant dense<0> : tensor<i32>
    StableHlo.unary main_c main_v11 (broadcastInDim S3200000 ![] bcast_S_S3200000 : (⟨S_, .i32⟩ : BufTy).Contents (Elt F) → (⟨S3200000, .i32⟩ : BufTy).Contents (Elt F)),  -- %11 = stablehlo.broadcast_in_dim %c, dims = [] : (tensor<i32>) -> tensor<3200000xi32>
    StableHlo.binary main_v3 main_v11 main_v12 (cmpi .slt : (⟨S3200000, .i32⟩ : BufTy).Contents (Elt F) → (⟨S3200000, .i32⟩ : BufTy).Contents (Elt F) → (⟨S3200000, .i1⟩ : BufTy).Contents (Elt F)),  -- %12 = stablehlo.compare LT, %3, %11, SIGNED : (tensor<3200000xi32>, tensor<3200000xi32>) -> tens …
    StableHlo.nullary main_c_1 (constantI S_ 32 100000#32),  -- %c_1 = stablehlo.constant dense<100000> : tensor<i32>
    StableHlo.unary main_c_1 main_v13 (broadcastInDim S3200000 ![] bcast_S_S3200000 : (⟨S_, .i32⟩ : BufTy).Contents (Elt F) → (⟨S3200000, .i32⟩ : BufTy).Contents (Elt F)),  -- %13 = stablehlo.broadcast_in_dim %c_1, dims = [] : (tensor<i32>) -> tensor<3200000xi32>
    StableHlo.binary main_v3 main_v13 main_v14 (addi : (⟨S3200000, .i32⟩ : BufTy).Contents (Elt F) → (⟨S3200000, .i32⟩ : BufTy).Contents (Elt F) → (⟨S3200000, .i32⟩ : BufTy).Contents (Elt F)),  -- %14 = stablehlo.add %3, %13 : tensor<3200000xi32>
    StableHlo.ternary main_v12 main_v14 main_v3 main_v15 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),  -- %15 = stablehlo.select %12, %14, %3 : tensor<3200000xi1>, tensor<3200000xi32>
    StableHlo.unary main_v15 main_v16 (broadcastInDim S3200000x1 ![0] bcast_S3200000_S3200000x1_0 : (⟨S3200000, .i32⟩ : BufTy).Contents (Elt F) → (⟨S3200000x1, .i32⟩ : BufTy).Contents (Elt F)),  -- %16 = stablehlo.broadcast_in_dim %15, dims = [0] : (tensor<3200000xi32>) -> tensor<3200000x1xi32 …
    StableHlo.binary main_arg0 main_v16 main_v17 ((fun x i => Host.gather gather_S100000x4_S3200000x1_S3200000x4_1_0_n_n_0_1_14 x i) : (⟨S100000x4, .f32⟩ : BufTy).Contents (Elt F) → (⟨S3200000x1, .i32⟩ : BufTy).Contents (Elt F) → (⟨S3200000x4, .f32⟩ : BufTy).Contents (Elt F)),  -- %17 = "stablehlo.gather"(%arg0, %16) <{dimension_numbers = #stablehlo.gather<offset_dims = [1],  …
    StableHlo.nullary main_c_2 (constantI S_ 32 0#32),  -- %c_2 = stablehlo.constant dense<0> : tensor<i32>
    StableHlo.unary main_c_2 main_v18 (broadcastInDim S3200000 ![] bcast_S_S3200000 : (⟨S_, .i32⟩ : BufTy).Contents (Elt F) → (⟨S3200000, .i32⟩ : BufTy).Contents (Elt F)),  -- %18 = stablehlo.broadcast_in_dim %c_2, dims = [] : (tensor<i32>) -> tensor<3200000xi32>
    StableHlo.binary main_v1 main_v18 main_v19 (cmpi .slt : (⟨S3200000, .i32⟩ : BufTy).Contents (Elt F) → (⟨S3200000, .i32⟩ : BufTy).Contents (Elt F) → (⟨S3200000, .i1⟩ : BufTy).Contents (Elt F)),  -- %19 = stablehlo.compare LT, %1, %18, SIGNED : (tensor<3200000xi32>, tensor<3200000xi32>) -> tens …
    StableHlo.nullary main_c_3 (constantI S_ 32 100000#32),  -- %c_3 = stablehlo.constant dense<100000> : tensor<i32>
    StableHlo.unary main_c_3 main_v20 (broadcastInDim S3200000 ![] bcast_S_S3200000 : (⟨S_, .i32⟩ : BufTy).Contents (Elt F) → (⟨S3200000, .i32⟩ : BufTy).Contents (Elt F)),  -- %20 = stablehlo.broadcast_in_dim %c_3, dims = [] : (tensor<i32>) -> tensor<3200000xi32>
    StableHlo.binary main_v1 main_v20 main_v21 (addi : (⟨S3200000, .i32⟩ : BufTy).Contents (Elt F) → (⟨S3200000, .i32⟩ : BufTy).Contents (Elt F) → (⟨S3200000, .i32⟩ : BufTy).Contents (Elt F)),  -- %21 = stablehlo.add %1, %20 : tensor<3200000xi32>
    StableHlo.ternary main_v19 main_v21 main_v1 main_v22 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),  -- %22 = stablehlo.select %19, %21, %1 : tensor<3200000xi1>, tensor<3200000xi32>
    StableHlo.unary main_v22 main_v23 (broadcastInDim S3200000x1 ![0] bcast_S3200000_S3200000x1_0 : (⟨S3200000, .i32⟩ : BufTy).Contents (Elt F) → (⟨S3200000x1, .i32⟩ : BufTy).Contents (Elt F)),  -- %23 = stablehlo.broadcast_in_dim %22, dims = [0] : (tensor<3200000xi32>) -> tensor<3200000x1xi32 …
    StableHlo.binary main_arg0 main_v23 main_v24 ((fun x i => Host.gather gather_S100000x4_S3200000x1_S3200000x4_1_0_n_n_0_1_14 x i) : (⟨S100000x4, .f32⟩ : BufTy).Contents (Elt F) → (⟨S3200000x1, .i32⟩ : BufTy).Contents (Elt F) → (⟨S3200000x4, .f32⟩ : BufTy).Contents (Elt F)) ]  -- %24 = "stablehlo.gather"(%arg0, %23) <{dimension_numbers = #stablehlo.gather<offset_dims = [1],  …

/-- The references operations 1 … 31 write, in order. -/
abbrev ops0_W : List (Ref sig .tc) :=
  [main_v0, main_v1, main_v2, main_v3, main_v4, main_cst, main_v5, main_v6, main_cst_0, main_v7, main_v8, main_v9, main_v10, main_c, main_v11, main_v12, main_c_1, main_v13, main_v14, main_v15, main_v16, main_v17, main_c_2, main_v18, main_v19, main_c_3, main_v20, main_v21, main_v22, main_v23, main_v24]

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- Operations 32 … 59 of 151. -/
abbrev ops1 : List (HloOp τ sig (Elt F)) :=
  [ StableHlo.nary ![main_v17, main_v24, main_v10] main_v25 (fun u => concatenate S3200000x11 1 [⟨S3200000x4, u 0⟩, ⟨S3200000x4, u 1⟩, ⟨S3200000x3, u 2⟩] concatenates_S3200000x4_S3200000x4_S3200000x3_S3200000x11_d1),  -- %25 = stablehlo.concatenate %17, %24, %10, dim = 1 : (tensor<3200000x4xf32>, tensor<3200000x4xf3 …
    StableHlo.binary main_v25 main_arg3 main_v26 ((fun l r => Host.dotGeneral dot_S3200000x11_S11x4_S3200000x4_1_0_0_1_n_n none l r) : (⟨S3200000x11, .f32⟩ : BufTy).Contents (Elt F) → (⟨S11x4, .f32⟩ : BufTy).Contents (Elt F) → (⟨S3200000x4, .f32⟩ : BufTy).Contents (Elt F)),  -- %26 = stablehlo.dot_general %25, %arg3, contracting_dims = [1] x [0], precision = [DEFAULT, DEFA …
    StableHlo.unary main_arg4 main_v27 (broadcastInDim S1x4 ![1] bcast_S4_S1x4_1 : (⟨S4, .f32⟩ : BufTy).Contents (Elt F) → (⟨S1x4, .f32⟩ : BufTy).Contents (Elt F)),  -- %27 = stablehlo.broadcast_in_dim %arg4, dims = [1] : (tensor<4xf32>) -> tensor<1x4xf32>
    StableHlo.unary main_v27 main_v28 (broadcastInDim S3200000x4 ![0, 1] bcast_S1x4_S3200000x4_0_1 : (⟨S1x4, .f32⟩ : BufTy).Contents (Elt F) → (⟨S3200000x4, .f32⟩ : BufTy).Contents (Elt F)),  -- %28 = stablehlo.broadcast_in_dim %27, dims = [0, 1] : (tensor<1x4xf32>) -> tensor<3200000x4xf32>
    StableHlo.binary main_v26 main_v28 main_v29 (addf : (⟨S3200000x4, .f32⟩ : BufTy).Contents (Elt F) → (⟨S3200000x4, .f32⟩ : BufTy).Contents (Elt F) → (⟨S3200000x4, .f32⟩ : BufTy).Contents (Elt F)),  -- %29 = stablehlo.add %26, %28 : tensor<3200000x4xf32>
    StableHlo.TRef.nullary main_call0.cst (constant S_ .f32 0x00000000#32),  -- @elu's %cst = stablehlo.constant dense<0.000000e+00> : tensor<f32>
    StableHlo.TRef.unary main_call0.cst main_call0.v0 (broadcastInDim S3200000x4 ![] bcast_S_S3200000x4),  -- @elu's %0 = stablehlo.broadcast_in_dim %cst, dims = [] : (tensor<f32>) -> tensor<3200000x4xf32>
    StableHlo.TRef.binary (.of main_v29 : StableHlo.TRef sig ⟨S3200000x4, .f32⟩) main_call0.v0 main_call0.v1 (cmpf .ogt),  -- @elu's %1 = stablehlo.compare GT, %arg0, %0, FLOAT : (tensor<3200000x4xf32>, tensor<3200000x4xf3 …
    StableHlo.TRef.nullary main_call0.cst_0 (constant S_ .f32 0x00000000#32),  -- @elu's %cst_0 = stablehlo.constant dense<0.000000e+00> : tensor<f32>
    StableHlo.TRef.unary main_call0.cst_0 main_call0.v2 (broadcastInDim S3200000x4 ![] bcast_S_S3200000x4),  -- @elu's %2 = stablehlo.broadcast_in_dim %cst_0, dims = [] : (tensor<f32>) -> tensor<3200000x4xf32 …
    StableHlo.TRef.binary (.of main_v29 : StableHlo.TRef sig ⟨S3200000x4, .f32⟩) main_call0.v2 main_call0.v3 (cmpf .ogt),  -- @elu's %3 = stablehlo.compare GT, %arg0, %2, FLOAT : (tensor<3200000x4xf32>, tensor<3200000x4xf3 …
    StableHlo.TRef.nullary main_call0.cst_1 (constant S_ .f32 0x00000000#32),  -- @elu's %cst_1 = stablehlo.constant dense<0.000000e+00> : tensor<f32>
    StableHlo.TRef.unary main_call0.cst_1 main_call0.call0.v0 id,  -- @_where's %0 = stablehlo.convert %arg1 : tensor<f32>
    StableHlo.TRef.unary main_call0.call0.v0 main_call0.call0.v1 (broadcastInDim S3200000x4 ![] bcast_S_S3200000x4),  -- @_where's %1 = stablehlo.broadcast_in_dim %0, dims = [] : (tensor<f32>) -> tensor<3200000x4xf32>
    StableHlo.TRef.ternary main_call0.v3 main_call0.call0.v1 (.of main_v29 : StableHlo.TRef sig ⟨S3200000x4, .f32⟩) main_call0.call0.v2 select,  -- @_where's %2 = stablehlo.select %arg0, %1, %arg2 : tensor<3200000x4xi1>, tensor<3200000x4xf32>
    StableHlo.TRef.unary main_call0.call0.v2 main_call0.v5 Host.expm1,  -- @elu's %5 = stablehlo.exponential_minus_one %4 : tensor<3200000x4xf32>
    StableHlo.TRef.nullary main_call0.cst_2 (constant S_ .f32 0x3F800000#32),  -- @elu's %cst_2 = stablehlo.constant dense<1.000000e+00> : tensor<f32>
    StableHlo.TRef.unary main_call0.cst_2 main_call0.v6 (broadcastInDim S3200000x4 ![] bcast_S_S3200000x4),  -- @elu's %6 = stablehlo.broadcast_in_dim %cst_2, dims = [] : (tensor<f32>) -> tensor<3200000x4xf32 …
    StableHlo.TRef.binary main_call0.v6 main_call0.v5 main_call0.v7 mulf,  -- @elu's %7 = stablehlo.multiply %6, %5 : tensor<3200000x4xf32>
    StableHlo.TRef.ternary main_call0.v1 (.of main_v29 : StableHlo.TRef sig ⟨S3200000x4, .f32⟩) main_call0.v7 main_call0.call1.v0 select,  -- @_where_0's %0 = stablehlo.select %arg0, %arg1, %arg2 : tensor<3200000x4xi1>, tensor<3200000x4xf …
    StableHlo.binary main_v30 main_arg5 main_v31 ((fun l r => Host.dotGeneral dot_S3200000x4_S4x8_S3200000x8_1_0_0_1_n_n none l r) : (⟨S3200000x4, .f32⟩ : BufTy).Contents (Elt F) → (⟨S4x8, .f32⟩ : BufTy).Contents (Elt F) → (⟨S3200000x8, .f32⟩ : BufTy).Contents (Elt F)),  -- %31 = stablehlo.dot_general %30, %arg5, contracting_dims = [1] x [0], precision = [DEFAULT, DEFA …
    StableHlo.unary main_arg6 main_v32 (broadcastInDim S1x8 ![1] bcast_S8_S1x8_1 : (⟨S8, .f32⟩ : BufTy).Contents (Elt F) → (⟨S1x8, .f32⟩ : BufTy).Contents (Elt F)),  -- %32 = stablehlo.broadcast_in_dim %arg6, dims = [1] : (tensor<8xf32>) -> tensor<1x8xf32>
    StableHlo.unary main_v32 main_v33 (broadcastInDim S3200000x8 ![0, 1] bcast_S1x8_S3200000x8_0_1 : (⟨S1x8, .f32⟩ : BufTy).Contents (Elt F) → (⟨S3200000x8, .f32⟩ : BufTy).Contents (Elt F)),  -- %33 = stablehlo.broadcast_in_dim %32, dims = [0, 1] : (tensor<1x8xf32>) -> tensor<3200000x8xf32>
    StableHlo.binary main_v31 main_v33 main_v34 (addf : (⟨S3200000x8, .f32⟩ : BufTy).Contents (Elt F) → (⟨S3200000x8, .f32⟩ : BufTy).Contents (Elt F) → (⟨S3200000x8, .f32⟩ : BufTy).Contents (Elt F)),  -- %34 = stablehlo.add %31, %33 : tensor<3200000x8xf32>
    StableHlo.nullary main_cst_4 (constant S_ .f32 0x00000000#32),  -- %cst_4 = stablehlo.constant dense<0.000000e+00> : tensor<f32>
    StableHlo.unary main_cst_4 main_v35 (broadcastInDim S100000x8 ![] bcast_S_S100000x8 : (⟨S_, .f32⟩ : BufTy).Contents (Elt F) → (⟨S100000x8, .f32⟩ : BufTy).Contents (Elt F)),  -- %35 = stablehlo.broadcast_in_dim %cst_4, dims = [] : (tensor<f32>) -> tensor<100000x8xf32>
    StableHlo.unary main_v3 main_v36 (broadcastInDim S3200000x1 ![0] bcast_S3200000_S3200000x1_0 : (⟨S3200000, .i32⟩ : BufTy).Contents (Elt F) → (⟨S3200000x1, .i32⟩ : BufTy).Contents (Elt F)),  -- %36 = stablehlo.broadcast_in_dim %3, dims = [0] : (tensor<3200000xi32>) -> tensor<3200000x1xi32>
    StableHlo.ternary main_v35 main_v36 main_v34 main_v37 ((fun x i u => Host.scatterAdd scatter_S100000x8_S3200000x1_S3200000x8_1_0_0_1 x i u) : (⟨S100000x8, .f32⟩ : BufTy).Contents (Elt F) → (⟨S3200000x1, .i32⟩ : BufTy).Contents (Elt F) → (⟨S3200000x8, .f32⟩ : BufTy).Contents (Elt F) → (⟨S100000x8, .f32⟩ : BufTy).Contents (Elt F)) ]  -- %37 = "stablehlo.scatter"(%35, %36, %34) <{indices_are_sorted = false, scatter_dimension_numbers …

/-- The references operations 32 … 59 write, in order. -/
abbrev ops1_W : List (Ref sig .tc) :=
  [main_v25, main_v26, main_v27, main_v28, main_v29, main_call0.cst.ref, main_call0.v0.ref, main_call0.v1.ref, main_call0.cst_0.ref, main_call0.v2.ref, main_call0.v3.ref, main_call0.cst_1.ref, main_call0.call0.v0.ref, main_call0.call0.v1.ref, main_call0.call0.v2.ref, main_call0.v5.ref, main_call0.cst_2.ref, main_call0.v6.ref, main_call0.v7.ref, main_call0.call1.v0.ref, main_v31, main_v32, main_v33, main_v34, main_cst_4, main_v35, main_v36, main_v37]

theorem ops1_sub : (ops1 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., unary_bufs_sub .., unary_bufs_sub .., ternary_bufs_sub ..⟩

/-- Operations 60 … 74 of 151. -/
abbrev ops2 : List (HloOp τ sig (Elt F)) :=
  [ StableHlo.nullary main_c_5 (constantI S_ 32 0#32),  -- %c_5 = stablehlo.constant dense<0> : tensor<i32>
    StableHlo.unary main_c_5 main_v38 (broadcastInDim S3200000 ![] bcast_S_S3200000 : (⟨S_, .i32⟩ : BufTy).Contents (Elt F) → (⟨S3200000, .i32⟩ : BufTy).Contents (Elt F)),  -- %38 = stablehlo.broadcast_in_dim %c_5, dims = [] : (tensor<i32>) -> tensor<3200000xi32>
    StableHlo.binary main_v3 main_v38 main_v39 (cmpi .slt : (⟨S3200000, .i32⟩ : BufTy).Contents (Elt F) → (⟨S3200000, .i32⟩ : BufTy).Contents (Elt F) → (⟨S3200000, .i1⟩ : BufTy).Contents (Elt F)),  -- %39 = stablehlo.compare LT, %3, %38, SIGNED : (tensor<3200000xi32>, tensor<3200000xi32>) -> tens …
    StableHlo.nullary main_c_6 (constantI S_ 32 100000#32),  -- %c_6 = stablehlo.constant dense<100000> : tensor<i32>
    StableHlo.unary main_c_6 main_v40 (broadcastInDim S3200000 ![] bcast_S_S3200000 : (⟨S_, .i32⟩ : BufTy).Contents (Elt F) → (⟨S3200000, .i32⟩ : BufTy).Contents (Elt F)),  -- %40 = stablehlo.broadcast_in_dim %c_6, dims = [] : (tensor<i32>) -> tensor<3200000xi32>
    StableHlo.binary main_v3 main_v40 main_v41 (addi : (⟨S3200000, .i32⟩ : BufTy).Contents (Elt F) → (⟨S3200000, .i32⟩ : BufTy).Contents (Elt F) → (⟨S3200000, .i32⟩ : BufTy).Contents (Elt F)),  -- %41 = stablehlo.add %3, %40 : tensor<3200000xi32>
    StableHlo.ternary main_v39 main_v41 main_v3 main_v42 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),  -- %42 = stablehlo.select %39, %41, %3 : tensor<3200000xi1>, tensor<3200000xi32>
    StableHlo.unary main_v42 main_v43 (broadcastInDim S3200000x1 ![0] bcast_S3200000_S3200000x1_0 : (⟨S3200000, .i32⟩ : BufTy).Contents (Elt F) → (⟨S3200000x1, .i32⟩ : BufTy).Contents (Elt F)),  -- %43 = stablehlo.broadcast_in_dim %42, dims = [0] : (tensor<3200000xi32>) -> tensor<3200000x1xi32 …
    StableHlo.binary main_v37 main_v43 main_v44 ((fun x i => Host.gather gather_S100000x8_S3200000x1_S3200000x8_1_0_n_n_0_1_18 x i) : (⟨S100000x8, .f32⟩ : BufTy).Contents (Elt F) → (⟨S3200000x1, .i32⟩ : BufTy).Contents (Elt F) → (⟨S3200000x8, .f32⟩ : BufTy).Contents (Elt F)),  -- %44 = "stablehlo.gather"(%37, %43) <{dimension_numbers = #stablehlo.gather<offset_dims = [1], co …
    StableHlo.nullary main_c_7 (constantI S_ 32 0#32),  -- %c_7 = stablehlo.constant dense<0> : tensor<i32>
    StableHlo.unary main_c_7 main_v45 (broadcastInDim S3200000 ![] bcast_S_S3200000 : (⟨S_, .i32⟩ : BufTy).Contents (Elt F) → (⟨S3200000, .i32⟩ : BufTy).Contents (Elt F)),  -- %45 = stablehlo.broadcast_in_dim %c_7, dims = [] : (tensor<i32>) -> tensor<3200000xi32>
    StableHlo.binary main_v1 main_v45 main_v46 (cmpi .slt : (⟨S3200000, .i32⟩ : BufTy).Contents (Elt F) → (⟨S3200000, .i32⟩ : BufTy).Contents (Elt F) → (⟨S3200000, .i1⟩ : BufTy).Contents (Elt F)),  -- %46 = stablehlo.compare LT, %1, %45, SIGNED : (tensor<3200000xi32>, tensor<3200000xi32>) -> tens …
    StableHlo.nullary main_c_8 (constantI S_ 32 100000#32),  -- %c_8 = stablehlo.constant dense<100000> : tensor<i32>
    StableHlo.unary main_c_8 main_v47 (broadcastInDim S3200000 ![] bcast_S_S3200000 : (⟨S_, .i32⟩ : BufTy).Contents (Elt F) → (⟨S3200000, .i32⟩ : BufTy).Contents (Elt F)),  -- %47 = stablehlo.broadcast_in_dim %c_8, dims = [] : (tensor<i32>) -> tensor<3200000xi32>
    StableHlo.binary main_v1 main_v47 main_v48 (addi : (⟨S3200000, .i32⟩ : BufTy).Contents (Elt F) → (⟨S3200000, .i32⟩ : BufTy).Contents (Elt F) → (⟨S3200000, .i32⟩ : BufTy).Contents (Elt F)) ]  -- %48 = stablehlo.add %1, %47 : tensor<3200000xi32>

/-- The references operations 60 … 74 write, in order. -/
abbrev ops2_W : List (Ref sig .tc) :=
  [main_c_5, main_v38, main_v39, main_c_6, main_v40, main_v41, main_v42, main_v43, main_v44, main_c_7, main_v45, main_v46, main_c_8, main_v47, main_v48]

theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub ..⟩

/-- Operations 75 … 77 of 151. -/
abbrev ops3 : List (HloOp τ sig (Elt F)) :=
  [ StableHlo.ternary main_v46 main_v48 main_v1 main_v49 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),  -- %49 = stablehlo.select %46, %48, %1 : tensor<3200000xi1>, tensor<3200000xi32>
    StableHlo.unary main_v49 main_v50 (broadcastInDim S3200000x1 ![0] bcast_S3200000_S3200000x1_0 : (⟨S3200000, .i32⟩ : BufTy).Contents (Elt F) → (⟨S3200000x1, .i32⟩ : BufTy).Contents (Elt F)),  -- %50 = stablehlo.broadcast_in_dim %49, dims = [0] : (tensor<3200000xi32>) -> tensor<3200000x1xi32 …
    StableHlo.binary main_v37 main_v50 main_v51 ((fun x i => Host.gather gather_S100000x8_S3200000x1_S3200000x8_1_0_n_n_0_1_18 x i) : (⟨S100000x8, .f32⟩ : BufTy).Contents (Elt F) → (⟨S3200000x1, .i32⟩ : BufTy).Contents (Elt F) → (⟨S3200000x8, .f32⟩ : BufTy).Contents (Elt F)) ]  -- %51 = "stablehlo.gather"(%37, %50) <{dimension_numbers = #stablehlo.gather<offset_dims = [1], co …

/-- The references operations 75 … 77 write, in order. -/
abbrev ops3_W : List (Ref sig .tc) :=
  [main_v49, main_v50, main_v51]

theorem ops3_sub : (ops3 : List (HloOp τ sig (Elt F))).Forall fun op => op.bufs ⊆ tcRefs τ sig :=
  ⟨ternary_bufs_sub .., unary_bufs_sub .., binary_bufs_sub ..⟩

/-- Operations 78 … 105 of 151. -/
abbrev ops4 : List (HloOp τ sig (Elt F)) :=
  [ StableHlo.nary ![main_v44, main_v51, main_v10] main_v52 (fun u => concatenate S3200000x19 1 [⟨S3200000x8, u 0⟩, ⟨S3200000x8, u 1⟩, ⟨S3200000x3, u 2⟩] concatenates_S3200000x8_S3200000x8_S3200000x3_S3200000x19_d1),  -- %52 = stablehlo.concatenate %44, %51, %10, dim = 1 : (tensor<3200000x8xf32>, tensor<3200000x8xf3 …
    StableHlo.binary main_v52 main_arg7 main_v53 ((fun l r => Host.dotGeneral dot_S3200000x19_S19x8_S3200000x8_1_0_0_1_n_n none l r) : (⟨S3200000x19, .f32⟩ : BufTy).Contents (Elt F) → (⟨S19x8, .f32⟩ : BufTy).Contents (Elt F) → (⟨S3200000x8, .f32⟩ : BufTy).Contents (Elt F)),  -- %53 = stablehlo.dot_general %52, %arg7, contracting_dims = [1] x [0], precision = [DEFAULT, DEFA …
    StableHlo.unary main_arg8 main_v54 (broadcastInDim S1x8 ![1] bcast_S8_S1x8_1 : (⟨S8, .f32⟩ : BufTy).Contents (Elt F) → (⟨S1x8, .f32⟩ : BufTy).Contents (Elt F)),  -- %54 = stablehlo.broadcast_in_dim %arg8, dims = [1] : (tensor<8xf32>) -> tensor<1x8xf32>
    StableHlo.unary main_v54 main_v55 (broadcastInDim S3200000x8 ![0, 1] bcast_S1x8_S3200000x8_0_1 : (⟨S1x8, .f32⟩ : BufTy).Contents (Elt F) → (⟨S3200000x8, .f32⟩ : BufTy).Contents (Elt F)),  -- %55 = stablehlo.broadcast_in_dim %54, dims = [0, 1] : (tensor<1x8xf32>) -> tensor<3200000x8xf32>
    StableHlo.binary main_v53 main_v55 main_v56 (addf : (⟨S3200000x8, .f32⟩ : BufTy).Contents (Elt F) → (⟨S3200000x8, .f32⟩ : BufTy).Contents (Elt F) → (⟨S3200000x8, .f32⟩ : BufTy).Contents (Elt F)),  -- %56 = stablehlo.add %53, %55 : tensor<3200000x8xf32>
    StableHlo.TRef.nullary main_call1.cst (constant S_ .f32 0x00000000#32),  -- @elu_1's %cst = stablehlo.constant dense<0.000000e+00> : tensor<f32>
    StableHlo.TRef.unary main_call1.cst main_call1.v0 (broadcastInDim S3200000x8 ![] bcast_S_S3200000x8),  -- @elu_1's %0 = stablehlo.broadcast_in_dim %cst, dims = [] : (tensor<f32>) -> tensor<3200000x8xf32 …
    StableHlo.TRef.binary (.of main_v56 : StableHlo.TRef sig ⟨S3200000x8, .f32⟩) main_call1.v0 main_call1.v1 (cmpf .ogt),  -- @elu_1's %1 = stablehlo.compare GT, %arg0, %0, FLOAT : (tensor<3200000x8xf32>, tensor<3200000x8x …
    StableHlo.TRef.nullary main_call1.cst_0 (constant S_ .f32 0x00000000#32),  -- @elu_1's %cst_0 = stablehlo.constant dense<0.000000e+00> : tensor<f32>
    StableHlo.TRef.unary main_call1.cst_0 main_call1.v2 (broadcastInDim S3200000x8 ![] bcast_S_S3200000x8),  -- @elu_1's %2 = stablehlo.broadcast_in_dim %cst_0, dims = [] : (tensor<f32>) -> tensor<3200000x8xf …
    StableHlo.TRef.binary (.of main_v56 : StableHlo.TRef sig ⟨S3200000x8, .f32⟩) main_call1.v2 main_call1.v3 (cmpf .ogt),  -- @elu_1's %3 = stablehlo.compare GT, %arg0, %2, FLOAT : (tensor<3200000x8xf32>, tensor<3200000x8x …
    StableHlo.TRef.nullary main_call1.cst_1 (constant S_ .f32 0x00000000#32),  -- @elu_1's %cst_1 = stablehlo.constant dense<0.000000e+00> : tensor<f32>
    StableHlo.TRef.unary main_call1.cst_1 main_call1.call0.v0 id,  -- @_where_2's %0 = stablehlo.convert %arg1 : tensor<f32>
    StableHlo.TRef.unary main_call1.call0.v0 main_call1.call0.v1 (broadcastInDim S3200000x8 ![] bcast_S_S3200000x8),  -- @_where_2's %1 = stablehlo.broadcast_in_dim %0, dims = [] : (tensor<f32>) -> tensor<3200000x8xf3 …
    StableHlo.TRef.ternary main_call1.v3 main_call1.call0.v1 (.of main_v56 : StableHlo.TRef sig ⟨S3200000x8, .f32⟩) main_call1.call0.v2 select,  -- @_where_2's %2 = stablehlo.select %arg0, %1, %arg2 : tensor<3200000x8xi1>, tensor<3200000x8xf32>
    StableHlo.TRef.unary main_call1.call0.v2 main_call1.v5 Host.expm1,  -- @elu_1's %5 = stablehlo.exponential_minus_one %4 : tensor<3200000x8xf32>
    StableHlo.TRef.nullary main_call1.cst_2 (constant S_ .f32 0x3F800000#32),  -- @elu_1's %cst_2 = stablehlo.constant dense<1.000000e+00> : tensor<f32>
    StableHlo.TRef.unary main_call1.cst_2 main_call1.v6 (broadcastInDim S3200000x8 ![] bcast_S_S3200000x8),  -- @elu_1's %6 = stablehlo.broadcast_in_dim %cst_2, dims = [] : (tensor<f32>) -> tensor<3200000x8xf …
    StableHlo.TRef.binary main_call1.v6 main_call1.v5 main_call1.v7 mulf,  -- @elu_1's %7 = stablehlo.multiply %6, %5 : tensor<3200000x8xf32>
    StableHlo.TRef.ternary main_call1.v1 (.of main_v56 : StableHlo.TRef sig ⟨S3200000x8, .f32⟩) main_call1.v7 main_call1.call1.v0 select,  -- @_where_3's %0 = stablehlo.select %arg0, %arg1, %arg2 : tensor<3200000x8xi1>, tensor<3200000x8xf …
    StableHlo.binary main_v57 main_arg9 main_v58 ((fun l r => Host.dotGeneral dot_S3200000x8_S8x8_S3200000x8_1_0_0_1_n_n none l r) : (⟨S3200000x8, .f32⟩ : BufTy).Contents (Elt F) → (⟨S8x8, .f32⟩ : BufTy).Contents (Elt F) → (⟨S3200000x8, .f32⟩ : BufTy).Contents (Elt F)),  -- %58 = stablehlo.dot_general %57, %arg9, contracting_dims = [1] x [0], precision = [DEFAULT, DEFA …
    StableHlo.unary main_arg10 main_v59 (broadcastInDim S1x8 ![1] bcast_S8_S1x8_1 : (⟨S8, .f32⟩ : BufTy).Contents (Elt F) → (⟨S1x8, .f32⟩ : BufTy).Contents (Elt F)),  -- %59 = stablehlo.broadcast_in_dim %arg10, dims = [1] : (tensor<8xf32>) -> tensor<1x8xf32>
    StableHlo.unary main_v59 main_v60 (broadcastInDim S3200000x8 ![0, 1] bcast_S1x8_S3200000x8_0_1 : (⟨S1x8, .f32⟩ : BufTy).Contents (Elt F) → (⟨S3200000x8, .f32⟩ : BufTy).Contents (Elt F)),  -- %60 = stablehlo.broadcast_in_dim %59, dims = [0, 1] : (tensor<1x8xf32>) -> tensor<3200000x8xf32>
    StableHlo.binary main_v58 main_v60 main_v61 (addf : (⟨S3200000x8, .f32⟩ : BufTy).Contents (Elt F) → (⟨S3200000x8, .f32⟩ : BufTy).Contents (Elt F) → (⟨S3200000x8, .f32⟩ : BufTy).Contents (Elt F)),  -- %61 = stablehlo.add %58, %60 : tensor<3200000x8xf32>
    StableHlo.nullary main_cst_9 (constant S_ .f32 0x00000000#32),  -- %cst_9 = stablehlo.constant dense<0.000000e+00> : tensor<f32>
    StableHlo.unary main_cst_9 main_v62 (broadcastInDim S100000x8 ![] bcast_S_S100000x8 : (⟨S_, .f32⟩ : BufTy).Contents (Elt F) → (⟨S100000x8, .f32⟩ : BufTy).Contents (Elt F)),  -- %62 = stablehlo.broadcast_in_dim %cst_9, dims = [] : (tensor<f32>) -> tensor<100000x8xf32>
    StableHlo.unary main_v3 main_v63 (broadcastInDim S3200000x1 ![0] bcast_S3200000_S3200000x1_0 : (⟨S3200000, .i32⟩ : BufTy).Contents (Elt F) → (⟨S3200000x1, .i32⟩ : BufTy).Contents (Elt F)),  -- %63 = stablehlo.broadcast_in_dim %3, dims = [0] : (tensor<3200000xi32>) -> tensor<3200000x1xi32>
    StableHlo.ternary main_v62 main_v63 main_v61 main_v64 ((fun x i u => Host.scatterAdd scatter_S100000x8_S3200000x1_S3200000x8_1_0_0_1 x i u) : (⟨S100000x8, .f32⟩ : BufTy).Contents (Elt F) → (⟨S3200000x1, .i32⟩ : BufTy).Contents (Elt F) → (⟨S3200000x8, .f32⟩ : BufTy).Contents (Elt F) → (⟨S100000x8, .f32⟩ : BufTy).Contents (Elt F)) ]  -- %64 = "stablehlo.scatter"(%62, %63, %61) <{indices_are_sorted = false, scatter_dimension_numbers …

/-- The references operations 78 … 105 write, in order. -/
abbrev ops4_W : List (Ref sig .tc) :=
  [main_v52, main_v53, main_v54, main_v55, main_v56, main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref, main_v58, main_v59, main_v60, main_v61, main_cst_9, main_v62, main_v63, main_v64]

theorem ops4_sub : (ops4 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., unary_bufs_sub .., unary_bufs_sub .., ternary_bufs_sub ..⟩

/-- Operations 106 … 123 of 151. -/
abbrev ops5 : List (HloOp τ sig (Elt F)) :=
  [ StableHlo.nullary main_c_10 (constantI S_ 32 0#32),  -- %c_10 = stablehlo.constant dense<0> : tensor<i32>
    StableHlo.unary main_c_10 main_v65 (broadcastInDim S3200000 ![] bcast_S_S3200000 : (⟨S_, .i32⟩ : BufTy).Contents (Elt F) → (⟨S3200000, .i32⟩ : BufTy).Contents (Elt F)),  -- %65 = stablehlo.broadcast_in_dim %c_10, dims = [] : (tensor<i32>) -> tensor<3200000xi32>
    StableHlo.binary main_v3 main_v65 main_v66 (cmpi .slt : (⟨S3200000, .i32⟩ : BufTy).Contents (Elt F) → (⟨S3200000, .i32⟩ : BufTy).Contents (Elt F) → (⟨S3200000, .i1⟩ : BufTy).Contents (Elt F)),  -- %66 = stablehlo.compare LT, %3, %65, SIGNED : (tensor<3200000xi32>, tensor<3200000xi32>) -> tens …
    StableHlo.nullary main_c_11 (constantI S_ 32 100000#32),  -- %c_11 = stablehlo.constant dense<100000> : tensor<i32>
    StableHlo.unary main_c_11 main_v67 (broadcastInDim S3200000 ![] bcast_S_S3200000 : (⟨S_, .i32⟩ : BufTy).Contents (Elt F) → (⟨S3200000, .i32⟩ : BufTy).Contents (Elt F)),  -- %67 = stablehlo.broadcast_in_dim %c_11, dims = [] : (tensor<i32>) -> tensor<3200000xi32>
    StableHlo.binary main_v3 main_v67 main_v68 (addi : (⟨S3200000, .i32⟩ : BufTy).Contents (Elt F) → (⟨S3200000, .i32⟩ : BufTy).Contents (Elt F) → (⟨S3200000, .i32⟩ : BufTy).Contents (Elt F)),  -- %68 = stablehlo.add %3, %67 : tensor<3200000xi32>
    StableHlo.ternary main_v66 main_v68 main_v3 main_v69 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),  -- %69 = stablehlo.select %66, %68, %3 : tensor<3200000xi1>, tensor<3200000xi32>
    StableHlo.unary main_v69 main_v70 (broadcastInDim S3200000x1 ![0] bcast_S3200000_S3200000x1_0 : (⟨S3200000, .i32⟩ : BufTy).Contents (Elt F) → (⟨S3200000x1, .i32⟩ : BufTy).Contents (Elt F)),  -- %70 = stablehlo.broadcast_in_dim %69, dims = [0] : (tensor<3200000xi32>) -> tensor<3200000x1xi32 …
    StableHlo.binary main_v64 main_v70 main_v71 ((fun x i => Host.gather gather_S100000x8_S3200000x1_S3200000x8_1_0_n_n_0_1_18 x i) : (⟨S100000x8, .f32⟩ : BufTy).Contents (Elt F) → (⟨S3200000x1, .i32⟩ : BufTy).Contents (Elt F) → (⟨S3200000x8, .f32⟩ : BufTy).Contents (Elt F)),  -- %71 = "stablehlo.gather"(%64, %70) <{dimension_numbers = #stablehlo.gather<offset_dims = [1], co …
    StableHlo.nullary main_c_12 (constantI S_ 32 0#32),  -- %c_12 = stablehlo.constant dense<0> : tensor<i32>
    StableHlo.unary main_c_12 main_v72 (broadcastInDim S3200000 ![] bcast_S_S3200000 : (⟨S_, .i32⟩ : BufTy).Contents (Elt F) → (⟨S3200000, .i32⟩ : BufTy).Contents (Elt F)),  -- %72 = stablehlo.broadcast_in_dim %c_12, dims = [] : (tensor<i32>) -> tensor<3200000xi32>
    StableHlo.binary main_v1 main_v72 main_v73 (cmpi .slt : (⟨S3200000, .i32⟩ : BufTy).Contents (Elt F) → (⟨S3200000, .i32⟩ : BufTy).Contents (Elt F) → (⟨S3200000, .i1⟩ : BufTy).Contents (Elt F)),  -- %73 = stablehlo.compare LT, %1, %72, SIGNED : (tensor<3200000xi32>, tensor<3200000xi32>) -> tens …
    StableHlo.nullary main_c_13 (constantI S_ 32 100000#32),  -- %c_13 = stablehlo.constant dense<100000> : tensor<i32>
    StableHlo.unary main_c_13 main_v74 (broadcastInDim S3200000 ![] bcast_S_S3200000 : (⟨S_, .i32⟩ : BufTy).Contents (Elt F) → (⟨S3200000, .i32⟩ : BufTy).Contents (Elt F)),  -- %74 = stablehlo.broadcast_in_dim %c_13, dims = [] : (tensor<i32>) -> tensor<3200000xi32>
    StableHlo.binary main_v1 main_v74 main_v75 (addi : (⟨S3200000, .i32⟩ : BufTy).Contents (Elt F) → (⟨S3200000, .i32⟩ : BufTy).Contents (Elt F) → (⟨S3200000, .i32⟩ : BufTy).Contents (Elt F)),  -- %75 = stablehlo.add %1, %74 : tensor<3200000xi32>
    StableHlo.ternary main_v73 main_v75 main_v1 main_v76 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),  -- %76 = stablehlo.select %73, %75, %1 : tensor<3200000xi1>, tensor<3200000xi32>
    StableHlo.unary main_v76 main_v77 (broadcastInDim S3200000x1 ![0] bcast_S3200000_S3200000x1_0 : (⟨S3200000, .i32⟩ : BufTy).Contents (Elt F) → (⟨S3200000x1, .i32⟩ : BufTy).Contents (Elt F)),  -- %77 = stablehlo.broadcast_in_dim %76, dims = [0] : (tensor<3200000xi32>) -> tensor<3200000x1xi32 …
    StableHlo.binary main_v64 main_v77 main_v78 ((fun x i => Host.gather gather_S100000x8_S3200000x1_S3200000x8_1_0_n_n_0_1_18 x i) : (⟨S100000x8, .f32⟩ : BufTy).Contents (Elt F) → (⟨S3200000x1, .i32⟩ : BufTy).Contents (Elt F) → (⟨S3200000x8, .f32⟩ : BufTy).Contents (Elt F)) ]  -- %78 = "stablehlo.gather"(%64, %77) <{dimension_numbers = #stablehlo.gather<offset_dims = [1], co …

/-- The references operations 106 … 123 write, in order. -/
abbrev ops5_W : List (Ref sig .tc) :=
  [main_c_10, main_v65, main_v66, main_c_11, main_v67, main_v68, main_v69, main_v70, main_v71, main_c_12, main_v72, main_v73, main_c_13, main_v74, main_v75, main_v76, main_v77, main_v78]

theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- Operations 124 … 151 of 151. -/
abbrev ops6 : List (HloOp τ sig (Elt F)) :=
  [ StableHlo.nary ![main_v71, main_v78, main_v10] main_v79 (fun u => concatenate S3200000x19 1 [⟨S3200000x8, u 0⟩, ⟨S3200000x8, u 1⟩, ⟨S3200000x3, u 2⟩] concatenates_S3200000x8_S3200000x8_S3200000x3_S3200000x19_d1),  -- %79 = stablehlo.concatenate %71, %78, %10, dim = 1 : (tensor<3200000x8xf32>, tensor<3200000x8xf3 …
    StableHlo.binary main_v79 main_arg11 main_v80 ((fun l r => Host.dotGeneral dot_S3200000x19_S19x4_S3200000x4_1_0_0_1_n_n none l r) : (⟨S3200000x19, .f32⟩ : BufTy).Contents (Elt F) → (⟨S19x4, .f32⟩ : BufTy).Contents (Elt F) → (⟨S3200000x4, .f32⟩ : BufTy).Contents (Elt F)),  -- %80 = stablehlo.dot_general %79, %arg11, contracting_dims = [1] x [0], precision = [DEFAULT, DEF …
    StableHlo.unary main_arg12 main_v81 (broadcastInDim S1x4 ![1] bcast_S4_S1x4_1 : (⟨S4, .f32⟩ : BufTy).Contents (Elt F) → (⟨S1x4, .f32⟩ : BufTy).Contents (Elt F)),  -- %81 = stablehlo.broadcast_in_dim %arg12, dims = [1] : (tensor<4xf32>) -> tensor<1x4xf32>
    StableHlo.unary main_v81 main_v82 (broadcastInDim S3200000x4 ![0, 1] bcast_S1x4_S3200000x4_0_1 : (⟨S1x4, .f32⟩ : BufTy).Contents (Elt F) → (⟨S3200000x4, .f32⟩ : BufTy).Contents (Elt F)),  -- %82 = stablehlo.broadcast_in_dim %81, dims = [0, 1] : (tensor<1x4xf32>) -> tensor<3200000x4xf32>
    StableHlo.binary main_v80 main_v82 main_v83 (addf : (⟨S3200000x4, .f32⟩ : BufTy).Contents (Elt F) → (⟨S3200000x4, .f32⟩ : BufTy).Contents (Elt F) → (⟨S3200000x4, .f32⟩ : BufTy).Contents (Elt F)),  -- %83 = stablehlo.add %80, %82 : tensor<3200000x4xf32>
    StableHlo.TRef.nullary main_call2.cst (constant S_ .f32 0x00000000#32),  -- @elu's %cst = stablehlo.constant dense<0.000000e+00> : tensor<f32>
    StableHlo.TRef.unary main_call2.cst main_call2.v0 (broadcastInDim S3200000x4 ![] bcast_S_S3200000x4),  -- @elu's %0 = stablehlo.broadcast_in_dim %cst, dims = [] : (tensor<f32>) -> tensor<3200000x4xf32>
    StableHlo.TRef.binary (.of main_v83 : StableHlo.TRef sig ⟨S3200000x4, .f32⟩) main_call2.v0 main_call2.v1 (cmpf .ogt),  -- @elu's %1 = stablehlo.compare GT, %arg0, %0, FLOAT : (tensor<3200000x4xf32>, tensor<3200000x4xf3 …
    StableHlo.TRef.nullary main_call2.cst_0 (constant S_ .f32 0x00000000#32),  -- @elu's %cst_0 = stablehlo.constant dense<0.000000e+00> : tensor<f32>
    StableHlo.TRef.unary main_call2.cst_0 main_call2.v2 (broadcastInDim S3200000x4 ![] bcast_S_S3200000x4),  -- @elu's %2 = stablehlo.broadcast_in_dim %cst_0, dims = [] : (tensor<f32>) -> tensor<3200000x4xf32 …
    StableHlo.TRef.binary (.of main_v83 : StableHlo.TRef sig ⟨S3200000x4, .f32⟩) main_call2.v2 main_call2.v3 (cmpf .ogt),  -- @elu's %3 = stablehlo.compare GT, %arg0, %2, FLOAT : (tensor<3200000x4xf32>, tensor<3200000x4xf3 …
    StableHlo.TRef.nullary main_call2.cst_1 (constant S_ .f32 0x00000000#32),  -- @elu's %cst_1 = stablehlo.constant dense<0.000000e+00> : tensor<f32>
    StableHlo.TRef.unary main_call2.cst_1 main_call2.call0.v0 id,  -- @_where's %0 = stablehlo.convert %arg1 : tensor<f32>
    StableHlo.TRef.unary main_call2.call0.v0 main_call2.call0.v1 (broadcastInDim S3200000x4 ![] bcast_S_S3200000x4),  -- @_where's %1 = stablehlo.broadcast_in_dim %0, dims = [] : (tensor<f32>) -> tensor<3200000x4xf32>
    StableHlo.TRef.ternary main_call2.v3 main_call2.call0.v1 (.of main_v83 : StableHlo.TRef sig ⟨S3200000x4, .f32⟩) main_call2.call0.v2 select,  -- @_where's %2 = stablehlo.select %arg0, %1, %arg2 : tensor<3200000x4xi1>, tensor<3200000x4xf32>
    StableHlo.TRef.unary main_call2.call0.v2 main_call2.v5 Host.expm1,  -- @elu's %5 = stablehlo.exponential_minus_one %4 : tensor<3200000x4xf32>
    StableHlo.TRef.nullary main_call2.cst_2 (constant S_ .f32 0x3F800000#32),  -- @elu's %cst_2 = stablehlo.constant dense<1.000000e+00> : tensor<f32>
    StableHlo.TRef.unary main_call2.cst_2 main_call2.v6 (broadcastInDim S3200000x4 ![] bcast_S_S3200000x4),  -- @elu's %6 = stablehlo.broadcast_in_dim %cst_2, dims = [] : (tensor<f32>) -> tensor<3200000x4xf32 …
    StableHlo.TRef.binary main_call2.v6 main_call2.v5 main_call2.v7 mulf,  -- @elu's %7 = stablehlo.multiply %6, %5 : tensor<3200000x4xf32>
    StableHlo.TRef.ternary main_call2.v1 (.of main_v83 : StableHlo.TRef sig ⟨S3200000x4, .f32⟩) main_call2.v7 main_call2.call1.v0 select,  -- @_where_0's %0 = stablehlo.select %arg0, %arg1, %arg2 : tensor<3200000x4xi1>, tensor<3200000x4xf …
    StableHlo.binary main_v84 main_arg13 main_v85 ((fun l r => Host.dotGeneral dot_S3200000x4_S4x1_S3200000x1_1_0_0_1_n_n none l r) : (⟨S3200000x4, .f32⟩ : BufTy).Contents (Elt F) → (⟨S4x1, .f32⟩ : BufTy).Contents (Elt F) → (⟨S3200000x1, .f32⟩ : BufTy).Contents (Elt F)),  -- %85 = stablehlo.dot_general %84, %arg13, contracting_dims = [1] x [0], precision = [DEFAULT, DEF …
    StableHlo.unary main_arg14 main_v86 (broadcastInDim S1x1 ![1] bcast_S1_S1x1_1 : (⟨S1, .f32⟩ : BufTy).Contents (Elt F) → (⟨S1x1, .f32⟩ : BufTy).Contents (Elt F)),  -- %86 = stablehlo.broadcast_in_dim %arg14, dims = [1] : (tensor<1xf32>) -> tensor<1x1xf32>
    StableHlo.unary main_v86 main_v87 (broadcastInDim S3200000x1 ![0, 1] bcast_S1x1_S3200000x1_0_1 : (⟨S1x1, .f32⟩ : BufTy).Contents (Elt F) → (⟨S3200000x1, .f32⟩ : BufTy).Contents (Elt F)),  -- %87 = stablehlo.broadcast_in_dim %86, dims = [0, 1] : (tensor<1x1xf32>) -> tensor<3200000x1xf32>
    StableHlo.binary main_v85 main_v87 main_v88 (addf : (⟨S3200000x1, .f32⟩ : BufTy).Contents (Elt F) → (⟨S3200000x1, .f32⟩ : BufTy).Contents (Elt F) → (⟨S3200000x1, .f32⟩ : BufTy).Contents (Elt F)),  -- %88 = stablehlo.add %85, %87 : tensor<3200000x1xf32>
    StableHlo.nullary main_cst_14 (constant S_ .f32 0x00000000#32),  -- %cst_14 = stablehlo.constant dense<0.000000e+00> : tensor<f32>
    StableHlo.unary main_cst_14 main_v89 (broadcastInDim S100000x1 ![] bcast_S_S100000x1 : (⟨S_, .f32⟩ : BufTy).Contents (Elt F) → (⟨S100000x1, .f32⟩ : BufTy).Contents (Elt F)),  -- %89 = stablehlo.broadcast_in_dim %cst_14, dims = [] : (tensor<f32>) -> tensor<100000x1xf32>
    StableHlo.unary main_v3 main_v90 (broadcastInDim S3200000x1 ![0] bcast_S3200000_S3200000x1_0 : (⟨S3200000, .i32⟩ : BufTy).Contents (Elt F) → (⟨S3200000x1, .i32⟩ : BufTy).Contents (Elt F)),  -- %90 = stablehlo.broadcast_in_dim %3, dims = [0] : (tensor<3200000xi32>) -> tensor<3200000x1xi32>
    StableHlo.ternary main_v89 main_v90 main_v88 main_v91 ((fun x i u => Host.scatterAdd scatter_S100000x1_S3200000x1_S3200000x1_1_0_0_1 x i u) : (⟨S100000x1, .f32⟩ : BufTy).Contents (Elt F) → (⟨S3200000x1, .i32⟩ : BufTy).Contents (Elt F) → (⟨S3200000x1, .f32⟩ : BufTy).Contents (Elt F) → (⟨S100000x1, .f32⟩ : BufTy).Contents (Elt F)) ]  -- %91 = "stablehlo.scatter"(%89, %90, %88) <{indices_are_sorted = false, scatter_dimension_numbers …

/-- The references operations 124 … 151 write, in order. -/
abbrev ops6_W : List (Ref sig .tc) :=
  [main_v79, main_v80, main_v81, main_v82, main_v83, main_call2.cst.ref, main_call2.v0.ref, main_call2.v1.ref, main_call2.cst_0.ref, main_call2.v2.ref, main_call2.v3.ref, main_call2.cst_1.ref, main_call2.call0.v0.ref, main_call2.call0.v1.ref, main_call2.call0.v2.ref, main_call2.v5.ref, main_call2.cst_2.ref, main_call2.v6.ref, main_call2.v7.ref, main_call2.call1.v0.ref, main_v85, main_v86, main_v87, main_v88, main_cst_14, main_v89, main_v90, main_v91]

theorem ops6_sub : (ops6 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., unary_bufs_sub .., unary_bufs_sub .., ternary_bufs_sub ..⟩

/-- @main's 151 operations, in order: the pieces one after the other (pieces 0 … 2 are @main's first printed window, the rest its second). -/
abbrev ops : List (HloOp τ sig (Elt F)) :=
  ops0 ++ (ops1 ++ (ops2 ++ (ops3 ++ (ops4 ++ (ops5 ++ (ops6))))))

end Cert.ReferenceIdeal.RefRun

end
-- ==== Proof.RefRun.lean ====
/- The run of the reference program. Its @main is a straight line of StableHLO operations: the two printed windows in
    order, each call of a module-local function standing for the callee's own operations over that call's buffers. So
    @main is `seq ops` for the list `ops` of its 151 operations (cut into the pieces `ops0 … ops6`), every weakly fair
    execution from a memory with zero counters terminates with each TensorCore buffer at the fold `after ops` of the
    operations' results over the launch contents, and a buffer that no operation writes (each of the fifteen arguments)
    ends as it began. -/
import proofs.«409580_j89481348645420_1_alg».proof.Proof.RefOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- What holds of every entry of two lists holds of every entry of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-! ## @main is the line of its operations

Each window is one chain of `hlo` steps once the callees' definitions are unfolded at their calls and sequencing is
reassociated; so is `seq` of the window's pieces (`seq_append`), and the two chains are then the same term. The first window ends on an operation and the second
on the return: `x >>= fun _ => pure ⟨⟩` is `x`. -/

theorem main_part0_eq (c : Dev nD) : main_part0 (F := F) c = seq (ops0 ++ (ops1 ++ ops2)) := by
  simp only [main_part0, fn_elu.body, fn_where.body, fn_where_0.body, seq_append, seq, bind_assoc, pure_bind, bind_pure_unit]

theorem main_part1_eq (c : Dev nD) : main_part1 (F := F) c = seq (ops3 ++ (ops4 ++ (ops5 ++ ops6))) := by
  simp only [main_part1, fn_elu.body, fn_elu_1.body, fn_where.body, fn_where_0.body, fn_where_2.body, fn_where_3.body,
    seq_append, seq, bind_assoc, pure_bind, bind_pure_unit]

theorem main_eq (c : Dev nD) : main (F := F) c = seq ops := by
  simp only [main, main_part0_eq, main_part1_eq, ops, seq_append, bind_assoc]

/-! ## The side conditions of the run

The signature scopes no TensorCore buffer and no semaphore; every operation touches TensorCore references only (piece by
piece in the operations' module) and determines its results (none allocates a buffer with contents not chosen). -/

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append ops0_sub (forall_append ops1_sub (forall_append ops2_sub (forall_append ops3_sub
    (forall_append ops4_sub (forall_append ops5_sub ops6_sub)))))

/-! Per piece: no operation's result is left free; the references it writes are those listed (`opsK_W`), so a reference
    outside the list keeps its contents through the piece. -/

theorem ops0_fresh : (ops0 : List (HloOp τ sig (Elt F))).Forall fun op => op.fresh = ∅ := by
  repeat' (first | exact rfl | refine ⟨rfl, ?_⟩)
theorem ops0_writes : (ops0 : List (HloOp τ sig (Elt F))).Forall fun op =>
    op.writes ⊆ (ops0_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)
theorem ops0_keep (V : Valuation τ sig (Elt F)) (r : Ref sig .tc) (h : r ∉ ops0_W) :
    after ops0 V (Proc.devRef .tc r) = V (Proc.devRef .tc r) :=
  after_of_writes_sub ops0 V ops0_writes h

theorem ops1_fresh : (ops1 : List (HloOp τ sig (Elt F))).Forall fun op => op.fresh = ∅ := by
  repeat' (first | exact rfl | refine ⟨rfl, ?_⟩)
theorem ops1_writes : (ops1 : List (HloOp τ sig (Elt F))).Forall fun op =>
    op.writes ⊆ (ops1_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)
theorem ops1_keep (V : Valuation τ sig (Elt F)) (r : Ref sig .tc) (h : r ∉ ops1_W) :
    after ops1 V (Proc.devRef .tc r) = V (Proc.devRef .tc r) :=
  after_of_writes_sub ops1 V ops1_writes h

theorem ops2_fresh : (ops2 : List (HloOp τ sig (Elt F))).Forall fun op => op.fresh = ∅ := by
  repeat' (first | exact rfl | refine ⟨rfl, ?_⟩)
theorem ops2_writes : (ops2 : List (HloOp τ sig (Elt F))).Forall fun op =>
    op.writes ⊆ (ops2_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)
theorem ops2_keep (V : Valuation τ sig (Elt F)) (r : Ref sig .tc) (h : r ∉ ops2_W) :
    after ops2 V (Proc.devRef .tc r) = V (Proc.devRef .tc r) :=
  after_of_writes_sub ops2 V ops2_writes h

theorem ops3_fresh : (ops3 : List (HloOp τ sig (Elt F))).Forall fun op => op.fresh = ∅ := by
  repeat' (first | exact rfl | refine ⟨rfl, ?_⟩)
theorem ops3_writes : (ops3 : List (HloOp τ sig (Elt F))).Forall fun op =>
    op.writes ⊆ (ops3_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)
theorem ops3_keep (V : Valuation τ sig (Elt F)) (r : Ref sig .tc) (h : r ∉ ops3_W) :
    after ops3 V (Proc.devRef .tc r) = V (Proc.devRef .tc r) :=
  after_of_writes_sub ops3 V ops3_writes h

theorem ops4_fresh : (ops4 : List (HloOp τ sig (Elt F))).Forall fun op => op.fresh = ∅ := by
  repeat' (first | exact rfl | refine ⟨rfl, ?_⟩)
theorem ops4_writes : (ops4 : List (HloOp τ sig (Elt F))).Forall fun op =>
    op.writes ⊆ (ops4_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)
theorem ops4_keep (V : Valuation τ sig (Elt F)) (r : Ref sig .tc) (h : r ∉ ops4_W) :
    after ops4 V (Proc.devRef .tc r) = V (Proc.devRef .tc r) :=
  after_of_writes_sub ops4 V ops4_writes h

theorem ops5_fresh : (ops5 : List (HloOp τ sig (Elt F))).Forall fun op => op.fresh = ∅ := by
  repeat' (first | exact rfl | refine ⟨rfl, ?_⟩)
theorem ops5_writes : (ops5 : List (HloOp τ sig (Elt F))).Forall fun op =>
    op.writes ⊆ (ops5_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)
theorem ops5_keep (V : Valuation τ sig (Elt F)) (r : Ref sig .tc) (h : r ∉ ops5_W) :
    after ops5 V (Proc.devRef .tc r) = V (Proc.devRef .tc r) :=
  after_of_writes_sub ops5 V ops5_writes h

theorem ops6_fresh : (ops6 : List (HloOp τ sig (Elt F))).Forall fun op => op.fresh = ∅ := by
  repeat' (first | exact rfl | refine ⟨rfl, ?_⟩)
theorem ops6_writes : (ops6 : List (HloOp τ sig (Elt F))).Forall fun op =>
    op.writes ⊆ (ops6_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)
theorem ops6_keep (V : Valuation τ sig (Elt F)) (r : Ref sig .tc) (h : r ∉ ops6_W) :
    after ops6 V (Proc.devRef .tc r) = V (Proc.devRef .tc r) :=
  after_of_writes_sub ops6 V ops6_writes h

theorem ops_fresh : ∀ op ∈ (ops : List (HloOp τ sig (Elt F))), op.fresh = ∅ :=
  List.forall_iff_forall_mem.mp (forall_append ops0_fresh (forall_append ops1_fresh (forall_append ops2_fresh
    (forall_append ops3_fresh (forall_append ops4_fresh (forall_append ops5_fresh ops6_fresh))))))

/-- The fold over all the operations is the pieces' folds one after the other. -/
theorem after_ops (V : Valuation τ sig (Elt F)) :
    after ops V = after ops6 (after ops5 (after ops4 (after ops3 (after ops2 (after ops1 (after ops0 V)))))) := by
  simp only [ops, after_append]

/-- A reference that no piece writes keeps its contents through the whole line. -/
theorem ops_keep (V : Valuation τ sig (Elt F)) (r : Ref sig .tc) (h0 : r ∉ ops0_W) (h1 : r ∉ ops1_W) (h2 : r ∉ ops2_W)
    (h3 : r ∉ ops3_W) (h4 : r ∉ ops4_W) (h5 : r ∉ ops5_W) (h6 : r ∉ ops6_W) :
    after ops V (Proc.devRef .tc r) = V (Proc.devRef .tc r) := by
  rw [after_ops, ops6_keep _ r h6, ops5_keep _ r h5, ops4_keep _ r h4, ops3_keep _ r h3, ops2_keep _ r h2,
    ops1_keep _ r h1, ops0_keep _ r h0]

/-! ## The run -/

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The arguments end unchanged: no operation writes one -/

theorem arg_eq_0 (V : Valuation τ sig (Elt F)) :
    after ops V (main_arg0 : DevRef τ sig) = V (main_arg0 : DevRef τ sig) :=
  ops_keep V main_arg0 (by decide) (by decide) (by decide) (by decide) (by decide) (by decide) (by decide)
theorem arg_eq_1 (V : Valuation τ sig (Elt F)) :
    after ops V (main_arg1 : DevRef τ sig) = V (main_arg1 : DevRef τ sig) :=
  ops_keep V main_arg1 (by decide) (by decide) (by decide) (by decide) (by decide) (by decide) (by decide)
theorem arg_eq_2 (V : Valuation τ sig (Elt F)) :
    after ops V (main_arg2 : DevRef τ sig) = V (main_arg2 : DevRef τ sig) :=
  ops_keep V main_arg2 (by decide) (by decide) (by decide) (by decide) (by decide) (by decide) (by decide)
theorem arg_eq_3 (V : Valuation τ sig (Elt F)) :
    after ops V (main_arg3 : DevRef τ sig) = V (main_arg3 : DevRef τ sig) :=
  ops_keep V main_arg3 (by decide) (by decide) (by decide) (by decide) (by decide) (by decide) (by decide)
theorem arg_eq_4 (V : Valuation τ sig (Elt F)) :
    after ops V (main_arg4 : DevRef τ sig) = V (main_arg4 : DevRef τ sig) :=
  ops_keep V main_arg4 (by decide) (by decide) (by decide) (by decide) (by decide) (by decide) (by decide)
theorem arg_eq_5 (V : Valuation τ sig (Elt F)) :
    after ops V (main_arg5 : DevRef τ sig) = V (main_arg5 : DevRef τ sig) :=
  ops_keep V main_arg5 (by decide) (by decide) (by decide) (by decide) (by decide) (by decide) (by decide)
theorem arg_eq_6 (V : Valuation τ sig (Elt F)) :
    after ops V (main_arg6 : DevRef τ sig) = V (main_arg6 : DevRef τ sig) :=
  ops_keep V main_arg6 (by decide) (by decide) (by decide) (by decide) (by decide) (by decide) (by decide)
theorem arg_eq_7 (V : Valuation τ sig (Elt F)) :
    after ops V (main_arg7 : DevRef τ sig) = V (main_arg7 : DevRef τ sig) :=
  ops_keep V main_arg7 (by decide) (by decide) (by decide) (by decide) (by decide) (by decide) (by decide)
theorem arg_eq_8 (V : Valuation τ sig (Elt F)) :
    after ops V (main_arg8 : DevRef τ sig) = V (main_arg8 : DevRef τ sig) :=
  ops_keep V main_arg8 (by decide) (by decide) (by decide) (by decide) (by decide) (by decide) (by decide)
theorem arg_eq_9 (V : Valuation τ sig (Elt F)) :
    after ops V (main_arg9 : DevRef τ sig) = V (main_arg9 : DevRef τ sig) :=
  ops_keep V main_arg9 (by decide) (by decide) (by decide) (by decide) (by decide) (by decide) (by decide)
theorem arg_eq_10 (V : Valuation τ sig (Elt F)) :
    after ops V (main_arg10 : DevRef τ sig) = V (main_arg10 : DevRef τ sig) :=
  ops_keep V main_arg10 (by decide) (by decide) (by decide) (by decide) (by decide) (by decide) (by decide)
theorem arg_eq_11 (V : Valuation τ sig (Elt F)) :
    after ops V (main_arg11 : DevRef τ sig) = V (main_arg11 : DevRef τ sig) :=
  ops_keep V main_arg11 (by decide) (by decide) (by decide) (by decide) (by decide) (by decide) (by decide)
theorem arg_eq_12 (V : Valuation τ sig (Elt F)) :
    after ops V (main_arg12 : DevRef τ sig) = V (main_arg12 : DevRef τ sig) :=
  ops_keep V main_arg12 (by decide) (by decide) (by decide) (by decide) (by decide) (by decide) (by decide)
theorem arg_eq_13 (V : Valuation τ sig (Elt F)) :
    after ops V (main_arg13 : DevRef τ sig) = V (main_arg13 : DevRef τ sig) :=
  ops_keep V main_arg13 (by decide) (by decide) (by decide) (by decide) (by decide) (by decide) (by decide)
theorem arg_eq_14 (V : Valuation τ sig (Elt F)) :
    after ops V (main_arg14 : DevRef τ sig) = V (main_arg14 : DevRef τ sig) :=
  ops_keep V main_arg14 (by decide) (by decide) (by decide) (by decide) (by decide) (by decide) (by decide)

end Cert.ReferenceIdeal.RefRun

end
-- ==== Proof.RefTerms.lean ====
import proofs.«409580_j89481348645420_1_alg».proof.ReferenceIdeal
import proofs.«409580_j89481348645420_1_alg».proof.Proof.Gen.ReferenceIdeal
import proofs.«409580_j89481348645420_1_alg».proof.Proof.Spec

/-!
# The reference's host terms

The reference computes its two results by a straight line of array operations. This module names the terms those
operations compose to, as functions of the argument arrays at the ideal values: the normalised edge features, the two
rows of index words, and one message-passing layer (generic in the layer's widths, over the records of dimension
numbers and the shape facts its operations carry), then the three layers of the network over the program's own records.
Nothing is proved here; the terms mirror the operations one for one.
-/

noncomputable section

namespace Cert.ReferenceIdeal.RefTerms

open Idealize.ShloMosaic Idealize.ShloMosaic.ValueIdx Cert.ReferenceIdeal Cert.ReferenceIdeal.Gen Cert.Spec

/-! ## One layer, generic in its widths -/

/-- The dimension-number records and shape facts that one layer's operations carry: a table of `C` features per node,
    `M` hidden units, `O` outputs, rows of length `K = C + C + 3`. The list fields say which records these are (one
    collapsed row axis for the gather, plain matrix products, one inserted row axis for the scatter). -/
structure LayerDims (C M O K : ℕ) where
  g : GatherDims ⟨2, ![NN, C]⟩ ⟨2, ![NE, 1]⟩ ⟨2, ![NE, C]⟩
  d1 : DotDims ⟨2, ![NE, K]⟩ ⟨2, ![K, M]⟩ ⟨2, ![NE, M]⟩
  d2 : DotDims ⟨2, ![NE, M]⟩ ⟨2, ![M, O]⟩ ⟨2, ![NE, O]⟩
  sc : ScatterDims ⟨2, ![NN, O]⟩ ⟨2, ![NE, 1]⟩ ⟨2, ![NE, O]⟩
  cat : Shape.Concatenates [(⟨2, ![NE, C]⟩ : Shape), ⟨2, ![NE, C]⟩, ⟨2, ![NE, 3]⟩] ⟨2, ![NE, K]⟩ 1
  b0 : (⟨0, ![]⟩ : Shape).BroadcastsInDim ⟨1, ![NE]⟩ (![] : Fin 0 → Fin 1)
  bcol : (⟨1, ![NE]⟩ : Shape).BroadcastsInDim ⟨2, ![NE, 1]⟩ (![0] : Fin 1 → Fin 2)
  bM1 : (⟨1, ![M]⟩ : Shape).BroadcastsInDim ⟨2, ![1, M]⟩ (![1] : Fin 1 → Fin 2)
  bM2 : (⟨2, ![1, M]⟩ : Shape).BroadcastsInDim ⟨2, ![NE, M]⟩ (![0, 1] : Fin 2 → Fin 2)
  bM0 : (⟨0, ![]⟩ : Shape).BroadcastsInDim ⟨2, ![NE, M]⟩ (![] : Fin 0 → Fin 2)
  bO1 : (⟨1, ![O]⟩ : Shape).BroadcastsInDim ⟨2, ![1, O]⟩ (![1] : Fin 1 → Fin 2)
  bO2 : (⟨2, ![1, O]⟩ : Shape).BroadcastsInDim ⟨2, ![NE, O]⟩ (![0, 1] : Fin 2 → Fin 2)
  bN0 : (⟨0, ![]⟩ : Shape).BroadcastsInDim ⟨2, ![NN, O]⟩ (![] : Fin 0 → Fin 2)
  g_off : g.offsetDims = [1]
  g_coll : g.collapsedSliceDims = [0]
  g_ob : g.operandBatchingDims = []
  g_sim : g.startIndexMap = [0]
  g_ivd : g.indexVectorDim = 1
  d1_lc : d1.lhsContracting = [1]
  d1_rc : d1.rhsContracting = [0]
  d1_ln : d1.lhsNonContracting = [0]
  d1_rn : d1.rhsNonContracting = [1]
  d1_lb : d1.lhsBatch = []
  d1_rb : d1.rhsBatch = []
  d2_lc : d2.lhsContracting = [1]
  d2_rc : d2.rhsContracting = [0]
  d2_ln : d2.lhsNonContracting = [0]
  d2_rn : d2.rhsNonContracting = [1]
  d2_lb : d2.lhsBatch = []
  d2_rb : d2.rhsBatch = []
  sc_uw : sc.updateWindowDims = [1]
  sc_iw : sc.insertedWindowDims = [0]
  sc_sd : sc.scatterDimsToOperandDims = [0]
  sc_ivd : sc.indexVectorDim = 1

section Layer
variable {C M O K : ℕ} (R : LayerDims C M O K)

/-- jnp's wrap of a vector of index words (a negative word has the table's length added), laid out as the column
    `[NE, 1]` that the row gather reads. -/
def wrapCol (w : IVec ⟨1, ![NE]⟩ 32) : IVec ⟨2, ![NE, 1]⟩ 32 :=
  broadcastInDim ⟨2, ![NE, 1]⟩ ![0] R.bcol
    (select (cmpi .slt w (broadcastInDim ⟨1, ![NE]⟩ ![] R.b0 (constantI ⟨0, ![]⟩ 32 0#32)))
      (addi w (broadcastInDim ⟨1, ![NE]⟩ ![] R.b0 (constantI ⟨0, ![]⟩ 32 100000#32))) w)

/-- The rows of the table `X` that a vector of index words names: jnp's `X[w]`. -/
def gatherRows (X : FVec Ideal ⟨2, ![NN, C]⟩ .f32) (w : IVec ⟨1, ![NE]⟩ 32) : FVec Ideal ⟨2, ![NE, C]⟩ .f32 :=
  Host.gather R.g X (wrapCol R w)

/-- An affine map of the rows of `x`: `x · W + b`, the bias as a row broadcast down the rows. -/
def affine {n P Q : ℕ} (d : DotDims ⟨2, ![n, P]⟩ ⟨2, ![P, Q]⟩ ⟨2, ![n, Q]⟩)
    (h1 : (⟨1, ![Q]⟩ : Shape).BroadcastsInDim ⟨2, ![1, Q]⟩ (![1] : Fin 1 → Fin 2))
    (h2 : (⟨2, ![1, Q]⟩ : Shape).BroadcastsInDim ⟨2, ![n, Q]⟩ (![0, 1] : Fin 2 → Fin 2))
    (x : FVec Ideal ⟨2, ![n, P]⟩ .f32) (W : FVec Ideal ⟨2, ![P, Q]⟩ .f32) (b : FVec Ideal ⟨1, ![Q]⟩ .f32) :
    FVec Ideal ⟨2, ![n, Q]⟩ .f32 :=
  addf (Host.dotGeneral d none x W) (broadcastInDim ⟨2, ![n, Q]⟩ ![0, 1] h2 (broadcastInDim ⟨2, ![1, Q]⟩ ![1] h1 b))

/-- The exponential linear unit over an array, as jax spells it: `z` where `z > 0`, elsewhere `1.0 * expm1` of
    `z` with the positive entries put to zero first. -/
def eluT {s : Shape} (h0 : (⟨0, ![]⟩ : Shape).BroadcastsInDim s (![] : Fin 0 → Fin s.rank)) (Z : FVec Ideal s .f32) :
    FVec Ideal s .f32 :=
  select (cmpf .ogt Z (broadcastInDim s ![] h0 (constant (F := Ideal) ⟨0, ![]⟩ .f32 0x00000000#32))) Z
    (mulf (broadcastInDim s ![] h0 (constant (F := Ideal) ⟨0, ![]⟩ .f32 0x3F800000#32))
      (Host.expm1 (select (cmpf .ogt Z (broadcastInDim s ![] h0 (constant (F := Ideal) ⟨0, ![]⟩ .f32 0x00000000#32)))
        (broadcastInDim s ![] h0 (id (constant (F := Ideal) ⟨0, ![]⟩ .f32 0x00000000#32))) Z)))

/-- What a layer does with the gathered rows `A` (of the `dst` nodes) and `B` (of the `src` nodes): the edge features
    beside them, two affine maps with the unit between, and each edge's result added into its `dst` node. -/
def layerTail (A B : FVec Ideal ⟨2, ![NE, C]⟩ .f32) (EN : FVec Ideal ⟨2, ![NE, 3]⟩ .f32) (dst : IVec ⟨1, ![NE]⟩ 32)
    (W1 : FVec Ideal ⟨2, ![K, M]⟩ .f32) (b1 : FVec Ideal ⟨1, ![M]⟩ .f32)
    (W2 : FVec Ideal ⟨2, ![M, O]⟩ .f32) (b2 : FVec Ideal ⟨1, ![O]⟩ .f32) : FVec Ideal ⟨2, ![NN, O]⟩ .f32 :=
  Host.scatterAdd R.sc (broadcastInDim ⟨2, ![NN, O]⟩ ![] R.bN0 (constant (F := Ideal) ⟨0, ![]⟩ .f32 0x00000000#32))
    (broadcastInDim ⟨2, ![NE, 1]⟩ ![0] R.bcol dst)
    (affine R.d2 R.bO1 R.bO2
      (eluT R.bM0 (affine R.d1 R.bM1 R.bM2
        (concatenate ⟨2, ![NE, K]⟩ 1 [⟨⟨2, ![NE, C]⟩, A⟩, ⟨⟨2, ![NE, C]⟩, B⟩, ⟨⟨2, ![NE, 3]⟩, EN⟩] R.cat) W1 b1))
      W2 b2)

/-- One layer: gather the two end nodes' features of every edge, then the rest. -/
def refLayer (X : FVec Ideal ⟨2, ![NN, C]⟩ .f32) (EN : FVec Ideal ⟨2, ![NE, 3]⟩ .f32) (dst src : IVec ⟨1, ![NE]⟩ 32)
    (W1 : FVec Ideal ⟨2, ![K, M]⟩ .f32) (b1 : FVec Ideal ⟨1, ![M]⟩ .f32)
    (W2 : FVec Ideal ⟨2, ![M, O]⟩ .f32) (b2 : FVec Ideal ⟨1, ![O]⟩ .f32) : FVec Ideal ⟨2, ![NN, O]⟩ .f32 :=
  layerTail R (gatherRows R X dst) (gatherRows R X src) EN dst W1 b1 W2 b2

end Layer

/-! ## The program's own records, and its network -/

/-- The first layer's records: 4 features, 4 hidden units, 8 outputs. -/
def dims1 : LayerDims 4 4 8 11 where
  g := gather_S100000x4_S3200000x1_S3200000x4_1_0_n_n_0_1_14
  d1 := dot_S3200000x11_S11x4_S3200000x4_1_0_0_1_n_n
  d2 := dot_S3200000x4_S4x8_S3200000x8_1_0_0_1_n_n
  sc := scatter_S100000x8_S3200000x1_S3200000x8_1_0_0_1
  cat := Facts₀.concatenates_S3200000x4_S3200000x4_S3200000x3_S3200000x11_d1
  b0 := Facts₀.bcast_S_S3200000
  bcol := Facts₀.bcast_S3200000_S3200000x1_0
  bM1 := Facts₀.bcast_S4_S1x4_1
  bM2 := Facts₀.bcast_S1x4_S3200000x4_0_1
  bM0 := Facts₀.bcast_S_S3200000x4
  bO1 := Facts₀.bcast_S8_S1x8_1
  bO2 := Facts₀.bcast_S1x8_S3200000x8_0_1
  bN0 := Facts₀.bcast_S_S100000x8
  g_off := rfl
  g_coll := rfl
  g_ob := rfl
  g_sim := rfl
  g_ivd := rfl
  d1_lc := rfl
  d1_rc := rfl
  d1_ln := rfl
  d1_rn := rfl
  d1_lb := rfl
  d1_rb := rfl
  d2_lc := rfl
  d2_rc := rfl
  d2_ln := rfl
  d2_rn := rfl
  d2_lb := rfl
  d2_rb := rfl
  sc_uw := rfl
  sc_iw := rfl
  sc_sd := rfl
  sc_ivd := rfl

/-- The second layer's records: 8 features, 8 hidden units, 8 outputs. -/
def dims2 : LayerDims 8 8 8 19 where
  g := gather_S100000x8_S3200000x1_S3200000x8_1_0_n_n_0_1_18
  d1 := dot_S3200000x19_S19x8_S3200000x8_1_0_0_1_n_n
  d2 := dot_S3200000x8_S8x8_S3200000x8_1_0_0_1_n_n
  sc := scatter_S100000x8_S3200000x1_S3200000x8_1_0_0_1
  cat := Facts₀.concatenates_S3200000x8_S3200000x8_S3200000x3_S3200000x19_d1
  b0 := Facts₀.bcast_S_S3200000
  bcol := Facts₀.bcast_S3200000_S3200000x1_0
  bM1 := Facts₀.bcast_S8_S1x8_1
  bM2 := Facts₀.bcast_S1x8_S3200000x8_0_1
  bM0 := Facts₀.bcast_S_S3200000x8
  bO1 := Facts₀.bcast_S8_S1x8_1
  bO2 := Facts₀.bcast_S1x8_S3200000x8_0_1
  bN0 := Facts₀.bcast_S_S100000x8
  g_off := rfl
  g_coll := rfl
  g_ob := rfl
  g_sim := rfl
  g_ivd := rfl
  d1_lc := rfl
  d1_rc := rfl
  d1_ln := rfl
  d1_rn := rfl
  d1_lb := rfl
  d1_rb := rfl
  d2_lc := rfl
  d2_rc := rfl
  d2_ln := rfl
  d2_rn := rfl
  d2_lb := rfl
  d2_rb := rfl
  sc_uw := rfl
  sc_iw := rfl
  sc_sd := rfl
  sc_ivd := rfl

/-- The third layer's records: 8 features, 4 hidden units, 1 output. -/
def dims3 : LayerDims 8 4 1 19 where
  g := gather_S100000x8_S3200000x1_S3200000x8_1_0_n_n_0_1_18
  d1 := dot_S3200000x19_S19x4_S3200000x4_1_0_0_1_n_n
  d2 := dot_S3200000x4_S4x1_S3200000x1_1_0_0_1_n_n
  sc := scatter_S100000x1_S3200000x1_S3200000x1_1_0_0_1
  cat := Facts₀.concatenates_S3200000x8_S3200000x8_S3200000x3_S3200000x19_d1
  b0 := Facts₀.bcast_S_S3200000
  bcol := Facts₀.bcast_S3200000_S3200000x1_0
  bM1 := Facts₀.bcast_S4_S1x4_1
  bM2 := Facts₀.bcast_S1x4_S3200000x4_0_1
  bM0 := Facts₀.bcast_S_S3200000x4
  bO1 := Facts₀.bcast_S1_S1x1_1
  bO2 := Facts₀.bcast_S1x1_S3200000x1_0_1
  bN0 := Facts₀.bcast_S_S100000x1
  g_off := rfl
  g_coll := rfl
  g_ob := rfl
  g_sim := rfl
  g_ivd := rfl
  d1_lc := rfl
  d1_rc := rfl
  d1_ln := rfl
  d1_rn := rfl
  d1_lb := rfl
  d1_rb := rfl
  d2_lc := rfl
  d2_rc := rfl
  d2_ln := rfl
  d2_rn := rfl
  d2_lb := rfl
  d2_rb := rfl
  sc_uw := rfl
  sc_iw := rfl
  sc_sd := rfl
  sc_ivd := rfl

/-- Row `r` of the two rows of index words, as a vector: the slice of that row, then the reshape to one axis. -/
def dstT (ei : IVec S2x3200000 32) : IVec S3200000 32 :=
  shapeCast S3200000 (extractStridedSlice S1x3200000 ![1, 0] ei Facts₀.slices_S2x3200000_S1x3200000_1_0)
    Facts₀.shapeCasts_S1x3200000_S3200000

def srcT (ei : IVec S2x3200000 32) : IVec S3200000 32 :=
  shapeCast S3200000 (extractStridedSlice S1x3200000 ![0, 0] ei Facts₀.slices_S2x3200000_S1x3200000_0_0)
    Facts₀.shapeCasts_S1x3200000_S3200000

/-- The normalised edge features: `e / (sum over the row of e * e, from 0, + eps)`, the divisor broadcast along the row. -/
def enormT (e : FVec Ideal S3200000x3 .f32) : FVec Ideal S3200000x3 .f32 :=
  Host.divf e
    (broadcastInDim S3200000x3 ![0, 1] Facts₀.bcast_S3200000x1_S3200000x3_0_1
      (addf
        (broadcastInDim S3200000x1 ![0] Facts₀.bcast_S3200000_S3200000x1_0
          (Host.reduceAdd (mulf e e) (constant (F := Ideal) S_ .f32 0x00000000#32)
            Facts₀.reducesTo_S3200000x3_S3200000_d1 Facts₀.h_S_))
        (broadcastInDim S3200000x1 ![] Facts₀.bcast_S_S3200000x1 (constant (F := Ideal) S_ .f32 0x322BCC77#32))))

end Cert.ReferenceIdeal.RefTerms

end
-- ==== Proof.LibScatterGatherRows.lean ====
import Idealize.ShloMosaic.Lib.ValueIdx
import Idealize.ShloMosaic.PureOps.Contract
import Mathlib.Algebra.BigOperators.Group.Finset.Basic
import Mathlib.Algebra.BigOperators.Group.Finset.Piecewise

/-!
# Row gather and row scatter-add, read at an index

Two array operations over a table of `N` rows, indexed by a column of `n` integer words:

* the ROW GATHER `table[idx]`: result row `e` is the table's row named by the `e`-th index word. The
  word is read as a SIGNED integer and CLAMPED into `[0, N − 1]` (a negative word reads row `0`, a word
  past the end reads the last row); the column is kept. `gather_rows` states this for an `N × D` table at
  one element `(e, k)`, for any element type.
* the ROW SCATTER-ADD (a segment sum, `table.at[idx].add(updates)`) over the extended reals: result
  element `(v, k)` is the operand's element plus the sum of the update elements `(e, k)` over exactly
  those update rows `e` whose index word, read SIGNED and NOT clamped, EQUALS `v`. An update row whose
  index is negative or at least `N` lands nowhere and is dropped. `resultIdx_rows` says where one update
  element lands; `hostScatterAdd_rows` / `scatterAdd_rows` give the sum for an `N × D` operand, and
  `resultIdx_vec` / `hostScatterAdd_vec` / `scatterAdd_vec` the same for a vector of `N` elements
  (updates a vector of `n` elements).

Every statement is for arbitrary extents `N`, `D`, `n` and any record of dimension numbers whose lists
are the ones named by the hypotheses (one collapsed / inserted row axis `0`, the index vector on axis
`1` of the `n × 1` index column, the column axis `1` an offset / window axis), so each applies to a
concrete record with `rfl` for every list.
-/

open scoped BigOperators

namespace Cert.LibScatterGatherRows

open Idealize.ShloMosaic Idealize.ShloMosaic.ValueIdx

/-! ## The row gather -/

/-- THE ROW GATHER AT `(e, k)`: the table at row "index word `e`, read signed and clamped into
    `[0, N − 1]`", column `k`. On the row axis (collapsed, start-indexed) the operand coordinate is the
    clamped start; on the column axis (an offset axis, not start-indexed) it is the result's column. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k) = x (ix2 ⟨min (idx (ix2 e 0)).toInt.toNat (N - 1), by omega⟩ k) := by
  -- the collapsed row axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the start index of result element (e, k) is read at (e, 0) of the index column
    have hsi : ∀ c, (GatherDims.siIdx ⟨[1], [0], [], sb, [0], 1, ss, wf⟩ (ix2 e k) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl
  | ⟨1, _⟩ =>
    -- the column axis: start 0, no batching, offset coordinate the result's column
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

/-- The row gather of a table of extended reals (any float format's ideal values), at `(e, k)`. -/
theorem gather_rows_ideal {φ : FTy} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : FVec Ideal ⟨2, ![N, D]⟩ φ) (idx : IVec ⟨2, ![n, 1]⟩ w) (e : Fin n) (k : Fin D) (hN : 0 < N) :
    (Host.gather d x idx : FVec Ideal ⟨2, ![n, D]⟩ φ) (ix2 e k)
      = x (ix2 ⟨min (idx (ix2 e 0)).toInt.toNat (N - 1), by omega⟩ k) :=
  gather_rows d hoff hcoll hob hsim hivd x idx e k hN

/-! ## The row scatter-add over an `N × D` operand -/

/-- WHERE AN UPDATE ELEMENT LANDS: update element `(e, k')` lands on operand element `(v, k)` exactly when
    the `e`-th index word, read signed, is `v`, and the columns agree. (On the row axis the landing
    coordinate is the unclamped start plus window coordinate 0; on the column axis it is start 0 plus the
    update's column; a landing point outside the operand is no point at all.) -/
theorem resultIdx_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (k' : Fin D) (v : Fin N) (k : Fin D) :
    d.resultIdx? (ix2 e k') idx = some (ix2 v k) ↔ (idx (ix2 e 0)).toInt = (v.val : ℤ) ∧ k' = k := by
  obtain ⟨uw, iw, sd, ivd, wf⟩ := d
  simp only at huw hiw hsd hivd
  subst huw hiw hsd hivd
  -- the start and the window coordinate on each of the two operand axes
  have hs0 : ScatterDims.start ⟨[1], [0], [0], 1, wf⟩ (ix2 e k') idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 2) ∈ ([0] : List (Fin 2)) by decide) ha
  have hs1 : ScatterDims.start ⟨[1], [0], [0], 1, wf⟩ (ix2 e k') idx 1 = 0 := by
    unfold ScatterDims.start
    split
    · next ha => exact absurd ha (show (1 : Fin 2) ∉ ([0] : List (Fin 2)) by decide)
    · rfl
  have hw0 : ScatterDims.window ⟨[1], [0], [0], 1, wf⟩ (ix2 e k') 0 = 0 := by
    unfold ScatterDims.window
    split
    · next ha => exact absurd ha (show (0 : Fin 2) ∉ ([1] : List (Fin 2)) by decide)
    · rfl
  have hw1 : ScatterDims.window ⟨[1], [0], [0], 1, wf⟩ (ix2 e k') 1 = k'.val := by
    unfold ScatterDims.window
    split
    · rfl
    · next ha => exact absurd (show (1 : Fin 2) ∈ ([1] : List (Fin 2)) by decide) ha
  unfold ScatterDims.resultIdx?
  split
  · next h =>
    -- the landing point is inside the operand: compare it with (v, k) coordinate by coordinate
    have h0 := h 0
    rw [hs0, hw0] at h0
    constructor
    · intro hf
      have hf' := Option.some.inj hf
      have e0 : (ScatterDims.start ⟨[1], [0], [0], 1, wf⟩ (ix2 e k') idx 0
          + (ScatterDims.window ⟨[1], [0], [0], 1, wf⟩ (ix2 e k') 0 : ℕ)).toNat = v.val :=
        congrArg (fun f : (⟨2, ![N, D]⟩ : Shape).Idx => (f 0).val) hf'
      have e1 : (ScatterDims.start ⟨[1], [0], [0], 1, wf⟩ (ix2 e k') idx 1
          + (ScatterDims.window ⟨[1], [0], [0], 1, wf⟩ (ix2 e k') 1 : ℕ)).toNat = k.val :=
        congrArg (fun f : (⟨2, ![N, D]⟩ : Shape).Idx => (f 1).val) hf'
      rw [hs0, hw0] at e0
      rw [hs1, hw1] at e1
      exact ⟨by omega, Fin.ext (by omega)⟩
    · rintro ⟨hv, rfl⟩
      congr 1
      funext a
      apply Fin.ext
      match a with
      | ⟨0, _⟩ =>
        show (ScatterDims.start ⟨[1], [0], [0], 1, wf⟩ (ix2 e k') idx 0
          + (ScatterDims.window ⟨[1], [0], [0], 1, wf⟩ (ix2 e k') 0 : ℕ)).toNat = v.val
        rw [hs0, hw0]; omega
      | ⟨1, _⟩ =>
        show (ScatterDims.start ⟨[1], [0], [0], 1, wf⟩ (ix2 e k') idx 1
          + (ScatterDims.window ⟨[1], [0], [0], 1, wf⟩ (ix2 e k') 1 : ℕ)).toNat = k'.val
        rw [hs1, hw1]; omega
  · next h =>
    -- the landing point is outside the operand: then the index word is no row of it
    constructor
    · intro hf; exact absurd hf (by simp)
    · rintro ⟨hv, rfl⟩
      exfalso
      apply h
      intro a
      match a with
      | ⟨0, _⟩ =>
        show 0 ≤ ScatterDims.start ⟨[1], [0], [0], 1, wf⟩ (ix2 e k') idx 0
            + (ScatterDims.window ⟨[1], [0], [0], 1, wf⟩ (ix2 e k') 0 : ℕ)
          ∧ ScatterDims.start ⟨[1], [0], [0], 1, wf⟩ (ix2 e k') idx 0
            + (ScatterDims.window ⟨[1], [0], [0], 1, wf⟩ (ix2 e k') 0 : ℕ) < (N : ℤ)
        rw [hs0, hw0]
        have := v.isLt
        omega
      | ⟨1, _⟩ =>
        show 0 ≤ ScatterDims.start ⟨[1], [0], [0], 1, wf⟩ (ix2 e k') idx 1
            + (ScatterDims.window ⟨[1], [0], [0], 1, wf⟩ (ix2 e k') 1 : ℕ)
          ∧ ScatterDims.start ⟨[1], [0], [0], 1, wf⟩ (ix2 e k') idx 1
            + (ScatterDims.window ⟨[1], [0], [0], 1, wf⟩ (ix2 e k') 1 : ℕ) < (D : ℤ)
        rw [hs1, hw1]
        have := k'.isLt
        omega

/-- THE ROW SCATTER-ADD AT `(v, k)`: the operand's element plus the sum, over the update rows `e` whose
    index word read signed equals `v`, of the update element `(e, k)`. The sum over all update elements
    that land on `(v, k)` splits into rows and columns; in each row only column `k` can land there. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (v : Fin N) (k : Fin D) :
    Ideal.hostScatterAdd d x idx upd (ix2 v k)
      = x (ix2 v k)
        + ∑ e ∈ Finset.univ.filter (fun e : Fin n => (idx (ix2 e 0)).toInt = (v.val : ℤ)), upd (ix2 e k) := by
  classical
  unfold Ideal.hostScatterAdd
  congr 1
  rw [Finset.sum_filter, sum_idx2, Finset.sum_filter]
  refine Finset.sum_congr rfl (fun e _ => ?_)
  simp only [resultIdx_rows d huw hiw hsd hivd]
  by_cases hP : (idx (ix2 e 0)).toInt = (v.val : ℤ)
  · simp [hP]
  · simp [hP]

/-- The same for the scatter-add operation at the ideal instance (any float format). -/
theorem scatterAdd_rows {φ : FTy} {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![n, 1]⟩ w)
    (upd : FVec Ideal ⟨2, ![n, D]⟩ φ) (v : Fin N) (k : Fin D) :
    Host.scatterAdd (F := Ideal) d x idx upd (ix2 v k)
      = x (ix2 v k)
        + ∑ e ∈ Finset.univ.filter (fun e : Fin n => (idx (ix2 e 0)).toInt = (v.val : ℤ)), upd (ix2 e k) := by
  unfold Host.scatterAdd
  rw [Ideal.hostScatterAdd_def]
  exact hostScatterAdd_rows d huw hiw hsd hivd x idx upd v k

/-! ## The scatter-add over a vector of `N` elements -/

/-- A rank-1 index set is its one coordinate range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ e : Fin n, f (ix1 e) :=
  (Equiv.sum_comp (idxEquiv1 (n := n)).symm f).symm

/-- WHERE AN UPDATE ELEMENT LANDS, for a vector: update element `e` lands on operand element `v` exactly when
    the `e`-th index word, read signed, is `v`. -/
theorem resultIdx_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e 0)).toInt = (v.val : ℤ) := by
  obtain ⟨uw, iw, sd, ivd, wf⟩ := d
  simp only at huw hiw hsd hivd
  subst huw hiw hsd hivd
  have hs0 : ScatterDims.start ⟨[], [0], [0], 1, wf⟩ (ix1 e) idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 1) ∈ ([0] : List (Fin 1)) by decide) ha
  have hw0 : ScatterDims.window ⟨[], [0], [0], 1, wf⟩ (ix1 e) 0 = 0 := by
    unfold ScatterDims.window
    split
    · next ha => exact absurd ha (show (0 : Fin 1) ∉ ([] : List (Fin 1)) by decide)
    · rfl
  unfold ScatterDims.resultIdx?
  split
  · next h =>
    have h0 := h 0
    rw [hs0, hw0] at h0
    constructor
    · intro hf
      have hf' := Option.some.inj hf
      have e0 : (ScatterDims.start ⟨[], [0], [0], 1, wf⟩ (ix1 e) idx 0
          + (ScatterDims.window ⟨[], [0], [0], 1, wf⟩ (ix1 e) 0 : ℕ)).toNat = v.val :=
        congrArg (fun f : (⟨1, ![N]⟩ : Shape).Idx => (f 0).val) hf'
      rw [hs0, hw0] at e0
      omega
    · intro hv
      congr 1
      funext a
      apply Fin.ext
      match a with
      | ⟨0, _⟩ =>
        show (ScatterDims.start ⟨[], [0], [0], 1, wf⟩ (ix1 e) idx 0
          + (ScatterDims.window ⟨[], [0], [0], 1, wf⟩ (ix1 e) 0 : ℕ)).toNat = v.val
        rw [hs0, hw0]; omega
  · next h =>
    constructor
    · intro hf; exact absurd hf (by simp)
    · intro hv
      exfalso
      apply h
      intro a
      match a with
      | ⟨0, _⟩ =>
        show 0 ≤ ScatterDims.start ⟨[], [0], [0], 1, wf⟩ (ix1 e) idx 0
            + (ScatterDims.window ⟨[], [0], [0], 1, wf⟩ (ix1 e) 0 : ℕ)
          ∧ ScatterDims.start ⟨[], [0], [0], 1, wf⟩ (ix1 e) idx 0
            + (ScatterDims.window ⟨[], [0], [0], 1, wf⟩ (ix1 e) 0 : ℕ) < (N : ℤ)
        rw [hs0, hw0]
        have := v.isLt
        omega

/-- THE VECTOR SCATTER-ADD AT `v` (a segment sum): the operand's element plus the sum of the update elements
    `e` whose index word read signed equals `v`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (v : Fin N) :
    Ideal.hostScatterAdd d x idx upd (ix1 v)
      = x (ix1 v)
        + ∑ e ∈ Finset.univ.filter (fun e : Fin n => (idx (ix2 e 0)).toInt = (v.val : ℤ)), upd (ix1 e) := by
  classical
  unfold Ideal.hostScatterAdd
  congr 1
  rw [Finset.sum_filter, sum_idx1, Finset.sum_filter]
  refine Finset.sum_congr rfl (fun e _ => ?_)
  simp only [resultIdx_vec d huw hiw hsd hivd]

/-- The same for the scatter-add operation at the ideal instance (any float format). -/
theorem scatterAdd_vec {φ : FTy} {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w)
    (upd : FVec Ideal ⟨1, ![n]⟩ φ) (v : Fin N) :
    Host.scatterAdd (F := Ideal) d x idx upd (ix1 v)
      = x (ix1 v)
        + ∑ e ∈ Finset.univ.filter (fun e : Fin n => (idx (ix2 e 0)).toInt = (v.val : ℤ)), upd (ix1 e) := by
  unfold Host.scatterAdd
  rw [Ideal.hostScatterAdd_def]
  exact hostScatterAdd_vec d huw hiw hsd hivd x idx upd v

end Cert.LibScatterGatherRows
-- ==== Proof.LibConcatCols.lean ====
import Idealize.ShloMosaic.Lib.ValueIdx
import Idealize.ShloMosaic.Lib.Pipeline.Value

/-!
# A concatenation of three blocks of columns, read at an index

Three arrays with the same `n` rows and `a`, `b`, `c` columns laid side by side (a concatenation along axis 1)
make an array of `n` rows and `K = a + b + c` columns. Read at row `e`:

* column `k < a` is the first array's element `(e, k)` (`concat3_left`);
* column `a + k` with `k < b` is the second array's element `(e, k)` (`concat3_mid`);
* column `a + b + k` with `k < c` is the third array's element `(e, k)` (`concat3_right`).

These are the three forms a sum over a row of the concatenation splits into. The widths may differ; the result's
width is a separate extent `K` with the hypothesis `a + b + c = K`, so that the statements apply where `K` is a
numeral; the element type is arbitrary, and so is the proof of the operation's side condition (that the three shapes
laid end to end along axis 1 make the result shape). Each comes from a form at ANY column `j` of the result whose
value is the one named (`concat3_left_of` / `concat3_mid_of` / `concat3_right_of`: `j = k`, `j = a + k`,
`j = a + b + k` as numbers), which is the general reading of a concatenation at an index (the piece whose span along
the axis holds the coordinate) at one of the three pieces.
-/

namespace Cert.LibConcatCols

open Idealize.ShloMosaic Idealize.ShloMosaic.ValueIdx

/-! ## At a column of the result given by its value -/

/-- THE FIRST BLOCK: at row `e` and a column `j` whose value is `k < a`, the concatenation is the first array at `(e, k)`.
    No piece lies before it. -/
theorem concat3_left_of {α : Type} {n a b c K : Nat}
    (x : (⟨2, ![n, a]⟩ : Shape).Idx → α) (y : (⟨2, ![n, b]⟩ : Shape).Idx → α) (z : (⟨2, ![n, c]⟩ : Shape).Idx → α)
    (h : Shape.Concatenates [⟨2, ![n, a]⟩, ⟨2, ![n, b]⟩, ⟨2, ![n, c]⟩] ⟨2, ![n, K]⟩ 1) (e : Fin n) (j : Fin K) (k : Fin a)
    (hj : j.val = k.val) :
    concatenate ⟨2, ![n, K]⟩ 1 [⟨⟨2, ![n, a]⟩, x⟩, ⟨⟨2, ![n, b]⟩, y⟩, ⟨⟨2, ![n, c]⟩, z⟩] h (ix2 e j) = x (ix2 e k) := by
  refine concatenate_apply_piece (t := ⟨2, ![n, K]⟩) 1 [⟨⟨2, ![n, a]⟩, x⟩, ⟨⟨2, ![n, b]⟩, y⟩, ⟨⟨2, ![n, c]⟩, z⟩] h _ 0
    (show 0 < 3 by omega) ⟨2, ![n, a]⟩ x rfl rfl 0 rfl (ix2 e k) ?_ ?_
  · -- off the axis the coordinates agree: the row is the same
    intro i hi
    match i with
    | ⟨0, _⟩ => rfl
    | ⟨1, _⟩ => exact absurd (Fin.ext rfl) hi
  · -- on the axis: the widths of the pieces before, plus the position in the piece
    rw [Nat.zero_add]; exact hj.symm

/-- THE SECOND BLOCK: at row `e` and a column `j` whose value is `a + k` with `k < b`, the concatenation is the second
    array at `(e, k)`. The one piece before it has width `a`. -/
theorem concat3_mid_of {α : Type} {n a b c K : Nat}
    (x : (⟨2, ![n, a]⟩ : Shape).Idx → α) (y : (⟨2, ![n, b]⟩ : Shape).Idx → α) (z : (⟨2, ![n, c]⟩ : Shape).Idx → α)
    (h : Shape.Concatenates [⟨2, ![n, a]⟩, ⟨2, ![n, b]⟩, ⟨2, ![n, c]⟩] ⟨2, ![n, K]⟩ 1) (e : Fin n) (j : Fin K) (k : Fin b)
    (hj : j.val = a + k.val) :
    concatenate ⟨2, ![n, K]⟩ 1 [⟨⟨2, ![n, a]⟩, x⟩, ⟨⟨2, ![n, b]⟩, y⟩, ⟨⟨2, ![n, c]⟩, z⟩] h (ix2 e j) = y (ix2 e k) := by
  refine concatenate_apply_piece (t := ⟨2, ![n, K]⟩) 1 [⟨⟨2, ![n, a]⟩, x⟩, ⟨⟨2, ![n, b]⟩, y⟩, ⟨⟨2, ![n, c]⟩, z⟩] h _ 1
    (show 1 < 3 by omega) ⟨2, ![n, b]⟩ y rfl rfl a rfl (ix2 e k) ?_ ?_
  · -- off the axis the coordinates agree: the row is the same
    intro i hi
    match i with
    | ⟨0, _⟩ => rfl
    | ⟨1, _⟩ => exact absurd (Fin.ext rfl) hi
  · -- on the axis: the widths of the pieces before, plus the position in the piece
    exact hj.symm

/-- THE THIRD BLOCK: at row `e` and a column `j` whose value is `a + b + k` with `k < c`, the concatenation is the third
    array at `(e, k)`. The two pieces before it have widths `a` and `b`. -/
theorem concat3_right_of {α : Type} {n a b c K : Nat}
    (x : (⟨2, ![n, a]⟩ : Shape).Idx → α) (y : (⟨2, ![n, b]⟩ : Shape).Idx → α) (z : (⟨2, ![n, c]⟩ : Shape).Idx → α)
    (h : Shape.Concatenates [⟨2, ![n, a]⟩, ⟨2, ![n, b]⟩, ⟨2, ![n, c]⟩] ⟨2, ![n, K]⟩ 1) (e : Fin n) (j : Fin K) (k : Fin c)
    (hj : j.val = a + b + k.val) :
    concatenate ⟨2, ![n, K]⟩ 1 [⟨⟨2, ![n, a]⟩, x⟩, ⟨⟨2, ![n, b]⟩, y⟩, ⟨⟨2, ![n, c]⟩, z⟩] h (ix2 e j) = z (ix2 e k) := by
  refine concatenate_apply_piece (t := ⟨2, ![n, K]⟩) 1 [⟨⟨2, ![n, a]⟩, x⟩, ⟨⟨2, ![n, b]⟩, y⟩, ⟨⟨2, ![n, c]⟩, z⟩] h _ 2
    (show 2 < 3 by omega) ⟨2, ![n, c]⟩ z rfl rfl (a + b) rfl (ix2 e k) ?_ ?_
  · -- off the axis the coordinates agree: the row is the same
    intro i hi
    match i with
    | ⟨0, _⟩ => rfl
    | ⟨1, _⟩ => exact absurd (Fin.ext rfl) hi
  · -- on the axis: the widths of the pieces before, plus the position in the piece
    exact hj.symm

/-! ## At the three column ranges of a row -/

/-- At row `e`, column `k < a`: the first array at `(e, k)`. -/
theorem concat3_left {α : Type} {n a b c K : Nat} (habc : a + b + c = K)
    (x : (⟨2, ![n, a]⟩ : Shape).Idx → α) (y : (⟨2, ![n, b]⟩ : Shape).Idx → α) (z : (⟨2, ![n, c]⟩ : Shape).Idx → α)
    (h : Shape.Concatenates [⟨2, ![n, a]⟩, ⟨2, ![n, b]⟩, ⟨2, ![n, c]⟩] ⟨2, ![n, K]⟩ 1) (e : Fin n) (k : Fin a) :
    concatenate ⟨2, ![n, K]⟩ 1 [⟨⟨2, ![n, a]⟩, x⟩, ⟨⟨2, ![n, b]⟩, y⟩, ⟨⟨2, ![n, c]⟩, z⟩] h (ix2 e ⟨k.val, by omega⟩)
      = x (ix2 e k) :=
  concat3_left_of x y z h e _ k rfl

/-- At row `e`, column `a + k` with `k < b`: the second array at `(e, k)`. -/
theorem concat3_mid {α : Type} {n a b c K : Nat} (habc : a + b + c = K)
    (x : (⟨2, ![n, a]⟩ : Shape).Idx → α) (y : (⟨2, ![n, b]⟩ : Shape).Idx → α) (z : (⟨2, ![n, c]⟩ : Shape).Idx → α)
    (h : Shape.Concatenates [⟨2, ![n, a]⟩, ⟨2, ![n, b]⟩, ⟨2, ![n, c]⟩] ⟨2, ![n, K]⟩ 1) (e : Fin n) (k : Fin b) :
    concatenate ⟨2, ![n, K]⟩ 1 [⟨⟨2, ![n, a]⟩, x⟩, ⟨⟨2, ![n, b]⟩, y⟩, ⟨⟨2, ![n, c]⟩, z⟩] h (ix2 e ⟨a + k.val, by omega⟩)
      = y (ix2 e k) :=
  concat3_mid_of x y z h e _ k rfl

/-- At row `e`, column `a + b + k` with `k < c`: the third array at `(e, k)`. -/
theorem concat3_right {α : Type} {n a b c K : Nat} (habc : a + b + c = K)
    (x : (⟨2, ![n, a]⟩ : Shape).Idx → α) (y : (⟨2, ![n, b]⟩ : Shape).Idx → α) (z : (⟨2, ![n, c]⟩ : Shape).Idx → α)
    (h : Shape.Concatenates [⟨2, ![n, a]⟩, ⟨2, ![n, b]⟩, ⟨2, ![n, c]⟩] ⟨2, ![n, K]⟩ 1) (e : Fin n) (k : Fin c) :
    concatenate ⟨2, ![n, K]⟩ 1 [⟨⟨2, ![n, a]⟩, x⟩, ⟨⟨2, ![n, b]⟩, y⟩, ⟨⟨2, ![n, c]⟩, z⟩] h (ix2 e ⟨a + b + k.val, by omega⟩)
      = z (ix2 e k) :=
  concat3_right_of x y z h e _ k rfl

end Cert.LibConcatCols
-- ==== Proof.RefLayer.lean ====
import proofs.«409580_j89481348645420_1_alg».proof.Proof.RefTerms
import proofs.«409580_j89481348645420_1_alg».proof.Proof.LibScatterGatherRows
import proofs.«409580_j89481348645420_1_alg».proof.Proof.LibConcatCols
import Idealize.ShloMosaic.Lib.StackMember
import Idealize.ShloMosaic.Lib.IdealHost
import Idealize.ShloMosaic.Lib.Pipeline.Value

/-!
# One layer of the reference is the specification's layer

The reference's layer, as its operations composed (`RefTerms.refLayer`), read index by index: the row gather reads the
feature row of the node an index word names (for a word in `[0, NN)` jnp's wrap of negative indices changes nothing and
the clamp is the word's value); the row "dst features, src features, edge features" times `W1` is a sum over
`C + C + 3` positions, which splits into the three partial sums of the specification; jax's exponential linear unit,
two selects around `1.0 * expm1`, is `z` for positive `z` and `exp z - 1` elsewhere; and the scatter-add into a zero
table is, at node `v`, zero plus the sum of the messages of the edges whose `dst` word is `v`. Multiplication on the
extended reals commutes, which is all the two spellings differ by inside a product.
-/

open scoped BigOperators

noncomputable section

namespace Cert.ReferenceIdeal.RefLayer

open Idealize.ShloMosaic Idealize.ShloMosaic.ValueIdx Cert.Spec Cert.ReferenceIdeal.RefTerms

/-! ## The single operations at an index -/

/-- A matrix product with the plain dimension numbers (contract the left operand's columns with the right operand's
    rows, no batch axes) at `(e, j)`, whatever proof of well-formedness its record carries. -/
theorem dot_rows {n K M : ℕ} {φ₁ φ₂ : FTy} (d : DotDims ⟨2, ![n, K]⟩ ⟨2, ![K, M]⟩ ⟨2, ![n, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![n, K]⟩ φ₁) (r : FVec Ideal ⟨2, ![K, M]⟩ φ₂) (e : Fin n) (j : Fin M) :
    Host.dotGeneral d prec l r (ix2 e j) = ∑ k : Fin K, l (ix2 e k) * r (ix2 k j) := by
  obtain ⟨lc, rc, ln, rn, lb, rb, wf⟩ := d
  simp only at hlc hrc hln hrn hlb hrb
  subst hlc hrc hln hrn hlb hrb
  exact StackMember.dotGeneral_plain_apply prec l r e j

/-- jnp's wrap of a negative index leaves a word that is not negative as it is. -/
theorem wrap_eq (w z k : BitVec 32) (hz : z = 0#32) (h0 : 0 ≤ w.toInt) :
    Scalar.select (IntOp.cmpi .slt w z) (IntOp.addi w k) w = w := by
  subst hz
  have hlt : w.slt 0#32 = false := by
    simp only [BitVec.slt, BitVec.toInt_zero, decide_eq_false_iff_not, Int.not_lt]
    exact h0
  show (if BitVec.ofBool (w.slt 0#32) = 1 then _ else _) = _
  rw [hlt]
  rfl

/-- The exponential linear unit as jax spells it, at one element: for `z > 0` the outer select returns `z`; otherwise
    the inner select keeps `z`, and `1 * (exp z - 1)` is `exp z - 1`. -/
theorem elu_eq (z : EReal) :
    Scalar.select (FloatOps.cmpf (F := Ideal) (φ := .f32) .ogt z (Ideal.ofBits .f32 0x00000000#32)) z
      (FloatOps.mulf (F := Ideal) (φ := .f32) (Ideal.ofBits .f32 0x3F800000#32)
        (FloatOps.hostUnary (F := Ideal) (φ := .f32) .expm1
          (Scalar.select (FloatOps.cmpf (F := Ideal) (φ := .f32) .ogt z (Ideal.ofBits .f32 0x00000000#32))
            (Ideal.ofBits .f32 0x00000000#32) z)))
      = Cert.Spec.elu z := by
  unfold Cert.Spec.elu
  rw [Ideal.cmpf_def]
  by_cases hz : zero32 < z
  · have : Ideal.cmp .ogt z (Ideal.ofBits .f32 0x00000000#32) = 1#1 := by
      show BitVec.ofBool (decide (zero32 < z)) = 1#1
      rw [decide_eq_true hz]; rfl
    rw [this, select_one, if_pos hz]
  · have : Ideal.cmp .ogt z (Ideal.ofBits .f32 0x00000000#32) = 0#1 := by
      show BitVec.ofBool (decide (zero32 < z)) = 0#1
      rw [decide_eq_false hz]; rfl
    rw [this, select_zero, select_zero, if_neg hz, Ideal.hostUnary_expm1_def, Ideal.mulf_def]
    show one32 * (Ideal.exp z - 1) = Ideal.exp z - one32
    rw [one32_eq, one_mul]

/-- A vector laid out as a column reads, in row `e`, its entry `e`. -/
theorem bcol_apply {α : Type} (h : (⟨1, ![NE]⟩ : Shape).BroadcastsInDim ⟨2, ![NE, 1]⟩ (![0] : Fin 1 → Fin 2))
    (w : (⟨1, ![NE]⟩ : Shape).Idx → α) (e : Fin NE) : broadcastInDim ⟨2, ![NE, 1]⟩ ![0] h w (ix2 e 0) = w (ix1 e) := by
  refine broadcastInDim_apply _ h w _ (ix1 e) fun a => ?_
  match a with
  | ⟨0, _⟩ => rfl

/-- A bias row broadcast down the rows reads, in every row, the bias (for a bias of one entry too). -/
theorem bias_apply {n Q : ℕ} (h1 : (⟨1, ![Q]⟩ : Shape).BroadcastsInDim ⟨2, ![1, Q]⟩ (![1] : Fin 1 → Fin 2))
    (h2 : (⟨2, ![1, Q]⟩ : Shape).BroadcastsInDim ⟨2, ![n, Q]⟩ (![0, 1] : Fin 2 → Fin 2))
    (b : FVec Ideal ⟨1, ![Q]⟩ .f32) (e : Fin n) (j : Fin Q) :
    broadcastInDim ⟨2, ![n, Q]⟩ ![0, 1] h2 (broadcastInDim ⟨2, ![1, Q]⟩ ![1] h1 b) (ix2 e j) = b (ix1 j) := by
  refine (broadcastInDim_apply _ h2 _ _ (ix2 (0 : Fin 1) j) fun a => ?_).trans
    (broadcastInDim_apply _ h1 b _ (ix1 j) fun a => ?_)
  · match a with
    | ⟨0, _⟩ => rfl
    | ⟨1, _⟩ =>
      show j.val = if Q = 1 then 0 else j.val
      split
      · have := j.isLt; omega
      · rfl
  · match a with
    | ⟨0, _⟩ =>
      show j.val = if Q = 1 then 0 else j.val
      split
      · have := j.isLt; omega
      · rfl

/-- The affine map at `(e, j)`: row `e` of `x` against column `j` of `W`, plus the bias's entry `j`. -/
theorem affine_apply {n P Q : ℕ} (d : DotDims ⟨2, ![n, P]⟩ ⟨2, ![P, Q]⟩ ⟨2, ![n, Q]⟩)
    (hlc : d.lhsContracting = [1]) (hrc : d.rhsContracting = [0]) (hln : d.lhsNonContracting = [0])
    (hrn : d.rhsNonContracting = [1]) (hlb : d.lhsBatch = []) (hrb : d.rhsBatch = [])
    (h1 : (⟨1, ![Q]⟩ : Shape).BroadcastsInDim ⟨2, ![1, Q]⟩ (![1] : Fin 1 → Fin 2))
    (h2 : (⟨2, ![1, Q]⟩ : Shape).BroadcastsInDim ⟨2, ![n, Q]⟩ (![0, 1] : Fin 2 → Fin 2))
    (x : FVec Ideal ⟨2, ![n, P]⟩ .f32) (W : FVec Ideal ⟨2, ![P, Q]⟩ .f32) (b : FVec Ideal ⟨1, ![Q]⟩ .f32)
    (e : Fin n) (j : Fin Q) :
    affine d h1 h2 x W b (ix2 e j) = (∑ k : Fin P, x (ix2 e k) * W (ix2 k j)) + b (ix1 j) := by
  unfold affine
  rw [addf_apply, dot_rows d hlc hrc hln hrn hlb hrb, bias_apply]

/-- The unit over an array is the unit at each element. -/
theorem eluT_apply {s : Shape} (h0 : (⟨0, ![]⟩ : Shape).BroadcastsInDim s (![] : Fin 0 → Fin s.rank)) (Z : FVec Ideal s .f32)
    (i : s.Idx) : eluT h0 Z i = Cert.Spec.elu (Z i) :=
  elu_eq (Z i)

/-! ## The layer -/

section Layer
variable {C M O K : ℕ} (R : LayerDims C M O K)

/-- For a word that is not negative the wrapped column holds the word itself. -/
theorem wrapCol_apply (w : IVec ⟨1, ![NE]⟩ 32) (e : Fin NE) (h0 : 0 ≤ (w (ix1 e)).toInt) :
    wrapCol R w (ix2 e 0) = w (ix1 e) := by
  unfold wrapCol
  rw [bcol_apply]
  exact wrap_eq (w (ix1 e)) _ _ rfl h0

/-- The gathered row of edge `e` is the feature row of the node its index word names. -/
theorem gatherRows_apply (X : FVec Ideal ⟨2, ![NN, C]⟩ .f32) (w : IVec ⟨1, ![NE]⟩ 32) (e : Fin NE) (k : Fin C)
    (h0 : 0 ≤ (w (ix1 e)).toInt) :
    gatherRows R X w (ix2 e k) = X (ix2 (nodeOf (w (ix1 e))) k) := by
  unfold gatherRows
  rw [Cert.LibScatterGatherRows.gather_rows_ideal R.g R.g_off R.g_coll R.g_ob R.g_sim R.g_ivd X (wrapCol R w) e k (by decide)]
  refine congrArg X (funext fun a => Fin.ext ?_)
  match a with
  | ⟨0, _⟩ =>
    show min (wrapCol R w (ix2 e 0)).toInt.toNat (NN - 1) = min (w (ix1 e)).toInt.toNat 99999
    rw [wrapCol_apply R w e h0]
    rfl
  | ⟨1, _⟩ => rfl

/-- ONE LAYER OF THE REFERENCE IS THE SPECIFICATION'S LAYER, for index words in range (`dst` and `src` the two rows of
    the index array `ei`). -/
theorem refLayer_eq (hK : C + C + 3 = K) (X : FVec Ideal ⟨2, ![NN, C]⟩ .f32) (EN : FVec Ideal ⟨2, ![NE, 3]⟩ .f32)
    (ei : IVec ⟨2, ![2, NE]⟩ 32) (dst src : IVec ⟨1, ![NE]⟩ 32)
    (hd : ∀ e, dst (ix1 e) = ei (ix2 1 e)) (hs : ∀ e, src (ix1 e) = ei (ix2 0 e))
    (hidx : ∀ i, 0 ≤ (ei i).toInt ∧ (ei i).toInt < 100000)
    (W1 : FVec Ideal ⟨2, ![K, M]⟩ .f32) (b1 : FVec Ideal ⟨1, ![M]⟩ .f32)
    (W2 : FVec Ideal ⟨2, ![M, O]⟩ .f32) (b2 : FVec Ideal ⟨1, ![O]⟩ .f32) :
    refLayer R X EN dst src W1 b1 W2 b2 = Cert.Spec.layer hK X EN ei W1 b1 W2 b2 := by
  funext i
  obtain ⟨v, c, rfl⟩ : ∃ (v : Fin NN) (c : Fin O), i = ix2 v c := ⟨i 0, i 1, eq_ix2 i⟩
  unfold refLayer layerTail
  -- the scatter-add at node v: zero plus the sum over the edges whose dst word is v
  rw [Cert.LibScatterGatherRows.scatterAdd_rows R.sc R.sc_uw R.sc_iw R.sc_sd R.sc_ivd]
  unfold Cert.Spec.layer
  refine congrArg (zero32 + ·) ?_
  refine Finset.sum_congr (Finset.filter_congr fun e _ => ?_) fun e _ => ?_
  · rw [bcol_apply, hd]
    exact Iff.rfl
  -- the message of edge e: the second affine map of the hidden units
  show affine R.d2 R.bO1 R.bO2 _ W2 b2 (ix2 e c) = message hK X EN ei W1 b1 W2 b2 e c
  rw [affine_apply R.d2 R.d2_lc R.d2_rc R.d2_ln R.d2_rn R.d2_lb R.d2_rb]
  unfold Cert.Spec.message
  refine congrArg (· + b2 (ix1 c)) (Finset.sum_congr rfl fun j _ => ?_)
  rw [mul_comm, eluT_apply]
  refine congrArg (W2 (ix2 j c) * ·) ?_
  -- hidden unit j: the unit of the first affine map, its sum over the row split in three
  unfold Cert.Spec.hidden
  refine congrArg Cert.Spec.elu ?_
  rw [affine_apply R.d1 R.d1_lc R.d1_rc R.d1_ln R.d1_rn R.d1_lb R.d1_rb]
  refine congrArg (· + b1 (ix1 j)) ?_
  rw [sum_split3 hK]
  refine congrArg₂ (· + ·) (congrArg₂ (· + ·) (Finset.sum_congr rfl fun k _ => ?_) (Finset.sum_congr rfl fun k _ => ?_))
    (Finset.sum_congr rfl fun k _ => ?_)
  · rw [mul_comm]
    refine congrArg (W1 _ * ·) ?_
    refine (Cert.LibConcatCols.concat3_left_of _ _ _ R.cat e _ k rfl).trans ?_
    rw [gatherRows_apply R X dst e k (by rw [hd]; exact (hidx _).1), hd]
  · rw [mul_comm]
    refine congrArg (W1 _ * ·) ?_
    refine (Cert.LibConcatCols.concat3_mid_of _ _ _ R.cat e _ k rfl).trans ?_
    rw [gatherRows_apply R X src e k (by rw [hs]; exact (hidx _).1), hs]
  · rw [mul_comm]
    refine congrArg (W1 _ * ·) ?_
    exact Cert.LibConcatCols.concat3_right_of _ _ _ R.cat e _ k rfl

end Layer

end Cert.ReferenceIdeal.RefLayer

end
-- ==== Proof.RefStages.lean ====
/- The reference's results as terms of its arguments. The operations' fold over the seven pieces is read piece by piece:
   what each piece leaves in the buffers later pieces read is a term of what it found (the operations composed), a buffer
   a piece does not write keeps its contents, and the three layers' terms nest. At the ideal values. -/
import proofs.«409580_j89481348645420_1_alg».proof.Proof.RefRun
import proofs.«409580_j89481348645420_1_alg».proof.Proof.RefTerms

noncomputable section

namespace Cert.ReferenceIdeal.RefStages

open Cert.ReferenceIdeal Cert.ReferenceIdeal.Gen Cert.ReferenceIdeal.RefRun Cert.ReferenceIdeal.RefTerms
open Idealize.ShloMosaic Idealize.ShloMosaic.TcCoe Idealize.SL.Sem Idealize.ShloMosaic.StableHlo

/-! ## A buffer a piece does not write

`RefRun.opsK_keep`, with the reference un-indexed so that one rewriting pass finds it at any literal reference. -/

theorem keep0 (V : Valuation τ sig (Elt Ideal)) (r : Ref sig .tc) (h : r ∉ ops0_W) :
    after ops0 V (no_index (Proc.devRef .tc r)) = V (Proc.devRef .tc r) := ops0_keep V r h
theorem keep1 (V : Valuation τ sig (Elt Ideal)) (r : Ref sig .tc) (h : r ∉ ops1_W) :
    after ops1 V (no_index (Proc.devRef .tc r)) = V (Proc.devRef .tc r) := ops1_keep V r h
theorem keep2 (V : Valuation τ sig (Elt Ideal)) (r : Ref sig .tc) (h : r ∉ ops2_W) :
    after ops2 V (no_index (Proc.devRef .tc r)) = V (Proc.devRef .tc r) := ops2_keep V r h
theorem keep3 (V : Valuation τ sig (Elt Ideal)) (r : Ref sig .tc) (h : r ∉ ops3_W) :
    after ops3 V (no_index (Proc.devRef .tc r)) = V (Proc.devRef .tc r) := ops3_keep V r h
theorem keep4 (V : Valuation τ sig (Elt Ideal)) (r : Ref sig .tc) (h : r ∉ ops4_W) :
    after ops4 V (no_index (Proc.devRef .tc r)) = V (Proc.devRef .tc r) := ops4_keep V r h
theorem keep5 (V : Valuation τ sig (Elt Ideal)) (r : Ref sig .tc) (h : r ∉ ops5_W) :
    after ops5 V (no_index (Proc.devRef .tc r)) = V (Proc.devRef .tc r) := ops5_keep V r h
theorem keep6 (V : Valuation τ sig (Elt Ideal)) (r : Ref sig .tc) (h : r ∉ ops6_W) :
    after ops6 V (no_index (Proc.devRef .tc r)) = V (Proc.devRef .tc r) := ops6_keep V r h

/-! ## What each piece computes

From any contents `V`: the buffer a later piece reads, as the composed term of the buffers this piece found. The first
piece reads only arguments: the two rows of index words, the normalised edge features, and the first layer's two row
gathers. A layer's middle piece (concatenate … scatter-add) is `layerTail` of the two gathers before it; the pieces
between are the next layer's gathers (the `src` one is split by the window boundary: its compare and its add are in one
piece, its select, its column and the gather in the next). -/

theorem p0_v1 (V : Valuation τ sig (Elt Ideal)) :
    after ops0 V (no_index (main_v1 : DevRef τ sig)) = srcT (V (main_arg1 : DevRef τ sig)) := by
  simp only [ops0]
  after_results_simp
  all_goals (try simp only [TRef.ofBuf, TRef.toBuf, cast_eq])
  all_goals rfl

theorem p0_v3 (V : Valuation τ sig (Elt Ideal)) :
    after ops0 V (no_index (main_v3 : DevRef τ sig)) = dstT (V (main_arg1 : DevRef τ sig)) := by
  simp only [ops0]
  after_results_simp
  all_goals (try simp only [TRef.ofBuf, TRef.toBuf, cast_eq])
  all_goals rfl

theorem p0_v10 (V : Valuation τ sig (Elt Ideal)) :
    after ops0 V (no_index (main_v10 : DevRef τ sig)) = enormT (V (main_arg2 : DevRef τ sig)) := by
  simp only [ops0]
  after_results_simp
  all_goals (try simp only [TRef.ofBuf, TRef.toBuf, cast_eq])
  all_goals rfl

theorem p0_v17 (V : Valuation τ sig (Elt Ideal)) :
    after ops0 V (no_index (main_v17 : DevRef τ sig)) = gatherRows dims1 (V (main_arg0 : DevRef τ sig)) (dstT (V (main_arg1 : DevRef τ sig))) := by
  simp only [ops0]
  after_results_simp
  all_goals (try simp only [TRef.ofBuf, TRef.toBuf, cast_eq])
  all_goals rfl

theorem p0_v24 (V : Valuation τ sig (Elt Ideal)) :
    after ops0 V (no_index (main_v24 : DevRef τ sig)) = gatherRows dims1 (V (main_arg0 : DevRef τ sig)) (srcT (V (main_arg1 : DevRef τ sig))) := by
  simp only [ops0]
  after_results_simp
  all_goals (try simp only [TRef.ofBuf, TRef.toBuf, cast_eq])
  all_goals rfl

theorem p1_v37 (V : Valuation τ sig (Elt Ideal)) :
    after ops1 V (no_index (main_v37 : DevRef τ sig))
      = layerTail dims1 (V (main_v17 : DevRef τ sig)) (V (main_v24 : DevRef τ sig)) (V (main_v10 : DevRef τ sig)) (V (main_v3 : DevRef τ sig))
        (V (main_arg3 : DevRef τ sig)) (V (main_arg4 : DevRef τ sig)) (V (main_arg5 : DevRef τ sig)) (V (main_arg6 : DevRef τ sig)) := by
  simp only [ops1]
  after_results_simp
  all_goals (try simp only [TRef.ofBuf, TRef.toBuf, cast_eq])
  all_goals rfl

theorem p2_v44 (V : Valuation τ sig (Elt Ideal)) :
    after ops2 V (no_index (main_v44 : DevRef τ sig)) = gatherRows dims2 (V (main_v37 : DevRef τ sig)) (V (main_v3 : DevRef τ sig)) := by
  simp only [ops2]
  after_results_simp
  all_goals (try simp only [TRef.ofBuf, TRef.toBuf, cast_eq])
  all_goals rfl

theorem p2_v46 (V : Valuation τ sig (Elt Ideal)) :
    after ops2 V (no_index (main_v46 : DevRef τ sig))
      = cmpi .slt (V (main_v1 : DevRef τ sig)) (broadcastInDim S3200000 ![] bcast_S_S3200000 (constantI S_ 32 0#32)) := by
  simp only [ops2]
  after_results_simp
  all_goals (try simp only [TRef.ofBuf, TRef.toBuf, cast_eq])
  all_goals rfl

theorem p2_v48 (V : Valuation τ sig (Elt Ideal)) :
    after ops2 V (no_index (main_v48 : DevRef τ sig))
      = addi (V (main_v1 : DevRef τ sig)) (broadcastInDim S3200000 ![] bcast_S_S3200000 (constantI S_ 32 100000#32)) := by
  simp only [ops2]
  after_results_simp
  all_goals (try simp only [TRef.ofBuf, TRef.toBuf, cast_eq])
  all_goals rfl

theorem p3_v51 (V : Valuation τ sig (Elt Ideal)) :
    after ops3 V (no_index (main_v51 : DevRef τ sig))
      = Host.gather gather_S100000x8_S3200000x1_S3200000x8_1_0_n_n_0_1_18 (V (main_v37 : DevRef τ sig))
          (broadcastInDim S3200000x1 ![0] bcast_S3200000_S3200000x1_0
            (select (V (main_v46 : DevRef τ sig)) (V (main_v48 : DevRef τ sig)) (V (main_v1 : DevRef τ sig)))) := by
  simp only [ops3]
  after_results_simp
  all_goals (try simp only [TRef.ofBuf, TRef.toBuf, cast_eq])
  all_goals rfl

/-- The second layer's `src` gather, over the two pieces that hold it. -/
theorem p23_v51 (V : Valuation τ sig (Elt Ideal)) :
    after ops3 (after ops2 V) (no_index (main_v51 : DevRef τ sig)) = gatherRows dims2 (V (main_v37 : DevRef τ sig)) (V (main_v1 : DevRef τ sig)) := by
  simp (disch := decide) only [p3_v51, p2_v46, p2_v48, keep2]
  rfl

theorem p4_v64 (V : Valuation τ sig (Elt Ideal)) :
    after ops4 V (no_index (main_v64 : DevRef τ sig))
      = layerTail dims2 (V (main_v44 : DevRef τ sig)) (V (main_v51 : DevRef τ sig)) (V (main_v10 : DevRef τ sig)) (V (main_v3 : DevRef τ sig))
        (V (main_arg7 : DevRef τ sig)) (V (main_arg8 : DevRef τ sig)) (V (main_arg9 : DevRef τ sig)) (V (main_arg10 : DevRef τ sig)) := by
  simp only [ops4]
  after_results_simp
  all_goals (try simp only [TRef.ofBuf, TRef.toBuf, cast_eq])
  all_goals rfl

theorem p5_v71 (V : Valuation τ sig (Elt Ideal)) :
    after ops5 V (no_index (main_v71 : DevRef τ sig)) = gatherRows dims3 (V (main_v64 : DevRef τ sig)) (V (main_v3 : DevRef τ sig)) := by
  simp only [ops5]
  after_results_simp
  all_goals (try simp only [TRef.ofBuf, TRef.toBuf, cast_eq])
  all_goals rfl

theorem p5_v78 (V : Valuation τ sig (Elt Ideal)) :
    after ops5 V (no_index (main_v78 : DevRef τ sig)) = gatherRows dims3 (V (main_v64 : DevRef τ sig)) (V (main_v1 : DevRef τ sig)) := by
  simp only [ops5]
  after_results_simp
  all_goals (try simp only [TRef.ofBuf, TRef.toBuf, cast_eq])
  all_goals rfl

theorem p6_v91 (V : Valuation τ sig (Elt Ideal)) :
    after ops6 V (no_index (main_v91 : DevRef τ sig))
      = layerTail dims3 (V (main_v71 : DevRef τ sig)) (V (main_v78 : DevRef τ sig)) (V (main_v10 : DevRef τ sig)) (V (main_v3 : DevRef τ sig))
        (V (main_arg11 : DevRef τ sig)) (V (main_arg12 : DevRef τ sig)) (V (main_arg13 : DevRef τ sig)) (V (main_arg14 : DevRef τ sig)) := by
  simp only [ops6]
  after_results_simp
  all_goals (try simp only [TRef.ofBuf, TRef.toBuf, cast_eq])
  all_goals rfl

/-! ## The results

The fold over all the operations is the pieces' folds in order (`RefRun.after_ops`); each read of a buffer goes back
through the pieces that keep it to the piece that wrote it, and what is left is the layers' terms, nested. -/

/-- The normalised edge features (the reference's second result). -/
theorem v10_eq (V : Valuation τ sig (Elt Ideal)) :
    after ops V (main_v10 : DevRef τ sig) = enormT (V (main_arg2 : DevRef τ sig)) := by
  rw [after_ops]
  simp (disch := decide) only [p6_v91, p5_v71, p5_v78, p4_v64, p23_v51, p2_v44, p1_v37, p0_v1, p0_v3, p0_v10, p0_v17, p0_v24,
    keep0, keep1, keep2, keep3, keep4, keep5, keep6]

/-- The first layer's node features. -/
theorem v37_eq (V : Valuation τ sig (Elt Ideal)) :
    after ops V (main_v37 : DevRef τ sig)
      = refLayer dims1 (V (main_arg0 : DevRef τ sig)) (enormT (V (main_arg2 : DevRef τ sig))) (dstT (V (main_arg1 : DevRef τ sig))) (srcT (V (main_arg1 : DevRef τ sig)))
        (V (main_arg3 : DevRef τ sig)) (V (main_arg4 : DevRef τ sig)) (V (main_arg5 : DevRef τ sig)) (V (main_arg6 : DevRef τ sig)) := by
  rw [after_ops]
  simp (disch := decide) only [p6_v91, p5_v71, p5_v78, p4_v64, p23_v51, p2_v44, p1_v37, p0_v1, p0_v3, p0_v10, p0_v17, p0_v24,
    keep0, keep1, keep2, keep3, keep4, keep5, keep6]
  rfl

/-- The second layer's node features. -/
theorem v64_eq (V : Valuation τ sig (Elt Ideal)) :
    after ops V (main_v64 : DevRef τ sig)
      = refLayer dims2 (refLayer dims1 (V (main_arg0 : DevRef τ sig)) (enormT (V (main_arg2 : DevRef τ sig))) (dstT (V (main_arg1 : DevRef τ sig))) (srcT (V (main_arg1 : DevRef τ sig)))
        (V (main_arg3 : DevRef τ sig)) (V (main_arg4 : DevRef τ sig)) (V (main_arg5 : DevRef τ sig)) (V (main_arg6 : DevRef τ sig))) (enormT (V (main_arg2 : DevRef τ sig))) (dstT (V (main_arg1 : DevRef τ sig))) (srcT (V (main_arg1 : DevRef τ sig)))
      (V (main_arg7 : DevRef τ sig)) (V (main_arg8 : DevRef τ sig)) (V (main_arg9 : DevRef τ sig)) (V (main_arg10 : DevRef τ sig)) := by
  rw [after_ops]
  simp (disch := decide) only [p6_v91, p5_v71, p5_v78, p4_v64, p23_v51, p2_v44, p1_v37, p0_v1, p0_v3, p0_v10, p0_v17, p0_v24,
    keep0, keep1, keep2, keep3, keep4, keep5, keep6]
  rfl

/-- The third layer's node features (the reference's first result). -/
theorem v91_eq (V : Valuation τ sig (Elt Ideal)) :
    after ops V (main_v91 : DevRef τ sig)
      = refLayer dims3 (refLayer dims2 (refLayer dims1 (V (main_arg0 : DevRef τ sig)) (enormT (V (main_arg2 : DevRef τ sig))) (dstT (V (main_arg1 : DevRef τ sig))) (srcT (V (main_arg1 : DevRef τ sig)))
        (V (main_arg3 : DevRef τ sig)) (V (main_arg4 : DevRef τ sig)) (V (main_arg5 : DevRef τ sig)) (V (main_arg6 : DevRef τ sig))) (enormT (V (main_arg2 : DevRef τ sig))) (dstT (V (main_arg1 : DevRef τ sig))) (srcT (V (main_arg1 : DevRef τ sig)))
      (V (main_arg7 : DevRef τ sig)) (V (main_arg8 : DevRef τ sig)) (V (main_arg9 : DevRef τ sig)) (V (main_arg10 : DevRef τ sig))) (enormT (V (main_arg2 : DevRef τ sig))) (dstT (V (main_arg1 : DevRef τ sig))) (srcT (V (main_arg1 : DevRef τ sig)))
    (V (main_arg11 : DevRef τ sig)) (V (main_arg12 : DevRef τ sig)) (V (main_arg13 : DevRef τ sig)) (V (main_arg14 : DevRef τ sig)) := by
  rw [after_ops]
  simp (disch := decide) only [p6_v91, p5_v71, p5_v78, p4_v64, p23_v51, p2_v44, p1_v37, p0_v1, p0_v3, p0_v10, p0_v17, p0_v24,
    keep0, keep1, keep2, keep3, keep4, keep5, keep6]
  rfl

end Cert.ReferenceIdeal.RefStages

end
-- ==== Proof.RefValue.lean ====
import proofs.«409580_j89481348645420_1_alg».proof.Proof.RefLayer
import proofs.«409580_j89481348645420_1_alg».proof.Proof.RefStages

/-!
# The reference's two results are the specification's

The reference's second result is the edge features normalised: each entry divided by "the sum of the squares of its row,
from zero, plus the regulariser", the divisor being a column broadcast along the row — which is `Cert.Spec.enorm` read at
an index. Its first result is three layers nested over that array and over the two rows of the index array; each layer
is the specification's layer when every index word lies in `[0, 100000)` (`RefLayer.refLayer_eq`), so the nest is
`Cert.Spec.out`. The run of the reference's operations leaves exactly these terms in the two result buffers.
-/

open scoped BigOperators

noncomputable section

namespace Cert.ReferenceIdeal.RefValue

open Cert.ReferenceIdeal Cert.ReferenceIdeal.Gen Cert.ReferenceIdeal.RefTerms Cert.Spec
open Idealize.ShloMosaic Idealize.ShloMosaic.ValueIdx Idealize.ShloMosaic.TcCoe Idealize.ShloMosaic.StableHlo

/-! ## The index rows and the normalised edge features, at an index -/

/-- Row 1 of the index array as a vector: entry `e` of the reshaped one-row slice is the array's entry `(1, e)`. -/
theorem dstT_apply (ei : IVec S2x3200000 32) (e : Fin NE) : dstT ei (ix1 e) = ei (ix2 1 e) := by
  unfold dstT
  refine (shapeCast_apply _ _ (ix1 e) (ix2 (0 : Fin 1) e) ?_).trans
    (extractStridedSlice_apply _ ei _ (ix2 (0 : Fin 1) e) (ix2 1 e) fun a => ?_)
  · rw [Shape.rowMajor_val_two, Shape.rowMajor_val_one]
    show 0 * 3200000 + e.val = e.val
    omega
  · match a with
    | ⟨0, _⟩ => rfl
    | ⟨1, _⟩ => exact (Nat.zero_add _).symm

/-- Row 0 likewise. -/
theorem srcT_apply (ei : IVec S2x3200000 32) (e : Fin NE) : srcT ei (ix1 e) = ei (ix2 0 e) := by
  unfold srcT
  refine (shapeCast_apply _ _ (ix1 e) (ix2 (0 : Fin 1) e) ?_).trans
    (extractStridedSlice_apply _ ei _ (ix2 (0 : Fin 1) e) (ix2 0 e) fun a => ?_)
  · rw [Shape.rowMajor_val_two, Shape.rowMajor_val_one]
    show 0 * 3200000 + e.val = e.val
    omega
  · match a with
    | ⟨0, _⟩ => rfl
    | ⟨1, _⟩ => exact (Nat.zero_add _).symm

/-- Summing an `[NE, 3]` array along its rows leaves a vector of `NE` entries. -/
theorem reduces_rows : Shape.Reduces S3200000x3 [1] S3200000 := by decide

/-- THE NORMALISED EDGE FEATURES, index by index: the divisor at `(r, c)` is the column's entry `r`, which is zero plus
    the sum over the three entries of row `r` of their squares, plus the regulariser. -/
theorem enormT_eq (E : FVec Ideal S3200000x3 .f32) : enormT E = Cert.Spec.enorm E := by
  funext i
  obtain ⟨r, c, rfl⟩ : ∃ (r : Fin NE) (c : Fin 3), i = ix2 r c := ⟨i 0, i 1, eq_ix2 i⟩
  unfold enormT Cert.Spec.enorm
  rw [hostDivf_apply]
  refine congrArg (Ideal.div (E (ix2 r c))) ?_
  refine (broadcastInDim_apply _ Facts₀.bcast_S3200000x1_S3200000x3_0_1 _ _ (ix2 r (0 : Fin 1)) fun a => ?_).trans ?_
  · match a with
    | ⟨0, _⟩ => rfl
    | ⟨1, _⟩ => rfl
  rw [addf_apply]
  refine congrArg₂ (· + ·) ?_ ?_
  · refine (broadcastInDim_apply _ Facts₀.bcast_S3200000_S3200000x1_0 _ _ (ix1 r) fun a => ?_).trans ?_
    · match a with
      | ⟨0, _⟩ => rfl
    rw [hostReduceAdd_apply, Ideal.hostReduceAdd_single Facts₀.reducesTo_S3200000x3_S3200000_d1 reduces_rows]
    refine congrArg₂ (· + ·) rfl (Finset.sum_congr rfl fun k _ => ?_)
    have hl : reduces_rows.lift (ix1 r) k = ix2 r k := by
      funext a
      apply Fin.ext
      match a with
      | ⟨0, _⟩ => rfl
      | ⟨1, _⟩ => rfl
    rw [mulf_apply, hl]
    rfl
  · rfl

/-! ## The three layers nested -/

/-- THE NETWORK: the three layers' terms nested over the normalised edge features and the two index rows are the
    specification's network, for index words in range. -/
theorem refNet_eq (x : FVec Ideal S100000x4 .f32) (ei : IVec S2x3200000 32) (e : FVec Ideal S3200000x3 .f32)
    (W1a : FVec Ideal S11x4 .f32) (b1a : FVec Ideal S4 .f32) (W2a : FVec Ideal S4x8 .f32) (b2a : FVec Ideal S8 .f32)
    (W1b : FVec Ideal S19x8 .f32) (b1b : FVec Ideal S8 .f32) (W2b : FVec Ideal S8x8 .f32) (b2b : FVec Ideal S8 .f32)
    (W1c : FVec Ideal S19x4 .f32) (b1c : FVec Ideal S4 .f32) (W2c : FVec Ideal S4x1 .f32) (b2c : FVec Ideal S1 .f32)
    (hidx : ∀ i, 0 ≤ (ei i).toInt ∧ (ei i).toInt < 100000) :
    refLayer dims3
        (refLayer dims2
          (refLayer dims1 x (enormT e) (dstT ei) (srcT ei) W1a b1a W2a b2a)
          (enormT e) (dstT ei) (srcT ei) W1b b1b W2b b2b)
        (enormT e) (dstT ei) (srcT ei) W1c b1c W2c b2c
      = Cert.Spec.out x ei e W1a b1a W2a b2a W1b b1b W2b b2b W1c b1c W2c b2c := by
  have h1 := RefLayer.refLayer_eq dims1 rfl x (enormT e) ei (dstT ei) (srcT ei) (dstT_apply ei) (srcT_apply ei) hidx
    W1a b1a W2a b2a
  have h2 := RefLayer.refLayer_eq dims2 rfl (Cert.Spec.layer (C := 4) (M := 4) (O := 8) (K := 11) rfl x (enormT e) ei W1a b1a W2a b2a)
    (enormT e) ei (dstT ei) (srcT ei) (dstT_apply ei) (srcT_apply ei) hidx W1b b1b W2b b2b
  have h3 := RefLayer.refLayer_eq dims3 rfl
    (Cert.Spec.layer (C := 8) (M := 8) (O := 8) (K := 19) rfl
      (Cert.Spec.layer (C := 4) (M := 4) (O := 8) (K := 11) rfl x (enormT e) ei W1a b1a W2a b2a) (enormT e) ei W1b b1b W2b b2b)
    (enormT e) ei (dstT ei) (srcT ei) (dstT_apply ei) (srcT_apply ei) hidx W1c b1c W2c b2c
  rw [h1, h2, h3, enormT_eq]
  rfl

/-! ## The run's two results -/

/-- THE FIRST RESULT: after the reference's operations, from any contents `V` whose index words lie in `[0, 100000)`,
    the buffer of the last scatter-add holds the specification's network of the argument arrays. -/
theorem out_eq (V : Valuation τ sig (Elt Ideal))
    (hidx : ∀ i, 0 ≤ ((V (main_arg1 : DevRef τ sig) : S2x3200000.Idx → BitVec 32) i).toInt
      ∧ ((V (main_arg1 : DevRef τ sig) : S2x3200000.Idx → BitVec 32) i).toInt < 100000) :
    after RefRun.ops V (main_v91 : DevRef τ sig)
      = Cert.Spec.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) (V (main_arg13 : DevRef τ sig)) (V (main_arg14 : DevRef τ sig)) :=
  (RefStages.v91_eq V).trans
    (refNet_eq (V (main_arg0 : DevRef τ sig)) (V (main_arg1 : DevRef τ sig)) (V (main_arg2 : DevRef τ sig))
      (V (main_arg3 : DevRef τ sig)) (V (main_arg4 : DevRef τ sig)) (V (main_arg5 : DevRef τ sig))
      (V (main_arg6 : DevRef τ sig)) (V (main_arg7 : DevRef τ sig)) (V (main_arg8 : DevRef τ sig))
      (V (main_arg9 : DevRef τ sig)) (V (main_arg10 : DevRef τ sig)) (V (main_arg11 : DevRef τ sig))
      (V (main_arg12 : DevRef τ sig)) (V (main_arg13 : DevRef τ sig)) (V (main_arg14 : DevRef τ sig)) hidx)

/-- THE SECOND RESULT: the buffer of the division holds the specification's normalised edge features. -/
theorem enorm_eq (V : Valuation τ sig (Elt Ideal)) :
    after RefRun.ops V (main_v10 : DevRef τ sig) = Cert.Spec.enorm (V (main_arg2 : DevRef τ sig)) :=
  (RefStages.v10_eq V).trans (enormT_eq _)

end Cert.ReferenceIdeal.RefValue

end
-- ==== Proof.lean ====
/-
  The certificate of a three-layer edge-conditioned message-passing network on a graph of 100000 nodes and
  3200000 edges: the Pallas program (three launches of one two-layer perceptron kernel over channel-major
  edge blocks, with the row gathers and the scatter-adds around them on the host) against its jnp reference
  (edge-major arrays, one concatenated row per edge, `jax.nn.elu`, `segment_sum`).

  Read on the extended reals, both programs compute `Cert.Spec.out`: per layer, every edge `e` sends
  `W2ᵀ · elu (W1ᵀ · [x[dst e], x[src e], ê e] + b1) + b2` to node `dst e`, and a node's new features are the sum of
  what it receives; `ê` is the edge-feature array divided row by row by its squared norm plus a regulariser (the
  second result of both programs). The kernel's first affine map is three partial products added up, the
  reference's one product over the concatenated row: the same finite sum regrouped. The kernel's unit is
  `exp z - 1`, the reference's `1 · expm1 z`: one number. The kernel's layout is the transpose of the reference's
  throughout; a finite sum over the edges that end at a node does not depend on the layout.

  The two programs treat an index word outside `[0, 100000)` differently (the kernel's `take` fills, the
  reference's indexing clamps; the kernel's scatter wraps a negative word, `segment_sum` drops it), so the claim
  is stated, and holds, where every edge-index word is a node number: the precondition's added conjunct,
  decoded in `Cert.PreIdx`. Finiteness of the float inputs is never used: no step distributes a product over a
  sum.

  Modules: `Spec` (the network as a function), `PreIdx` (the index range), `KRun` (the kernel program's run with its
  result buffers named), `KRegion0/1/2` (what each launch leaves in its output array), `KLayer0/1/2` (the host
  operations around each launch: one layer), `RefOps`/`RefRun` (the reference's run), `RefValue` (its results).
-/
import proofs.«409580_j89481348645420_1_alg».proof.Defs
import proofs.«409580_j89481348645420_1_alg».proof.Proof.Gen.Kernel
import proofs.«409580_j89481348645420_1_alg».proof.Proof.Gen.Kernel.Skeleton
import proofs.«409580_j89481348645420_1_alg».proof.Proof.Gen.Kernel.Launch
import proofs.«409580_j89481348645420_1_alg».proof.Proof.Gen.Kernel.Points
import proofs.«409580_j89481348645420_1_alg».proof.Proof.Gen.Kernel.Frame
import proofs.«409580_j89481348645420_1_alg».proof.Proof.Gen.KernelIdeal
import proofs.«409580_j89481348645420_1_alg».proof.Proof.Gen.KernelIdeal.Skeleton
import proofs.«409580_j89481348645420_1_alg».proof.Proof.Gen.KernelIdeal.Launch
import proofs.«409580_j89481348645420_1_alg».proof.Proof.Gen.KernelIdeal.Points
import proofs.«409580_j89481348645420_1_alg».proof.Proof.Gen.KernelIdeal.Frame
import proofs.«409580_j89481348645420_1_alg».proof.Proof.Gen.ReferenceIdeal
import proofs.«409580_j89481348645420_1_alg».proof.Proof.Gen.Pre_finite_inputs
import proofs.«409580_j89481348645420_1_alg».proof.Proof.Spec
import proofs.«409580_j89481348645420_1_alg».proof.Proof.PreIdx
import proofs.«409580_j89481348645420_1_alg».proof.Proof.KRun
import proofs.«409580_j89481348645420_1_alg».proof.Proof.KRegion0
import proofs.«409580_j89481348645420_1_alg».proof.Proof.KRegion1
import proofs.«409580_j89481348645420_1_alg».proof.Proof.KRegion2
import proofs.«409580_j89481348645420_1_alg».proof.Proof.KShared
import proofs.«409580_j89481348645420_1_alg».proof.Proof.KLayer0
import proofs.«409580_j89481348645420_1_alg».proof.Proof.KLayer1
import proofs.«409580_j89481348645420_1_alg».proof.Proof.KLayer2
import proofs.«409580_j89481348645420_1_alg».proof.Proof.RefRun
import proofs.«409580_j89481348645420_1_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## The kernel program's first result is the network -/

/-- The three layers composed: after the last host operation the kernel program's result buffer holds
    `Cert.Spec.out` of the argument arrays, each layer's transposed array being the previous layer's output. -/
theorem kernel_out (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hidx : ∀ i, 0 ≤ ((m ((c.tc : Thread Cert.KernelIdeal.nD Cert.KernelIdeal.τ).loc Cert.KernelIdeal.main_arg1) : Cert.KernelIdeal.S2x3200000.Idx → BitVec 32) i).toInt
      ∧ ((m ((c.tc : Thread Cert.KernelIdeal.nD Cert.KernelIdeal.τ).loc Cert.KernelIdeal.main_arg1) : Cert.KernelIdeal.S2x3200000.Idx → BitVec 32) i).toInt < 100000) :
    (Cert.KernelIdeal.Gen.W16 (F := Ideal) m ρ c (Proc.devRef .tc Cert.KernelIdeal.main_v73) : Cert.KernelIdeal.S100000x1.Idx → EReal)
      = Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) := by
  funext i
  obtain ⟨n, k, rfl⟩ : ∃ (n : Fin 100000) (k : Fin 1), i = ix2 n k := ⟨i 0, i 1, eq_ix2 i⟩
  exact Cert.KernelIdeal.KLayer2.layer2 m ρ c hidx Cert.KernelIdeal.KRegion2.arr _
    (fun k n => Cert.KernelIdeal.KLayer1.layer1 m ρ c hidx Cert.KernelIdeal.KRegion1.arr _
      (fun k n => Cert.KernelIdeal.KLayer0.layer0 m ρ c hidx Cert.KernelIdeal.KRegion0.arr k n) k n) n k

/-! ## The claims -/

theorem frame_k : Cert.frame_Kernel := fun m ρ _ => Cert.Kernel.Gen.frame m ρ

theorem frame_ki : Cert.frame_KernelIdeal := fun m ρ _ => Cert.KernelIdeal.Gen.frame m ρ

/-- The reference's run ends with every buffer at the fold of its operations over the launch contents; no
    operation writes an argument. -/
theorem frame_ri : Cert.frame_ReferenceIdeal := fun m ρ _ =>
  (θ_run (Cert.ReferenceIdeal.defs (F := Ideal)) _ _).mono (fun _ h c =>
    ⟨(h c Cert.ReferenceIdeal.main_arg0).trans (Cert.ReferenceIdeal.RefRun.arg_eq_0 _),
     (h c Cert.ReferenceIdeal.main_arg1).trans (Cert.ReferenceIdeal.RefRun.arg_eq_1 _),
     (h c Cert.ReferenceIdeal.main_arg2).trans (Cert.ReferenceIdeal.RefRun.arg_eq_2 _),
     (h c Cert.ReferenceIdeal.main_arg3).trans (Cert.ReferenceIdeal.RefRun.arg_eq_3 _),
     (h c Cert.ReferenceIdeal.main_arg4).trans (Cert.ReferenceIdeal.RefRun.arg_eq_4 _),
     (h c Cert.ReferenceIdeal.main_arg5).trans (Cert.ReferenceIdeal.RefRun.arg_eq_5 _),
     (h c Cert.ReferenceIdeal.main_arg6).trans (Cert.ReferenceIdeal.RefRun.arg_eq_6 _),
     (h c Cert.ReferenceIdeal.main_arg7).trans (Cert.ReferenceIdeal.RefRun.arg_eq_7 _),
     (h c Cert.ReferenceIdeal.main_arg8).trans (Cert.ReferenceIdeal.RefRun.arg_eq_8 _),
     (h c Cert.ReferenceIdeal.main_arg9).trans (Cert.ReferenceIdeal.RefRun.arg_eq_9 _),
     (h c Cert.ReferenceIdeal.main_arg10).trans (Cert.ReferenceIdeal.RefRun.arg_eq_10 _),
     (h c Cert.ReferenceIdeal.main_arg11).trans (Cert.ReferenceIdeal.RefRun.arg_eq_11 _),
     (h c Cert.ReferenceIdeal.main_arg12).trans (Cert.ReferenceIdeal.RefRun.arg_eq_12 _),
     (h c Cert.ReferenceIdeal.main_arg13).trans (Cert.ReferenceIdeal.RefRun.arg_eq_13 _),
     (h c Cert.ReferenceIdeal.main_arg14).trans (Cert.ReferenceIdeal.RefRun.arg_eq_14 _)⟩)
    (Cert.ReferenceIdeal.RefRun.run_main (F := Ideal) m ρ)

/-- The ideal pass rewrote nothing. -/
theorem preserves : Cert.preserves_Kernel_KernelIdeal := trivial

/-- Both programs end with `Cert.Spec.out` and `Cert.Spec.enorm` of argument arrays that agree. -/
theorem algebraic : Cert.algebraic_KernelIdeal_ReferenceIdeal := by
  intro m ρ m' ρ' hpre hagree
  have hidx : ∀ (c : Dev Cert.KernelIdeal.nD) (i : Cert.KernelIdeal.S2x3200000.Idx),
      0 ≤ ((m ((c.tc : Thread Cert.KernelIdeal.nD Cert.KernelIdeal.τ).loc Cert.KernelIdeal.main_arg1) : Cert.KernelIdeal.S2x3200000.Idx → BitVec 32) i).toInt
      ∧ ((m ((c.tc : Thread Cert.KernelIdeal.nD Cert.KernelIdeal.τ).loc Cert.KernelIdeal.main_arg1) : Cert.KernelIdeal.S2x3200000.Idx → BitVec 32) i).toInt < 100000 :=
    fun c i => Cert.PreIdx.range_of_pre _ _ _ _ _ _ _ _ _ _ _ _ _ _ _ (hpre c) i
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.Spec.enorm (m ((c.tc : Thread Cert.KernelIdeal.nD Cert.KernelIdeal.τ).loc Cert.KernelIdeal.main_arg2)), ?_, ?_⟩
  · exact (θ_run (Cert.KernelIdeal.defs (F := Ideal)) _ _).mono (fun r h c =>
      ⟨(h c).1.trans (kernel_out m ρ c (hidx c)), (h c).2.1.trans (Cert.KernelIdeal.KShared.enorm_v10 m ρ c), (h c).2.2⟩)
      (Cert.KernelIdeal.KRun.run (F := Ideal) m ρ)
  · refine (θ_run (Cert.ReferenceIdeal.defs (F := Ideal)) _ _).mono (fun r h c => ?_) (Cert.ReferenceIdeal.RefRun.run_main (F := Ideal) m' ρ')
    obtain ⟨a0, a1, a2, a3, a4, a5, a6, a7, a8, a9, a10, a11, a12, a13, a14⟩ := hagree c
    have hidx' : ∀ i, 0 ≤ ((StableHlo.launchContents m' c (Proc.devRef .tc Cert.ReferenceIdeal.main_arg1) : Cert.ReferenceIdeal.S2x3200000.Idx → BitVec 32) i).toInt
        ∧ ((StableHlo.launchContents m' c (Proc.devRef .tc Cert.ReferenceIdeal.main_arg1) : Cert.ReferenceIdeal.S2x3200000.Idx → BitVec 32) i).toInt < 100000 := by
      intro i
      have := hidx c i
      rw [← a1] at this
      exact this
    refine ⟨?_, ?_, (h c Cert.ReferenceIdeal.main_arg0).trans (Cert.ReferenceIdeal.RefRun.arg_eq_0 _),
      (h c Cert.ReferenceIdeal.main_arg1).trans (Cert.ReferenceIdeal.RefRun.arg_eq_1 _),
      (h c Cert.ReferenceIdeal.main_arg2).trans (Cert.ReferenceIdeal.RefRun.arg_eq_2 _),
      (h c Cert.ReferenceIdeal.main_arg3).trans (Cert.ReferenceIdeal.RefRun.arg_eq_3 _),
      (h c Cert.ReferenceIdeal.main_arg4).trans (Cert.ReferenceIdeal.RefRun.arg_eq_4 _),
      (h c Cert.ReferenceIdeal.main_arg5).trans (Cert.ReferenceIdeal.RefRun.arg_eq_5 _),
      (h c Cert.ReferenceIdeal.main_arg6).trans (Cert.ReferenceIdeal.RefRun.arg_eq_6 _),
      (h c Cert.ReferenceIdeal.main_arg7).trans (Cert.ReferenceIdeal.RefRun.arg_eq_7 _),
      (h c Cert.ReferenceIdeal.main_arg8).trans (Cert.ReferenceIdeal.RefRun.arg_eq_8 _),
      (h c Cert.ReferenceIdeal.main_arg9).trans (Cert.ReferenceIdeal.RefRun.arg_eq_9 _),
      (h c Cert.ReferenceIdeal.main_arg10).trans (Cert.ReferenceIdeal.RefRun.arg_eq_10 _),
      (h c Cert.ReferenceIdeal.main_arg11).trans (Cert.ReferenceIdeal.RefRun.arg_eq_11 _),
      (h c Cert.ReferenceIdeal.main_arg12).trans (Cert.ReferenceIdeal.RefRun.arg_eq_12 _),
      (h c Cert.ReferenceIdeal.main_arg13).trans (Cert.ReferenceIdeal.RefRun.arg_eq_13 _),
      (h c Cert.ReferenceIdeal.main_arg14).trans (Cert.ReferenceIdeal.RefRun.arg_eq_14 _)⟩
    · show r.2.mem ((c.tc : Thread Cert.ReferenceIdeal.nD Cert.ReferenceIdeal.τ).loc Cert.ReferenceIdeal.main_v91) = Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      rw [h c Cert.ReferenceIdeal.main_v91, Cert.ReferenceIdeal.RefValue.out_eq _ hidx', ← a0, ← a1, ← a2, ← a3, ← a4, ← a5, ← a6, ← a7, ← a8, ← a9, ← a10, ← a11, ← a12, ← a13, ← a14]
    · show r.2.mem ((c.tc : Thread Cert.ReferenceIdeal.nD Cert.ReferenceIdeal.τ).loc Cert.ReferenceIdeal.main_v10) = Cert.Spec.enorm (m ((c.tc : Thread Cert.KernelIdeal.nD Cert.KernelIdeal.τ).loc Cert.KernelIdeal.main_arg2))
      rw [h c Cert.ReferenceIdeal.main_v10, Cert.ReferenceIdeal.RefValue.enorm_eq, ← a2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
